-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S400000x64 : Shape := ⟨2, ![400000, 64]⟩
abbrev S64x16 : Shape := ⟨2, ![64, 16]⟩
abbrev S2x400000 : Shape := ⟨2, ![2, 400000]⟩
abbrev S50000 : Shape := ⟨1, ![50000]⟩
abbrev S208x128 : Shape := ⟨2, ![208, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S144x128 : Shape := ⟨2, ![144, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S400000x64 : S_.BroadcastsInDim S400000x64 (![] : Fin 0 → Fin S400000x64.rank)
  reducesTo_S400000x64_S_d0_1 : S400000x64.ReducesTo [0, 1] S_
  bcast_S_S64x16 : S_.BroadcastsInDim S64x16 (![] : Fin 0 → Fin S64x16.rank)
  reducesTo_S64x16_S_d0_1 : S64x16.ReducesTo [0, 1] S_
  bcast_S_S208x128 : S_.BroadcastsInDim S208x128 (![] : Fin 0 → Fin S208x128.rank)
  reducesTo_S208x128_S_d0_1 : S208x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S144x128 : S_.BroadcastsInDim S144x128 (![] : Fin 0 → Fin S144x128.rank)
  reducesTo_S144x128_S_d0_1 : S144x128.ReducesTo [0, 1] S_
  bcast_S_S50000 : S_.BroadcastsInDim S50000 (![] : Fin 0 → Fin S50000.rank)
  reducesTo_S50000_S_d0 : S50000.ReducesTo [0] S_

variable [Facts]

def fn_part8 {F : FTy → Type} [FloatOps F] (main_arg4 : IVec S50000 32) (main_v133 : IVec S_ 1) (main_v135 : IVec S50000 1) (main_c_53 : IVec S_ 32) : IVec S_ 1 :=
  let main_v136 : IVec S50000 32 := broadcastInDim S50000 ![] bcast_S_S50000 main_c_53
  let main_v137 : IVec S50000 1 := cmpi .slt main_arg4 main_v136
  let main_v138 : IVec S50000 1 := andi main_v135 main_v137
  let main_c_54 : IVec S_ 1 := constantI S_ 1 1#1
  let main_v139 : IVec S_ 1 := (fun x v => Host.reduce IntOp.andi x v reducesTo_S50000_S_d0 h_S_) main_v138 main_c_54
  let main_v140 : IVec S_ 1 := andi main_v133 main_v139
  main_v140

def fn_part7 {F : FTy → Type} [FloatOps F] (main_arg4 : IVec S50000 32) (main_arg27 : FVec F S64 .f32) (main_arg28 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg27
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64 .f32 := Host.absf main_arg28
  let main_cst_50 : FVec F S_ .f32 := constant S_ .f32 0x7F800000#32
  let main_v130 : FVec F S64 .f32 := broadcastInDim S64 ![] bcast_S_S64 main_cst_50
  let main_v131 : IVec S64 1 := cmpf .olt main_v129 main_v130
  let main_c_51 : IVec S_ 1 := constantI S_ 1 1#1
  let main_v132 : IVec S_ 1 := (fun x v => Host.reduce IntOp.andi x v reducesTo_S64_S_d0 h_S_) main_v131 main_c_51
  let main_v133 : IVec S_ 1 := andi main_v128 main_v132
  let main_c_52 : IVec S_ 32 := constantI S_ 32 0#32
  let main_v134 : IVec S50000 32 := broadcastInDim S50000 ![] bcast_S_S50000 main_c_52
  let main_v135 : IVec S50000 1 := cmpi .sge main_arg4 main_v134
  let main_c_53 : IVec S_ 32 := constantI S_ 32 64#32
  fn_part8 (F := F) main_arg4 main_v133 main_v135 main_c_53

def fn_part6 {F : FTy → Type} [FloatOps F] (main_arg4 : IVec S50000 32) (main_arg23 : FVec F S2x128x128 .f32) (main_arg24 : FVec F S2x128 .f32) (main_arg25 : FVec F S128x64 .f32) (main_arg26 : FVec F S64 .f32) (main_arg27 : FVec F S64 .f32) (main_arg28 : FVec F S64 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S2x128x128 .f32 := Host.absf main_arg23
  let main_cst_40 : FVec F S_ .f32 := constant S_ .f32 0x7F800000#32
  let main_v105 : FVec F S2x128x128 .f32 := broadcastInDim S2x128x128 ![] bcast_S_S2x128x128 main_cst_40
  let main_v106 : IVec S2x128x128 1 := cmpf .olt main_v104 main_v105
  let main_c_41 : IVec S_ 1 := constantI S_ 1 1#1
  let main_v107 : IVec S_ 1 := (fun x v => Host.reduce IntOp.andi x v reducesTo_S2x128x128_S_d0_1_2 h_S_) main_v106 main_c_41
  let main_v108 : IVec S_ 1 := andi main_v103 main_v107
  let main_v109 : FVec F S2x128 .f32 := Host.absf main_arg24
  let main_cst_42 : FVec F S_ .f32 := constant S_ .f32 0x7F800000#32
  let main_v110 : FVec F S2x128 .f32 := broadcastInDim S2x128 ![] bcast_S_S2x128 main_cst_42
  let main_v111 : IVec S2x128 1 := cmpf .olt main_v109 main_v110
  let main_c_43 : IVec S_ 1 := constantI S_ 1 1#1
  let main_v112 : IVec S_ 1 := (fun x v => Host.reduce IntOp.andi x v reducesTo_S2x128_S_d0_1 h_S_) main_v111 main_c_43
  let main_v113 : IVec S_ 1 := andi main_v108 main_v112
  let main_v114 : FVec F S128x64 .f32 := Host.absf main_arg25
  let main_cst_44 : FVec F S_ .f32 := constant S_ .f32 0x7F800000#32
  let main_v115 : FVec F S128x64 .f32 := broadcastInDim S128x64 ![] bcast_S_S128x64 main_cst_44
  let main_v116 : IVec S128x64 1 := cmpf .olt main_v114 main_v115
  let main_c_45 : IVec S_ 1 := constantI S_ 1 1#1
  let main_v117 : IVec S_ 1 := (fun x v => Host.reduce IntOp.andi x v reducesTo_S128x64_S_d0_1 h_S_) main_v116 main_c_45
  let main_v118 : IVec S_ 1 := andi main_v113 main_v117
  let main_v119 : FVec F S64 .f32 := Host.absf main_arg26
  fn_part7 (F := F) main_arg4 main_arg27 main_arg28 main_v118 main_v119

def fn_part5 {F : FTy → Type} [FloatOps F] (main_arg4 : IVec S50000 32) (main_arg20 : FVec F S64 .f32) (main_arg21 : FVec F S144x128 .f32) (main_arg22 : FVec F S128 .f32) (main_arg23 : FVec F S2x128x128 .f32) (main_arg24 : FVec F S2x128 .f32) (main_arg25 : FVec F S128x64 .f32) (main_arg26 : FVec F S64 .f32) (main_arg27 : FVec F S64 .f32) (main_arg28 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S144x128 .f32 := Host.absf main_arg21
  let main_cst_36 : FVec F S_ .f32 := constant S_ .f32 0x7F800000#32
  let main_v95 : FVec F S144x128 .f32 := broadcastInDim S144x128 ![] bcast_S_S144x128 main_cst_36
  let main_v96 : IVec S144x128 1 := cmpf .olt main_v94 main_v95
  let main_c_37 : IVec S_ 1 := constantI S_ 1 1#1
  let main_v97 : IVec S_ 1 := (fun x v => Host.reduce IntOp.andi x v reducesTo_S144x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg4 main_arg23 main_arg24 main_arg25 main_arg26 main_arg27 main_arg28 main_v98 main_v101 main_c_39

def fn_part4 {F : FTy → Type} [FloatOps F] (main_arg4 : IVec S50000 32) (main_arg16 : FVec F S2x128 .f32) (main_arg17 : FVec F S128x64 .f32) (main_arg18 : FVec F S64 .f32) (main_arg19 : FVec F S64 .f32) (main_arg20 : FVec F S64 .f32) (main_arg21 : FVec F S144x128 .f32) (main_arg22 : FVec F S128 .f32) (main_arg23 : FVec F S2x128x128 .f32) (main_arg24 : FVec F S2x128 .f32) (main_arg25 : FVec F S128x64 .f32) (main_arg26 : FVec F S64 .f32) (main_arg27 : FVec F S64 .f32) (main_arg28 : FVec F S64 .f32) (main_v63 : IVec S_ 1) (main_v67 : IVec S_ 1) : IVec S_ 1 :=
  let main_v68 : IVec S_ 1 := andi main_v63 main_v67
  let main_v69 : FVec F S2x128 .f32 := Host.absf main_arg16
  let main_cst_26 : FVec F S_ .f32 := constant S_ .f32 0x7F800000#32
  let main_v70 : FVec F S2x128 .f32 := broadcastInDim S2x128 ![] bcast_S_S2x128 main_cst_26
  let main_v71 : IVec S2x128 1 := cmpf .olt main_v69 main_v70
  let main_c_27 : IVec S_ 1 := constantI S_ 1 1#1
  let main_v72 : IVec S_ 1 := (fun x v => Host.reduce IntOp.andi x v reducesTo_S2x128_S_d0_1 h_S_) main_v71 main_c_27
  let main_v73 : IVec S_ 1 := andi main_v68 main_v72
  let main_v74 : FVec F S128x64 .f32 := Host.absf main_arg17
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg4 main_arg20 main_arg21 main_arg22 main_arg23 main_arg24 main_arg25 main_arg26 main_arg27 main_arg28 main_v83 main_v84 main_cst_32

def fn_part3 {F : FTy → Type} [FloatOps F] (main_arg4 : IVec S50000 32) (main_arg13 : FVec F S208x128 .f32) (main_arg14 : FVec F S128 .f32) (main_arg15 : FVec F S2x128x128 .f32) (main_arg16 : FVec F S2x128 .f32) (main_arg17 : FVec F S128x64 .f32) (main_arg18 : FVec F S64 .f32) (main_arg19 : FVec F S64 .f32) (main_arg20 : FVec F S64 .f32) (main_arg21 : FVec F S144x128 .f32) (main_arg22 : FVec F S128 .f32) (main_arg23 : FVec F S2x128x128 .f32) (main_arg24 : FVec F S2x128 .f32) (main_arg25 : FVec F S128x64 .f32) (main_arg26 : FVec F S64 .f32) (main_arg27 : FVec F S64 .f32) (main_arg28 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S208x128 .f32 := Host.absf main_arg13
  let main_cst_20 : FVec F S_ .f32 := constant S_ .f32 0x7F800000#32
  let main_v55 : FVec F S208x128 .f32 := broadcastInDim S208x128 ![] bcast_S_S208x128 main_cst_20
  let main_v56 : IVec S208x128 1 := cmpf .olt main_v54 main_v55
  let main_c_21 : IVec S_ 1 := constantI S_ 1 1#1
  let main_v57 : IVec S_ 1 := (fun x v => Host.reduce IntOp.andi x v reducesTo_S208x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S2x128x128 .f32 := Host.absf main_arg15
  let main_cst_24 : FVec F S_ .f32 := constant S_ .f32 0x7F800000#32
  let main_v65 : FVec F S2x128x128 .f32 := broadcastInDim S2x128x128 ![] bcast_S_S2x128x128 main_cst_24
  let main_v66 : IVec S2x128x128 1 := cmpf .olt main_v64 main_v65
  let main_c_25 : IVec S_ 1 := constantI S_ 1 1#1
  let main_v67 : IVec S_ 1 := (fun x v => Host.reduce IntOp.andi x v reducesTo_S2x128x128_S_d0_1_2 h_S_) main_v66 main_c_25
  fn_part4 (F := F) main_arg4 main_arg16 main_arg17 main_arg18 main_arg19 main_arg20 main_arg21 main_arg22 main_arg23 main_arg24 main_arg25 main_arg26 main_arg27 main_arg28 main_v63 main_v67

def fn_part2 {F : FTy → Type} [FloatOps F] (main_arg4 : IVec S50000 32) (main_arg9 : FVec F S128x64 .f32) (main_arg10 : FVec F S64 .f32) (main_arg11 : FVec F S64 .f32) (main_arg12 : FVec F S64 .f32) (main_arg13 : FVec F S208x128 .f32) (main_arg14 : FVec F S128 .f32) (main_arg15 : FVec F S2x128x128 .f32) (main_arg16 : FVec F S2x128 .f32) (main_arg17 : FVec F S128x64 .f32) (main_arg18 : FVec F S64 .f32) (main_arg19 : FVec F S64 .f32) (main_arg20 : FVec F S64 .f32) (main_arg21 : FVec F S144x128 .f32) (main_arg22 : FVec F S128 .f32) (main_arg23 : FVec F S2x128x128 .f32) (main_arg24 : FVec F S2x128 .f32) (main_arg25 : FVec F S128x64 .f32) (main_arg26 : FVec F S64 .f32) (main_arg27 : FVec F S64 .f32) (main_arg28 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg4 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : IVec S50000 32) (main_arg6 : FVec F S128 .f32) (main_arg7 : FVec F S2x128x128 .f32) (main_arg8 : FVec F S2x128 .f32) (main_arg9 : FVec F S128x64 .f32) (main_arg10 : FVec F S64 .f32) (main_arg11 : FVec F S64 .f32) (main_arg12 : FVec F S64 .f32) (main_arg13 : FVec F S208x128 .f32) (main_arg14 : FVec F S128 .f32) (main_arg15 : FVec F S2x128x128 .f32) (main_arg16 : FVec F S2x128 .f32) (main_arg17 : FVec F S128x64 .f32) (main_arg18 : FVec F S64 .f32) (main_arg19 : FVec F S64 .f32) (main_arg20 : FVec F S64 .f32) (main_arg21 : FVec F S144x128 .f32) (main_arg22 : FVec F S128 .f32) (main_arg23 : FVec F S2x128x128 .f32) (main_arg24 : FVec F S2x128 .f32) (main_arg25 : FVec F S128x64 .f32) (main_arg26 : FVec F S64 .f32) (main_arg27 : FVec F S64 .f32) (main_arg28 : FVec F S64 .f32) (main_v13 : IVec S_ 1) (main_v16 : IVec S208x128 1) : IVec S_ 1 :=
  let main_c_5 : IVec S_ 1 := constantI S_ 1 1#1
  let main_v17 : IVec S_ 1 := (fun x v => Host.reduce IntOp.andi x v reducesTo_S208x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S2x128x128 .f32 := Host.absf main_arg7
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg4 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S50000x64 .f32) (main_arg1 : FVec F S400000x64 .f32) (main_arg2 : FVec F S64x16 .f32) (main_arg3 : IVec S2x400000 32) (main_arg4 : IVec S50000 32) (main_arg5 : FVec F S208x128 .f32) (main_arg6 : FVec F S128 .f32) (main_arg7 : FVec F S2x128x128 .f32) (main_arg8 : FVec F S2x128 .f32) (main_arg9 : FVec F S128x64 .f32) (main_arg10 : FVec F S64 .f32) (main_arg11 : FVec F S64 .f32) (main_arg12 : FVec F S64 .f32) (main_arg13 : FVec F S208x128 .f32) (main_arg14 : FVec F S128 .f32) (main_arg15 : FVec F S2x128x128 .f32) (main_arg16 : FVec F S2x128 .f32) (main_arg17 : FVec F S128x64 .f32) (main_arg18 : FVec F S64 .f32) (main_arg19 : FVec F S64 .f32) (main_arg20 : FVec F S64 .f32) (main_arg21 : FVec F S144x128 .f32) (main_arg22 : FVec F S128 .f32) (main_arg23 : FVec F S2x128x128 .f32) (main_arg24 : FVec F S2x128 .f32) (main_arg25 : FVec F S128x64 .f32) (main_arg26 : FVec F S64 .f32) (main_arg27 : FVec F S64 .f32) (main_arg28 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S400000x64 .f32 := Host.absf main_arg1
  let main_cst_0 : FVec F S_ .f32 := constant S_ .f32 0x7F800000#32
  let main_v5 : FVec F S400000x64 .f32 := broadcastInDim S400000x64 ![] bcast_S_S400000x64 main_cst_0
  let main_v6 : IVec S400000x64 1 := cmpf .olt main_v4 main_v5
  let main_c_1 : IVec S_ 1 := constantI S_ 1 1#1
  let main_v7 : IVec S_ 1 := (fun x v => Host.reduce IntOp.andi x v reducesTo_S400000x64_S_d0_1 h_S_) main_v6 main_c_1
  let main_v8 : IVec S_ 1 := andi main_v3 main_v7
  let main_v9 : FVec F S64x16 .f32 := Host.absf main_arg2
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S208x128 .f32 := Host.absf main_arg5
  let main_cst_4 : FVec F S_ .f32 := constant S_ .f32 0x7F800000#32
  let main_v15 : FVec F S208x128 .f32 := broadcastInDim S208x128 ![] bcast_S_S208x128 main_cst_4
  let main_v16 : IVec S208x128 1 := cmpf .olt main_v14 main_v15
  fn_part1 (F := F) main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S50000x64 : Shape := ⟨2, ![50000, 64]⟩
abbrev S400000x64 : Shape := ⟨2, ![400000, 64]⟩
abbrev S64x16 : Shape := ⟨2, ![64, 16]⟩
abbrev S2x400000 : Shape := ⟨2, ![2, 400000]⟩
abbrev S50000 : Shape := ⟨1, ![50000]⟩
abbrev S208x128 : Shape := ⟨2, ![208, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S144x128 : Shape := ⟨2, ![144, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S50000x1 : Shape := ⟨2, ![50000, 1]⟩
abbrev S5000x64 : Shape := ⟨2, ![5000, 64]⟩
abbrev S5000x1 : Shape := ⟨2, ![5000, 1]⟩
abbrev S5000x16 : Shape := ⟨2, ![5000, 16]⟩
abbrev S64x128 : Shape := ⟨2, ![64, 128]⟩
abbrev S5000x128 : Shape := ⟨2, ![5000, 128]⟩
abbrev S1x128 : Shape := ⟨2, ![1, 128]⟩
abbrev S16x128 : Shape := ⟨2, ![16, 128]⟩
abbrev S1x128x128 : Shape := ⟨3, ![1, 128, 128]⟩
abbrev S128x128 : Shape := ⟨2, ![128, 128]⟩
abbrev S1x64 : Shape := ⟨2, ![1, 64]⟩
abbrev S5000 : Shape := ⟨1, ![5000]⟩

abbrev nBuf : Space → Nat
  | .hbm => 68
  | .vmem => 44
  | .smem => 0
  | _ => 0

abbrev bufTy : (tb : Table) → Fin (tcTables nBuf tb) → BufTy
  | .hbm, ⟨0, _⟩ => ⟨S50000x64, .f32⟩
  | .hbm, ⟨1, _⟩ => ⟨S400000x64, .f32⟩
  | .hbm, ⟨2, _⟩ => ⟨S64x16, .f32⟩
  | .hbm, ⟨3, _⟩ => ⟨S2x400000, .i32⟩
  | .hbm, ⟨4, _⟩ => ⟨S50000, .i32⟩
  | .hbm, ⟨5, _⟩ => ⟨S208x128, .f32⟩
  | .hbm, ⟨6, _⟩ => ⟨S128, .f32⟩
  | .hbm, ⟨7, _⟩ => ⟨S2x128x128, .f32⟩
  | .hbm, ⟨8, _⟩ => ⟨S2x128, .f32⟩
  | .hbm, ⟨9, _⟩ => ⟨S128x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S208x128, .f32⟩
  | .hbm, ⟨14, _⟩ => ⟨S128, .f32⟩
  | .hbm, ⟨15, _⟩ => ⟨S2x128x128, .f32⟩
  | .hbm, ⟨16, _⟩ => ⟨S2x128, .f32⟩
  | .hbm, ⟨17, _⟩ => ⟨S128x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S144x128, .f32⟩
  | .hbm, ⟨22, _⟩ => ⟨S128, .f32⟩
  | .hbm, ⟨23, _⟩ => ⟨S2x128x128, .f32⟩
  | .hbm, ⟨24, _⟩ => ⟨S2x128, .f32⟩
  | .hbm, ⟨25, _⟩ => ⟨S128x64, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S1x400000, .i32⟩
  | .hbm, ⟨30, _⟩ => ⟨S400000, .i32⟩
  | .hbm, ⟨31, _⟩ => ⟨S1x400000, .i32⟩
  | .hbm, ⟨32, _⟩ => ⟨S400000, .i32⟩
  | .hbm, ⟨33, _⟩ => ⟨S_, .i32⟩
  | .hbm, ⟨34, _⟩ => ⟨S400000, .i32⟩
  | .hbm, ⟨35, _⟩ => ⟨S400000, .i1⟩
  | .hbm, ⟨36, _⟩ => ⟨S_, .i32⟩
  | .hbm, ⟨37, _⟩ => ⟨S400000, .i32⟩
  | .hbm, ⟨38, _⟩ => ⟨S400000, .i32⟩
  | .hbm, ⟨39, _⟩ => ⟨S400000, .i32⟩
  | .hbm, ⟨40, _⟩ => ⟨S400000x1, .i32⟩
  | .hbm, ⟨41, _⟩ => ⟨S400000, .i32⟩
  | .hbm, ⟨42, _⟩ => ⟨S_, .i32⟩
  | .hbm, ⟨43, _⟩ => ⟨S400000, .i32⟩
  | .hbm, ⟨44, _⟩ => ⟨S400000, .i1⟩
  | .hbm, ⟨45, _⟩ => ⟨S_, .i32⟩
  | .hbm, ⟨46, _⟩ => ⟨S400000, .i32⟩
  | .hbm, ⟨47, _⟩ => ⟨S400000, .i32⟩
  | .hbm, ⟨48, _⟩ => ⟨S400000, .i32⟩
  | .hbm, ⟨49, _⟩ => ⟨S400000x1, .i32⟩
  | .hbm, ⟨50, _⟩ => ⟨S400000x64, .f32⟩
  | .hbm, ⟨51, _⟩ => ⟨S_, .i32⟩
  | .hbm, ⟨52, _⟩ => ⟨S400000, .i32⟩
  | .hbm, ⟨53, _⟩ => ⟨S400000, .i1⟩
  | .hbm, ⟨54, _⟩ => ⟨S_, .i32⟩
  | .hbm, ⟨55, _⟩ => ⟨S400000, .i32⟩
  | .hbm, ⟨56, _⟩ => ⟨S400000, .i32⟩
  | .hbm, ⟨57, _⟩ => ⟨S400000, .i32⟩
  | .hbm, ⟨58, _⟩ => ⟨S400000x1, .i32⟩
  | .hbm, ⟨59, _⟩ => ⟨S400000x64, .f32⟩
  | .hbm, ⟨60, _⟩ => ⟨S400000x1, .i32⟩
  | .hbm, ⟨61, _⟩ => ⟨S50000x1, .i32⟩
  | .hbm, ⟨62, _⟩ => ⟨S400000x64, .f32⟩
  | .hbm, ⟨63, _⟩ => ⟨S_, .f32⟩
  | .hbm, ⟨64, _⟩ => ⟨S50000x64, .f32⟩
  | .hbm, ⟨65, _⟩ => ⟨S400000x1, .i32⟩
  | .hbm, ⟨66, _⟩ => ⟨S50000x64, .f32⟩
  | .hbm, ⟨67, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x1, .i32⟩
  | .local _ .vmem, ⟨7, _⟩ => ⟨S5000x1, .i32⟩
  | .local _ .vmem, ⟨8, _⟩ => ⟨S64x16, .f32⟩
  | .local _ .vmem, ⟨9, _⟩ => ⟨S208x128, .f32⟩
  | .local _ .vmem, ⟨10, _⟩ => ⟨S128, .f32⟩
  | .local _ .vmem, ⟨11, _⟩ => ⟨S2x128x128, .f32⟩
  | .local _ .vmem, ⟨12, _⟩ => ⟨S2x128, .f32⟩
  | .local _ .vmem, ⟨13, _⟩ => ⟨S128x64, .f32⟩
  | .local _ .vmem, ⟨14, _⟩ => ⟨S64, .f32⟩
  | .local _ .vmem, ⟨15, _⟩ => ⟨S64, .f32⟩
  | .local _ .vmem, ⟨16, _⟩ => ⟨S64, .f32⟩
  | .local _ .vmem, ⟨17, _⟩ => ⟨S208x128, .f32⟩
  | .local _ .vmem, ⟨18, _⟩ => ⟨S128, .f32⟩
  | .local _ .vmem, ⟨19, _⟩ => ⟨S2x128x128, .f32⟩
  | .local _ .vmem, ⟨20, _⟩ => ⟨S2x128, .f32⟩
  | .local _ .vmem, ⟨21, _⟩ => ⟨S128x64, .f32⟩
  | .local _ .vmem, ⟨22, _⟩ => ⟨S64, .f32⟩
  | .local _ .vmem, ⟨23, _⟩ => ⟨S64, .f32⟩
  | .local _ .vmem, ⟨24, _⟩ => ⟨S64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x1, .i32⟩
  | .local _ .vmem, ⟨32, _⟩ => ⟨S5000x1, .i32⟩
  | .local _ .vmem, ⟨33, _⟩ => ⟨S64x16, .f32⟩
  | .local _ .vmem, ⟨34, _⟩ => ⟨S144x128, .f32⟩
  | .local _ .vmem, ⟨35, _⟩ => ⟨S128, .f32⟩
  | .local _ .vmem, ⟨36, _⟩ => ⟨S2x128x128, .f32⟩
  | .local _ .vmem, ⟨37, _⟩ => ⟨S2x128, .f32⟩
  | .local _ .vmem, ⟨38, _⟩ => ⟨S128x64, .f32⟩
  | .local _ .vmem, ⟨39, _⟩ => ⟨S64, .f32⟩
  | .local _ .vmem, ⟨40, _⟩ => ⟨S64, .f32⟩
  | .local _ .vmem, ⟨41, _⟩ => ⟨S64, .f32⟩
  | .local _ .vmem, ⟨42, _⟩ => ⟨S5000x64, .f32⟩
  | .local _ .vmem, ⟨43, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_v11 : Ref sig .tc := ⟨.hbm, 43, rfl⟩
abbrev main_v12 : Ref sig .tc := ⟨.hbm, 44, rfl⟩
abbrev main_c_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c_3 : Ref sig .tc := ⟨.hbm, 51, rfl⟩
abbrev main_v18 : Ref sig .tc := ⟨.hbm, 52, rfl⟩
abbrev main_v19 : Ref sig .tc := ⟨.hbm, 53, rfl⟩
abbrev main_c_4 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc1_stg0_0 : Ref sig .tc := ⟨.vmem, 27, rfl⟩
abbrev cc1_stg0_1 : Ref sig .tc := ⟨.vmem, 28, rfl⟩
abbrev cc1_stg1_0 : Ref sig .tc := ⟨.vmem, 29, rfl⟩
abbrev cc1_stg1_1 : Ref sig .tc := ⟨.vmem, 30, rfl⟩
abbrev cc1_stg2_0 : Ref sig .tc := ⟨.vmem, 31, rfl⟩
abbrev cc1_stg2_1 : Ref sig .tc := ⟨.vmem, 32, rfl⟩
abbrev cc1_stg3_0 : Ref sig .tc := ⟨.vmem, 33, rfl⟩
abbrev cc1_stg4_0 : Ref sig .tc := ⟨.vmem, 34, rfl⟩
abbrev cc1_stg5_0 : Ref sig .tc := ⟨.vmem, 35, rfl⟩
abbrev cc1_stg6_0 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg11_0 : Ref sig .tc := ⟨.vmem, 41, rfl⟩
abbrev cc1_stg12_0 : Ref sig .tc := ⟨.vmem, 42, rfl⟩
abbrev cc1_stg12_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem21_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem2_1 : DmaSem sig := 32
abbrev cc1_sem3_0 : DmaSem sig := 33
abbrev cc1_sem4_0 : DmaSem sig := 34
abbrev cc1_sem5_0 : DmaSem sig := 35
abbrev cc1_sem6_0 : DmaSem sig := 36
abbrev cc1_sem7_0 : DmaSem sig := 37
abbrev cc1_sem8_0 : DmaSem sig := 38
abbrev cc1_sem9_0 : DmaSem sig := 39
abbrev cc1_sem10_0 : DmaSem sig := 40
abbrev cc1_sem11_0 : DmaSem sig := 41
abbrev cc1_sem12_0 : DmaSem sig := 42
abbrev cc1_sem12_1 : DmaSem sig := 43

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S208x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S208x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S5000x64 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S144x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  shapeCasts_S400000_S400000x1 : S400000.ShapeCasts S400000x1
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S64x16_S64x16_0_0 : ∀ a, (![0, 0] : Fin 2 → Nat) a + S64x16.size a ≤ S64x16.size a
  h_S64x16 : 0 < S64x16.numel
  iota_S5000x64_d1_w32 : S5000x64.Iotas .tc 32 [1]
  broadcasts_S5000x1_S5000x64 : S5000x1.Broadcasts S5000x64
  natLt_1_32 : 1 < 32
  inb_S208x128_S208x128_0_0 : ∀ a, (![0, 0] : Fin 2 → Nat) a + S208x128.size a ≤ S208x128.size a
  h_S208x128 : 0 < S208x128.numel
  inb_S128_S128_0 : ∀ a, (![0] : Fin 1 → Nat) a + S128.size a ≤ S128.size a
  h_S128 : 0 < S128.numel
  slices_S208x128_o0_0_S64x128 : S208x128.Slices ![0, 0] S64x128
  bitsLt_bf16_f32 : FTy.bits .bf16 < FTy.bits .f32
  shapeCasts_S128_S1x128 : S128.ShapeCasts S1x128
  broadcasts_S1x128_S5000x128 : S1x128.Broadcasts S5000x128
  slices_S208x128_o64_0_S64x128 : S208x128.Slices ![64, 0] S64x128
  slices_S208x128_o128_0_S64x128 : S208x128.Slices ![128, 0] S64x128
  slices_S208x128_o192_0_S16x128 : S208x128.Slices ![192, 0] S16x128
  inb_S2x128x128_S2x128x128_0_0_0 : ∀ a, (![0, 0, 0] : Fin 3 → Nat) a + S2x128x128.size a ≤ S2x128x128.size a
  h_S2x128x128 : 0 < S2x128x128.numel
  inb_S2x128_S2x128_0_0 : ∀ a, (![0, 0] : Fin 2 → Nat) a + S2x128.size a ≤ S2x128.size a
  h_S2x128 : 0 < S2x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  slices_S2x128x128_o0_0_0_S1x128x128 : S2x128x128.Slices ![0, 0, 0] S1x128x128
  shapeCasts_S1x128x128_S128x128 : S1x128x128.ShapeCasts S128x128
  slices_S2x128_o0_0_S1x128 : S2x128.Slices ![0, 0] S1x128
  shapeCasts_S1x128_S128 : S1x128.ShapeCasts S128
  slices_S2x128x128_o1_0_0_S1x128x128 : S2x128x128.Slices ![1, 0, 0] S1x128x128
  slices_S2x128_o1_0_S1x128 : S2x128.Slices ![1, 0] S1x128
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  bcast_S_S50000x64 : S_.BroadcastsInDim S50000x64 (![] : Fin 0 → Fin S50000x64.rank)
  inb_S144x128_S144x128_0_0 : ∀ a, (![0, 0] : Fin 2 → Nat) a + S144x128.size a ≤ S144x128.size a
  h_S144x128 : 0 < S144x128.numel
  slices_S144x128_o0_0_S64x128 : S144x128.Slices ![0, 0] S64x128
  slices_S144x128_o64_0_S64x128 : S144x128.Slices ![64, 0] S64x128
  slices_S144x128_o128_0_S16x128 : S144x128.Slices ![128, 0] S16x128
  gather_S50000_S400000x1_S400000_n_0_n_n_0_1_1_wf : GatherDims.WF S50000 S400000x1 S400000 [] [0] [] [0] [] 1 ![1]
  gather_S50000x64_S400000x1_S400000x64_1_0_n_n_0_1_164_wf : GatherDims.WF S50000x64 S400000x1 S400000x64 [1] [0] [] [0] [] 1 ![1, 64]
  dot_S5000x64_S64x16_S5000x16_1_0_0_1_n_n_wf : DotDims.WF S5000x64 S64x16 S5000x16 [1] [0] [0] [1] [] []
  dot_S5000x64_S64x128_S5000x128_1_0_0_1_n_n_wf : DotDims.WF S5000x64 S64x128 S5000x128 [1] [0] [0] [1] [] []
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  scatter_S50000x64_S400000x1_S400000x64_1_0_0_1_wf : ScatterDims.WF S50000x64 S400000x1 S400000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S400000x64.size a
  hwx0_0 : ∀ i : grid0.Coords, EltTy.bits .f32 = 32 ∨ (Rect.block (s := S400000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S400000x64.size a
  hwx0_1 : ∀ i : grid0.Coords, EltTy.bits .f32 = 32 ∨ (Rect.block (s := S400000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S400000x64.size a
  hwx0_2 : ∀ i : grid0.Coords, EltTy.bits .f32 = 32 ∨ (Rect.block (s := S400000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S400000x1.size a
  hwx0_3 : ∀ i : grid0.Coords, EltTy.bits .i32 = 32 ∨ (Rect.block (s := S400000x1) S5000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S208x128.size a ≤ S208x128.size a
  hwx0_5 : ∀ i : grid0.Coords, EltTy.bits .f32 = 32 ∨ (Rect.block (s := S208x128) S208x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x128x128.size a ≤ S2x128x128.size a
  hwx0_7 : ∀ i : grid0.Coords, EltTy.bits .f32 = 32 ∨ (Rect.block (s := S2x128x128) S2x128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x128.size a ≤ S2x128.size a
  hwx0_8 : ∀ i : grid0.Coords, EltTy.bits .f32 = 32 ∨ (Rect.block (s := S2x128) S2x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S208x128.size a ≤ S208x128.size a
  hwx0_13 : ∀ i : grid0.Coords, EltTy.bits .f32 = 32 ∨ (Rect.block (s := S208x128) S208x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S2x128x128.size a ≤ S2x128x128.size a
  hwx0_15 : ∀ i : grid0.Coords, EltTy.bits .f32 = 32 ∨ (Rect.block (s := S2x128x128) S2x128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S2x128.size a ≤ S2x128.size a
  hwx0_16 : ∀ i : grid0.Coords, EltTy.bits .f32 = 32 ∨ (Rect.block (s := S2x128) S2x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x64.size a ≤ S128x64.size a
  hwx0_17 : ∀ i : grid0.Coords, EltTy.bits .f32 = 32 ∨ (Rect.block (s := S128x64) S128x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64.size a ≤ S64.size a
  hwx0_18 : ∀ i : grid0.Coords, EltTy.bits .f32 = 32 ∨ (Rect.block (s := S64) S64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64.size a ≤ S64.size a
  hwx0_19 : ∀ i : grid0.Coords, EltTy.bits .f32 = 32 ∨ (Rect.block (s := S64) S64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64.size a ≤ S64.size a
  hwx0_20 : ∀ i : grid0.Coords, EltTy.bits .f32 = 32 ∨ (Rect.block (s := S64) S64.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S5000x64.size a ≤ S400000x64.size a
  hwx0_21 : ∀ i : grid0.Coords, EltTy.bits .f32 = 32 ∨ (Rect.block (s := S400000x64) S5000x64.size (cc0_transform_21 i) (hinb0_21 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .i32 = 32 ∨ (Rect.block (s := S50000x1) S5000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S144x128.size a ≤ S144x128.size a
  hwx1_4 : ∀ i : grid1.Coords, EltTy.bits .f32 = 32 ∨ (Rect.block (s := S144x128) S144x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x128x128.size a ≤ S2x128x128.size a
  hwx1_6 : ∀ i : grid1.Coords, EltTy.bits .f32 = 32 ∨ (Rect.block (s := S2x128x128) S2x128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2x128.size a ≤ S2x128.size a
  hwx1_7 : ∀ i : grid1.Coords, EltTy.bits .f32 = 32 ∨ (Rect.block (s := S2x128) S2x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64.size a ≤ S64.size a
  hwx1_9 : ∀ i : grid1.Coords, EltTy.bits .f32 = 32 ∨ (Rect.block (s := S64) S64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64.size a ≤ S64.size a
  hwx1_11 : ∀ i : grid1.Coords, EltTy.bits .f32 = 32 ∨ (Rect.block (s := S64) S64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S50000x64.size a
  hwx1_12 : ∀ i : grid1.Coords, EltTy.bits .f32 = 32 ∨ (Rect.block (s := S50000x64) S5000x64.size (cc1_transform_12 i) (hinb1_12 i)).WholeWords (EltTy.packing .f32)

variable [Facts₀]

def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S208x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S208x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2x128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S2x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v27) S5000x64.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg21) S144x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg22) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg23) S2x128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg24) S2x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg25) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg26) S64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg27) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg28) S64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v31) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S50000x64 : Shape := ⟨2, ![50000, 64]⟩
abbrev S400000x64 : Shape := ⟨2, ![400000, 64]⟩
abbrev S64x16 : Shape := ⟨2, ![64, 16]⟩
abbrev S2x400000 : Shape := ⟨2, ![2, 400000]⟩
abbrev S50000 : Shape := ⟨1, ![50000]⟩
abbrev S208x128 : Shape := ⟨2, ![208, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S144x128 : Shape := ⟨2, ![144, 128]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S400000x16 : Shape := ⟨2, ![400000, 16]⟩
abbrev S400000x208 : Shape := ⟨2, ![400000, 208]⟩
abbrev S400000x128 : Shape := ⟨2, ![400000, 128]⟩
abbrev S1x128 : Shape := ⟨2, ![1, 128]⟩
abbrev S1x128x128 : Shape := ⟨3, ![1, 128, 128]⟩
abbrev S128x128 : Shape := ⟨2, ![128, 128]⟩
abbrev S1x64 : Shape := ⟨2, ![1, 64]⟩
abbrev S50000x1 : Shape := ⟨2, ![50000, 1]⟩
abbrev S50000x16 : Shape := ⟨2, ![50000, 16]⟩
abbrev S50000x144 : Shape := ⟨2, ![50000, 144]⟩
abbrev S50000x128 : Shape := ⟨2, ![50000, 128]⟩

abbrev nBuf : Space → Nat
  | .hbm => 279
  | .vmem => 0
  | .smem => 0
  | _ => 0

abbrev hbmTy0_0 (i : Nat) : BufTy := match i % 128 with
  | 0 => ⟨S50000x64, .f32⟩
  | 1 => ⟨S400000x64, .f32⟩
  | 2 => ⟨S64x16, .f32⟩
  | 3 => ⟨S2x400000, .i32⟩
  | 4 => ⟨S50000, .i32⟩
  | 5 => ⟨S208x128, .f32⟩
  | 6 => ⟨S128, .f32⟩
  | 7 => ⟨S2x128x128, .f32⟩
  | 8 => ⟨S2x128, .f32⟩
  | 9 => ⟨S128x64, .f32⟩
  | 10 => ⟨S64, .f32⟩
  | 11 => ⟨S64, .f32⟩
  | 12 => ⟨S64, .f32⟩
  | 13 => ⟨S208x128, .f32⟩
  | 14 => ⟨S128, .f32⟩
  | 15 => ⟨S2x128x128, .f32⟩
  | 16 => ⟨S2x128, .f32⟩
  | 17 => ⟨S128x64, .f32⟩
  | 18 => ⟨S64, .f32⟩
  | 19 => ⟨S64, .f32⟩
  | 20 => ⟨S64, .f32⟩
  | 21 => ⟨S144x128, .f32⟩
  | 22 => ⟨S128, .f32⟩
  | 23 => ⟨S2x128x128, .f32⟩
  | 24 => ⟨S2x128, .f32⟩
  | 25 => ⟨S128x64, .f32⟩
  | 26 => ⟨S64, .f32⟩
  | 27 => ⟨S64, .f32⟩
  | 28 => ⟨S64, .f32⟩
  | 29 => ⟨S1x400000, .i32⟩
  | 30 => ⟨S400000, .i32⟩
  | 31 => ⟨S1x400000, .i32⟩
  | 32 => ⟨S400000, .i32⟩
  | 33 => ⟨S_, .i32⟩
  | 34 => ⟨S400000, .i32⟩
  | 35 => ⟨S400000, .i1⟩
  | 36 => ⟨S_, .i32⟩
  | 37 => ⟨S400000, .i32⟩
  | 38 => ⟨S400000, .i32⟩
  | 39 => ⟨S400000, .i32⟩
  | 40 => ⟨S400000x1, .i32⟩
  | 41 => ⟨S400000, .i32⟩
  | 42 => ⟨S_, .i32⟩
  | 43 => ⟨S400000, .i32⟩
  | 44 => ⟨S400000, .i1⟩
  | 45 => ⟨S_, .i32⟩
  | 46 => ⟨S400000, .i32⟩
  | 47 => ⟨S400000, .i32⟩
  | 48 => ⟨S400000, .i32⟩
  | 49 => ⟨S400000x1, .i32⟩
  | 50 => ⟨S400000x64, .f32⟩
  | 51 => ⟨S_, .i32⟩
  | 52 => ⟨S400000, .i32⟩
  | 53 => ⟨S400000, .i1⟩
  | 54 => ⟨S_, .i32⟩
  | 55 => ⟨S400000, .i32⟩
  | 56 => ⟨S400000, .i32⟩
  | 57 => ⟨S400000, .i32⟩
  | 58 => ⟨S400000x1, .i32⟩
  | 59 => ⟨S400000x64, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x16, .f32⟩
  | 69 => ⟨S400000x208, .f32⟩
  | 70 => ⟨S400000x128, .f32⟩
  | 71 => ⟨S1x128, .f32⟩
  | 72 => ⟨S400000x128, .f32⟩
  | 73 => ⟨S400000x128, .f32⟩
  | 74 => ⟨S_, .f32⟩
  | 75 => ⟨S400000x128, .f32⟩
  | 76 => ⟨S400000x128, .f32⟩
  | 77 => ⟨S1x128x128, .f32⟩
  | 78 => ⟨S128x128, .f32⟩
  | 79 => ⟨S400000x128, .f32⟩
  | 80 => ⟨S1x128, .f32⟩
  | 81 => ⟨S128, .f32⟩
  | 82 => ⟨S1x128, .f32⟩
  | 83 => ⟨S400000x128, .f32⟩
  | 84 => ⟨S400000x128, .f32⟩
  | 85 => ⟨S_, .f32⟩
  | 86 => ⟨S400000x128, .f32⟩
  | 87 => ⟨S400000x128, .f32⟩
  | 88 => ⟨S1x128x128, .f32⟩
  | 89 => ⟨S128x128, .f32⟩
  | 90 => ⟨S400000x128, .f32⟩
  | 91 => ⟨S1x128, .f32⟩
  | 92 => ⟨S128, .f32⟩
  | 93 => ⟨S1x128, .f32⟩
  | 94 => ⟨S400000x128, .f32⟩
  | 95 => ⟨S400000x128, .f32⟩
  | 96 => ⟨S_, .f32⟩
  | 97 => ⟨S400000x128, .f32⟩
  | 98 => ⟨S400000x128, .f32⟩
  | 99 => ⟨S400000x64, .f32⟩
  | 100 => ⟨S1x64, .f32⟩
  | 101 => ⟨S400000x64, .f32⟩
  | 102 => ⟨S400000x64, .f32⟩
  | 103 => ⟨S_, .f32⟩
  | 104 => ⟨S400000, .f32⟩
  | 105 => ⟨S400000x1, .f32⟩
  | 106 => ⟨S_, .f32⟩
  | 107 => ⟨S400000x1, .f32⟩
  | 108 => ⟨S400000x1, .f32⟩
  | 109 => ⟨S400000x64, .f32⟩
  | 110 => ⟨S400000x64, .f32⟩
  | 111 => ⟨S400000x64, .f32⟩
  | 112 => ⟨S_, .f32⟩
  | 113 => ⟨S400000, .f32⟩
  | 114 => ⟨S400000x1, .f32⟩
  | 115 => ⟨S_, .f32⟩
  | 116 => ⟨S400000x1, .f32⟩
  | 117 => ⟨S400000x1, .f32⟩
  | 118 => ⟨S400000x64, .f32⟩
  | 119 => ⟨S400000x64, .f32⟩
  | 120 => ⟨S_, .f32⟩
  | 121 => ⟨S400000x1, .f32⟩
  | 122 => ⟨S400000x1, .f32⟩
  | 123 => ⟨S400000x1, .f32⟩
  | 124 => ⟨S400000x64, .f32⟩
  | 125 => ⟨S400000x64, .f32⟩
  | 126 => ⟨S1x64, .f32⟩
  | 127 => ⟨S400000x64, .f32⟩
  | _ => ⟨S50000x64, .f32⟩

abbrev hbmTy0_1 (i : Nat) : BufTy := match i % 128 with
  | 0 => ⟨S400000x64, .f32⟩
  | 1 => ⟨S1x64, .f32⟩
  | 2 => ⟨S400000x64, .f32⟩
  | 3 => ⟨S400000x64, .f32⟩
  | 4 => ⟨S400000x128, .f32⟩
  | 5 => ⟨S1x128, .f32⟩
  | 6 => ⟨S400000x128, .f32⟩
  | 7 => ⟨S400000x128, .f32⟩
  | 8 => ⟨S_, .f32⟩
  | 9 => ⟨S400000x128, .f32⟩
  | 10 => ⟨S400000x128, .f32⟩
  | 11 => ⟨S1x128x128, .f32⟩
  | 12 => ⟨S128x128, .f32⟩
  | 13 => ⟨S400000x128, .f32⟩
  | 14 => ⟨S1x128, .f32⟩
  | 15 => ⟨S128, .f32⟩
  | 16 => ⟨S1x128, .f32⟩
  | 17 => ⟨S400000x128, .f32⟩
  | 18 => ⟨S400000x128, .f32⟩
  | 19 => ⟨S_, .f32⟩
  | 20 => ⟨S400000x128, .f32⟩
  | 21 => ⟨S400000x128, .f32⟩
  | 22 => ⟨S1x128x128, .f32⟩
  | 23 => ⟨S128x128, .f32⟩
  | 24 => ⟨S400000x128, .f32⟩
  | 25 => ⟨S1x128, .f32⟩
  | 26 => ⟨S128, .f32⟩
  | 27 => ⟨S1x128, .f32⟩
  | 28 => ⟨S400000x128, .f32⟩
  | 29 => ⟨S400000x128, .f32⟩
  | 30 => ⟨S_, .f32⟩
  | 31 => ⟨S400000x128, .f32⟩
  | 32 => ⟨S400000x128, .f32⟩
  | 33 => ⟨S400000x64, .f32⟩
  | 34 => ⟨S1x64, .f32⟩
  | 35 => ⟨S400000x64, .f32⟩
  | 36 => ⟨S400000x64, .f32⟩
  | 37 => ⟨S_, .f32⟩
  | 38 => ⟨S400000, .f32⟩
  | 39 => ⟨S400000x1, .f32⟩
  | 40 => ⟨S_, .f32⟩
  | 41 => ⟨S400000x1, .f32⟩
  | 42 => ⟨S400000x1, .f32⟩
  | 43 => ⟨S400000x64, .f32⟩
  | 44 => ⟨S400000x64, .f32⟩
  | 45 => ⟨S400000x64, .f32⟩
  | 46 => ⟨S_, .f32⟩
  | 47 => ⟨S400000, .f32⟩
  | 48 => ⟨S400000x1, .f32⟩
  | 49 => ⟨S_, .f32⟩
  | 50 => ⟨S400000x1, .f32⟩
  | 51 => ⟨S400000x1, .f32⟩
  | 52 => ⟨S400000x64, .f32⟩
  | 53 => ⟨S400000x64, .f32⟩
  | 54 => ⟨S_, .f32⟩
  | 55 => ⟨S400000x1, .f32⟩
  | 56 => ⟨S400000x1, .f32⟩
  | 57 => ⟨S400000x1, .f32⟩
  | 58 => ⟨S400000x64, .f32⟩
  | 59 => ⟨S400000x64, .f32⟩
  | 60 => ⟨S1x64, .f32⟩
  | 61 => ⟨S400000x64, .f32⟩
  | 62 => ⟨S400000x64, .f32⟩
  | 63 => ⟨S1x64, .f32⟩
  | 64 => ⟨S400000x64, .f32⟩
  | 65 => ⟨S400000x64, .f32⟩
  | 66 => ⟨S400000x64, .f32⟩
  | 67 => ⟨S400000x64, .f32⟩
  | 68 => ⟨S_, .f32⟩
  | 69 => ⟨S400000x64, .f32⟩
  | 70 => ⟨S400000x64, .f32⟩
  | 71 => ⟨S_, .f32⟩
  | 72 => ⟨S400000x64, .f32⟩
  | 73 => ⟨S400000x64, .f32⟩
  | 74 => ⟨S400000x64, .f32⟩
  | 75 => ⟨S_, .f32⟩
  | 76 => ⟨S50000x64, .f32⟩
  | 77 => ⟨S400000x1, .i32⟩
  | 78 => ⟨S50000x64, .f32⟩
  | 79 => ⟨S_, .i32⟩
  | 80 => ⟨S50000, .i32⟩
  | 81 => ⟨S50000, .i1⟩
  | 82 => ⟨S_, .i32⟩
  | 83 => ⟨S50000, .i32⟩
  | 84 => ⟨S50000, .i32⟩
  | 85 => ⟨S50000, .i32⟩
  | 86 => ⟨S50000x1, .i32⟩
  | 87 => ⟨S50000x16, .f32⟩
  | 88 => ⟨S50000x144, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S1x128, .f32⟩
  | 100 => ⟨S128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S1x128, .f32⟩
  | 111 => ⟨S128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x64, .f32⟩
  | 119 => ⟨S1x64, .f32⟩
  | 120 => ⟨S50000x64, .f32⟩
  | 121 => ⟨S50000x64, .f32⟩
  | 122 => ⟨S_, .f32⟩
  | 123 => ⟨S50000, .f32⟩
  | 124 => ⟨S50000x1, .f32⟩
  | 125 => ⟨S_, .f32⟩
  | 126 => ⟨S50000x1, .f32⟩
  | 127 => ⟨S50000x1, .f32⟩
  | _ => ⟨S50000x64, .f32⟩

abbrev hbmTy0_2 (i : Nat) : BufTy := match i % 128 with
  | 0 => ⟨S50000x64, .f32⟩
  | 1 => ⟨S50000x64, .f32⟩
  | 2 => ⟨S50000x64, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S50000x64, .f32⟩
  | 10 => ⟨S50000x64, .f32⟩
  | 11 => ⟨S_, .f32⟩
  | 12 => ⟨S50000x1, .f32⟩
  | 13 => ⟨S50000x1, .f32⟩
  | 14 => ⟨S50000x1, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c_1 : Ref sig .tc := ⟨.hbm, 42, rfl⟩
abbrev main_v11 : Ref sig .tc := ⟨.hbm, 43, rfl⟩
abbrev main_v12 : Ref sig .tc := ⟨.hbm, 44, rfl⟩
abbrev main_c_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_c_3 : Ref sig .tc := ⟨.hbm, 51, rfl⟩
abbrev main_v18 : Ref sig .tc := ⟨.hbm, 52, rfl⟩
abbrev main_v19 : Ref sig .tc := ⟨.hbm, 53, rfl⟩
abbrev main_c_4 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_5 : Ref sig .tc := ⟨.hbm, 60, rfl⟩
abbrev main_v25 : Ref sig .tc := ⟨.hbm, 61, rfl⟩
abbrev main_v26 : Ref sig .tc := ⟨.hbm, 62, rfl⟩
abbrev main_c_6 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call0_cst : Ref sig .tc := ⟨.hbm, 74, rfl⟩
abbrev main_call0_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call1_cst : Ref sig .tc := ⟨.hbm, 85, rfl⟩
abbrev main_call1_v0 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_call2_cst : Ref sig .tc := ⟨.hbm, 96, rfl⟩
abbrev main_call2_v0 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_cst : Ref sig .tc := ⟨.hbm, 103, rfl⟩
abbrev main_v60 : Ref sig .tc := ⟨.hbm, 104, rfl⟩
abbrev main_v61 : Ref sig .tc := ⟨.hbm, 105, rfl⟩
abbrev main_cst_7 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_8 : Ref sig .tc := ⟨.hbm, 112, rfl⟩
abbrev main_v67 : Ref sig .tc := ⟨.hbm, 113, rfl⟩
abbrev main_v68 : Ref sig .tc := ⟨.hbm, 114, rfl⟩
abbrev main_cst_9 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_10 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_call3_cst : Ref sig .tc := ⟨.hbm, 136, rfl⟩
abbrev main_call3_v0 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_call4_cst : Ref sig .tc := ⟨.hbm, 147, rfl⟩
abbrev main_call4_v0 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_call5_cst : Ref sig .tc := ⟨.hbm, 158, rfl⟩
abbrev main_call5_v0 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_11 : Ref sig .tc := ⟨.hbm, 165, rfl⟩
abbrev main_v111 : Ref sig .tc := ⟨.hbm, 166, rfl⟩
abbrev main_v112 : Ref sig .tc := ⟨.hbm, 167, rfl⟩
abbrev main_cst_12 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_cst_13 : Ref sig .tc := ⟨.hbm, 174, rfl⟩
abbrev main_v118 : Ref sig .tc := ⟨.hbm, 175, rfl⟩
abbrev main_v119 : Ref sig .tc := ⟨.hbm, 176, rfl⟩
abbrev main_cst_14 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_15 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_cst_16 : Ref sig .tc := ⟨.hbm, 196, rfl⟩
abbrev main_v137 : Ref sig .tc := ⟨.hbm, 197, rfl⟩
abbrev main_v138 : Ref sig .tc := ⟨.hbm, 198, rfl⟩
abbrev main_cst_17 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_cst_18 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_c_19 : Ref sig .tc := ⟨.hbm, 207, rfl⟩
abbrev main_v145 : Ref sig .tc := ⟨.hbm, 208, rfl⟩
abbrev main_v146 : Ref sig .tc := ⟨.hbm, 209, rfl⟩
abbrev main_c_20 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_call6_cst : Ref sig .tc := ⟨.hbm, 221, rfl⟩
abbrev main_call6_v0 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_call7_cst : Ref sig .tc := ⟨.hbm, 232, rfl⟩
abbrev main_call7_v0 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_call8_cst : Ref sig .tc := ⟨.hbm, 243, rfl⟩
abbrev main_call8_v0 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_cst_21 : Ref sig .tc := ⟨.hbm, 250, rfl⟩
abbrev main_v180 : Ref sig .tc := ⟨.hbm, 251, rfl⟩
abbrev main_v181 : Ref sig .tc := ⟨.hbm, 252, rfl⟩
abbrev main_cst_22 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_cst_23 : Ref sig .tc := ⟨.hbm, 259, rfl⟩
abbrev main_v187 : Ref sig .tc := ⟨.hbm, 260, rfl⟩
abbrev main_v188 : Ref sig .tc := ⟨.hbm, 261, rfl⟩
abbrev main_cst_24 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_cst_25 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  concatenates_S400000x64_S400000x64_S400000x64_S400000x16_S400000x208_d1 : Shape.Concatenates [S400000x64, S400000x64, S400000x64, S400000x16] S400000x208 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S64_S1x64_1 : S64.BroadcastsInDim S1x64 (![1] : Fin 1 → Fin S1x64.rank)
  bcast_S1x64_S400000x64_0_1 : S1x64.BroadcastsInDim S400000x64 (![0, 1] : Fin 2 → Fin S400000x64.rank)
  reducesTo_S400000x64_S400000_d1 : S400000x64.ReducesTo [1] S400000
  h_S_ : 0 < S_.numel
  bcast_S_S400000x1 : S_.BroadcastsInDim S400000x1 (![] : Fin 0 → Fin S400000x1.rank)
  bcast_S400000x1_S400000x64_0_1 : S400000x1.BroadcastsInDim S400000x64 (![0, 1] : Fin 2 → Fin S400000x64.rank)
  bcast_S_S400000x64 : S_.BroadcastsInDim S400000x64 (![] : Fin 0 → Fin S400000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x16_S50000x144_d1 : Shape.Concatenates [S50000x64, S50000x64, S50000x16] S50000x144 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  reducesTo_S50000x64_S50000_d1 : S50000x64.ReducesTo [1] S50000
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000_S400000x1_S400000_n_0_n_n_0_1_1_wf : GatherDims.WF S50000 S400000x1 S400000 [] [0] [] [0] [] 1 ![1]
  gather_S50000x64_S400000x1_S400000x64_1_0_n_n_0_1_164_wf : GatherDims.WF S50000x64 S400000x1 S400000x64 [1] [0] [] [0] [] 1 ![1, 64]
  gather_S64x16_S400000x1_S400000x16_1_0_n_n_0_1_116_wf : GatherDims.WF S64x16 S400000x1 S400000x16 [1] [0] [] [0] [] 1 ![1, 16]
  dot_S400000x208_S208x128_S400000x128_1_0_0_1_n_n_wf : DotDims.WF S400000x208 S208x128 S400000x128 [1] [0] [0] [1] [] []
  dot_S400000x128_S128x128_S400000x128_1_0_0_1_n_n_wf : DotDims.WF S400000x128 S128x128 S400000x128 [1] [0] [0] [1] [] []
  dot_S400000x128_S128x64_S400000x64_1_0_0_1_n_n_wf : DotDims.WF S400000x128 S128x64 S400000x64 [1] [0] [0] [1] [] []
  scatter_S50000x64_S400000x1_S400000x64_1_0_0_1_wf : ScatterDims.WF S50000x64 S400000x1 S400000x64 [1] [0] [0] 1
  gather_S64x16_S50000x1_S50000x16_1_0_n_n_0_1_116_wf : GatherDims.WF S64x16 S50000x1 S50000x16 [1] [0] [] [0] [] 1 ![1, 16]
  dot_S50000x144_S144x128_S50000x128_1_0_0_1_n_n_wf : DotDims.WF S50000x144 S144x128 S50000x128 [1] [0] [0] [1] [] []
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000_S400000x1_S400000_n_0_n_n_0_1_1 : GatherDims S50000 S400000x1 S400000 where
  offsetDims := []
  collapsedSliceDims := [0]
  operandBatchingDims := []
  startIndicesBatchingDims := []
  startIndexMap := [0]
  indexVectorDim := 1
  sliceSizes := ![1]
  wf := gather_S50000_S400000x1_S400000_n_0_n_n_0_1_1_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def gather_S64x16_S400000x1_S400000x16_1_0_n_n_0_1_116 : GatherDims S64x16 S400000x1 S400000x16 where
  offsetDims := [1]
  collapsedSliceDims := [0]
  operandBatchingDims := []
  startIndicesBatchingDims := []
  startIndexMap := [0]
  indexVectorDim := 1
  sliceSizes := ![1, 16]
  wf := gather_S64x16_S400000x1_S400000x16_1_0_n_n_0_1_116_wf
def dot_S400000x208_S208x128_S400000x128_1_0_0_1_n_n : DotDims S400000x208 S208x128 S400000x128 where
  lhsContracting := [1]
  rhsContracting := [0]
  lhsNonContracting := [0]
  rhsNonContracting := [1]
  lhsBatch := []
  rhsBatch := []
  wf := dot_S400000x208_S208x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x64_S400000x64_1_0_0_1_n_n : DotDims S400000x128 S128x64 S400000x64 where
  lhsContracting := [1]
  rhsContracting := [0]
  lhsNonContracting := [0]
  rhsNonContracting := [1]
  lhsBatch := []
  rhsBatch := []
  wf := dot_S400000x128_S128x64_S400000x64_1_0_0_1_n_n_wf
def scatter_S50000x64_S400000x1_S400000x64_1_0_0_1 : ScatterDims S50000x64 S400000x1 S400000x64 where
  updateWindowDims := [1]
  insertedWindowDims := [0]
  scatterDimsToOperandDims := [0]
  indexVectorDim := 1
  wf := scatter_S50000x64_S400000x1_S400000x64_1_0_0_1_wf
def gather_S64x16_S50000x1_S50000x16_1_0_n_n_0_1_116 : GatherDims S64x16 S50000x1 S50000x16 where
  offsetDims := [1]
  collapsedSliceDims := [0]
  operandBatchingDims := []
  startIndicesBatchingDims := []
  startIndexMap := [0]
  indexVectorDim := 1
  sliceSizes := ![1, 16]
  wf := gather_S64x16_S50000x1_S50000x16_1_0_n_n_0_1_116_wf
def dot_S50000x144_S144x128_S50000x128_1_0_0_1_n_n : DotDims S50000x144 S144x128 S50000x128 where
  lhsContracting := [1]
  rhsContracting := [0]
  lhsNonContracting := [0]
  rhsNonContracting := [1]
  lhsBatch := []
  rhsBatch := []
  wf := dot_S50000x144_S144x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RefRunA.lean ====
/-
  The reference's run, window 0 of @main: its operations in 2 consecutive pieces, and for each piece the
  buffers it touches, that it allocates nothing, and the buffers it writes: a buffer a piece does not write holds
  after the piece what it held before.
-/
import proofs.«404949_j85100482003175_1_alg».proof.Proof.Gen.ReferenceIdeal
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer of a reference that is in a list is in the set of the list's buffers. -/
private theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Operations 0 to 39 of @main: the two index rows of the edge list, wrapped into range, and the four gathers by them (%0 – %31). -/
abbrev ops0 : List (HloOp τ sig (Elt F)) :=
  [ unary main_arg3 main_v0 ((extractStridedSlice S1x400000 ![0, 0] · slices_S2x400000_S1x400000_0_0) : (⟨S2x400000, .i32⟩ : BufTy).Contents (Elt F) → (⟨S1x400000, .i32⟩ : BufTy).Contents (Elt F)),
    reshape main_v0 main_v1 rfl shapeCasts_S1x400000_S400000,
    unary main_arg3 main_v2 ((extractStridedSlice S1x400000 ![1, 0] · slices_S2x400000_S1x400000_1_0) : (⟨S2x400000, .i32⟩ : BufTy).Contents (Elt F) → (⟨S1x400000, .i32⟩ : BufTy).Contents (Elt F)),
    reshape main_v2 main_v3 rfl shapeCasts_S1x400000_S400000,
    nullary main_c (constantI S_ 32 0#32),
    unary main_c main_v4 (broadcastInDim S400000 ![] bcast_S_S400000 : (⟨S_, .i32⟩ : BufTy).Contents (Elt F) → (⟨S400000, .i32⟩ : BufTy).Contents (Elt F)),
    binary main_v1 main_v4 main_v5 (cmpi .slt : (⟨S400000, .i32⟩ : BufTy).Contents (Elt F) → (⟨S400000, .i32⟩ : BufTy).Contents (Elt F) → (⟨S400000, .i1⟩ : BufTy).Contents (Elt F)),
    nullary main_c_0 (constantI S_ 32 50000#32),
    unary main_c_0 main_v6 (broadcastInDim S400000 ![] bcast_S_S400000 : (⟨S_, .i32⟩ : BufTy).Contents (Elt F) → (⟨S400000, .i32⟩ : BufTy).Contents (Elt F)),
    binary main_v1 main_v6 main_v7 (addi : (⟨S400000, .i32⟩ : BufTy).Contents (Elt F) → (⟨S400000, .i32⟩ : BufTy).Contents (Elt F) → (⟨S400000, .i32⟩ : BufTy).Contents (Elt F)),
    ternary main_v5 main_v7 main_v1 main_v8 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v8 main_v9 (broadcastInDim S400000x1 ![0] bcast_S400000_S400000x1_0 : (⟨S400000, .i32⟩ : BufTy).Contents (Elt F) → (⟨S400000x1, .i32⟩ : BufTy).Contents (Elt F)),
    binary main_arg4 main_v9 main_v10 ((fun x i => Host.gather gather_S50000_S400000x1_S400000_n_0_n_n_0_1_1 x i) : (⟨S50000, .i32⟩ : BufTy).Contents (Elt F) → (⟨S400000x1, .i32⟩ : BufTy).Contents (Elt F) → (⟨S400000, .i32⟩ : BufTy).Contents (Elt F)),
    nullary main_c_1 (constantI S_ 32 0#32),
    unary main_c_1 main_v11 (broadcastInDim S400000 ![] bcast_S_S400000 : (⟨S_, .i32⟩ : BufTy).Contents (Elt F) → (⟨S400000, .i32⟩ : BufTy).Contents (Elt F)),
    binary main_v1 main_v11 main_v12 (cmpi .slt : (⟨S400000, .i32⟩ : BufTy).Contents (Elt F) → (⟨S400000, .i32⟩ : BufTy).Contents (Elt F) → (⟨S400000, .i1⟩ : BufTy).Contents (Elt F)),
    nullary main_c_2 (constantI S_ 32 50000#32),
    unary main_c_2 main_v13 (broadcastInDim S400000 ![] bcast_S_S400000 : (⟨S_, .i32⟩ : BufTy).Contents (Elt F) → (⟨S400000, .i32⟩ : BufTy).Contents (Elt F)),
    binary main_v1 main_v13 main_v14 (addi : (⟨S400000, .i32⟩ : BufTy).Contents (Elt F) → (⟨S400000, .i32⟩ : BufTy).Contents (Elt F) → (⟨S400000, .i32⟩ : BufTy).Contents (Elt F)),
    ternary main_v12 main_v14 main_v1 main_v15 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v15 main_v16 (broadcastInDim S400000x1 ![0] bcast_S400000_S400000x1_0 : (⟨S400000, .i32⟩ : BufTy).Contents (Elt F) → (⟨S400000x1, .i32⟩ : BufTy).Contents (Elt F)),
    binary main_arg0 main_v16 main_v17 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    nullary main_c_3 (constantI S_ 32 0#32),
    unary main_c_3 main_v18 (broadcastInDim S400000 ![] bcast_S_S400000 : (⟨S_, .i32⟩ : BufTy).Contents (Elt F) → (⟨S400000, .i32⟩ : BufTy).Contents (Elt F)),
    binary main_v3 main_v18 main_v19 (cmpi .slt : (⟨S400000, .i32⟩ : BufTy).Contents (Elt F) → (⟨S400000, .i32⟩ : BufTy).Contents (Elt F) → (⟨S400000, .i1⟩ : BufTy).Contents (Elt F)),
    nullary main_c_4 (constantI S_ 32 50000#32),
    unary main_c_4 main_v20 (broadcastInDim S400000 ![] bcast_S_S400000 : (⟨S_, .i32⟩ : BufTy).Contents (Elt F) → (⟨S400000, .i32⟩ : BufTy).Contents (Elt F)),
    binary main_v3 main_v20 main_v21 (addi : (⟨S400000, .i32⟩ : BufTy).Contents (Elt F) → (⟨S400000, .i32⟩ : BufTy).Contents (Elt F) → (⟨S400000, .i32⟩ : BufTy).Contents (Elt F)),
    ternary main_v19 main_v21 main_v3 main_v22 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v22 main_v23 (broadcastInDim S400000x1 ![0] bcast_S400000_S400000x1_0 : (⟨S400000, .i32⟩ : BufTy).Contents (Elt F) → (⟨S400000x1, .i32⟩ : BufTy).Contents (Elt F)),
    binary main_arg0 main_v23 main_v24 ((fun x i => Host.gather gather_S50000x64_S400000x1_S400000x64_1_0_n_n_0_1_164 x i) : (⟨S50000x64, .f32⟩ : BufTy).Contents (Elt F) → (⟨S400000x1, .i32⟩ : BufTy).Contents (Elt F) → (⟨S400000x64, .f32⟩ : BufTy).Contents (Elt F)),
    nullary main_c_5 (constantI S_ 32 0#32),
    unary main_c_5 main_v25 (broadcastInDim S400000 ![] bcast_S_S400000 : (⟨S_, .i32⟩ : BufTy).Contents (Elt F) → (⟨S400000, .i32⟩ : BufTy).Contents (Elt F)),
    binary main_v10 main_v25 main_v26 (cmpi .slt : (⟨S400000, .i32⟩ : BufTy).Contents (Elt F) → (⟨S400000, .i32⟩ : BufTy).Contents (Elt F) → (⟨S400000, .i1⟩ : BufTy).Contents (Elt F)),
    nullary main_c_6 (constantI S_ 32 64#32),
    unary main_c_6 main_v27 (broadcastInDim S400000 ![] bcast_S_S400000 : (⟨S_, .i32⟩ : BufTy).Contents (Elt F) → (⟨S400000, .i32⟩ : BufTy).Contents (Elt F)),
    binary main_v10 main_v27 main_v28 (addi : (⟨S400000, .i32⟩ : BufTy).Contents (Elt F) → (⟨S400000, .i32⟩ : BufTy).Contents (Elt F) → (⟨S400000, .i32⟩ : BufTy).Contents (Elt F)),
    ternary main_v26 main_v28 main_v10 main_v29 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    unary main_v29 main_v30 (broadcastInDim S400000x1 ![0] bcast_S400000_S400000x1_0 : (⟨S400000, .i32⟩ : BufTy).Contents (Elt F) → (⟨S400000x1, .i32⟩ : BufTy).Contents (Elt F)),
    binary main_arg2 main_v30 main_v31 ((fun x i => Host.gather gather_S64x16_S400000x1_S400000x16_1_0_n_n_0_1_116 x i) : (⟨S64x16, .f32⟩ : BufTy).Contents (Elt F) → (⟨S400000x1, .i32⟩ : BufTy).Contents (Elt F) → (⟨S400000x16, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem ops0_fresh : ∀ op ∈ (ops0 : List (HloOp τ sig (Elt F))), op.fresh = ∅ := by
  intro _ h; (repeat (cases h with | head => rfl | tail _ h => ?_)); exact nomatch h

/-- The buffers those operations write, in order: one each. -/
abbrev W0 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17, main_c_3, main_v18, main_v19, main_c_4, main_v20, main_v21, main_v22, main_v23, main_v24, main_c_5, main_v25, main_v26, main_c_6, main_v27, main_v28, main_v29, main_v30, main_v31]

theorem ops0_writes : (ops0 : List (HloOp τ sig (Elt F))).Forall fun op => op.writes ⊆ (W0.map (Proc.devRef (τ := τ) .tc)).toFinset := by
  simp only [ops0, List.Forall, unary_writes, reshape_writes, nullary_writes, binary_writes, ternary_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact single_sub_of_mem (by decide)

/-- A buffer none of them writes holds after them what it held before. -/
theorem keep0 (V : Valuation τ sig (Elt F)) {r : Ref sig .tc} (hr : r ∉ W0) :
    after ops0 V (Proc.devRef .tc r) = V (Proc.devRef .tc r) :=
  after_of_writes_sub ops0 V ops0_writes hr

/-- Operations 40 to 63 of @main: the edge rows' four pieces side by side, the edge perceptron's first layer and its first hidden layer up to the bias row (%32 – %51). -/
abbrev ops1 : List (HloOp τ sig (Elt F)) :=
  [ nary ![main_v17, main_v24, main_arg1, main_v31] main_v32 (fun u => concatenate S400000x208 1 [⟨S400000x64, u 0⟩, ⟨S400000x64, u 1⟩, ⟨S400000x64, u 2⟩, ⟨S400000x16, u 3⟩] concatenates_S400000x64_S400000x64_S400000x64_S400000x16_S400000x208_d1),
    binary main_v32 main_arg5 main_v33 ((fun l r => Host.dotGeneral dot_S400000x208_S208x128_S400000x128_1_0_0_1_n_n none l r) : (⟨S400000x208, .f32⟩ : BufTy).Contents (Elt F) → (⟨S208x128, .f32⟩ : BufTy).Contents (Elt F) → (⟨S400000x128, .f32⟩ : BufTy).Contents (Elt F)),
    unary main_arg6 main_v34 (broadcastInDim S1x128 ![1] bcast_S128_S1x128_1 : (⟨S128, .f32⟩ : BufTy).Contents (Elt F) → (⟨S1x128, .f32⟩ : BufTy).Contents (Elt F)),
    unary main_v34 main_v35 (broadcastInDim S400000x128 ![0, 1] bcast_S1x128_S400000x128_0_1 : (⟨S1x128, .f32⟩ : BufTy).Contents (Elt F) → (⟨S400000x128, .f32⟩ : BufTy).Contents (Elt F)),
    binary main_v33 main_v35 main_v36 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S400000x128, .f32⟩) main_call0_v0) (broadcastInDim S400000x128 ![] bcast_S_S400000x128),
    TRef.binary (TRef.of (T := ⟨S400000x128, .f32⟩) main_v36) (TRef.of (T := ⟨S400000x128, .f32⟩) main_call0_v0) (TRef.of (T := ⟨S400000x128, .f32⟩) main_v37) maximumf,
    unary main_arg7 main_v38 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v38 main_v39 rfl shapeCasts_S1x128x128_S128x128,
    binary main_v37 main_v39 main_v40 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg8 main_v41 ((extractStridedSlice S1x128 ![0, 0] · slices_S2x128_S1x128_0_0) : (⟨S2x128, .f32⟩ : BufTy).Contents (Elt F) → (⟨S1x128, .f32⟩ : BufTy).Contents (Elt F)),
    reshape main_v41 main_v42 rfl shapeCasts_S1x128_S128,
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S400000x128 ![0, 1] bcast_S1x128_S400000x128_0_1 : (⟨S1x128, .f32⟩ : BufTy).Contents (Elt F) → (⟨S400000x128, .f32⟩ : BufTy).Contents (Elt F)),
    binary main_v40 main_v44 main_v45 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S400000x128, .f32⟩) main_call1_v0) (broadcastInDim S400000x128 ![] bcast_S_S400000x128),
    TRef.binary (TRef.of (T := ⟨S400000x128, .f32⟩) main_v45) (TRef.of (T := ⟨S400000x128, .f32⟩) main_call1_v0) (TRef.of (T := ⟨S400000x128, .f32⟩) main_v46) maximumf,
    unary main_arg7 main_v47 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v47 main_v48 rfl shapeCasts_S1x128x128_S128x128,
    binary main_v46 main_v48 main_v49 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg8 main_v50 ((extractStridedSlice S1x128 ![1, 0] · slices_S2x128_S1x128_1_0) : (⟨S2x128, .f32⟩ : BufTy).Contents (Elt F) → (⟨S1x128, .f32⟩ : BufTy).Contents (Elt F)),
    reshape main_v50 main_v51 rfl shapeCasts_S1x128_S128 ]

theorem ops1_sub : (ops1 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub ..⟩

theorem ops1_fresh : ∀ op ∈ (ops1 : List (HloOp τ sig (Elt F))), op.fresh = ∅ := by
  intro _ h; (repeat (cases h with | head => rfl | tail _ h => ?_)); exact nomatch h

/-- The buffers those operations write, in order: one each. -/
abbrev W1 : List (Ref sig .tc) := [main_v32, main_v33, main_v34, main_v35, main_v36, main_call0_cst, main_call0_v0, main_v37, main_v38, main_v39, main_v40, main_v41, main_v42, main_v43, main_v44, main_v45, main_call1_cst, main_call1_v0, main_v46, main_v47, main_v48, main_v49, main_v50, main_v51]

theorem ops1_writes : (ops1 : List (HloOp τ sig (Elt F))).Forall fun op => op.writes ⊆ (W1.map (Proc.devRef (τ := τ) .tc)).toFinset := by
  simp only [ops1, List.Forall, unary_writes, reshape_writes, nullary_writes, binary_writes, ternary_writes, nary_writes]
  refine ⟨?_, ?_, ?_, ?_, ?_, ?_, ?_, ?_, ?_, ?_, ?_, ?_, ?_, ?_, ?_, ?_, ?_, ?_, ?_, ?_, ?_, ?_, ?_, ?_⟩ <;> exact single_sub_of_mem (by decide)

/-- A buffer none of them writes holds after them what it held before. -/
theorem keep1 (V : Valuation τ sig (Elt F)) {r : Ref sig .tc} (hr : r ∉ W1) :
    after ops1 V (Proc.devRef .tc r) = V (Proc.devRef .tc r) :=
  after_of_writes_sub ops1 V ops1_writes hr

set_option maxRecDepth 8192 in
set_option maxHeartbeats 1000000 in
/-- Window 0 of @main is the line of its pieces' operations. -/
theorem main_part0_eq (c : Dev nD) : main_part0 (F := F) c = seq (ops0 ++ ops1) := by chain_rfl

end Cert.ReferenceIdeal.HandRun

end
-- ==== Proof.RefRunB.lean ====
/-
  The reference's run, window 1 of @main: its operations in 3 consecutive pieces, and for each piece the
  buffers it touches, that it allocates nothing, and the buffers it writes: a buffer a piece does not write holds
  after the piece what it held before.
-/
import proofs.«404949_j85100482003175_1_alg».proof.Proof.Gen.ReferenceIdeal
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer of a reference that is in a list is in the set of the list's buffers. -/
private theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Operations 64 to 73 of @main: the rest of the edge perceptron's hidden and output layers (%52 – %59). -/
abbrev ops2 : List (HloOp τ sig (Elt F)) :=
  [ unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S400000x128 ![0, 1] bcast_S1x128_S400000x128_0_1 : (⟨S1x128, .f32⟩ : BufTy).Contents (Elt F) → (⟨S400000x128, .f32⟩ : BufTy).Contents (Elt F)),
    binary main_v49 main_v53 main_v54 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S400000x128, .f32⟩) main_call2_v0) (broadcastInDim S400000x128 ![] bcast_S_S400000x128),
    TRef.binary (TRef.of (T := ⟨S400000x128, .f32⟩) main_v54) (TRef.of (T := ⟨S400000x128, .f32⟩) main_call2_v0) (TRef.of (T := ⟨S400000x128, .f32⟩) main_v55) maximumf,
    binary main_v55 main_arg9 main_v56 ((fun l r => Host.dotGeneral dot_S400000x128_S128x64_S400000x64_1_0_0_1_n_n none l r) : (⟨S400000x128, .f32⟩ : BufTy).Contents (Elt F) → (⟨S128x64, .f32⟩ : BufTy).Contents (Elt F) → (⟨S400000x64, .f32⟩ : BufTy).Contents (Elt F)),
    unary main_arg10 main_v57 (broadcastInDim S1x64 ![1] bcast_S64_S1x64_1 : (⟨S64, .f32⟩ : BufTy).Contents (Elt F) → (⟨S1x64, .f32⟩ : BufTy).Contents (Elt F)),
    unary main_v57 main_v58 (broadcastInDim S400000x64 ![0, 1] bcast_S1x64_S400000x64_0_1 : (⟨S1x64, .f32⟩ : BufTy).Contents (Elt F) → (⟨S400000x64, .f32⟩ : BufTy).Contents (Elt F)),
    binary main_v56 main_v58 main_v59 (addf : (⟨S400000x64, .f32⟩ : BufTy).Contents (Elt F) → (⟨S400000x64, .f32⟩ : BufTy).Contents (Elt F) → (⟨S400000x64, .f32⟩ : BufTy).Contents (Elt F)) ]

theorem ops2_sub : (ops2 : List (HloOp τ sig (Elt F))).Forall fun op => op.bufs ⊆ tcRefs τ sig :=
  ⟨unary_bufs_sub .., unary_bufs_sub .., binary_bufs_sub .., nullary_bufs_sub .., unary_bufs_sub .., binary_bufs_sub .., binary_bufs_sub .., unary_bufs_sub .., unary_bufs_sub .., binary_bufs_sub ..⟩

theorem ops2_fresh : ∀ op ∈ (ops2 : List (HloOp τ sig (Elt F))), op.fresh = ∅ := by
  intro _ h; (repeat (cases h with | head => rfl | tail _ h => ?_)); exact nomatch h

/-- The buffers those operations write, in order: one each. -/
abbrev W2 : List (Ref sig .tc) := [main_v52, main_v53, main_v54, main_call2_cst, main_call2_v0, main_v55, main_v56, main_v57, main_v58, main_v59]

theorem ops2_writes : (ops2 : List (HloOp τ sig (Elt F))).Forall fun op => op.writes ⊆ (W2.map (Proc.devRef (τ := τ) .tc)).toFinset := by
  simp only [ops2, List.Forall, unary_writes, reshape_writes, nullary_writes, binary_writes, ternary_writes, nary_writes]
  refine ⟨?_, ?_, ?_, ?_, ?_, ?_, ?_, ?_, ?_, ?_⟩ <;> exact single_sub_of_mem (by decide)

/-- A buffer none of them writes holds after them what it held before. -/
theorem keep2 (V : Valuation τ sig (Elt F)) {r : Ref sig .tc} (hr : r ∉ W2) :
    after ops2 V (Proc.devRef .tc r) = V (Proc.devRef .tc r) :=
  after_of_writes_sub ops2 V ops2_writes hr

/-- Operations 74 to 102 of @main: the edge rows normalised by their mean and variance (%60 – %83). -/
abbrev ops3 : List (HloOp τ sig (Elt F)) :=
  [ nullary main_cst (constant S_ .f32 0x00000000#32),
    binary main_v59 main_cst main_v60 ((fun x v => Host.reduceAdd x v reducesTo_S400000x64_S400000_d1 h_S_) : (⟨S400000x64, .f32⟩ : BufTy).Contents (Elt F) → (⟨S_, .f32⟩ : BufTy).Contents (Elt F) → (⟨S400000, .f32⟩ : BufTy).Contents (Elt F)),
    unary main_v60 main_v61 (broadcastInDim S400000x1 ![0] bcast_S400000_S400000x1_0 : (⟨S400000, .f32⟩ : BufTy).Contents (Elt F) → (⟨S400000x1, .f32⟩ : BufTy).Contents (Elt F)),
    nullary main_cst_7 (constant S_ .f32 0x42800000#32),
    unary main_cst_7 main_v62 (broadcastInDim S400000x1 ![] bcast_S_S400000x1 : (⟨S_, .f32⟩ : BufTy).Contents (Elt F) → (⟨S400000x1, .f32⟩ : BufTy).Contents (Elt F)),
    binary main_v61 main_v62 main_v63 (Host.divf : (⟨S400000x1, .f32⟩ : BufTy).Contents (Elt F) → (⟨S400000x1, .f32⟩ : BufTy).Contents (Elt F) → (⟨S400000x1, .f32⟩ : BufTy).Contents (Elt F)),
    unary main_v63 main_v64 (broadcastInDim S400000x64 ![0, 1] bcast_S400000x1_S400000x64_0_1 : (⟨S400000x1, .f32⟩ : BufTy).Contents (Elt F) → (⟨S400000x64, .f32⟩ : BufTy).Contents (Elt F)),
    binary main_v59 main_v64 main_v65 (subf : (⟨S400000x64, .f32⟩ : BufTy).Contents (Elt F) → (⟨S400000x64, .f32⟩ : BufTy).Contents (Elt F) → (⟨S400000x64, .f32⟩ : BufTy).Contents (Elt F)),
    binary main_v65 main_v65 main_v66 (mulf : (⟨S400000x64, .f32⟩ : BufTy).Contents (Elt F) → (⟨S400000x64, .f32⟩ : BufTy).Contents (Elt F) → (⟨S400000x64, .f32⟩ : BufTy).Contents (Elt F)),
    nullary main_cst_8 (constant S_ .f32 0x00000000#32),
    binary main_v66 main_cst_8 main_v67 ((fun x v => Host.reduceAdd x v reducesTo_S400000x64_S400000_d1 h_S_) : (⟨S400000x64, .f32⟩ : BufTy).Contents (Elt F) → (⟨S_, .f32⟩ : BufTy).Contents (Elt F) → (⟨S400000, .f32⟩ : BufTy).Contents (Elt F)),
    unary main_v67 main_v68 (broadcastInDim S400000x1 ![0] bcast_S400000_S400000x1_0 : (⟨S400000, .f32⟩ : BufTy).Contents (Elt F) → (⟨S400000x1, .f32⟩ : BufTy).Contents (Elt F)),
    nullary main_cst_9 (constant S_ .f32 0x42800000#32),
    unary main_cst_9 main_v69 (broadcastInDim S400000x1 ![] bcast_S_S400000x1 : (⟨S_, .f32⟩ : BufTy).Contents (Elt F) → (⟨S400000x1, .f32⟩ : BufTy).Contents (Elt F)),
    binary main_v68 main_v69 main_v70 (Host.divf : (⟨S400000x1, .f32⟩ : BufTy).Contents (Elt F) → (⟨S400000x1, .f32⟩ : BufTy).Contents (Elt F) → (⟨S400000x1, .f32⟩ : BufTy).Contents (Elt F)),
    unary main_v63 main_v71 (broadcastInDim S400000x64 ![0, 1] bcast_S400000x1_S400000x64_0_1 : (⟨S400000x1, .f32⟩ : BufTy).Contents (Elt F) → (⟨S400000x64, .f32⟩ : BufTy).Contents (Elt F)),
    binary main_v59 main_v71 main_v72 (subf : (⟨S400000x64, .f32⟩ : BufTy).Contents (Elt F) → (⟨S400000x64, .f32⟩ : BufTy).Contents (Elt F) → (⟨S400000x64, .f32⟩ : BufTy).Contents (Elt F)),
    nullary main_cst_10 (constant S_ .f32 0x3727C5AC#32),
    unary main_cst_10 main_v73 (broadcastInDim S400000x1 ![] bcast_S_S400000x1 : (⟨S_, .f32⟩ : BufTy).Contents (Elt F) → (⟨S400000x1, .f32⟩ : BufTy).Contents (Elt F)),
    binary main_v70 main_v73 main_v74 (addf : (⟨S400000x1, .f32⟩ : BufTy).Contents (Elt F) → (⟨S400000x1, .f32⟩ : BufTy).Contents (Elt F) → (⟨S400000x1, .f32⟩ : BufTy).Contents (Elt F)),
    unary main_v74 main_v75 (Host.rsqrt : (⟨S400000x1, .f32⟩ : BufTy).Contents (Elt F) → (⟨S400000x1, .f32⟩ : BufTy).Contents (Elt F)),
    unary main_v75 main_v76 (broadcastInDim S400000x64 ![0, 1] bcast_S400000x1_S400000x64_0_1 : (⟨S400000x1, .f32⟩ : BufTy).Contents (Elt F) → (⟨S400000x64, .f32⟩ : BufTy).Contents (Elt F)),
    binary main_v72 main_v76 main_v77 (mulf : (⟨S400000x64, .f32⟩ : BufTy).Contents (Elt F) → (⟨S400000x64, .f32⟩ : BufTy).Contents (Elt F) → (⟨S400000x64, .f32⟩ : BufTy).Contents (Elt F)),
    unary main_arg11 main_v78 (broadcastInDim S1x64 ![1] bcast_S64_S1x64_1 : (⟨S64, .f32⟩ : BufTy).Contents (Elt F) → (⟨S1x64, .f32⟩ : BufTy).Contents (Elt F)),
    unary main_v78 main_v79 (broadcastInDim S400000x64 ![0, 1] bcast_S1x64_S400000x64_0_1 : (⟨S1x64, .f32⟩ : BufTy).Contents (Elt F) → (⟨S400000x64, .f32⟩ : BufTy).Contents (Elt F)),
    binary main_v77 main_v79 main_v80 (mulf : (⟨S400000x64, .f32⟩ : BufTy).Contents (Elt F) → (⟨S400000x64, .f32⟩ : BufTy).Contents (Elt F) → (⟨S400000x64, .f32⟩ : BufTy).Contents (Elt F)),
    unary main_arg12 main_v81 (broadcastInDim S1x64 ![1] bcast_S64_S1x64_1 : (⟨S64, .f32⟩ : BufTy).Contents (Elt F) → (⟨S1x64, .f32⟩ : BufTy).Contents (Elt F)),
    unary main_v81 main_v82 (broadcastInDim S400000x64 ![0, 1] bcast_S1x64_S400000x64_0_1 : (⟨S1x64, .f32⟩ : BufTy).Contents (Elt F) → (⟨S400000x64, .f32⟩ : BufTy).Contents (Elt F)),
    binary main_v80 main_v82 main_v83 (addf : (⟨S400000x64, .f32⟩ : BufTy).Contents (Elt F) → (⟨S400000x64, .f32⟩ : BufTy).Contents (Elt F) → (⟨S400000x64, .f32⟩ : BufTy).Contents (Elt F)) ]

theorem ops3_sub : (ops3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops3_fresh : ∀ op ∈ (ops3 : List (HloOp τ sig (Elt F))), op.fresh = ∅ := by
  intro _ h; (repeat (cases h with | head => rfl | tail _ h => ?_)); exact nomatch h

/-- The buffers those operations write, in order: one each. -/
abbrev W3 : List (Ref sig .tc) := [main_cst, main_v60, main_v61, main_cst_7, main_v62, main_v63, main_v64, main_v65, main_v66, main_cst_8, main_v67, main_v68, main_cst_9, main_v69, main_v70, main_v71, main_v72, main_cst_10, main_v73, main_v74, main_v75, main_v76, main_v77, main_v78, main_v79, main_v80, main_v81, main_v82, main_v83]

theorem ops3_writes : (ops3 : List (HloOp τ sig (Elt F))).Forall fun op => op.writes ⊆ (W3.map (Proc.devRef (τ := τ) .tc)).toFinset := by
  simp only [ops3, List.Forall, unary_writes, reshape_writes, nullary_writes, binary_writes, ternary_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact single_sub_of_mem (by decide)

/-- A buffer none of them writes holds after them what it held before. -/
theorem keep3 (V : Valuation τ sig (Elt F)) {r : Ref sig .tc} (hr : r ∉ W3) :
    after ops3 V (Proc.devRef .tc r) = V (Proc.devRef .tc r) :=
  after_of_writes_sub ops3 V ops3_writes hr

/-- Operations 103 to 131 of @main: the gate perceptron's first layer and hidden layers (%84 – %106). -/
abbrev ops4 : List (HloOp τ sig (Elt F)) :=
  [ binary main_v32 main_arg13 main_v84 ((fun l r => Host.dotGeneral dot_S400000x208_S208x128_S400000x128_1_0_0_1_n_n none l r) : (⟨S400000x208, .f32⟩ : BufTy).Contents (Elt F) → (⟨S208x128, .f32⟩ : BufTy).Contents (Elt F) → (⟨S400000x128, .f32⟩ : BufTy).Contents (Elt F)),
    unary main_arg14 main_v85 (broadcastInDim S1x128 ![1] bcast_S128_S1x128_1 : (⟨S128, .f32⟩ : BufTy).Contents (Elt F) → (⟨S1x128, .f32⟩ : BufTy).Contents (Elt F)),
    unary main_v85 main_v86 (broadcastInDim S400000x128 ![0, 1] bcast_S1x128_S400000x128_0_1 : (⟨S1x128, .f32⟩ : BufTy).Contents (Elt F) → (⟨S400000x128, .f32⟩ : BufTy).Contents (Elt F)),
    binary main_v84 main_v86 main_v87 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S400000x128, .f32⟩) main_call3_v0) (broadcastInDim S400000x128 ![] bcast_S_S400000x128),
    TRef.binary (TRef.of (T := ⟨S400000x128, .f32⟩) main_v87) (TRef.of (T := ⟨S400000x128, .f32⟩) main_call3_v0) (TRef.of (T := ⟨S400000x128, .f32⟩) main_v88) maximumf,
    unary main_arg15 main_v89 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v89 main_v90 rfl shapeCasts_S1x128x128_S128x128,
    binary main_v88 main_v90 main_v91 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg16 main_v92 ((extractStridedSlice S1x128 ![0, 0] · slices_S2x128_S1x128_0_0) : (⟨S2x128, .f32⟩ : BufTy).Contents (Elt F) → (⟨S1x128, .f32⟩ : BufTy).Contents (Elt F)),
    reshape main_v92 main_v93 rfl shapeCasts_S1x128_S128,
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S400000x128 ![0, 1] bcast_S1x128_S400000x128_0_1 : (⟨S1x128, .f32⟩ : BufTy).Contents (Elt F) → (⟨S400000x128, .f32⟩ : BufTy).Contents (Elt F)),
    binary main_v91 main_v95 main_v96 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S400000x128, .f32⟩) main_call4_v0) (broadcastInDim S400000x128 ![] bcast_S_S400000x128),
    TRef.binary (TRef.of (T := ⟨S400000x128, .f32⟩) main_v96) (TRef.of (T := ⟨S400000x128, .f32⟩) main_call4_v0) (TRef.of (T := ⟨S400000x128, .f32⟩) main_v97) maximumf,
    unary main_arg15 main_v98 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v98 main_v99 rfl shapeCasts_S1x128x128_S128x128,
    binary main_v97 main_v99 main_v100 ((fun l r => Host.dotGeneral dot_S400000x128_S128x128_S400000x128_1_0_0_1_n_n none l r) : (⟨S400000x128, .f32⟩ : BufTy).Contents (Elt F) → (⟨S128x128, .f32⟩ : BufTy).Contents (Elt F) → (⟨S400000x128, .f32⟩ : BufTy).Contents (Elt F)),
    unary main_arg16 main_v101 ((extractStridedSlice S1x128 ![1, 0] · slices_S2x128_S1x128_1_0) : (⟨S2x128, .f32⟩ : BufTy).Contents (Elt F) → (⟨S1x128, .f32⟩ : BufTy).Contents (Elt F)),
    reshape main_v101 main_v102 rfl shapeCasts_S1x128_S128,
    unary main_v102 main_v103 (broadcastInDim S1x128 ![1] bcast_S128_S1x128_1 : (⟨S128, .f32⟩ : BufTy).Contents (Elt F) → (⟨S1x128, .f32⟩ : BufTy).Contents (Elt F)),
    unary main_v103 main_v104 (broadcastInDim S400000x128 ![0, 1] bcast_S1x128_S400000x128_0_1 : (⟨S1x128, .f32⟩ : BufTy).Contents (Elt F) → (⟨S400000x128, .f32⟩ : BufTy).Contents (Elt F)),
    binary main_v100 main_v104 main_v105 (addf : (⟨S400000x128, .f32⟩ : BufTy).Contents (Elt F) → (⟨S400000x128, .f32⟩ : BufTy).Contents (Elt F) → (⟨S400000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S400000x128, .f32⟩) main_call5_v0) (broadcastInDim S400000x128 ![] bcast_S_S400000x128),
    TRef.binary (TRef.of (T := ⟨S400000x128, .f32⟩) main_v105) (TRef.of (T := ⟨S400000x128, .f32⟩) main_call5_v0) (TRef.of (T := ⟨S400000x128, .f32⟩) main_v106) maximumf ]

theorem ops4_sub : (ops4 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem ops4_fresh : ∀ op ∈ (ops4 : List (HloOp τ sig (Elt F))), op.fresh = ∅ := by
  intro _ h; (repeat (cases h with | head => rfl | tail _ h => ?_)); exact nomatch h

/-- The buffers those operations write, in order: one each. -/
abbrev W4 : List (Ref sig .tc) := [main_v84, main_v85, main_v86, main_v87, main_call3_cst, main_call3_v0, main_v88, main_v89, main_v90, main_v91, main_v92, main_v93, main_v94, main_v95, main_v96, main_call4_cst, main_call4_v0, main_v97, main_v98, main_v99, main_v100, main_v101, main_v102, main_v103, main_v104, main_v105, main_call5_cst, main_call5_v0, main_v106]

theorem ops4_writes : (ops4 : List (HloOp τ sig (Elt F))).Forall fun op => op.writes ⊆ (W4.map (Proc.devRef (τ := τ) .tc)).toFinset := by
  simp only [ops4, List.Forall, unary_writes, reshape_writes, nullary_writes, binary_writes, ternary_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact single_sub_of_mem (by decide)

/-- A buffer none of them writes holds after them what it held before. -/
theorem keep4 (V : Valuation τ sig (Elt F)) {r : Ref sig .tc} (hr : r ∉ W4) :
    after ops4 V (Proc.devRef .tc r) = V (Proc.devRef .tc r) :=
  after_of_writes_sub ops4 V ops4_writes hr

set_option maxRecDepth 8192 in
set_option maxHeartbeats 1000000 in
/-- Window 1 of @main is the line of its pieces' operations. -/
theorem main_part1_eq (c : Dev nD) : main_part1 (F := F) c = seq (ops2 ++ ops3 ++ ops4) := by chain_rfl

end Cert.ReferenceIdeal.HandRun

end
-- ==== Proof.RefRunC.lean ====
/-
  The reference's run, window 2 of @main: its operations in 4 consecutive pieces, and for each piece the
  buffers it touches, that it allocates nothing, and the buffers it writes: a buffer a piece does not write holds
  after the piece what it held before.
-/
import proofs.«404949_j85100482003175_1_alg».proof.Proof.Gen.ReferenceIdeal
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer of a reference that is in a list is in the set of the list's buffers. -/
private theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Operations 132 to 135 of @main: the gate perceptron's output layer (%107 – %110). -/
abbrev ops5 : List (HloOp τ sig (Elt F)) :=
  [ binary main_v106 main_arg17 main_v107 ((fun l r => Host.dotGeneral dot_S400000x128_S128x64_S400000x64_1_0_0_1_n_n none l r) : (⟨S400000x128, .f32⟩ : BufTy).Contents (Elt F) → (⟨S128x64, .f32⟩ : BufTy).Contents (Elt F) → (⟨S400000x64, .f32⟩ : BufTy).Contents (Elt F)),
    unary main_arg18 main_v108 (broadcastInDim S1x64 ![1] bcast_S64_S1x64_1 : (⟨S64, .f32⟩ : BufTy).Contents (Elt F) → (⟨S1x64, .f32⟩ : BufTy).Contents (Elt F)),
    unary main_v108 main_v109 (broadcastInDim S400000x64 ![0, 1] bcast_S1x64_S400000x64_0_1 : (⟨S1x64, .f32⟩ : BufTy).Contents (Elt F) → (⟨S400000x64, .f32⟩ : BufTy).Contents (Elt F)),
    binary main_v107 main_v109 main_v110 (addf : (⟨S400000x64, .f32⟩ : BufTy).Contents (Elt F) → (⟨S400000x64, .f32⟩ : BufTy).Contents (Elt F) → (⟨S400000x64, .f32⟩ : BufTy).Contents (Elt F)) ]

theorem ops5_sub : (ops5 : List (HloOp τ sig (Elt F))).Forall fun op => op.bufs ⊆ tcRefs τ sig :=
  ⟨binary_bufs_sub .., unary_bufs_sub .., unary_bufs_sub .., binary_bufs_sub ..⟩

theorem ops5_fresh : ∀ op ∈ (ops5 : List (HloOp τ sig (Elt F))), op.fresh = ∅ := by
  intro _ h; (repeat (cases h with | head => rfl | tail _ h => ?_)); exact nomatch h

/-- The buffers those operations write, in order: one each. -/
abbrev W5 : List (Ref sig .tc) := [main_v107, main_v108, main_v109, main_v110]

theorem ops5_writes : (ops5 : List (HloOp τ sig (Elt F))).Forall fun op => op.writes ⊆ (W5.map (Proc.devRef (τ := τ) .tc)).toFinset := by
  simp only [ops5, List.Forall, unary_writes, reshape_writes, nullary_writes, binary_writes, ternary_writes, nary_writes]
  refine ⟨?_, ?_, ?_, ?_⟩ <;> exact single_sub_of_mem (by decide)

/-- A buffer none of them writes holds after them what it held before. -/
theorem keep5 (V : Valuation τ sig (Elt F)) {r : Ref sig .tc} (hr : r ∉ W5) :
    after ops5 V (Proc.devRef .tc r) = V (Proc.devRef .tc r) :=
  after_of_writes_sub ops5 V ops5_writes hr

/-- Operations 136 to 173 of @main: the gate rows normalised, their logistic function, and the gated edge rows (%111 – %141). -/
abbrev ops6 : List (HloOp τ sig (Elt F)) :=
  [ nullary main_cst_11 (constant S_ .f32 0x00000000#32),
    binary main_v110 main_cst_11 main_v111 ((fun x v => Host.reduceAdd x v reducesTo_S400000x64_S400000_d1 h_S_) : (⟨S400000x64, .f32⟩ : BufTy).Contents (Elt F) → (⟨S_, .f32⟩ : BufTy).Contents (Elt F) → (⟨S400000, .f32⟩ : BufTy).Contents (Elt F)),
    unary main_v111 main_v112 (broadcastInDim S400000x1 ![0] bcast_S400000_S400000x1_0 : (⟨S400000, .f32⟩ : BufTy).Contents (Elt F) → (⟨S400000x1, .f32⟩ : BufTy).Contents (Elt F)),
    nullary main_cst_12 (constant S_ .f32 0x42800000#32),
    unary main_cst_12 main_v113 (broadcastInDim S400000x1 ![] bcast_S_S400000x1 : (⟨S_, .f32⟩ : BufTy).Contents (Elt F) → (⟨S400000x1, .f32⟩ : BufTy).Contents (Elt F)),
    binary main_v112 main_v113 main_v114 (Host.divf : (⟨S400000x1, .f32⟩ : BufTy).Contents (Elt F) → (⟨S400000x1, .f32⟩ : BufTy).Contents (Elt F) → (⟨S400000x1, .f32⟩ : BufTy).Contents (Elt F)),
    unary main_v114 main_v115 (broadcastInDim S400000x64 ![0, 1] bcast_S400000x1_S400000x64_0_1 : (⟨S400000x1, .f32⟩ : BufTy).Contents (Elt F) → (⟨S400000x64, .f32⟩ : BufTy).Contents (Elt F)),
    binary main_v110 main_v115 main_v116 (subf : (⟨S400000x64, .f32⟩ : BufTy).Contents (Elt F) → (⟨S400000x64, .f32⟩ : BufTy).Contents (Elt F) → (⟨S400000x64, .f32⟩ : BufTy).Contents (Elt F)),
    binary main_v116 main_v116 main_v117 (mulf : (⟨S400000x64, .f32⟩ : BufTy).Contents (Elt F) → (⟨S400000x64, .f32⟩ : BufTy).Contents (Elt F) → (⟨S400000x64, .f32⟩ : BufTy).Contents (Elt F)),
    nullary main_cst_13 (constant S_ .f32 0x00000000#32),
    binary main_v117 main_cst_13 main_v118 ((fun x v => Host.reduceAdd x v reducesTo_S400000x64_S400000_d1 h_S_) : (⟨S400000x64, .f32⟩ : BufTy).Contents (Elt F) → (⟨S_, .f32⟩ : BufTy).Contents (Elt F) → (⟨S400000, .f32⟩ : BufTy).Contents (Elt F)),
    unary main_v118 main_v119 (broadcastInDim S400000x1 ![0] bcast_S400000_S400000x1_0 : (⟨S400000, .f32⟩ : BufTy).Contents (Elt F) → (⟨S400000x1, .f32⟩ : BufTy).Contents (Elt F)),
    nullary main_cst_14 (constant S_ .f32 0x42800000#32),
    unary main_cst_14 main_v120 (broadcastInDim S400000x1 ![] bcast_S_S400000x1 : (⟨S_, .f32⟩ : BufTy).Contents (Elt F) → (⟨S400000x1, .f32⟩ : BufTy).Contents (Elt F)),
    binary main_v119 main_v120 main_v121 (Host.divf : (⟨S400000x1, .f32⟩ : BufTy).Contents (Elt F) → (⟨S400000x1, .f32⟩ : BufTy).Contents (Elt F) → (⟨S400000x1, .f32⟩ : BufTy).Contents (Elt F)),
    unary main_v114 main_v122 (broadcastInDim S400000x64 ![0, 1] bcast_S400000x1_S400000x64_0_1 : (⟨S400000x1, .f32⟩ : BufTy).Contents (Elt F) → (⟨S400000x64, .f32⟩ : BufTy).Contents (Elt F)),
    binary main_v110 main_v122 main_v123 (subf : (⟨S400000x64, .f32⟩ : BufTy).Contents (Elt F) → (⟨S400000x64, .f32⟩ : BufTy).Contents (Elt F) → (⟨S400000x64, .f32⟩ : BufTy).Contents (Elt F)),
    nullary main_cst_15 (constant S_ .f32 0x3727C5AC#32),
    unary main_cst_15 main_v124 (broadcastInDim S400000x1 ![] bcast_S_S400000x1 : (⟨S_, .f32⟩ : BufTy).Contents (Elt F) → (⟨S400000x1, .f32⟩ : BufTy).Contents (Elt F)),
    binary main_v121 main_v124 main_v125 (addf : (⟨S400000x1, .f32⟩ : BufTy).Contents (Elt F) → (⟨S400000x1, .f32⟩ : BufTy).Contents (Elt F) → (⟨S400000x1, .f32⟩ : BufTy).Contents (Elt F)),
    unary main_v125 main_v126 (Host.rsqrt : (⟨S400000x1, .f32⟩ : BufTy).Contents (Elt F) → (⟨S400000x1, .f32⟩ : BufTy).Contents (Elt F)),
    unary main_v126 main_v127 (broadcastInDim S400000x64 ![0, 1] bcast_S400000x1_S400000x64_0_1 : (⟨S400000x1, .f32⟩ : BufTy).Contents (Elt F) → (⟨S400000x64, .f32⟩ : BufTy).Contents (Elt F)),
    binary main_v123 main_v127 main_v128 (mulf : (⟨S400000x64, .f32⟩ : BufTy).Contents (Elt F) → (⟨S400000x64, .f32⟩ : BufTy).Contents (Elt F) → (⟨S400000x64, .f32⟩ : BufTy).Contents (Elt F)),
    unary main_arg19 main_v129 (broadcastInDim S1x64 ![1] bcast_S64_S1x64_1 : (⟨S64, .f32⟩ : BufTy).Contents (Elt F) → (⟨S1x64, .f32⟩ : BufTy).Contents (Elt F)),
    unary main_v129 main_v130 (broadcastInDim S400000x64 ![0, 1] bcast_S1x64_S400000x64_0_1 : (⟨S1x64, .f32⟩ : BufTy).Contents (Elt F) → (⟨S400000x64, .f32⟩ : BufTy).Contents (Elt F)),
    binary main_v128 main_v130 main_v131 (mulf : (⟨S400000x64, .f32⟩ : BufTy).Contents (Elt F) → (⟨S400000x64, .f32⟩ : BufTy).Contents (Elt F) → (⟨S400000x64, .f32⟩ : BufTy).Contents (Elt F)),
    unary main_arg20 main_v132 (broadcastInDim S1x64 ![1] bcast_S64_S1x64_1 : (⟨S64, .f32⟩ : BufTy).Contents (Elt F) → (⟨S1x64, .f32⟩ : BufTy).Contents (Elt F)),
    unary main_v132 main_v133 (broadcastInDim S400000x64 ![0, 1] bcast_S1x64_S400000x64_0_1 : (⟨S1x64, .f32⟩ : BufTy).Contents (Elt F) → (⟨S400000x64, .f32⟩ : BufTy).Contents (Elt F)),
    binary main_v131 main_v133 main_v134 (addf : (⟨S400000x64, .f32⟩ : BufTy).Contents (Elt F) → (⟨S400000x64, .f32⟩ : BufTy).Contents (Elt F) → (⟨S400000x64, .f32⟩ : BufTy).Contents (Elt F)),
    unary main_v134 main_v135 (Host.negf : (⟨S400000x64, .f32⟩ : BufTy).Contents (Elt F) → (⟨S400000x64, .f32⟩ : BufTy).Contents (Elt F)),
    unary main_v135 main_v136 (Host.exp : (⟨S400000x64, .f32⟩ : BufTy).Contents (Elt F) → (⟨S400000x64, .f32⟩ : BufTy).Contents (Elt F)),
    nullary main_cst_16 (constant S_ .f32 0x3F800000#32),
    unary main_cst_16 main_v137 (broadcastInDim S400000x64 ![] bcast_S_S400000x64 : (⟨S_, .f32⟩ : BufTy).Contents (Elt F) → (⟨S400000x64, .f32⟩ : BufTy).Contents (Elt F)),
    binary main_v137 main_v136 main_v138 (addf : (⟨S400000x64, .f32⟩ : BufTy).Contents (Elt F) → (⟨S400000x64, .f32⟩ : BufTy).Contents (Elt F) → (⟨S400000x64, .f32⟩ : BufTy).Contents (Elt F)),
    nullary main_cst_17 (constant S_ .f32 0x3F800000#32),
    unary main_cst_17 main_v139 (broadcastInDim S400000x64 ![] bcast_S_S400000x64 : (⟨S_, .f32⟩ : BufTy).Contents (Elt F) → (⟨S400000x64, .f32⟩ : BufTy).Contents (Elt F)),
    binary main_v139 main_v138 main_v140 (Host.divf : (⟨S400000x64, .f32⟩ : BufTy).Contents (Elt F) → (⟨S400000x64, .f32⟩ : BufTy).Contents (Elt F) → (⟨S400000x64, .f32⟩ : BufTy).Contents (Elt F)),
    binary main_v83 main_v140 main_v141 (mulf : (⟨S400000x64, .f32⟩ : BufTy).Contents (Elt F) → (⟨S400000x64, .f32⟩ : BufTy).Contents (Elt F) → (⟨S400000x64, .f32⟩ : BufTy).Contents (Elt F)) ]

theorem ops6_sub : (ops6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub ..⟩

theorem ops6_fresh : ∀ op ∈ (ops6 : List (HloOp τ sig (Elt F))), op.fresh = ∅ := by
  intro _ h; (repeat (cases h with | head => rfl | tail _ h => ?_)); exact nomatch h

/-- The buffers those operations write, in order: one each. -/
abbrev W6 : List (Ref sig .tc) := [main_cst_11, main_v111, main_v112, main_cst_12, main_v113, main_v114, main_v115, main_v116, main_v117, main_cst_13, main_v118, main_v119, main_cst_14, main_v120, main_v121, main_v122, main_v123, main_cst_15, main_v124, main_v125, main_v126, main_v127, main_v128, main_v129, main_v130, main_v131, main_v132, main_v133, main_v134, main_v135, main_v136, main_cst_16, main_v137, main_v138, main_cst_17, main_v139, main_v140, main_v141]

theorem ops6_writes : (ops6 : List (HloOp τ sig (Elt F))).Forall fun op => op.writes ⊆ (W6.map (Proc.devRef (τ := τ) .tc)).toFinset := by
  simp only [ops6, List.Forall, unary_writes, reshape_writes, nullary_writes, binary_writes, ternary_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> exact single_sub_of_mem (by decide)

/-- A buffer none of them writes holds after them what it held before. -/
theorem keep6 (V : Valuation τ sig (Elt F)) {r : Ref sig .tc} (hr : r ∉ W6) :
    after ops6 V (Proc.devRef .tc r) = V (Proc.devRef .tc r) :=
  after_of_writes_sub ops6 V ops6_writes hr

/-- Operations 174 to 186 of @main: the gated edge rows summed into their target nodes, and the graph features gathered per node (%142 – %151). -/
abbrev ops7 : List (HloOp τ sig (Elt F)) :=
  [ nullary main_cst_18 (constant S_ .f32 0x00000000#32),
    unary main_cst_18 main_v142 (broadcastInDim S50000x64 ![] bcast_S_S50000x64 : (⟨S_, .f32⟩ : BufTy).Contents (Elt F) → (⟨S50000x64, .f32⟩ : BufTy).Contents (Elt F)),
    unary main_v3 main_v143 (broadcastInDim S400000x1 ![0] bcast_S400000_S400000x1_0 : (⟨S400000, .i32⟩ : BufTy).Contents (Elt F) → (⟨S400000x1, .i32⟩ : BufTy).Contents (Elt F)),
    ternary main_v142 main_v143 main_v141 main_v144 ((fun x i u => Host.scatterAdd scatter_S50000x64_S400000x1_S400000x64_1_0_0_1 x i u) : (⟨S50000x64, .f32⟩ : BufTy).Contents (Elt F) → (⟨S400000x1, .i32⟩ : BufTy).Contents (Elt F) → (⟨S400000x64, .f32⟩ : BufTy).Contents (Elt F) → (⟨S50000x64, .f32⟩ : BufTy).Contents (Elt F)),
    nullary main_c_19 (constantI S_ 32 0#32),
    unary main_c_19 main_v145 (broadcastInDim S50000 ![] bcast_S_S50000 : (⟨S_, .i32⟩ : BufTy).Contents (Elt F) → (⟨S50000, .i32⟩ : BufTy).Contents (Elt F)),
    binary main_arg4 main_v145 main_v146 (cmpi .slt : (⟨S50000, .i32⟩ : BufTy).Contents (Elt F) → (⟨S50000, .i32⟩ : BufTy).Contents (Elt F) → (⟨S50000, .i1⟩ : BufTy).Contents (Elt F)),
    nullary main_c_20 (constantI S_ 32 64#32),
    unary main_c_20 main_v147 (broadcastInDim S50000 ![] bcast_S_S50000 : (⟨S_, .i32⟩ : BufTy).Contents (Elt F) → (⟨S50000, .i32⟩ : BufTy).Contents (Elt F)),
    binary main_arg4 main_v147 main_v148 (addi : (⟨S50000, .i32⟩ : BufTy).Contents (Elt F) → (⟨S50000, .i32⟩ : BufTy).Contents (Elt F) → (⟨S50000, .i32⟩ : BufTy).Contents (Elt F)),
    ternary main_v146 main_v148 main_arg4 main_v149 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v149 main_v150 (broadcastInDim S50000x1 ![0] bcast_S50000_S50000x1_0 : (⟨S50000, .i32⟩ : BufTy).Contents (Elt F) → (⟨S50000x1, .i32⟩ : BufTy).Contents (Elt F)),
    binary main_arg2 main_v150 main_v151 ((fun x i => Host.gather gather_S64x16_S50000x1_S50000x16_1_0_n_n_0_1_116 x i) : (⟨S64x16, .f32⟩ : BufTy).Contents (Elt F) → (⟨S50000x1, .i32⟩ : BufTy).Contents (Elt F) → (⟨S50000x16, .f32⟩ : BufTy).Contents (Elt F)) ]

theorem ops7_sub : (ops7 : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩

theorem ops7_fresh : ∀ op ∈ (ops7 : List (HloOp τ sig (Elt F))), op.fresh = ∅ := by
  intro _ h; (repeat (cases h with | head => rfl | tail _ h => ?_)); exact nomatch h

/-- The buffers those operations write, in order: one each. -/
abbrev W7 : List (Ref sig .tc) := [main_cst_18, main_v142, main_v143, main_v144, main_c_19, main_v145, main_v146, main_c_20, main_v147, main_v148, main_v149, main_v150, main_v151]

theorem ops7_writes : (ops7 : List (HloOp τ sig (Elt F))).Forall fun op => op.writes ⊆ (W7.map (Proc.devRef (τ := τ) .tc)).toFinset := by
  simp only [ops7, List.Forall, unary_writes, reshape_writes, nullary_writes, binary_writes, ternary_writes, nary_writes]
  refine ⟨?_, ?_, ?_, ?_, ?_, ?_, ?_, ?_, ?_, ?_, ?_, ?_, ?_⟩ <;> exact single_sub_of_mem (by decide)

/-- A buffer none of them writes holds after them what it held before. -/
theorem keep7 (V : Valuation τ sig (Elt F)) {r : Ref sig .tc} (hr : r ∉ W7) :
    after ops7 V (Proc.devRef .tc r) = V (Proc.devRef .tc r) :=
  after_of_writes_sub ops7 V ops7_writes hr

/-- Operations 187 to 191 of @main: the node rows' three pieces side by side and the node perceptron's first layer (%152 – %156). -/
abbrev ops8 : List (HloOp τ sig (Elt F)) :=
  [ nary ![main_arg0, main_v144, main_v151] main_v152 (fun u => concatenate S50000x144 1 [⟨S50000x64, u 0⟩, ⟨S50000x64, u 1⟩, ⟨S50000x16, u 2⟩] concatenates_S50000x64_S50000x64_S50000x16_S50000x144_d1),
    binary main_v152 main_arg21 main_v153 ((fun l r => Host.dotGeneral dot_S50000x144_S144x128_S50000x128_1_0_0_1_n_n none l r) : (⟨S50000x144, .f32⟩ : BufTy).Contents (Elt F) → (⟨S144x128, .f32⟩ : BufTy).Contents (Elt F) → (⟨S50000x128, .f32⟩ : BufTy).Contents (Elt F)),
    unary main_arg22 main_v154 (broadcastInDim S1x128 ![1] bcast_S128_S1x128_1 : (⟨S128, .f32⟩ : BufTy).Contents (Elt F) → (⟨S1x128, .f32⟩ : BufTy).Contents (Elt F)),
    unary main_v154 main_v155 (broadcastInDim S50000x128 ![0, 1] bcast_S1x128_S50000x128_0_1 : (⟨S1x128, .f32⟩ : BufTy).Contents (Elt F) → (⟨S50000x128, .f32⟩ : BufTy).Contents (Elt F)),
    binary main_v153 main_v155 main_v156 (addf : (⟨S50000x128, .f32⟩ : BufTy).Contents (Elt F) → (⟨S50000x128, .f32⟩ : BufTy).Contents (Elt F) → (⟨S50000x128, .f32⟩ : BufTy).Contents (Elt F)) ]

theorem ops8_sub : (ops8 : List (HloOp τ sig (Elt F))).Forall fun op => op.bufs ⊆ tcRefs τ sig :=
  ⟨nary_bufs_sub .., binary_bufs_sub .., unary_bufs_sub .., unary_bufs_sub .., binary_bufs_sub ..⟩

theorem ops8_fresh : ∀ op ∈ (ops8 : List (HloOp τ sig (Elt F))), op.fresh = ∅ := by
  intro _ h; (repeat (cases h with | head => rfl | tail _ h => ?_)); exact nomatch h

/-- The buffers those operations write, in order: one each. -/
abbrev W8 : List (Ref sig .tc) := [main_v152, main_v153, main_v154, main_v155, main_v156]

theorem ops8_writes : (ops8 : List (HloOp τ sig (Elt F))).Forall fun op => op.writes ⊆ (W8.map (Proc.devRef (τ := τ) .tc)).toFinset := by
  simp only [ops8, List.Forall, unary_writes, reshape_writes, nullary_writes, binary_writes, ternary_writes, nary_writes]
  refine ⟨?_, ?_, ?_, ?_, ?_⟩ <;> exact single_sub_of_mem (by decide)

/-- A buffer none of them writes holds after them what it held before. -/
theorem keep8 (V : Valuation τ sig (Elt F)) {r : Ref sig .tc} (hr : r ∉ W8) :
    after ops8 V (Proc.devRef .tc r) = V (Proc.devRef .tc r) :=
  after_of_writes_sub ops8 V ops8_writes hr

set_option maxRecDepth 8192 in
set_option maxHeartbeats 1000000 in
/-- Window 2 of @main is the line of its pieces' operations. -/
theorem main_part2_eq (c : Dev nD) : main_part2 (F := F) c = seq (ops5 ++ ops6 ++ ops7 ++ ops8) := by chain_rfl

end Cert.ReferenceIdeal.HandRun

end
-- ==== Proof.RefRunD.lean ====
/-
  The reference's run, window 3 of @main: its operations in 2 consecutive pieces, and for each piece the
  buffers it touches, that it allocates nothing, and the buffers it writes: a buffer a piece does not write holds
  after the piece what it held before.
-/
import proofs.«404949_j85100482003175_1_alg».proof.Proof.Gen.ReferenceIdeal
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The buffer of a reference that is in a list is in the set of the list's buffers. -/
private theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Operations 192 to 220 of @main: the node perceptron's hidden and output layers (%157 – %179). -/
abbrev ops9 : List (HloOp τ sig (Elt F)) :=
  [ TRef.nullary (TRef.of (T := ⟨S_, .f32⟩) main_call6_cst) (constant S_ .f32 0x00000000#32),
    TRef.unary (TRef.of (T := ⟨S_, .f32⟩) main_call6_cst) (TRef.of (T := ⟨S50000x128, .f32⟩) main_call6_v0) (broadcastInDim S50000x128 ![] bcast_S_S50000x128),
    TRef.binary (TRef.of (T := ⟨S50000x128, .f32⟩) main_v156) (TRef.of (T := ⟨S50000x128, .f32⟩) main_call6_v0) (TRef.of (T := ⟨S50000x128, .f32⟩) main_v157) maximumf,
    unary main_arg23 main_v158 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v158 main_v159 rfl shapeCasts_S1x128x128_S128x128,
    binary main_v157 main_v159 main_v160 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg24 main_v161 ((extractStridedSlice S1x128 ![0, 0] · slices_S2x128_S1x128_0_0) : (⟨S2x128, .f32⟩ : BufTy).Contents (Elt F) → (⟨S1x128, .f32⟩ : BufTy).Contents (Elt F)),
    reshape main_v161 main_v162 rfl shapeCasts_S1x128_S128,
    unary main_v162 main_v163 (broadcastInDim S1x128 ![1] bcast_S128_S1x128_1 : (⟨S128, .f32⟩ : BufTy).Contents (Elt F) → (⟨S1x128, .f32⟩ : BufTy).Contents (Elt F)),
    unary main_v163 main_v164 (broadcastInDim S50000x128 ![0, 1] bcast_S1x128_S50000x128_0_1 : (⟨S1x128, .f32⟩ : BufTy).Contents (Elt F) → (⟨S50000x128, .f32⟩ : BufTy).Contents (Elt F)),
    binary main_v160 main_v164 main_v165 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v165) (TRef.of (T := ⟨S50000x128, .f32⟩) main_call7_v0) (TRef.of (T := ⟨S50000x128, .f32⟩) main_v166) maximumf,
    unary main_arg23 main_v167 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v167 main_v168 rfl shapeCasts_S1x128x128_S128x128,
    binary main_v166 main_v168 main_v169 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg24 main_v170 ((extractStridedSlice S1x128 ![1, 0] · slices_S2x128_S1x128_1_0) : (⟨S2x128, .f32⟩ : BufTy).Contents (Elt F) → (⟨S1x128, .f32⟩ : BufTy).Contents (Elt F)),
    reshape main_v170 main_v171 rfl shapeCasts_S1x128_S128,
    unary main_v171 main_v172 (broadcastInDim S1x128 ![1] bcast_S128_S1x128_1 : (⟨S128, .f32⟩ : BufTy).Contents (Elt F) → (⟨S1x128, .f32⟩ : BufTy).Contents (Elt F)),
    unary main_v172 main_v173 (broadcastInDim S50000x128 ![0, 1] bcast_S1x128_S50000x128_0_1 : (⟨S1x128, .f32⟩ : BufTy).Contents (Elt F) → (⟨S50000x128, .f32⟩ : BufTy).Contents (Elt F)),
    binary main_v169 main_v173 main_v174 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S50000x128, .f32⟩) main_call8_v0) (broadcastInDim S50000x128 ![] bcast_S_S50000x128),
    TRef.binary (TRef.of (T := ⟨S50000x128, .f32⟩) main_v174) (TRef.of (T := ⟨S50000x128, .f32⟩) main_call8_v0) (TRef.of (T := ⟨S50000x128, .f32⟩) main_v175) maximumf,
    binary main_v175 main_arg25 main_v176 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg26 main_v177 (broadcastInDim S1x64 ![1] bcast_S64_S1x64_1 : (⟨S64, .f32⟩ : BufTy).Contents (Elt F) → (⟨S1x64, .f32⟩ : BufTy).Contents (Elt F)),
    unary main_v177 main_v178 (broadcastInDim S50000x64 ![0, 1] bcast_S1x64_S50000x64_0_1 : (⟨S1x64, .f32⟩ : BufTy).Contents (Elt F) → (⟨S50000x64, .f32⟩ : BufTy).Contents (Elt F)),
    binary main_v176 main_v178 main_v179 (addf : (⟨S50000x64, .f32⟩ : BufTy).Contents (Elt F) → (⟨S50000x64, .f32⟩ : BufTy).Contents (Elt F) → (⟨S50000x64, .f32⟩ : BufTy).Contents (Elt F)) ]

theorem ops9_sub : (ops9 : List (HloOp τ sig (Elt F))).Forall fun op => op.bufs ⊆ tcRefs τ sig :=
  ⟨nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops9_fresh : ∀ op ∈ (ops9 : List (HloOp τ sig (Elt F))), op.fresh = ∅ := by
  intro _ h; (repeat (cases h with | head => rfl | tail _ h => ?_)); exact nomatch h

/-- The buffers those operations write, in order: one each. -/
abbrev W9 : List (Ref sig .tc) := [main_call6_cst, main_call6_v0, main_v157, main_v158, main_v159, main_v160, main_v161, main_v162, main_v163, main_v164, main_v165, main_call7_cst, main_call7_v0, main_v166, main_v167, main_v168, main_v169, main_v170, main_v171, main_v172, main_v173, main_v174, main_call8_cst, main_call8_v0, main_v175, main_v176, main_v177, main_v178, main_v179]

theorem ops9_writes : (ops9 : List (HloOp τ sig (Elt F))).Forall fun op => op.writes ⊆ (W9.map (Proc.devRef (τ := τ) .tc)).toFinset := by
  simp only [ops9, List.Forall, unary_writes, reshape_writes, nullary_writes, binary_writes, ternary_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact single_sub_of_mem (by decide)

/-- A buffer none of them writes holds after them what it held before. -/
theorem keep9 (V : Valuation τ sig (Elt F)) {r : Ref sig .tc} (hr : r ∉ W9) :
    after ops9 V (Proc.devRef .tc r) = V (Proc.devRef .tc r) :=
  after_of_writes_sub ops9 V ops9_writes hr

/-- Operations 221 to 249 of @main: the node rows normalised by their mean and variance (%180 – %203). -/
abbrev ops10 : List (HloOp τ sig (Elt F)) :=
  [ nullary main_cst_21 (constant S_ .f32 0x00000000#32),
    binary main_v179 main_cst_21 main_v180 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v180 main_v181 (broadcastInDim S50000x1 ![0] bcast_S50000_S50000x1_0 : (⟨S50000, .f32⟩ : BufTy).Contents (Elt F) → (⟨S50000x1, .f32⟩ : BufTy).Contents (Elt F)),
    nullary main_cst_22 (constant S_ .f32 0x42800000#32),
    unary main_cst_22 main_v182 (broadcastInDim S50000x1 ![] bcast_S_S50000x1 : (⟨S_, .f32⟩ : BufTy).Contents (Elt F) → (⟨S50000x1, .f32⟩ : BufTy).Contents (Elt F)),
    binary main_v181 main_v182 main_v183 (Host.divf : (⟨S50000x1, .f32⟩ : BufTy).Contents (Elt F) → (⟨S50000x1, .f32⟩ : BufTy).Contents (Elt F) → (⟨S50000x1, .f32⟩ : BufTy).Contents (Elt F)),
    unary main_v183 main_v184 (broadcastInDim S50000x64 ![0, 1] bcast_S50000x1_S50000x64_0_1 : (⟨S50000x1, .f32⟩ : BufTy).Contents (Elt F) → (⟨S50000x64, .f32⟩ : BufTy).Contents (Elt F)),
    binary main_v179 main_v184 main_v185 (subf : (⟨S50000x64, .f32⟩ : BufTy).Contents (Elt F) → (⟨S50000x64, .f32⟩ : BufTy).Contents (Elt F) → (⟨S50000x64, .f32⟩ : BufTy).Contents (Elt F)),
    binary main_v185 main_v185 main_v186 (mulf : (⟨S50000x64, .f32⟩ : BufTy).Contents (Elt F) → (⟨S50000x64, .f32⟩ : BufTy).Contents (Elt F) → (⟨S50000x64, .f32⟩ : BufTy).Contents (Elt F)),
    nullary main_cst_23 (constant S_ .f32 0x00000000#32),
    binary main_v186 main_cst_23 main_v187 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v187 main_v188 (broadcastInDim S50000x1 ![0] bcast_S50000_S50000x1_0 : (⟨S50000, .f32⟩ : BufTy).Contents (Elt F) → (⟨S50000x1, .f32⟩ : BufTy).Contents (Elt F)),
    nullary main_cst_24 (constant S_ .f32 0x42800000#32),
    unary main_cst_24 main_v189 (broadcastInDim S50000x1 ![] bcast_S_S50000x1 : (⟨S_, .f32⟩ : BufTy).Contents (Elt F) → (⟨S50000x1, .f32⟩ : BufTy).Contents (Elt F)),
    binary main_v188 main_v189 main_v190 (Host.divf : (⟨S50000x1, .f32⟩ : BufTy).Contents (Elt F) → (⟨S50000x1, .f32⟩ : BufTy).Contents (Elt F) → (⟨S50000x1, .f32⟩ : BufTy).Contents (Elt F)),
    unary main_v183 main_v191 (broadcastInDim S50000x64 ![0, 1] bcast_S50000x1_S50000x64_0_1 : (⟨S50000x1, .f32⟩ : BufTy).Contents (Elt F) → (⟨S50000x64, .f32⟩ : BufTy).Contents (Elt F)),
    binary main_v179 main_v191 main_v192 (subf : (⟨S50000x64, .f32⟩ : BufTy).Contents (Elt F) → (⟨S50000x64, .f32⟩ : BufTy).Contents (Elt F) → (⟨S50000x64, .f32⟩ : BufTy).Contents (Elt F)),
    nullary main_cst_25 (constant S_ .f32 0x3727C5AC#32),
    unary main_cst_25 main_v193 (broadcastInDim S50000x1 ![] bcast_S_S50000x1 : (⟨S_, .f32⟩ : BufTy).Contents (Elt F) → (⟨S50000x1, .f32⟩ : BufTy).Contents (Elt F)),
    binary main_v190 main_v193 main_v194 (addf : (⟨S50000x1, .f32⟩ : BufTy).Contents (Elt F) → (⟨S50000x1, .f32⟩ : BufTy).Contents (Elt F) → (⟨S50000x1, .f32⟩ : BufTy).Contents (Elt F)),
    unary main_v194 main_v195 (Host.rsqrt : (⟨S50000x1, .f32⟩ : BufTy).Contents (Elt F) → (⟨S50000x1, .f32⟩ : BufTy).Contents (Elt F)),
    unary main_v195 main_v196 (broadcastInDim S50000x64 ![0, 1] bcast_S50000x1_S50000x64_0_1 : (⟨S50000x1, .f32⟩ : BufTy).Contents (Elt F) → (⟨S50000x64, .f32⟩ : BufTy).Contents (Elt F)),
    binary main_v192 main_v196 main_v197 (mulf : (⟨S50000x64, .f32⟩ : BufTy).Contents (Elt F) → (⟨S50000x64, .f32⟩ : BufTy).Contents (Elt F) → (⟨S50000x64, .f32⟩ : BufTy).Contents (Elt F)),
    unary main_arg27 main_v198 (broadcastInDim S1x64 ![1] bcast_S64_S1x64_1 : (⟨S64, .f32⟩ : BufTy).Contents (Elt F) → (⟨S1x64, .f32⟩ : BufTy).Contents (Elt F)),
    unary main_v198 main_v199 (broadcastInDim S50000x64 ![0, 1] bcast_S1x64_S50000x64_0_1 : (⟨S1x64, .f32⟩ : BufTy).Contents (Elt F) → (⟨S50000x64, .f32⟩ : BufTy).Contents (Elt F)),
    binary main_v197 main_v199 main_v200 (mulf : (⟨S50000x64, .f32⟩ : BufTy).Contents (Elt F) → (⟨S50000x64, .f32⟩ : BufTy).Contents (Elt F) → (⟨S50000x64, .f32⟩ : BufTy).Contents (Elt F)),
    unary main_arg28 main_v201 (broadcastInDim S1x64 ![1] bcast_S64_S1x64_1 : (⟨S64, .f32⟩ : BufTy).Contents (Elt F) → (⟨S1x64, .f32⟩ : BufTy).Contents (Elt F)),
    unary main_v201 main_v202 (broadcastInDim S50000x64 ![0, 1] bcast_S1x64_S50000x64_0_1 : (⟨S1x64, .f32⟩ : BufTy).Contents (Elt F) → (⟨S50000x64, .f32⟩ : BufTy).Contents (Elt F)),
    binary main_v200 main_v202 main_v203 (addf : (⟨S50000x64, .f32⟩ : BufTy).Contents (Elt F) → (⟨S50000x64, .f32⟩ : BufTy).Contents (Elt F) → (⟨S50000x64, .f32⟩ : BufTy).Contents (Elt F)) ]

theorem ops10_sub : (ops10 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops10_fresh : ∀ op ∈ (ops10 : List (HloOp τ sig (Elt F))), op.fresh = ∅ := by
  intro _ h; (repeat (cases h with | head => rfl | tail _ h => ?_)); exact nomatch h

/-- The buffers those operations write, in order: one each. -/
abbrev W10 : List (Ref sig .tc) := [main_cst_21, main_v180, main_v181, main_cst_22, main_v182, main_v183, main_v184, main_v185, main_v186, main_cst_23, main_v187, main_v188, main_cst_24, main_v189, main_v190, main_v191, main_v192, main_cst_25, main_v193, main_v194, main_v195, main_v196, main_v197, main_v198, main_v199, main_v200, main_v201, main_v202, main_v203]

theorem ops10_writes : (ops10 : List (HloOp τ sig (Elt F))).Forall fun op => op.writes ⊆ (W10.map (Proc.devRef (τ := τ) .tc)).toFinset := by
  simp only [ops10, List.Forall, unary_writes, reshape_writes, nullary_writes, binary_writes, ternary_writes, nary_writes]
  refine ⟨?_, ?_, ?_, ?_, ?_, ?_, ?_, ?_, ?_, ?_, ?_, ?_, ?_, ?_, ?_, ?_, ?_, ?_, ?_, ?_, ?_, ?_, ?_, ?_, ?_, ?_, ?_, ?_, ?_⟩ <;> exact single_sub_of_mem (by decide)

/-- A buffer none of them writes holds after them what it held before. -/
theorem keep10 (V : Valuation τ sig (Elt F)) {r : Ref sig .tc} (hr : r ∉ W10) :
    after ops10 V (Proc.devRef .tc r) = V (Proc.devRef .tc r) :=
  after_of_writes_sub ops10 V ops10_writes hr

set_option maxRecDepth 8192 in
set_option maxHeartbeats 1000000 in
/-- Window 3 of @main is the line of its pieces' operations. -/
theorem main_part3_eq (c : Dev nD) : main_part3 (F := F) c = seq (ops9 ++ ops10) := by chain_rfl

end Cert.ReferenceIdeal.HandRun

end
-- ==== Proof.RefRunR0.lean ====
/-
  The reference's run, first piece: the edge list read and the rows gathered by it (operations 0 to 39 of @main,
  %0 – %31).

  The piece reads the edge list (argument 3, two rows of 400000 node numbers), the graph number of each node
  (argument 4), the node features (argument 0) and the graph features (argument 2). It takes the edge list's first
  row as the edges' sources and its second row as their targets (%1, %3); a negative node number has 50000 added,
  and so does a negative graph number with 64; then it gathers, edge by edge, the source node's feature row (%17),
  the target node's feature row (%24), and the feature row of the graph the source node belongs to (%31, through the
  source's graph number %10). If the buffers hold those four arguments before the piece, then after it the buffers
  %3, %17, %24 and %31 hold the stages of the same names: each operation puts in its own buffer its function of the
  buffers it reads, no buffer is written twice, and the stages compose the same functions in the same order, so the
  two sides are one term once the arguments are named.
-/
import proofs.«404949_j85100482003175_1_alg».proof.Proof.RefRunA
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After the first piece the buffer %3 holds the edges' targets: the edge list's second row. -/
theorem res0_v3 (V : Valuation τ sig (Elt F))
    (h3 : V (Proc.devRef .tc main_arg3) = x3) :
    after ops0 V (Proc.devRef .tc main_v3) = val_main_v3 (F := F) x3 := by
  after_results_simp
  rw [h3]
  rfl

set_option maxRecDepth 8192 in
set_option maxHeartbeats 1000000 in
/-- After the first piece the buffer %17 holds each edge's source node's feature row. -/
theorem res0_v17 (V : Valuation τ sig (Elt F))
    (h3 : V (Proc.devRef .tc main_arg3) = x3) (h0 : V (Proc.devRef .tc main_arg0) = x0) :
    after ops0 V (Proc.devRef .tc main_v17) = val_main_v17 (F := F) x0 x3 := by
  after_results_simp
  rw [h3, h0]
  rfl

set_option maxRecDepth 8192 in
set_option maxHeartbeats 1000000 in
/-- After the first piece the buffer %24 holds each edge's target node's feature row. -/
theorem res0_v24 (V : Valuation τ sig (Elt F))
    (h3 : V (Proc.devRef .tc main_arg3) = x3) (h0 : V (Proc.devRef .tc main_arg0) = x0) :
    after ops0 V (Proc.devRef .tc main_v24) = val_main_v24 (F := F) x0 x3 := by
  after_results_simp
  rw [h3, h0]
  rfl

set_option maxRecDepth 8192 in
set_option maxHeartbeats 1000000 in
/-- After the first piece the buffer %31 holds, for each edge, the feature row of its source node's graph. -/
theorem res0_v31 (V : Valuation τ sig (Elt F))
    (h3 : V (Proc.devRef .tc main_arg3) = x3) (h4 : V (Proc.devRef .tc main_arg4) = x4)
    (h2 : V (Proc.devRef .tc main_arg2) = x2) :
    after ops0 V (Proc.devRef .tc main_v31) = val_main_v31 (F := F) x2 x3 x4 := by
  after_results_simp
  rw [h3, h4, h2]
  rfl

end Cert.ReferenceIdeal.HandRun

end
-- ==== Proof.RefRunR1.lean ====
/-
  The reference's run, second piece: the edge rows assembled and taken through the edge perceptron's first layer and
  first hidden layer (operations 40 to 63 of @main, %32 – %51).

  The piece sets the source features, the target features, the edge features and the gathered graph features side by
  side into rows of 208 (%32); contracts them against the first-layer matrix, adds the bias row and takes the maximum
  with zero; contracts the result against the first hidden matrix, adds its bias row and takes the maximum with zero
  again; contracts that against the second hidden matrix (%49); and reads the second hidden bias off its stack as a
  vector of 128 (%51). If the buffers hold, before the piece, the stages of the two gathered feature arrays and of the
  gathered graph features and the arguments the piece reads, then after it each of the three buffers holds its stage:
  every operation of the piece puts in its own buffer its function of the buffers it reads, no buffer is written twice,
  and the stages compose the same functions in the same order, so the two sides are one term once the inputs are named.
  The assembled row reads its four operands through a family of four buffers taken at the positions 0 to 3, which are
  the four buffers themselves.
-/
import proofs.«404949_j85100482003175_1_alg».proof.Proof.RefRunA
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After the piece the buffer of the assembled rows holds the four pieces side by side. -/
theorem res1_v32 (V : Valuation τ sig (Elt F))
    (h17 : V (Proc.devRef .tc main_v17) = val_main_v17 (F := F) x0 x3)
    (h24 : V (Proc.devRef .tc main_v24) = val_main_v24 (F := F) x0 x3)
    (h1 : V (Proc.devRef .tc main_arg1) = x1)
    (h31 : V (Proc.devRef .tc main_v31) = val_main_v31 (F := F) x2 x3 x4) :
    after ops1 V (Proc.devRef .tc main_v32) = val_main_v32 (F := F) x0 x1 x2 x3 x4 := by
  after_results_simp
  show concatenate S400000x208 1
      [⟨S400000x64, V (Proc.devRef .tc main_v17)⟩, ⟨S400000x64, V (Proc.devRef .tc main_v24)⟩,
        ⟨S400000x64, V (Proc.devRef .tc main_arg1)⟩, ⟨S400000x16, V (Proc.devRef .tc main_v31)⟩]
      concatenates_S400000x64_S400000x64_S400000x64_S400000x16_S400000x208_d1 = _
  rw [h17, h24, h1, h31]
  rfl

set_option maxRecDepth 8192 in
set_option maxHeartbeats 1000000 in
/-- After the piece the buffer of the second hidden contraction holds the assembled rows taken through the first
    layer, the first hidden layer and the second hidden matrix. -/
theorem res1_v49 (V : Valuation τ sig (Elt F))
    (h17 : V (Proc.devRef .tc main_v17) = val_main_v17 (F := F) x0 x3)
    (h24 : V (Proc.devRef .tc main_v24) = val_main_v24 (F := F) x0 x3)
    (h1 : V (Proc.devRef .tc main_arg1) = x1)
    (h31 : V (Proc.devRef .tc main_v31) = val_main_v31 (F := F) x2 x3 x4)
    (h5 : V (Proc.devRef .tc main_arg5) = x5) (h6 : V (Proc.devRef .tc main_arg6) = x6)
    (h7 : V (Proc.devRef .tc main_arg7) = x7) (h8 : V (Proc.devRef .tc main_arg8) = x8) :
    after ops1 V (Proc.devRef .tc main_v49) = val_main_v49 (F := F) x0 x1 x2 x3 x4 x5 x6 x7 x8 := by
  after_results_simp
  dsimp only [Matrix.cons_val]
  rw [h17, h24, h1, h31, h5, h6, h7, h8]
  (try simp only [TRef.ofBuf, TRef.toBuf, cast_eq])
  rfl

set_option maxRecDepth 8192 in
set_option maxHeartbeats 1000000 in
/-- After the piece the buffer of the second hidden bias holds row 1 of the bias stack as a vector. -/
theorem res1_v51 (V : Valuation τ sig (Elt F))
    (h8 : V (Proc.devRef .tc main_arg8) = x8) :
    after ops1 V (Proc.devRef .tc main_v51) = val_main_v51 (F := F) x8 := by
  after_results_simp
  rw [h8]
  rfl

end Cert.ReferenceIdeal.HandRun

end
-- ==== Proof.RefRunR2.lean ====
/-
  The reference's run, piece 2: operations 64 to 73 of @main (%52 – %59).

  The piece reads a row of 128 (%51) and an array of 400000 rows of 128 (%49), the matrix of argument 9 and the
  vector of argument 10. It adds the row to every row of the array, takes the maximum of every entry with zero,
  contracts each row against the 128 × 64 matrix and adds the vector of 64 to every row of the product. If the
  buffers hold, before the piece, the stages `val_main_v51` and `val_main_v49` of the arguments and those two
  arguments, then after it the result buffer holds the stage `val_main_v59`: every operation of the piece leaves in
  its own buffer its function of the buffers it reads, no buffer is written twice, and the stage composes the same
  functions in the same order.
-/
import proofs.«404949_j85100482003175_1_alg».proof.Proof.RefRunB
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After piece 2 the buffer of %59 holds its stage. -/
theorem res2_v59 (V : Valuation τ sig (Elt F))
    (h51 : V (Proc.devRef .tc main_v51) = val_main_v51 (F := F) x8)
    (h49 : V (Proc.devRef .tc main_v49) = val_main_v49 (F := F) x0 x1 x2 x3 x4 x5 x6 x7 x8)
    (h9 : V (Proc.devRef .tc main_arg9) = x9) (h10 : V (Proc.devRef .tc main_arg10) = x10) :
    after ops2 V (Proc.devRef .tc main_v59) = val_main_v59 (F := F) x0 x1 x2 x3 x4 x5 x6 x7 x8 x9 x10 := by
  after_results_simp
  rw [h51, h49, h9, h10]
  rfl

end Cert.ReferenceIdeal.HandRun

end
-- ==== Proof.RefRunR3.lean ====
/-
  The reference's run, fourth piece: the edge rows normalised (operations 74 to 102 of @main, %60 – %83).

  The piece reads the edge perceptron's output rows (%59) and its scale and shift vectors (arguments 11 and 12). It
  sums each row of 64 and divides by 64 for the row's mean, does the same with the squared deviations from the mean
  for the row's variance, and writes the deviation times the reciprocal square root of the variance plus ε, times
  the scale, plus the shift. If the buffers hold, before the piece, the stage `val_main_v59` of the arguments and
  those two arguments, then after it the buffer of %83 holds the stage `val_main_v83`: every operation of the piece
  puts in its own buffer its function of the buffers it reads, no buffer is written twice, and the stages compose the
  same functions in the same order, so the two sides are one term once the inputs are named.
-/
import proofs.«404949_j85100482003175_1_alg».proof.Proof.RefRunB
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After the piece the buffer of the normalised edge rows holds the stage of the normalised edge rows. -/
theorem res3_v83 (V : Valuation τ sig (Elt F))
    (h59 : V (Proc.devRef .tc main_v59) = val_main_v59 (F := F) x0 x1 x2 x3 x4 x5 x6 x7 x8 x9 x10)
    (h11 : V (Proc.devRef .tc main_arg11) = x11) (h12 : V (Proc.devRef .tc main_arg12) = x12) :
    after ops3 V (Proc.devRef .tc main_v83) = val_main_v83 (F := F) x0 x1 x2 x3 x4 x5 x6 x7 x8 x9 x10 x11 x12 := by
  after_results_simp
  rw [h59, h11, h12]
  rfl

end Cert.ReferenceIdeal.HandRun

end
-- ==== Proof.RefRunR4.lean ====
/-
  The reference's run, piece 4: the gate perceptron's first layer and its two hidden layers (operations 103 to 131 of
  @main, %84 – %106).

  The piece reads the joined edge rows (%32: source, target, edge and graph features side by side, 208 columns) and the
  gate perceptron's first matrix and bias and its stack of two hidden matrices and biases (arguments 13 to 16). It
  contracts the rows against the first matrix, adds the bias and takes the maximum with zero; then twice more it
  contracts against a hidden matrix cut out of the stack, adds the matching bias row and takes the maximum with zero.
  If the buffers hold, before it, the stage `val_main_v32` of the arguments and those four arguments, then after it the
  buffer of %106 holds the stage `val_main_v106`: every operation of the piece puts in its own buffer its function of
  the buffers it reads, no buffer is written twice, and the stages compose the same functions in the same order, so the
  two sides are one term once the inputs are named.
-/
import proofs.«404949_j85100482003175_1_alg».proof.Proof.RefRunB
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After piece 4 the buffer of %106 holds the rows of the gate perceptron's second hidden layer after the maximum with
    zero. -/
theorem res4_v106 (V : Valuation τ sig (Elt F))
    (h32 : V (Proc.devRef .tc main_v32) = val_main_v32 (F := F) x0 x1 x2 x3 x4)
    (h13 : V (Proc.devRef .tc main_arg13) = x13) (h14 : V (Proc.devRef .tc main_arg14) = x14)
    (h15 : V (Proc.devRef .tc main_arg15) = x15) (h16 : V (Proc.devRef .tc main_arg16) = x16) :
    after ops4 V (Proc.devRef .tc main_v106) = val_main_v106 (F := F) x0 x1 x2 x3 x4 x13 x14 x15 x16 := by
  after_results_simp
  rw [h32, h13, h14, h15, h16]
  rfl

end Cert.ReferenceIdeal.HandRun

end
-- ==== Proof.RefRunR5.lean ====
/-
  The reference's run, piece 5: operations 132 to 135 of @main (%107 – %110).

  The piece reads an array of 400000 rows of 128 (%106), the matrix of argument 17 and the vector of argument 18. It
  contracts each row against the 128 × 64 matrix and adds the vector of 64 to every row of the product. If the
  buffers hold, before the piece, the stage `val_main_v106` of the arguments and those two arguments, then after it
  the result buffer holds the stage `val_main_v110`: every operation of the piece leaves in its own buffer its
  function of the buffers it reads, no buffer is written twice, and the stage composes the same functions in the same
  order.
-/
import proofs.«404949_j85100482003175_1_alg».proof.Proof.RefRunC
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After piece 5 the buffer of %110 holds its stage. -/
theorem res5_v110 (V : Valuation τ sig (Elt F))
    (h106 : V (Proc.devRef .tc main_v106) = val_main_v106 (F := F) x0 x1 x2 x3 x4 x13 x14 x15 x16)
    (h17 : V (Proc.devRef .tc main_arg17) = x17) (h18 : V (Proc.devRef .tc main_arg18) = x18) :
    after ops5 V (Proc.devRef .tc main_v110) = val_main_v110 (F := F) x0 x1 x2 x3 x4 x13 x14 x15 x16 x17 x18 := by
  after_results_simp
  rw [h106, h17, h18]
  rfl

end Cert.ReferenceIdeal.HandRun

end
-- ==== Proof.RefRunR6.lean ====
/-
  The reference's run, sixth piece: the gate rows normalised, their logistic function, and the gated edge rows
  (operations 136 to 173 of @main, %111 – %141).

  The piece reads the gate perceptron's output rows (%110), the scale and shift vectors of its normalisation
  (arguments 19 and 20) and the edge perceptron's normalised rows (%83). Row by row it takes the mean of the 64
  entries (their sum over the word for 64), the deviations from the mean, the variance (the mean of the squared
  deviations), and the deviations times the reciprocal square root of the variance plus ε, scaled and shifted
  column by column; then the logistic function 1 / (1 + exp (−·)) of the result; and last the product, entry by
  entry, of the edge rows with it (%141).

  If the buffers hold, before the piece, the stages `val_main_v110` and `val_main_v83` of the arguments and the
  two arguments themselves, then after it the buffer of %141 holds the stage `val_main_v141`: every operation of
  the piece writes into its own buffer its function of the buffers it reads, no buffer is written twice, and the
  stages are the same functions composed in the same order, so both sides are one term once the inputs are named.
-/
import proofs.«404949_j85100482003175_1_alg».proof.Proof.RefRunC
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After the sixth piece the buffer of %141 holds the gated edge rows. -/
theorem res6_v141 (V : Valuation τ sig (Elt F))
    (h110 : V (Proc.devRef .tc main_v110) = val_main_v110 (F := F) x0 x1 x2 x3 x4 x13 x14 x15 x16 x17 x18)
    (h19 : V (Proc.devRef .tc main_arg19) = x19) (h20 : V (Proc.devRef .tc main_arg20) = x20)
    (h83 : V (Proc.devRef .tc main_v83) = val_main_v83 (F := F) x0 x1 x2 x3 x4 x5 x6 x7 x8 x9 x10 x11 x12) :
    after ops6 V (Proc.devRef .tc main_v141) = val_main_v141 (F := F) x0 x1 x2 x3 x4 x5 x6 x7 x8 x9 x10 x11 x12 x13 x14 x15 x16 x17 x18 x19 x20 := by
  after_results_simp
  rw [h110, h19, h20, h83]
  rfl

end Cert.ReferenceIdeal.HandRun

end
-- ==== Proof.RefRunR7.lean ====
/-
  The reference's run, piece 7: the gated edge rows summed into their target nodes, and each node's graph features
  (operations 174 to 186 of @main, %142 – %151).

  The piece starts from the array of zeros of the nodes' shape, adds every gated edge row (%141) into the row of the
  edge's target node (the column of target indices is %3 with an axis of size one appended), and, separately, brings each
  node's graph index (argument 4) into range and takes that row of the graph features (argument 2). If the buffers
  hold, before it, the stages val_main_v3 and val_main_v141 of the arguments, then after it the buffer of %144 holds
  the stage val_main_v144; and if they hold arguments 4 and 2, the buffer of %151 holds the stage val_main_v151. Each
  operation puts in its own buffer its function of the buffers it reads and no buffer is written twice, and the stages
  compose the same functions in the same order, so the two sides are one term once the inputs are named.
-/
import proofs.«404949_j85100482003175_1_alg».proof.Proof.RefRunC
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After the piece the buffer of %144 holds the edge rows summed per target node. -/
theorem res7_v144 (V : Valuation τ sig (Elt F))
    (h3 : V (Proc.devRef .tc main_v3) = val_main_v3 (F := F) x3)
    (h141 : V (Proc.devRef .tc main_v141) = val_main_v141 (F := F) x0 x1 x2 x3 x4 x5 x6 x7 x8 x9 x10 x11 x12 x13 x14 x15 x16 x17 x18 x19 x20) :
    after ops7 V (Proc.devRef .tc main_v144) = val_main_v144 (F := F) x0 x1 x2 x3 x4 x5 x6 x7 x8 x9 x10 x11 x12 x13 x14 x15 x16 x17 x18 x19 x20 := by
  after_results_simp
  rw [h3, h141]
  rfl

set_option maxRecDepth 8192 in
set_option maxHeartbeats 1000000 in
/-- After the piece the buffer of %151 holds each node's graph features. -/
theorem res7_v151 (V : Valuation τ sig (Elt F))
    (h4 : V (Proc.devRef .tc main_arg4) = x4) (h2 : V (Proc.devRef .tc main_arg2) = x2) :
    after ops7 V (Proc.devRef .tc main_v151) = val_main_v151 (F := F) x2 x4 := by
  after_results_simp
  rw [h4, h2]
  rfl

end Cert.ReferenceIdeal.HandRun

end
-- ==== Proof.RefRunR8.lean ====
/-
  The reference's run, piece 8: the node rows' three pieces side by side and the node perceptron's first layer
  (operations 187 to 191 of @main, %152 – %156).

  The piece joins, along the columns, each node's own features (argument 0), the gated edge rows summed into it (%144)
  and its graph's features (%151) into one row of 144, contracts that row against the first layer's matrix (argument
  21) and adds the bias (argument 22) in every row. If the buffers hold, before it, those two arguments, the stages
  val_main_v144 and val_main_v151 of the arguments, and arguments 21 and 22, then after it the buffer of %156 holds
  the stage val_main_v156: each operation puts in its own buffer its function of the buffers it reads and no buffer
  is written twice, and the stages compose the same functions in the same order, so the two sides are one term once
  the inputs are named. The joined row reads its three operands through a family of three buffers taken at the
  positions 0, 1 and 2, which are the three buffers themselves.
-/
import proofs.«404949_j85100482003175_1_alg».proof.Proof.RefRunC
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After the piece the buffer of %156 holds the node perceptron's first layer. -/
theorem res8_v156 (V : Valuation τ sig (Elt F))
    (h0 : V (Proc.devRef .tc main_arg0) = x0)
    (h144 : V (Proc.devRef .tc main_v144) = val_main_v144 (F := F) x0 x1 x2 x3 x4 x5 x6 x7 x8 x9 x10 x11 x12 x13 x14 x15 x16 x17 x18 x19 x20)
    (h151 : V (Proc.devRef .tc main_v151) = val_main_v151 (F := F) x2 x4)
    (h21 : V (Proc.devRef .tc main_arg21) = x21) (h22 : V (Proc.devRef .tc main_arg22) = x22) :
    after ops8 V (Proc.devRef .tc main_v156) = val_main_v156 (F := F) x0 x1 x2 x3 x4 x5 x6 x7 x8 x9 x10 x11 x12 x13 x14 x15 x16 x17 x18 x19 x20 x21 x22 := by
  after_results_simp
  show addf
      (Host.dotGeneral dot_S50000x144_S144x128_S50000x128_1_0_0_1_n_n none
        (concatenate S50000x144 1
          [⟨S50000x64, V (Proc.devRef .tc main_arg0)⟩, ⟨S50000x64, V (Proc.devRef .tc main_v144)⟩,
            ⟨S50000x16, V (Proc.devRef .tc main_v151)⟩]
          concatenates_S50000x64_S50000x64_S50000x16_S50000x144_d1)
        (V (Proc.devRef .tc main_arg21)))
      (broadcastInDim S50000x128 ![0, 1] bcast_S1x128_S50000x128_0_1
        (broadcastInDim S1x128 ![1] bcast_S128_S1x128_1 (V (Proc.devRef .tc main_arg22)))) = _
  rw [h0, h144, h151, h21, h22]
  rfl

end Cert.ReferenceIdeal.HandRun

end
-- ==== Proof.RefRunR9.lean ====
/-
  The reference's run, the piece before the last: the node perceptron's hidden and output layers (operations 192 to
  220 of @main, %157 – %179).

  The piece reads the node perceptron's first-layer rows (%156), the stack of the two hidden matrices and the two-row
  array of their biases (arguments 23 and 24), and the output matrix and bias (arguments 25 and 26). Three times it
  takes the pointwise maximum with zero and contracts the rows against a matrix, adding a bias spread over the rows:
  twice against a hidden matrix cut out of the stack, once against the output matrix. If the buffers hold, before it,
  the stage `val_main_v156` of the arguments and those four arguments, then after it the buffer of %179 holds the
  stage `val_main_v179`: each operation puts in its own buffer its function of the buffers it reads, no buffer is
  written twice, and the stages compose the same functions in the same order, so the two sides are one term once the
  inputs are named.
-/
import proofs.«404949_j85100482003175_1_alg».proof.Proof.RefRunD
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After the piece the buffer of the node perceptron's output rows holds their stage. -/
theorem res9_v179 (V : Valuation τ sig (Elt F))
    (h156 : V (Proc.devRef .tc main_v156) = val_main_v156 (F := F) x0 x1 x2 x3 x4 x5 x6 x7 x8 x9 x10 x11 x12 x13 x14 x15 x16 x17 x18 x19 x20 x21 x22)
    (h23 : V (Proc.devRef .tc main_arg23) = x23) (h24 : V (Proc.devRef .tc main_arg24) = x24)
    (h25 : V (Proc.devRef .tc main_arg25) = x25) (h26 : V (Proc.devRef .tc main_arg26) = x26) :
    after ops9 V (Proc.devRef .tc main_v179) = val_main_v179 (F := F) x0 x1 x2 x3 x4 x5 x6 x7 x8 x9 x10 x11 x12 x13 x14 x15 x16 x17 x18 x19 x20 x21 x22 x23 x24 x25 x26 := by
  after_results_simp
  rw [h156, h23, h24, h25, h26]
  rfl

end Cert.ReferenceIdeal.HandRun

end
-- ==== Proof.RefRunR10.lean ====
/-
  The reference's run, last piece: the node rows normalised (operations 221 to 249 of @main, %180 – %203).

  The piece reads the node perceptron's output rows (%179) and the scale and shift vectors (arguments 27 and 28). If
  the buffers hold, before it, the stage `val_main_v179` of the arguments and those two arguments, then after it the
  result buffer holds the stage `val_main_v203`: each operation of the piece puts in its own buffer its function of
  the buffers it reads, no buffer is written twice, and the stages compose the same functions in the same order, so
  the two sides are one term once the inputs are named.
-/
import proofs.«404949_j85100482003175_1_alg».proof.Proof.RefRunD
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S50000x64, .f32⟩ : BufTy).Contents (Elt F)) (x1 : (⟨S400000x64, .f32⟩ : BufTy).Contents (Elt F)) (x2 : (⟨S64x16, .f32⟩ : BufTy).Contents (Elt F)) (x3 : (⟨S2x400000, .i32⟩ : BufTy).Contents (Elt F)) (x4 : (⟨S50000, .i32⟩ : BufTy).Contents (Elt F))
  (x5 : (⟨S208x128, .f32⟩ : BufTy).Contents (Elt F)) (x6 : (⟨S128, .f32⟩ : BufTy).Contents (Elt F)) (x7 : (⟨S2x128x128, .f32⟩ : BufTy).Contents (Elt F)) (x8 : (⟨S2x128, .f32⟩ : BufTy).Contents (Elt F)) (x9 : (⟨S128x64, .f32⟩ : BufTy).Contents (Elt F)) (x10 x11 x12 : (⟨S64, .f32⟩ : BufTy).Contents (Elt F))
  (x13 : (⟨S208x128, .f32⟩ : BufTy).Contents (Elt F)) (x14 : (⟨S128, .f32⟩ : BufTy).Contents (Elt F)) (x15 : (⟨S2x128x128, .f32⟩ : BufTy).Contents (Elt F)) (x16 : (⟨S2x128, .f32⟩ : BufTy).Contents (Elt F)) (x17 : (⟨S128x64, .f32⟩ : BufTy).Contents (Elt F)) (x18 x19 x20 : (⟨S64, .f32⟩ : BufTy).Contents (Elt F))
  (x21 : (⟨S144x128, .f32⟩ : BufTy).Contents (Elt F)) (x22 : (⟨S128, .f32⟩ : BufTy).Contents (Elt F)) (x23 : (⟨S2x128x128, .f32⟩ : BufTy).Contents (Elt F)) (x24 : (⟨S2x128, .f32⟩ : BufTy).Contents (Elt F)) (x25 : (⟨S128x64, .f32⟩ : BufTy).Contents (Elt F)) (x26 x27 x28 : (⟨S64, .f32⟩ : BufTy).Contents (Elt F))

set_option maxRecDepth 8192 in
set_option maxHeartbeats 1000000 in
/-- After the last piece the result buffer holds the last stage. -/
theorem res10_v203 (V : Valuation τ sig (Elt F))
    (h179 : V (Proc.devRef .tc main_v179) = val_main_v179 (F := F) x0 x1 x2 x3 x4 x5 x6 x7 x8 x9 x10 x11 x12 x13 x14 x15 x16 x17 x18 x19 x20 x21 x22 x23 x24 x25 x26)
    (h27 : V (Proc.devRef .tc main_arg27) = x27) (h28 : V (Proc.devRef .tc main_arg28) = x28) :
    after ops10 V (Proc.devRef .tc main_v203) = val_main_v203 (F := F) x0 x1 x2 x3 x4 x5 x6 x7 x8 x9 x10 x11 x12 x13 x14 x15 x16 x17 x18 x19 x20 x21 x22 x23 x24 x25 x26 x27 x28 := by
  after_results_simp
  rw [h179, h27, h28]
  rfl

end Cert.ReferenceIdeal.HandRun

end
-- ==== Proof.RefRunHand.lean ====
/-
  The reference's run, assembled.

  @main is four windows in a row; each window is the line of its pieces' operations; so @main is the line of all 250,
  and every weakly fair execution ends with each buffer at the operations' results folded over the launch contents.
  That fold is read piece by piece. Write U₀ for the buffers after piece 0 from the launch contents, U₁ for the
  buffers after piece 1 from U₀, and so on to U₁₀. A piece does not write an argument, so every Uₖ holds the launch
  contents at the 29 arguments; and a value one piece writes and a later, not adjacent, piece reads (%3, %32, %83) is
  carried across the pieces between, which do not write it. With that, each piece's result lemma takes its inputs from
  the level before and gives its outputs at its own level as the reference's stages of the arguments, and at the last
  level the result buffer holds the last stage, `val_main_v203`.
-/
import proofs.«404949_j85100482003175_1_alg».proof.Proof.RefRunA
import proofs.«404949_j85100482003175_1_alg».proof.Proof.RefRunB
import proofs.«404949_j85100482003175_1_alg».proof.Proof.RefRunC
import proofs.«404949_j85100482003175_1_alg».proof.Proof.RefRunD
import proofs.«404949_j85100482003175_1_alg».proof.Proof.RefRunR0
import proofs.«404949_j85100482003175_1_alg».proof.Proof.RefRunR1
import proofs.«404949_j85100482003175_1_alg».proof.Proof.RefRunR2
import proofs.«404949_j85100482003175_1_alg».proof.Proof.RefRunR3
import proofs.«404949_j85100482003175_1_alg».proof.Proof.RefRunR4
import proofs.«404949_j85100482003175_1_alg».proof.Proof.RefRunR5
import proofs.«404949_j85100482003175_1_alg».proof.Proof.RefRunR6
import proofs.«404949_j85100482003175_1_alg».proof.Proof.RefRunR7
import proofs.«404949_j85100482003175_1_alg».proof.Proof.RefRunR8
import proofs.«404949_j85100482003175_1_alg».proof.Proof.RefRunR9
import proofs.«404949_j85100482003175_1_alg».proof.Proof.RefRunR10
import proofs.«404949_j85100482003175_1_alg».proof.Proof.RefRead

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## Lines in a row -/

/-- Two lines of operations in a row: the second runs from what the first leaves. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- What holds of every operation of two lines holds of every operation of the two in a row. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The same, said of members. -/
theorem mem_app {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-! ## @main is the line of all its operations -/

/-- @main's 250 operations: the four windows' lines in a row, each the line of its pieces. -/
abbrev ops : List (HloOp τ sig (Elt F)) :=
  (ops0 ++ ops1) ++ ((ops2 ++ ops3 ++ ops4) ++ ((ops5 ++ ops6 ++ ops7 ++ ops8) ++ (ops9 ++ ops10)))

theorem main_eq (c : Dev nD) : main (F := F) c = seq ops := by
  have h : main (F := F) c
      = (main_part0 c >>= fun _ => main_part1 c >>= fun _ => main_part2 c >>= fun _ => main_part3 c) := by chain_rfl
  rw [h, main_part0_eq, main_part1_eq, main_part2_eq, main_part3_eq]
  show _ = seq ((ops0 ++ ops1) ++ ((ops2 ++ ops3 ++ ops4) ++ ((ops5 ++ ops6 ++ ops7 ++ ops8) ++ (ops9 ++ ops10))))
  rw [seq_append (ops0 ++ ops1), seq_append (ops2 ++ ops3 ++ ops4), seq_append (ops5 ++ ops6 ++ ops7 ++ ops8)]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_app (forall_app ops0_sub ops1_sub)
    (forall_app (forall_app (forall_app ops2_sub ops3_sub) ops4_sub)
      (forall_app (forall_app (forall_app (forall_app ops5_sub ops6_sub) ops7_sub) ops8_sub) (forall_app ops9_sub ops10_sub)))

theorem ops_fresh : ∀ op ∈ (ops : List (HloOp τ sig (Elt F))), op.fresh = ∅ :=
  mem_app (mem_app ops0_fresh ops1_fresh)
    (mem_app (mem_app (mem_app ops2_fresh ops3_fresh) ops4_fresh)
      (mem_app (mem_app (mem_app (mem_app ops5_fresh ops6_fresh) ops7_fresh) ops8_fresh) (mem_app ops9_fresh ops10_fresh)))

/-! ## The buffers after each piece -/

section Levels

variable (m : (ℓ : Loc nD τ sig) → Buf (Elt F) ℓ) (c : Dev nD)

/-- The buffers after piece 0 from the launch contents, after piece 1 from those, and so on. -/
def U0 : Valuation τ sig (Elt F) := after ops0 (launchContents m c)
def U1 : Valuation τ sig (Elt F) := after ops1 (U0 m c)
def U2 : Valuation τ sig (Elt F) := after ops2 (U1 m c)
def U3 : Valuation τ sig (Elt F) := after ops3 (U2 m c)
def U4 : Valuation τ sig (Elt F) := after ops4 (U3 m c)
def U5 : Valuation τ sig (Elt F) := after ops5 (U4 m c)
def U6 : Valuation τ sig (Elt F) := after ops6 (U5 m c)
def U7 : Valuation τ sig (Elt F) := after ops7 (U6 m c)
def U8 : Valuation τ sig (Elt F) := after ops8 (U7 m c)
def U9 : Valuation τ sig (Elt F) := after ops9 (U8 m c)
def U10 : Valuation τ sig (Elt F) := after ops10 (U9 m c)

/-- The fold of all the operations over the launch contents is the last level. -/
theorem after_ops : after ops (launchContents m c) = U10 m c := by
  unfold U10 U9 U8 U7 U6 U5 U4 U3 U2 U1 U0
  simp only [ops, after_app]

/-! ### A buffer no piece so far has written holds its launch contents -/

theorem kept0 {r : Ref sig .tc} (hr : r ∉ W0) :
    U0 m c (Proc.devRef .tc r) = m ((c.tc : Thread nD τ).loc r) :=
  keep0 (launchContents m c) hr
theorem kept1 {r : Ref sig .tc} (hr : r ∉ W0 ++ W1) :
    U1 m c (Proc.devRef .tc r) = m ((c.tc : Thread nD τ).loc r) :=
  (keep1 (U0 m c) fun h => hr (List.mem_append_right _ h)).trans (kept0 m c fun h => hr (List.mem_append_left _ h))
theorem kept2 {r : Ref sig .tc} (hr : r ∉ W0 ++ W1 ++ W2) :
    U2 m c (Proc.devRef .tc r) = m ((c.tc : Thread nD τ).loc r) :=
  (keep2 (U1 m c) fun h => hr (List.mem_append_right _ h)).trans (kept1 m c fun h => hr (List.mem_append_left _ h))
theorem kept3 {r : Ref sig .tc} (hr : r ∉ W0 ++ W1 ++ W2 ++ W3) :
    U3 m c (Proc.devRef .tc r) = m ((c.tc : Thread nD τ).loc r) :=
  (keep3 (U2 m c) fun h => hr (List.mem_append_right _ h)).trans (kept2 m c fun h => hr (List.mem_append_left _ h))
theorem kept4 {r : Ref sig .tc} (hr : r ∉ W0 ++ W1 ++ W2 ++ W3 ++ W4) :
    U4 m c (Proc.devRef .tc r) = m ((c.tc : Thread nD τ).loc r) :=
  (keep4 (U3 m c) fun h => hr (List.mem_append_right _ h)).trans (kept3 m c fun h => hr (List.mem_append_left _ h))
theorem kept5 {r : Ref sig .tc} (hr : r ∉ W0 ++ W1 ++ W2 ++ W3 ++ W4 ++ W5) :
    U5 m c (Proc.devRef .tc r) = m ((c.tc : Thread nD τ).loc r) :=
  (keep5 (U4 m c) fun h => hr (List.mem_append_right _ h)).trans (kept4 m c fun h => hr (List.mem_append_left _ h))
theorem kept6 {r : Ref sig .tc} (hr : r ∉ W0 ++ W1 ++ W2 ++ W3 ++ W4 ++ W5 ++ W6) :
    U6 m c (Proc.devRef .tc r) = m ((c.tc : Thread nD τ).loc r) :=
  (keep6 (U5 m c) fun h => hr (List.mem_append_right _ h)).trans (kept5 m c fun h => hr (List.mem_append_left _ h))
theorem kept7 {r : Ref sig .tc} (hr : r ∉ W0 ++ W1 ++ W2 ++ W3 ++ W4 ++ W5 ++ W6 ++ W7) :
    U7 m c (Proc.devRef .tc r) = m ((c.tc : Thread nD τ).loc r) :=
  (keep7 (U6 m c) fun h => hr (List.mem_append_right _ h)).trans (kept6 m c fun h => hr (List.mem_append_left _ h))
theorem kept8 {r : Ref sig .tc} (hr : r ∉ W0 ++ W1 ++ W2 ++ W3 ++ W4 ++ W5 ++ W6 ++ W7 ++ W8) :
    U8 m c (Proc.devRef .tc r) = m ((c.tc : Thread nD τ).loc r) :=
  (keep8 (U7 m c) fun h => hr (List.mem_append_right _ h)).trans (kept7 m c fun h => hr (List.mem_append_left _ h))
theorem kept9 {r : Ref sig .tc} (hr : r ∉ W0 ++ W1 ++ W2 ++ W3 ++ W4 ++ W5 ++ W6 ++ W7 ++ W8 ++ W9) :
    U9 m c (Proc.devRef .tc r) = m ((c.tc : Thread nD τ).loc r) :=
  (keep9 (U8 m c) fun h => hr (List.mem_append_right _ h)).trans (kept8 m c fun h => hr (List.mem_append_left _ h))
theorem kept10 {r : Ref sig .tc} (hr : r ∉ W0 ++ W1 ++ W2 ++ W3 ++ W4 ++ W5 ++ W6 ++ W7 ++ W8 ++ W9 ++ W10) :
    U10 m c (Proc.devRef .tc r) = m ((c.tc : Thread nD τ).loc r) :=
  (keep10 (U9 m c) fun h => hr (List.mem_append_right _ h)).trans (kept9 m c fun h => hr (List.mem_append_left _ h))

/-! ### The stages, level by level

  `aᵢ` is argument i's launch contents on device `c`. -/

/-- The launch contents of a buffer on device `c`. -/
abbrev atLaunch (r : Ref sig .tc) : Buf (Elt F) ((c.tc : Thread nD τ).loc r) := m ((c.tc : Thread nD τ).loc r)

local notation "a0" => atLaunch m c main_arg0
local notation "a1" => atLaunch m c main_arg1
local notation "a2" => atLaunch m c main_arg2
local notation "a3" => atLaunch m c main_arg3
local notation "a4" => atLaunch m c main_arg4
local notation "a5" => atLaunch m c main_arg5
local notation "a6" => atLaunch m c main_arg6
local notation "a7" => atLaunch m c main_arg7
local notation "a8" => atLaunch m c main_arg8
local notation "a9" => atLaunch m c main_arg9
local notation "a10" => atLaunch m c main_arg10
local notation "a11" => atLaunch m c main_arg11
local notation "a12" => atLaunch m c main_arg12
local notation "a13" => atLaunch m c main_arg13
local notation "a14" => atLaunch m c main_arg14
local notation "a15" => atLaunch m c main_arg15
local notation "a16" => atLaunch m c main_arg16
local notation "a17" => atLaunch m c main_arg17
local notation "a18" => atLaunch m c main_arg18
local notation "a19" => atLaunch m c main_arg19
local notation "a20" => atLaunch m c main_arg20
local notation "a21" => atLaunch m c main_arg21
local notation "a22" => atLaunch m c main_arg22
local notation "a23" => atLaunch m c main_arg23
local notation "a24" => atLaunch m c main_arg24
local notation "a25" => atLaunch m c main_arg25
local notation "a26" => atLaunch m c main_arg26
local notation "a27" => atLaunch m c main_arg27
local notation "a28" => atLaunch m c main_arg28

/-- After piece 0: the second index row, and the three gathers by the wrapped index rows. -/
theorem s0_v3 : U0 m c (Proc.devRef .tc main_v3) = val_main_v3 (F := F) a3 := by
  unfold U0; apply res0_v3 <;> rfl
theorem s0_v17 : U0 m c (Proc.devRef .tc main_v17) = val_main_v17 (F := F) a0 a3 := by
  unfold U0; apply res0_v17 <;> rfl
theorem s0_v24 : U0 m c (Proc.devRef .tc main_v24) = val_main_v24 (F := F) a0 a3 := by
  unfold U0; apply res0_v24 <;> rfl
theorem s0_v31 : U0 m c (Proc.devRef .tc main_v31) = val_main_v31 (F := F) a2 a3 a4 := by
  unfold U0; apply res0_v31 <;> rfl

/-- After piece 1: the edge rows' four pieces side by side, and the first hidden layer before its bias. -/
theorem s1_v32 : U1 m c (Proc.devRef .tc main_v32) = val_main_v32 (F := F) a0 a1 a2 a3 a4 := by
  unfold U1; apply res1_v32 <;> first | with_reducible exact s0_v17 m c | with_reducible exact s0_v24 m c | with_reducible exact s0_v31 m c | exact kept0 m c (by decide)
theorem s1_v49 : U1 m c (Proc.devRef .tc main_v49) = val_main_v49 (F := F) a0 a1 a2 a3 a4 a5 a6 a7 a8 := by
  unfold U1; apply res1_v49 <;> first | with_reducible exact s0_v17 m c | with_reducible exact s0_v24 m c | with_reducible exact s0_v31 m c | exact kept0 m c (by decide)
theorem s1_v51 : U1 m c (Proc.devRef .tc main_v51) = val_main_v51 (F := F) a8 := by
  unfold U1; apply res1_v51 <;> exact kept0 m c (by decide)

/-- After piece 2: the edge perceptron's output rows. -/
theorem s2_v59 : U2 m c (Proc.devRef .tc main_v59) = val_main_v59 (F := F) a0 a1 a2 a3 a4 a5 a6 a7 a8 a9 a10 := by
  unfold U2; apply res2_v59 <;> first | with_reducible exact s1_v49 m c | with_reducible exact s1_v51 m c | exact kept1 m c (by decide)

/-- After piece 3: the edge rows normalised. -/
theorem s3_v83 : U3 m c (Proc.devRef .tc main_v83) = val_main_v83 (F := F) a0 a1 a2 a3 a4 a5 a6 a7 a8 a9 a10 a11 a12 := by
  unfold U3; apply res3_v83 <;> first | with_reducible exact s2_v59 m c | exact kept2 m c (by decide)

/-- The side-by-side edge rows, carried across pieces 2 and 3. -/
theorem c3_v32 : U3 m c (Proc.devRef .tc main_v32) = val_main_v32 (F := F) a0 a1 a2 a3 a4 :=
  (keep3 (U2 m c) (r := main_v32) (by decide)).trans ((keep2 (U1 m c) (r := main_v32) (by decide)).trans (s1_v32 m c))

/-- After piece 4: the gate perceptron's last hidden layer. -/
theorem s4_v106 : U4 m c (Proc.devRef .tc main_v106) = val_main_v106 (F := F) a0 a1 a2 a3 a4 a13 a14 a15 a16 := by
  unfold U4; apply res4_v106 <;> first | with_reducible exact c3_v32 m c | exact kept3 m c (by decide)

/-- After piece 5: the gate perceptron's output rows. -/
theorem s5_v110 : U5 m c (Proc.devRef .tc main_v110) = val_main_v110 (F := F) a0 a1 a2 a3 a4 a13 a14 a15 a16 a17 a18 := by
  unfold U5; apply res5_v110 <;> first | with_reducible exact s4_v106 m c | exact kept4 m c (by decide)

/-- The normalised edge rows, carried across pieces 4 and 5. -/
theorem c5_v83 : U5 m c (Proc.devRef .tc main_v83) = val_main_v83 (F := F) a0 a1 a2 a3 a4 a5 a6 a7 a8 a9 a10 a11 a12 :=
  (keep5 (U4 m c) (r := main_v83) (by decide)).trans ((keep4 (U3 m c) (r := main_v83) (by decide)).trans (s3_v83 m c))

/-- After piece 6: the gated edge rows. -/
theorem s6_v141 : U6 m c (Proc.devRef .tc main_v141)
    = val_main_v141 (F := F) a0 a1 a2 a3 a4 a5 a6 a7 a8 a9 a10 a11 a12 a13 a14 a15 a16 a17 a18 a19 a20 := by
  unfold U6; apply res6_v141 <;> first | with_reducible exact s5_v110 m c | with_reducible exact c5_v83 m c | exact kept5 m c (by decide)

/-- The second index row, carried across pieces 1 to 6. -/
theorem c6_v3 : U6 m c (Proc.devRef .tc main_v3) = val_main_v3 (F := F) a3 :=
  (keep6 (U5 m c) (r := main_v3) (by decide)).trans ((keep5 (U4 m c) (r := main_v3) (by decide)).trans
    ((keep4 (U3 m c) (r := main_v3) (by decide)).trans ((keep3 (U2 m c) (r := main_v3) (by decide)).trans
      ((keep2 (U1 m c) (r := main_v3) (by decide)).trans ((keep1 (U0 m c) (r := main_v3) (by decide)).trans (s0_v3 m c))))))

/-- After piece 7: the gated edge rows summed into their target nodes, and the graph features per node. -/
theorem s7_v144 : U7 m c (Proc.devRef .tc main_v144)
    = val_main_v144 (F := F) a0 a1 a2 a3 a4 a5 a6 a7 a8 a9 a10 a11 a12 a13 a14 a15 a16 a17 a18 a19 a20 := by
  unfold U7; apply res7_v144 <;> first | with_reducible exact c6_v3 m c | with_reducible exact s6_v141 m c | exact kept6 m c (by decide)
theorem s7_v151 : U7 m c (Proc.devRef .tc main_v151) = val_main_v151 (F := F) a2 a4 := by
  unfold U7; apply res7_v151 <;> first | with_reducible exact c6_v3 m c | with_reducible exact s6_v141 m c | exact kept6 m c (by decide)

/-- After piece 8: the node perceptron's first layer. -/
theorem s8_v156 : U8 m c (Proc.devRef .tc main_v156)
    = val_main_v156 (F := F) a0 a1 a2 a3 a4 a5 a6 a7 a8 a9 a10 a11 a12 a13 a14 a15 a16 a17 a18 a19 a20 a21 a22 := by
  unfold U8; apply res8_v156 <;> first | with_reducible exact s7_v144 m c | with_reducible exact s7_v151 m c | exact kept7 m c (by decide)

/-- After piece 9: the node perceptron's output rows. -/
theorem s9_v179 : U9 m c (Proc.devRef .tc main_v179)
    = val_main_v179 (F := F) a0 a1 a2 a3 a4 a5 a6 a7 a8 a9 a10 a11 a12 a13 a14 a15 a16 a17 a18 a19 a20 a21 a22 a23 a24 a25 a26 := by
  unfold U9; apply res9_v179 <;> first | with_reducible exact s8_v156 m c | exact kept8 m c (by decide)

/-- After piece 10: the node rows normalised — the result. -/
theorem s10_v203 : U10 m c (Proc.devRef .tc main_v203)
    = val_main_v203 (F := F) a0 a1 a2 a3 a4 a5 a6 a7 a8 a9 a10 a11 a12 a13 a14 a15 a16 a17 a18 a19 a20 a21 a22 a23 a24 a25 a26 a27 a28 := by
  unfold U10; apply res10_v203 <;> first | with_reducible exact s9_v179 m c | exact kept9 m c (by decide)

/-- The fold of all 250 operations over the launch contents, at the result buffer and at a buffer nothing writes. -/
theorem final_v203 : after ops (launchContents m c) (Proc.devRef .tc main_v203)
    = val_main_v203 (F := F) a0 a1 a2 a3 a4 a5 a6 a7 a8 a9 a10 a11 a12 a13 a14 a15 a16 a17 a18 a19 a20 a21 a22 a23 a24 a25 a26 a27 a28 := by
  rw [after_ops]; exact s10_v203 m c
theorem final_kept {r : Ref sig .tc} (hr : r ∉ W0 ++ W1 ++ W2 ++ W3 ++ W4 ++ W5 ++ W6 ++ W7 ++ W8 ++ W9 ++ W10) :
    after ops (launchContents m c) (Proc.devRef .tc r) = m ((c.tc : Thread nD τ).loc r) := by
  rw [after_ops]; exact kept10 m c hr

end Levels

/-! ## The run -/

/-- On every device, for any float values, from any memory with zero counters: every weakly fair execution of @main
    terminates with the result buffer at the reference's last stage of the arguments' launch contents, and the
    arguments unchanged. -/
theorem run_hand (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v203) = val_main_v203 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v203).trans (final_v203 m c),
      (h c main_arg0).trans (final_kept m c (by decide)),
      (h c main_arg1).trans (final_kept m c (by decide)),
      (h c main_arg2).trans (final_kept m c (by decide)),
      (h c main_arg3).trans (final_kept m c (by decide)),
      (h c main_arg4).trans (final_kept m c (by decide)),
      (h c main_arg5).trans (final_kept m c (by decide)),
      (h c main_arg6).trans (final_kept m c (by decide)),
      (h c main_arg7).trans (final_kept m c (by decide)),
      (h c main_arg8).trans (final_kept m c (by decide)),
      (h c main_arg9).trans (final_kept m c (by decide)),
      (h c main_arg10).trans (final_kept m c (by decide)),
      (h c main_arg11).trans (final_kept m c (by decide)),
      (h c main_arg12).trans (final_kept m c (by decide)),
      (h c main_arg13).trans (final_kept m c (by decide)),
      (h c main_arg14).trans (final_kept m c (by decide)),
      (h c main_arg15).trans (final_kept m c (by decide)),
      (h c main_arg16).trans (final_kept m c (by decide)),
      (h c main_arg17).trans (final_kept m c (by decide)),
      (h c main_arg18).trans (final_kept m c (by decide)),
      (h c main_arg19).trans (final_kept m c (by decide)),
      (h c main_arg20).trans (final_kept m c (by decide)),
      (h c main_arg21).trans (final_kept m c (by decide)),
      (h c main_arg22).trans (final_kept m c (by decide)),
      (h c main_arg23).trans (final_kept m c (by decide)),
      (h c main_arg24).trans (final_kept m c (by decide)),
      (h c main_arg25).trans (final_kept m c (by decide)),
      (h c main_arg26).trans (final_kept m c (by decide)),
      (h c main_arg27).trans (final_kept m c (by decide)),
      (h c main_arg28).trans (final_kept m c (by decide))⟩)
    (run_seq scopedRefs_eq scopedSems_eq defs main (fun _ => ops) main_eq (fun _ => ops_sub) m ρ (fun _ => ops_fresh))

end Cert.ReferenceIdeal.HandRun

end
-- ==== Proof.PreRange.lean ====
/-
  What the precondition says of the graph index of a node.

  The printed predicate is one conjunction: every float input finite, and every entry of `batch` at least 0 and
  below 64, signed. Only the last conjunct is used: read at a node r it says the word batch[r], taken as a natural
  number, is below 64 — the range of the 64-row table the word indexes.
-/
import proofs.«404949_j85100482003175_1_alg».proof.Pre_finite_inputs
import proofs.«404949_j85100482003175_1_alg».proof.Proof.Gen.Pre_finite_inputs
import Idealize.ShloMosaic.Lib.ReduceAll
import Idealize.ShloMosaic.Lib.ValueIdx

noncomputable section

namespace Cert.PreRange

open Cert.Pre_finite_inputs Idealize.ShloMosaic Idealize.ShloMosaic.ValueIdx

/-- A one-bit conjunction is 1 exactly when both bits are. -/
theorem andi_one : ∀ a b : BitVec 1, IntOp.andi a b = 1#1 ↔ a = 1#1 ∧ b = 1#1 := by decide

/-- A 32-bit word that is at least 0 and below n as a signed number (n below 2^31) is below n as a natural number. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have hb : ∀ b : Bool, BitVec.ofBool b = 1#1 → b = true := by decide
  have h0' : (0#32 : BitVec 32).sle w = true := hb _ h0
  have h1' : w.slt (BitVec.ofNat 32 n) = true := hb _ h1
  simp only [BitVec.sle, BitVec.slt, decide_eq_true_eq] at h0' h1'
  have e0 : (0#32 : BitVec 32).toInt = 0 := by decide
  have hn' : n % 2 ^ 32 = n := Nat.mod_eq_of_lt (by omega)
  have en : (BitVec.ofNat 32 n).toInt = (n : Int) := by
    rw [BitVec.toInt_eq_toNat_cond, BitVec.toNat_ofNat, hn']
    split <;> omega
  rw [e0] at h0'
  rw [en] at h1'
  have hw := w.isLt
  rw [BitVec.toInt_eq_toNat_cond] at h0' h1'
  split at h0' <;> omega

instance : Subsingleton S_.Idx := ⟨fun a b => funext fun d => d.elim0⟩

/-- The predicate all ones: every node's graph index, as a natural number, is below 64. -/
theorem batch_lt (a0 : FVec Ideal S50000x64 .f32) (a1 : FVec Ideal S400000x64 .f32) (a2 : FVec Ideal S64x16 .f32) (a3 : IVec S2x400000 32) (a4 : IVec S50000 32) (a5 : FVec Ideal S208x128 .f32) (a6 : FVec Ideal S128 .f32) (a7 : FVec Ideal S2x128x128 .f32) (a8 : FVec Ideal S2x128 .f32) (a9 : FVec Ideal S128x64 .f32) (a10 : FVec Ideal S64 .f32) (a11 : FVec Ideal S64 .f32) (a12 : FVec Ideal S64 .f32) (a13 : FVec Ideal S208x128 .f32) (a14 : FVec Ideal S128 .f32) (a15 : FVec Ideal S2x128x128 .f32) (a16 : FVec Ideal S2x128 .f32) (a17 : FVec Ideal S128x64 .f32) (a18 : FVec Ideal S64 .f32) (a19 : FVec Ideal S64 .f32) (a20 : FVec Ideal S64 .f32) (a21 : FVec Ideal S144x128 .f32) (a22 : FVec Ideal S128 .f32) (a23 : FVec Ideal S2x128x128 .f32) (a24 : FVec Ideal S2x128 .f32) (a25 : FVec Ideal S128x64 .f32) (a26 : FVec Ideal S64 .f32) (a27 : FVec Ideal S64 .f32) (a28 : FVec Ideal S64 .f32)
    (h : Cert.Pre_finite_inputs.fn (F := Ideal) a0 a1 a2 a3 a4 a5 a6 a7 a8 a9 a10 a11 a12 a13 a14 a15 a16 a17 a18 a19 a20 a21 a22 a23 a24 a25 a26 a27 a28 = fun _ => 1#1) (r : Fin 50000) :
    (a4 (ix1 r)).toNat < 64 := by
  have e := congrFun h ix0
  dsimp only [fn, fn_part1, fn_part2, fn_part3, fn_part4, fn_part5, fn_part6, fn_part7, fn_part8] at e
  obtain ⟨-, e1⟩ := (andi_one _ _).1 e
  have e2 := Host.reduce_andi_all _ _ _ _ _ e1 (ix1 r)
  obtain ⟨h0, h1⟩ := (andi_one _ _).1 e2
  exact toNat_lt_of_signed _ 64 (by decide) h0 h1

end Cert.PreRange

end
-- ==== Proof.RowSpec.lean ====
/-
  One row of the message-passing layer, on the extended reals.

  Every stage of both programs acts on one row at a time: an affine map of the row, a pointwise maximum with zero,
  and a normalisation of the row by its own mean and variance. This file states those row maps once, over plain
  finite index types, and the two laws by which the two programs' first layers meet:

  * a row that is 1 at one position and 0 elsewhere, contracted against a table, is the table's row at that position
    (on the extended reals 0 · x = 0 for every x, infinite ones included, so nothing is asked of the table);
  * a sum over 144 (or 208) positions is the sum of the sums over its consecutive pieces of 64, 64 (, 64) and 16
    positions, because addition of extended reals is commutative and associative.
-/
import Idealize.ShloMosaic.PureOps.Ideal
import Idealize.ShloMosaic.PureOps.Ideal.Laws
import Mathlib.Algebra.BigOperators.Fin
import Idealize.ShloMosaic.Lib.ValueIdx

noncomputable section

open scoped BigOperators

namespace Cert.RowSpec

open Idealize.ShloMosaic

/-- The contraction of a row against column `j` of a matrix. -/
def dotRow {a b : Nat} (v : Fin a → EReal) (W : Fin a → Fin b → EReal) (j : Fin b) : EReal :=
  ∑ k : Fin a, v k * W k j

/-- The pointwise maximum with the zero word. -/
def relu {a : Nat} (v : Fin a → EReal) : Fin a → EReal :=
  fun k => max (v k) (Ideal.ofBits .f32 0x00000000#32)

/-- Two hidden layers of width 128 and the output layer of width 64, each entered through the maximum with zero:
    `h ↦ relu h · W₀ + b₀ ↦ relu · W₁ + b₁ ↦ relu · Wₒ + bₒ`. -/
def rest (W0 W1 : Fin 128 → Fin 128 → EReal) (b0 b1 : Fin 128 → EReal) (Wo : Fin 128 → Fin 64 → EReal)
    (bo : Fin 64 → EReal) (h : Fin 128 → EReal) : Fin 64 → EReal :=
  fun j => dotRow (relu fun k => dotRow (relu fun k => dotRow (relu h) W0 k + b0 k) W1 k + b1 k) Wo j + bo j

/-- The mean of a row of 64: its sum divided by the word for 64. -/
def mean (h : Fin 64 → EReal) : EReal :=
  Ideal.div (∑ k : Fin 64, h k) (Ideal.ofBits .f32 0x42800000#32)

/-- The variance of a row of 64: the mean of the squared deviations from the mean. -/
def var (h : Fin 64 → EReal) : EReal :=
  Ideal.div (∑ k : Fin 64, (h k - mean h) * (h k - mean h)) (Ideal.ofBits .f32 0x42800000#32)

/-- The normalised row: `(h − mean) · rsqrt (var + ε) · g + b`, ε the shared word 0x3727C5AC. -/
def norm (g b : Fin 64 → EReal) (h : Fin 64 → EReal) (j : Fin 64) : EReal :=
  (h j - mean h) * Ideal.rsqrt (var h + Ideal.ofBits .f32 0x3727C5AC#32) * g j + b j

/-- The first layer of a node row, piece by piece: the bias, then the contributions of the node's own 64 features,
    of the 64 aggregated features and of the 16 graph features, against rows 0–63, 64–127 and 128–143 of the matrix. -/
def first3 (x agg : Fin 64 → EReal) (ug : Fin 16 → EReal) (W : Fin 144 → Fin 128 → EReal) (b : Fin 128 → EReal)
    (j : Fin 128) : EReal :=
  b j + (∑ k : Fin 64, x k * W ⟨k.val, by omega⟩ j) + (∑ k : Fin 64, agg k * W ⟨64 + k.val, by omega⟩ j)
    + ∑ k : Fin 16, ug k * W ⟨128 + k.val, by omega⟩ j

/-- The first layer of an edge row, piece by piece: the bias, then source features, target features, edge features
    and graph features against rows 0–63, 64–127, 128–191 and 192–207 of the matrix. -/
def first4 (xs xt ea : Fin 64 → EReal) (ug : Fin 16 → EReal) (W : Fin 208 → Fin 128 → EReal) (b : Fin 128 → EReal)
    (j : Fin 128) : EReal :=
  b j + (∑ k : Fin 64, xs k * W ⟨k.val, by omega⟩ j) + (∑ k : Fin 64, xt k * W ⟨64 + k.val, by omega⟩ j)
    + (∑ k : Fin 64, ea k * W ⟨128 + k.val, by omega⟩ j) + ∑ k : Fin 16, ug k * W ⟨192 + k.val, by omega⟩ j

/-- One whole perceptron after its first layer: the hidden and output layers, then the normalisation. The two hidden
    matrices and biases are given as families over `Fin 2`. -/
def mlp (Wh : Fin 2 → Fin 128 → Fin 128 → EReal) (Bh : Fin 2 → Fin 128 → EReal) (Wo : Fin 128 → Fin 64 → EReal)
    (bo g b : Fin 64 → EReal) (h : Fin 128 → EReal) : Fin 64 → EReal :=
  norm g b (rest (Wh 0) (Wh 1) (Bh 0) (Bh 1) Wo bo h)

/-- One edge's output row: the edge perceptron of the row's four pieces, times the logistic function of the gate
    perceptron of the same four pieces. -/
def edgeRow (xs xt ea : Fin 64 → EReal) (ug : Fin 16 → EReal)
    (We : Fin 208 → Fin 128 → EReal) (be : Fin 128 → EReal) (WhE : Fin 2 → Fin 128 → Fin 128 → EReal)
    (BhE : Fin 2 → Fin 128 → EReal) (WoE : Fin 128 → Fin 64 → EReal) (boE gE bE : Fin 64 → EReal)
    (Wa : Fin 208 → Fin 128 → EReal) (ba : Fin 128 → EReal) (WhA : Fin 2 → Fin 128 → Fin 128 → EReal)
    (BhA : Fin 2 → Fin 128 → EReal) (WoA : Fin 128 → Fin 64 → EReal) (boA gA bA : Fin 64 → EReal)
    (j : Fin 64) : EReal :=
  mlp WhE BhE WoE boE gE bE (first4 xs xt ea ug We be) j
    * Ideal.logistic (mlp WhA BhA WoA boA gA bA (first4 xs xt ea ug Wa ba) j)

/-- One node's output row: the node perceptron of the row's three pieces. -/
def nodeRow (x agg : Fin 64 → EReal) (ug : Fin 16 → EReal)
    (Wn : Fin 144 → Fin 128 → EReal) (bn : Fin 128 → EReal) (Wh : Fin 2 → Fin 128 → Fin 128 → EReal)
    (Bh : Fin 2 → Fin 128 → EReal) (Wo : Fin 128 → Fin 64 → EReal) (bo g b : Fin 64 → EReal) : Fin 64 → EReal :=
  mlp Wh Bh Wo bo g b (first3 x agg ug Wn bn)

/-! ## Rows, matrices and vectors out of arrays -/

open Idealize.ShloMosaic.ValueIdx in
/-- Row `r` of a two-axis array. -/
abbrev row {n c : Nat} (A : (⟨2, ![n, c]⟩ : Shape).Idx → EReal) (r : Fin n) : Fin c → EReal := fun k => A (ix2 r k)
open Idealize.ShloMosaic.ValueIdx in
/-- A two-axis array as a matrix. -/
abbrev mat {a b : Nat} (W : (⟨2, ![a, b]⟩ : Shape).Idx → EReal) : Fin a → Fin b → EReal := fun k j => W (ix2 k j)
open Idealize.ShloMosaic.ValueIdx in
/-- A one-axis array as a vector. -/
abbrev vec {a : Nat} (v : (⟨1, ![a]⟩ : Shape).Idx → EReal) : Fin a → EReal := fun k => v (ix1 k)
open Idealize.ShloMosaic.ValueIdx in
/-- A stack of matrices as a family of matrices. -/
abbrev mats {l a b : Nat} (W : (⟨3, ![l, a, b]⟩ : Shape).Idx → EReal) : Fin l → Fin a → Fin b → EReal :=
  fun i k j => W (ix3 i k j)

/-- A row that is 1 at `g₀` and 0 elsewhere, contracted against a table, is the table's row `g₀`. -/
theorem onehot_dot {n c : Nat} (u : Fin n → Fin c → EReal) (g0 : Fin n) (k : Fin c) :
    ∑ g : Fin n, (if g = g0 then (1 : EReal) else 0) * u g k = u g0 k := by
  rw [Finset.sum_eq_single g0]
  · rw [if_pos rfl, one_mul]
  · intro g _ hg; rw [if_neg hg, zero_mul]
  · intro h; exact absurd (Finset.mem_univ _) h

/-- A sum over 144 positions, by its pieces of 64, 64 and 16. -/
theorem sum_split3 {M : Type} [AddCommMonoid M] (f : Fin 144 → M) :
    ∑ k : Fin 144, f k
      = (∑ k : Fin 64, f ⟨k.val, by omega⟩) + (∑ k : Fin 64, f ⟨64 + k.val, by omega⟩)
        + ∑ k : Fin 16, f ⟨128 + k.val, by omega⟩ := by
  have h1 := Fin.sum_univ_add (a := 128) (b := 16) (f : Fin (128 + 16) → M)
  have h2 := Fin.sum_univ_add (a := 64) (b := 64) (fun k : Fin (64 + 64) => f ⟨k.val, by omega⟩)
  refine h1.trans ?_
  congr 1

/-- A sum over 208 positions, by its pieces of 64, 64, 64 and 16. -/
theorem sum_split4 {M : Type} [AddCommMonoid M] (f : Fin 208 → M) :
    ∑ k : Fin 208, f k
      = (∑ k : Fin 64, f ⟨k.val, by omega⟩) + (∑ k : Fin 64, f ⟨64 + k.val, by omega⟩)
        + (∑ k : Fin 64, f ⟨128 + k.val, by omega⟩) + ∑ k : Fin 16, f ⟨192 + k.val, by omega⟩ := by
  have h1 := Fin.sum_univ_add (a := 192) (b := 16) (f : Fin (192 + 16) → M)
  have h2 := Fin.sum_univ_add (a := 128) (b := 64) (fun k : Fin (128 + 64) => f ⟨k.val, by omega⟩)
  have h3 := Fin.sum_univ_add (a := 64) (b := 64) (fun k : Fin (64 + 64) => f ⟨k.val, by omega⟩)
  refine h1.trans ?_
  congr 1
  refine h2.trans ?_
  congr 1

end Cert.RowSpec

end
-- ==== Proof.KArr0.lean ====
/-
  Region 0 of the kernel program, from blocks to the array.

  The region runs over 80 grid points. Each point reads 5000 consecutive rows of the edge-indexed arrays, reads the
  parameter arrays whole, and writes back 5000 consecutive rows of the 400000 × 64 output. This file shows that the
  output array after the region is, at row r and column j, the edge row (RowSpec's `edgeRow`) of row r of the three
  feature arrays, of the graph-feature row that the graph-index column selects at r, and of the parameters. What one
  block's payload is at a row and a column is taken as a hypothesis here; the rest is the arithmetic of the blocks:
  row p of block t is row 5000 · t + p of the array, and the blocks tile the rows.
-/
import proofs.«404949_j85100482003175_1_alg».proof.Proof.Gen.KernelIdeal.Frame
import proofs.«404949_j85100482003175_1_alg».proof.Proof.RowSpec
import Idealize.ShloMosaic.Lib.Pipeline.Value
import Idealize.ShloMosaic.Lib.ValueIdx

set_option maxRecDepth 16384

noncomputable section

open scoped BigOperators

namespace Cert.KernelIdeal.Arr0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RowSpec Idealize.ShloMosaic.ValueIdx
open Cert.KernelIdeal Cert.KernelIdeal.Gen

/-! # Region 0: from the blocks the grid points write back to the whole output array

The region's grid has 80 points. Point `t` reads rows `5000·t … 5000·t + 4999` of the three edge-indexed feature
arrays and of the graph-index column, reads the seventeen parameter arrays whole, and writes back rows
`5000·t … 5000·t + 4999` of the output. The blocks tile the output's 400000 rows, so the array after the region is one
function of the arrays before it, index by index: row `r`, column `j` is the edge row of row `r` of the three
feature arrays and of the graph-feature row the index column selects at `r`. -/

variable (V : (c : Dev nD) → (b : Ref sig .tc) → Buf (Elt Ideal) ((c : Thread nD τ).loc b)) (c : Dev nD)

/-! ## The arrays the region reads, at their shapes -/

/-- The source-node features of the edges. -/
abbrev aXs : Vec Ideal S400000x64 .f32 := V c main_v17
/-- The target-node features of the edges. -/
abbrev aXt : Vec Ideal S400000x64 .f32 := V c main_v24
/-- The edge features. -/
abbrev aEa : Vec Ideal S400000x64 .f32 := V c main_arg1
/-- The column of graph indices of the edges. -/
abbrev aGid : Vec Ideal S400000x1 .i32 := V c main_v25
/-- The graph features, one row per graph. -/
abbrev aU : Vec Ideal S64x16 .f32 := V c main_arg2
/-- The edge perceptron: first-layer matrix and bias, the two hidden matrices and biases, the output matrix and bias,
    the normalisation's gain and offset. -/
abbrev aWe : Vec Ideal S208x128 .f32 := V c main_arg5
abbrev aBe : Vec Ideal S128 .f32 := V c main_arg6
abbrev aWhE : Vec Ideal S2x128x128 .f32 := V c main_arg7
abbrev aBhE : Vec Ideal S2x128 .f32 := V c main_arg8
abbrev aWoE : Vec Ideal S128x64 .f32 := V c main_arg9
abbrev aBoE : Vec Ideal S64 .f32 := V c main_arg10
abbrev aGE : Vec Ideal S64 .f32 := V c main_arg11
abbrev aBE : Vec Ideal S64 .f32 := V c main_arg12
/-- The gate perceptron, in the same order. -/
abbrev aWa : Vec Ideal S208x128 .f32 := V c main_arg13
abbrev aBa : Vec Ideal S128 .f32 := V c main_arg14
abbrev aWhA : Vec Ideal S2x128x128 .f32 := V c main_arg15
abbrev aBhA : Vec Ideal S2x128 .f32 := V c main_arg16
abbrev aWoA : Vec Ideal S128x64 .f32 := V c main_arg17
abbrev aBoA : Vec Ideal S64 .f32 := V c main_arg18
abbrev aGA : Vec Ideal S64 .f32 := V c main_arg19
abbrev aBA : Vec Ideal S64 .f32 := V c main_arg20

/-- The output array after the region: at row `r` and column `j`, the edge row of row `r` of the feature arrays and of
    the graph-feature row `gsel r`. -/
def edgeOut (gsel : Fin 400000 → Fin 64) : Vec Ideal S400000x64 .f32 := fun i =>
  edgeRow (row (aXs V c) (i 0)) (row (aXt V c) (i 0)) (row (aEa V c) (i 0)) (row (aU V c) (gsel (i 0)))
    (mat (aWe V c)) (vec (aBe V c)) (mats (aWhE V c)) (row (aBhE V c)) (mat (aWoE V c)) (vec (aBoE V c)) (vec (aGE V c)) (vec (aBE V c))
    (mat (aWa V c)) (vec (aBa V c)) (mats (aWhA V c)) (row (aBhA V c)) (mat (aWoA V c)) (vec (aBoA V c)) (vec (aGA V c)) (vec (aBA V c)) (i 1)

theorem edgeOut_apply (gsel : Fin 400000 → Fin 64) (r : Fin 400000) (j : Fin 64) :
    edgeOut V c gsel (ix2 r j)
      = edgeRow (row (aXs V c) r) (row (aXt V c) r) (row (aEa V c) r) (row (aU V c) (gsel r))
          (mat (aWe V c)) (vec (aBe V c)) (mats (aWhE V c)) (row (aBhE V c)) (mat (aWoE V c)) (vec (aBoE V c)) (vec (aGE V c)) (vec (aBE V c))
          (mat (aWa V c)) (vec (aBa V c)) (mats (aWhA V c)) (row (aBhA V c)) (mat (aWoA V c)) (vec (aBoA V c)) (vec (aGA V c)) (vec (aBA V c)) j := rfl

/-! ## Zero offsets, however spelt -/

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The index maps, decided over the 80 grid points

The four row-blocked inputs and the output sit at block `t` along the rows and block 0 along the columns; every
parameter array is its own single block. -/

theorem rows_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_21.index t (0 : Fin 2) = t.val ∧ win0_21.index t (1 : Fin 2) = 0 :=
  (by decide +kernel : ∀ t : Fin grid0.N, _)

theorem u_index : ∀ (t : Fin cfg0.N) (a : Fin 2), win0_4.index t a = 0 :=
  (by decide +kernel : ∀ (t : Fin grid0.N) (a : Fin 2), _)
theorem we_index : ∀ (t : Fin cfg0.N) (a : Fin 2), win0_5.index t a = 0 :=
  (by decide +kernel : ∀ (t : Fin grid0.N) (a : Fin 2), _)
theorem be_index : ∀ (t : Fin cfg0.N) (a : Fin 1), win0_6.index t a = 0 :=
  (by decide +kernel : ∀ (t : Fin grid0.N) (a : Fin 1), _)
theorem whE_index : ∀ (t : Fin cfg0.N) (a : Fin 3), win0_7.index t a = 0 :=
  (by decide +kernel : ∀ (t : Fin grid0.N) (a : Fin 3), _)
theorem bhE_index : ∀ (t : Fin cfg0.N) (a : Fin 2), win0_8.index t a = 0 :=
  (by decide +kernel : ∀ (t : Fin grid0.N) (a : Fin 2), _)
theorem woE_index : ∀ (t : Fin cfg0.N) (a : Fin 2), win0_9.index t a = 0 :=
  (by decide +kernel : ∀ (t : Fin grid0.N) (a : Fin 2), _)
theorem boE_index : ∀ (t : Fin cfg0.N) (a : Fin 1), win0_10.index t a = 0 :=
  (by decide +kernel : ∀ (t : Fin grid0.N) (a : Fin 1), _)
theorem gE_index : ∀ (t : Fin cfg0.N) (a : Fin 1), win0_11.index t a = 0 :=
  (by decide +kernel : ∀ (t : Fin grid0.N) (a : Fin 1), _)
theorem bE_index : ∀ (t : Fin cfg0.N) (a : Fin 1), win0_12.index t a = 0 :=
  (by decide +kernel : ∀ (t : Fin grid0.N) (a : Fin 1), _)
theorem wa_index : ∀ (t : Fin cfg0.N) (a : Fin 2), win0_13.index t a = 0 :=
  (by decide +kernel : ∀ (t : Fin grid0.N) (a : Fin 2), _)
theorem ba_index : ∀ (t : Fin cfg0.N) (a : Fin 1), win0_14.index t a = 0 :=
  (by decide +kernel : ∀ (t : Fin grid0.N) (a : Fin 1), _)
theorem whA_index : ∀ (t : Fin cfg0.N) (a : Fin 3), win0_15.index t a = 0 :=
  (by decide +kernel : ∀ (t : Fin grid0.N) (a : Fin 3), _)
theorem bhA_index : ∀ (t : Fin cfg0.N) (a : Fin 2), win0_16.index t a = 0 :=
  (by decide +kernel : ∀ (t : Fin grid0.N) (a : Fin 2), _)
theorem woA_index : ∀ (t : Fin cfg0.N) (a : Fin 2), win0_17.index t a = 0 :=
  (by decide +kernel : ∀ (t : Fin grid0.N) (a : Fin 2), _)
theorem boA_index : ∀ (t : Fin cfg0.N) (a : Fin 1), win0_18.index t a = 0 :=
  (by decide +kernel : ∀ (t : Fin grid0.N) (a : Fin 1), _)
theorem gA_index : ∀ (t : Fin cfg0.N) (a : Fin 1), win0_19.index t a = 0 :=
  (by decide +kernel : ∀ (t : Fin grid0.N) (a : Fin 1), _)
theorem bA_index : ∀ (t : Fin cfg0.N) (a : Fin 1), win0_20.index t a = 0 :=
  (by decide +kernel : ∀ (t : Fin grid0.N) (a : Fin 1), _)

/-! ## The parameter arrays' blocks: each is the whole array

An element of a block sits in its array at block index times block size plus its own coordinate; with every block
index zero that is the coordinate itself. -/

theorem u_block (t : Fin cfg0.N) : iblk0 V c 4 t = aU V c := by
  funext y
  show V c main_arg2 (((cfg0.win 4).blk t).view.emb y) = V c main_arg2 y
  congr 1; funext a; apply Fin.ext
  exact win0_4.rect_emb_val_of_index_zero t a (u_index t a) y
theorem we_block (t : Fin cfg0.N) : iblk0 V c 5 t = aWe V c := by
  funext y
  show V c main_arg5 (((cfg0.win 5).blk t).view.emb y) = V c main_arg5 y
  congr 1; funext a; apply Fin.ext
  exact win0_5.rect_emb_val_of_index_zero t a (we_index t a) y
theorem be_block (t : Fin cfg0.N) : iblk0 V c 6 t = aBe V c := by
  funext y
  show V c main_arg6 (((cfg0.win 6).blk t).view.emb y) = V c main_arg6 y
  congr 1; funext a; apply Fin.ext
  exact win0_6.rect_emb_val_of_index_zero t a (be_index t a) y
theorem whE_block (t : Fin cfg0.N) : iblk0 V c 7 t = aWhE V c := by
  funext y
  show V c main_arg7 (((cfg0.win 7).blk t).view.emb y) = V c main_arg7 y
  congr 1; funext a; apply Fin.ext
  exact win0_7.rect_emb_val_of_index_zero t a (whE_index t a) y
theorem bhE_block (t : Fin cfg0.N) : iblk0 V c 8 t = aBhE V c := by
  funext y
  show V c main_arg8 (((cfg0.win 8).blk t).view.emb y) = V c main_arg8 y
  congr 1; funext a; apply Fin.ext
  exact win0_8.rect_emb_val_of_index_zero t a (bhE_index t a) y
theorem woE_block (t : Fin cfg0.N) : iblk0 V c 9 t = aWoE V c := by
  funext y
  show V c main_arg9 (((cfg0.win 9).blk t).view.emb y) = V c main_arg9 y
  congr 1; funext a; apply Fin.ext
  exact win0_9.rect_emb_val_of_index_zero t a (woE_index t a) y
theorem boE_block (t : Fin cfg0.N) : iblk0 V c 10 t = aBoE V c := by
  funext y
  show V c main_arg10 (((cfg0.win 10).blk t).view.emb y) = V c main_arg10 y
  congr 1; funext a; apply Fin.ext
  exact win0_10.rect_emb_val_of_index_zero t a (boE_index t a) y
theorem gE_block (t : Fin cfg0.N) : iblk0 V c 11 t = aGE V c := by
  funext y
  show V c main_arg11 (((cfg0.win 11).blk t).view.emb y) = V c main_arg11 y
  congr 1; funext a; apply Fin.ext
  exact win0_11.rect_emb_val_of_index_zero t a (gE_index t a) y
theorem bE_block (t : Fin cfg0.N) : iblk0 V c 12 t = aBE V c := by
  funext y
  show V c main_arg12 (((cfg0.win 12).blk t).view.emb y) = V c main_arg12 y
  congr 1; funext a; apply Fin.ext
  exact win0_12.rect_emb_val_of_index_zero t a (bE_index t a) y
theorem wa_block (t : Fin cfg0.N) : iblk0 V c 13 t = aWa V c := by
  funext y
  show V c main_arg13 (((cfg0.win 13).blk t).view.emb y) = V c main_arg13 y
  congr 1; funext a; apply Fin.ext
  exact win0_13.rect_emb_val_of_index_zero t a (wa_index t a) y
theorem ba_block (t : Fin cfg0.N) : iblk0 V c 14 t = aBa V c := by
  funext y
  show V c main_arg14 (((cfg0.win 14).blk t).view.emb y) = V c main_arg14 y
  congr 1; funext a; apply Fin.ext
  exact win0_14.rect_emb_val_of_index_zero t a (ba_index t a) y
theorem whA_block (t : Fin cfg0.N) : iblk0 V c 15 t = aWhA V c := by
  funext y
  show V c main_arg15 (((cfg0.win 15).blk t).view.emb y) = V c main_arg15 y
  congr 1; funext a; apply Fin.ext
  exact win0_15.rect_emb_val_of_index_zero t a (whA_index t a) y
theorem bhA_block (t : Fin cfg0.N) : iblk0 V c 16 t = aBhA V c := by
  funext y
  show V c main_arg16 (((cfg0.win 16).blk t).view.emb y) = V c main_arg16 y
  congr 1; funext a; apply Fin.ext
  exact win0_16.rect_emb_val_of_index_zero t a (bhA_index t a) y
theorem woA_block (t : Fin cfg0.N) : iblk0 V c 17 t = aWoA V c := by
  funext y
  show V c main_arg17 (((cfg0.win 17).blk t).view.emb y) = V c main_arg17 y
  congr 1; funext a; apply Fin.ext
  exact win0_17.rect_emb_val_of_index_zero t a (woA_index t a) y
theorem boA_block (t : Fin cfg0.N) : iblk0 V c 18 t = aBoA V c := by
  funext y
  show V c main_arg18 (((cfg0.win 18).blk t).view.emb y) = V c main_arg18 y
  congr 1; funext a; apply Fin.ext
  exact win0_18.rect_emb_val_of_index_zero t a (boA_index t a) y
theorem gA_block (t : Fin cfg0.N) : iblk0 V c 19 t = aGA V c := by
  funext y
  show V c main_arg19 (((cfg0.win 19).blk t).view.emb y) = V c main_arg19 y
  congr 1; funext a; apply Fin.ext
  exact win0_19.rect_emb_val_of_index_zero t a (gA_index t a) y
theorem bA_block (t : Fin cfg0.N) : iblk0 V c 20 t = aBA V c := by
  funext y
  show V c main_arg20 (((cfg0.win 20).blk t).view.emb y) = V c main_arg20 y
  congr 1; funext a; apply Fin.ext
  exact win0_20.rect_emb_val_of_index_zero t a (bA_index t a) y

/-! ## The row-blocked arrays' blocks: row `p` of block `t` is row `5000·t + p` of the array -/

theorem xs_block (t : Fin cfg0.N) (p : Fin 5000) (k : Fin 64) (r : Fin 400000) (hr : r.val = t.val * 5000 + p.val) :
    iblk0 V c 0 t (ix2 p k) = aXs V c (ix2 r k) := by
  obtain ⟨e0, e1, -⟩ := rows_index t
  show V c main_v17 (((cfg0.win 0).blk t).view.emb (ix2 p k)) = V c main_v17 (ix2 r k)
  congr 1; funext a; apply Fin.ext
  match a with
  | ⟨0, _⟩ => show win0_0.index t (0 : Fin 2) * 5000 + 1 * p.val = r.val; omega
  | ⟨1, _⟩ => show win0_0.index t (1 : Fin 2) * 64 + 1 * k.val = k.val; omega

theorem xt_block (t : Fin cfg0.N) (p : Fin 5000) (k : Fin 64) (r : Fin 400000) (hr : r.val = t.val * 5000 + p.val) :
    iblk0 V c 1 t (ix2 p k) = aXt V c (ix2 r k) := by
  obtain ⟨-, -, e0, e1, -⟩ := rows_index t
  show V c main_v24 (((cfg0.win 1).blk t).view.emb (ix2 p k)) = V c main_v24 (ix2 r k)
  congr 1; funext a; apply Fin.ext
  match a with
  | ⟨0, _⟩ => show win0_1.index t (0 : Fin 2) * 5000 + 1 * p.val = r.val; omega
  | ⟨1, _⟩ => show win0_1.index t (1 : Fin 2) * 64 + 1 * k.val = k.val; omega

theorem ea_block (t : Fin cfg0.N) (p : Fin 5000) (k : Fin 64) (r : Fin 400000) (hr : r.val = t.val * 5000 + p.val) :
    iblk0 V c 2 t (ix2 p k) = aEa V c (ix2 r k) := by
  obtain ⟨-, -, -, -, e0, e1, -⟩ := rows_index t
  show V c main_arg1 (((cfg0.win 2).blk t).view.emb (ix2 p k)) = V c main_arg1 (ix2 r k)
  congr 1; funext a; apply Fin.ext
  match a with
  | ⟨0, _⟩ => show win0_2.index t (0 : Fin 2) * 5000 + 1 * p.val = r.val; omega
  | ⟨1, _⟩ => show win0_2.index t (1 : Fin 2) * 64 + 1 * k.val = k.val; omega

theorem gid_block (t : Fin cfg0.N) (p : Fin 5000) (k : Fin 1) (r : Fin 400000) (hr : r.val = t.val * 5000 + p.val) :
    iblk0 V c 3 t (ix2 p k) = aGid V c (ix2 r k) := by
  obtain ⟨-, -, -, -, -, -, e0, e1, -⟩ := rows_index t
  show V c main_v25 (((cfg0.win 3).blk t).view.emb (ix2 p k)) = V c main_v25 (ix2 r k)
  congr 1; funext a; apply Fin.ext
  match a with
  | ⟨0, _⟩ => show win0_3.index t (0 : Fin 2) * 5000 + 1 * p.val = r.val; omega
  | ⟨1, _⟩ => show win0_3.index t (1 : Fin 2) * 1 + 1 * k.val = k.val; omega

/-! ## What a grid point writes back -/

/-- Point `t` writes back block `t` of `edgeOut`: the one store's payload at row `p`, column `j` of the block is the edge
    row of the blocks' rows `p` (the hypothesis `hblock`), the blocks' rows `p` are the arrays' rows `5000·t + p`, and the
    graph index read at row `p` of the index block is the one the column holds at row `5000·t + p`. -/
theorem flushed_eq (gsel : Fin 400000 → Fin 64)
    (hB : ∀ r : Fin 400000, aGid V c (ix2 r 0) = BitVec.ofNat 32 (gsel r).val)
    (hblock : ∀ (x0 x1 x2 : Vec Ideal S5000x64 .f32) (x3 : Vec Ideal S5000x1 .i32) (x4 : Vec Ideal S64x16 .f32) (x5 : Vec Ideal S208x128 .f32) (x6 : Vec Ideal S128 .f32) (x7 : Vec Ideal S2x128x128 .f32) (x8 : Vec Ideal S2x128 .f32) (x9 : Vec Ideal S128x64 .f32) (x10 x11 x12 : Vec Ideal S64 .f32) (x13 : Vec Ideal S208x128 .f32) (x14 : Vec Ideal S128 .f32) (x15 : Vec Ideal S2x128x128 .f32) (x16 : Vec Ideal S2x128 .f32) (x17 : Vec Ideal S128x64 .f32) (x18 x19 x20 : Vec Ideal S64 .f32) (p : Fin 5000) (j : Fin 64) (g0 : Fin 64) (hg : x3 (ix2 p 0) = BitVec.ofNat 32 g0.val),
      k0_pay1 (F := Ideal) (k0_pay9 x11 x12 (k0_pay6 (k0_pay5 x0 x1 x2 x3 x4 x5 x6) x7 x8 x9 x10) (k0_pay7 (k0_pay5 x0 x1 x2 x3 x4 x5 x6) x7 x8 x9 x10) (k0_pay8 (k0_pay5 x0 x1 x2 x3 x4 x5 x6) x7 x8 x9 x10)) x19 x20 (k0_pay11 (k0_pay10 (k0_pay2 x0) (k0_pay3 x1) x2 (k0_pay4 x3 x4) x13 x14) x15 x16 x17 x18) (k0_pay12 (k0_pay10 (k0_pay2 x0) (k0_pay3 x1) x2 (k0_pay4 x3 x4) x13 x14) x15 x16 x17 x18) (k0_pay13 (k0_pay10 (k0_pay2 x0) (k0_pay3 x1) x2 (k0_pay4 x3 x4) x13 x14) x15 x16 x17 x18) (ix2 p j)
        = edgeRow (row x0 p) (row x1 p) (row x2 p) (row x4 g0) (mat x5) (vec x6) (mats x7) (row x8) (mat x9) (vec x10) (vec x11) (vec x12) (mat x13) (vec x14) (mats x15) (row x16) (mat x17) (vec x18) (vec x19) (vec x20) j)
    (t : Fin cfg0.N) :
    (dat0 V c).flushed 21 t = ((cfg0.win 21).blk t).view.read (Elt Ideal) (edgeOut V c gsel) := by
  show (cfg0.win 21).cut (grid0.coords t) ((dat0 V c).after 21 t) = _
  rw [after0_21]
  unfold out0_21
  rw [View.canon_unit_zero zeros2]
  simp only [View.ld_unit_zero (S := S5000x64) zeros2, View.ld_unit_zero (S := S5000x1) zeros2,
    View.ld_unit_zero (S := S64x16) zeros2, View.ld_unit_zero (S := S208x128) zeros2, View.ld_unit_zero (S := S128) zeros1,
    View.ld_unit_zero (S := S2x128x128) zeros3, View.ld_unit_zero (S := S2x128) zeros2, View.ld_unit_zero (S := S128x64) zeros2,
    View.ld_unit_zero (S := S64) zeros1]
  rw [u_block V c t, we_block V c t, be_block V c t, whE_block V c t, bhE_block V c t, woE_block V c t, boE_block V c t,
    gE_block V c t, bE_block V c t, wa_block V c t, ba_block V c t, whA_block V c t, bhA_block V c t, woA_block V c t,
    boA_block V c t, gA_block V c t, bA_block V c t]
  funext y
  obtain ⟨p, j, rfl⟩ : ∃ (p : Fin 5000) (j : Fin 64), y = ix2 p j := ⟨y 0, y 1, eq_ix2 (n0 := 5000) (n1 := 64) y⟩
  have ht : t.val < 80 := t.isLt
  have hp : p.val < 5000 := p.isLt
  obtain ⟨r, hr⟩ : ∃ r : Fin 400000, r.val = t.val * 5000 + p.val := ⟨⟨t.val * 5000 + p.val, by omega⟩, rfl⟩
  have hg : iblk0 V c 3 t (ix2 p 0) = BitVec.ofNat 32 (gsel r).val := (gid_block V c t p 0 r hr).trans (hB r)
  have hemb : ((cfg0.win 21).blk t).view.emb (ix2 p j) = ix2 r j := by
    obtain ⟨-, -, -, -, -, -, -, -, e0, e1⟩ := rows_index t
    funext a; apply Fin.ext
    match a with
    | ⟨0, _⟩ => show win0_21.index t (0 : Fin 2) * 5000 + 1 * p.val = r.val; omega
    | ⟨1, _⟩ => show win0_21.index t (1 : Fin 2) * 64 + 1 * j.val = j.val; omega
  have exs : row (iblk0 V c 0 t) p = row (aXs V c) r := funext fun k => xs_block V c t p k r hr
  have ext : row (iblk0 V c 1 t) p = row (aXt V c) r := funext fun k => xt_block V c t p k r hr
  have eea : row (iblk0 V c 2 t) p = row (aEa V c) r := funext fun k => ea_block V c t p k r hr
  refine (hblock (iblk0 V c 0 t) (iblk0 V c 1 t) (iblk0 V c 2 t) (iblk0 V c 3 t) (aU V c) (aWe V c) (aBe V c) (aWhE V c)
    (aBhE V c) (aWoE V c) (aBoE V c) (aGE V c) (aBE V c) (aWa V c) (aBa V c) (aWhA V c) (aBhA V c) (aWoA V c) (aBoA V c)
    (aGA V c) (aBA V c) p j (gsel r) hg).trans ?_
  show _ = edgeOut V c gsel (((cfg0.win 21).blk t).view.emb (ix2 p j))
  rw [hemb, edgeOut_apply, exs, ext, eea]

/-! ## The blocks tile the array -/

/-- An index of the output array is in point `t`'s block iff each coordinate is in the block's range on its axis. -/
theorem mem_block (t : Fin cfg0.N) (i : S400000x64.Idx) :
    i ∈ ((cfg0.win 21).blk t).view.set ↔ ∀ a : Fin 2, win0_21.index t a * S5000x64.size a ≤ (i a).val ∧ (i a).val < win0_21.index t a * S5000x64.size a + S5000x64.size a := by
  show i ∈ ((View.whole main_v27).slice (win0_21.rect t)).set ↔ _
  rw [View.set_slice_whole, Rect.mem_set_unit]
  exact Iff.rfl

/-- Every index of the output array is in some point's block: row `r` is in the block of point `r / 5000`. -/
theorem covered (i : S400000x64.Idx) :
    ∃ t : Fin cfg0.N, (cfg0.win 21).flush t = true ∧ i ∈ ((cfg0.win 21).blk t).view.set := by
  have hi0 : (i 0).val < 400000 := (i 0).isLt
  have hi1 : (i 1).val < 64 := (i 1).isLt
  have hN : grid0.N = 80 := N_0
  obtain ⟨t, ht⟩ : ∃ t : Fin cfg0.N, t.val = (i 0).val / 5000 := ⟨⟨(i 0).val / 5000, by show _ < grid0.N; omega⟩, rfl⟩
  obtain ⟨-, -, -, -, -, -, -, -, e0, e1⟩ := rows_index t
  refine ⟨t, flush0_21 t, ?_⟩
  rw [mem_block]
  intro a
  match a with
  | ⟨0, _⟩ => show win0_21.index t (0 : Fin 2) * 5000 ≤ (i 0).val ∧ (i 0).val < win0_21.index t (0 : Fin 2) * 5000 + 5000; omega
  | ⟨1, _⟩ => show win0_21.index t (1 : Fin 2) * 64 ≤ (i 1).val ∧ (i 1).val < win0_21.index t (1 : Fin 2) * 64 + 64; omega

/-! ## The output array after the region -/

/-- The whole output array after the region, index by index: every grid point writes back its block of `edgeOut`
    and the blocks cover the array. -/
theorem final0 (V : (c : Dev nD) → (b : Ref sig .tc) → Buf (Elt Ideal) ((c : Thread nD τ).loc b)) (c : Dev nD)
    (gsel : Fin 400000 → Fin 64)
    (hB : ∀ r : Fin 400000, aGid V c (ix2 r 0) = BitVec.ofNat 32 (gsel r).val)
    (hblock : ∀ (x0 x1 x2 : Vec Ideal S5000x64 .f32) (x3 : Vec Ideal S5000x1 .i32) (x4 : Vec Ideal S64x16 .f32) (x5 : Vec Ideal S208x128 .f32) (x6 : Vec Ideal S128 .f32) (x7 : Vec Ideal S2x128x128 .f32) (x8 : Vec Ideal S2x128 .f32) (x9 : Vec Ideal S128x64 .f32) (x10 x11 x12 : Vec Ideal S64 .f32) (x13 : Vec Ideal S208x128 .f32) (x14 : Vec Ideal S128 .f32) (x15 : Vec Ideal S2x128x128 .f32) (x16 : Vec Ideal S2x128 .f32) (x17 : Vec Ideal S128x64 .f32) (x18 x19 x20 : Vec Ideal S64 .f32) (p : Fin 5000) (j : Fin 64) (g0 : Fin 64) (hg : x3 (ix2 p 0) = BitVec.ofNat 32 g0.val),
      k0_pay1 (F := Ideal) (k0_pay9 x11 x12 (k0_pay6 (k0_pay5 x0 x1 x2 x3 x4 x5 x6) x7 x8 x9 x10) (k0_pay7 (k0_pay5 x0 x1 x2 x3 x4 x5 x6) x7 x8 x9 x10) (k0_pay8 (k0_pay5 x0 x1 x2 x3 x4 x5 x6) x7 x8 x9 x10)) x19 x20 (k0_pay11 (k0_pay10 (k0_pay2 x0) (k0_pay3 x1) x2 (k0_pay4 x3 x4) x13 x14) x15 x16 x17 x18) (k0_pay12 (k0_pay10 (k0_pay2 x0) (k0_pay3 x1) x2 (k0_pay4 x3 x4) x13 x14) x15 x16 x17 x18) (k0_pay13 (k0_pay10 (k0_pay2 x0) (k0_pay3 x1) x2 (k0_pay4 x3 x4) x13 x14) x15 x16 x17 x18) (ix2 p j)
        = edgeRow (row x0 p) (row x1 p) (row x2 p) (row x4 g0) (mat x5) (vec x6) (mats x7) (row x8) (mat x9) (vec x10) (vec x11) (vec x12) (mat x13) (vec x14) (mats x15) (row x16) (mat x17) (vec x18) (vec x19) (vec x20) j)
    (r : Fin 400000) (j : Fin 64) :
    (dat0 (F := Ideal) V c).arrAt 21 cfg0.N (ix2 r j)
      = edgeRow (row (aXs V c) r) (row (aXt V c) r) (row (aEa V c) r) (row (aU V c) (gsel r))
          (mat (aWe V c)) (vec (aBe V c)) (mats (aWhE V c)) (row (aBhE V c)) (mat (aWoE V c)) (vec (aBoE V c)) (vec (aGE V c)) (vec (aBE V c))
          (mat (aWa V c)) (vec (aBa V c)) (mats (aWhA V c)) (row (aBhA V c)) (mat (aWoA V c)) (vec (aBoA V c)) (vec (aGA V c)) (vec (aBA V c)) j := by
  have h : (dat0 (F := Ideal) V c).arrAt 21 cfg0.N = edgeOut V c gsel :=
    (dat0 V c).arrAt_eq_of_cover 21 (edgeOut V c gsel) (fun t _ => flushed_eq V c gsel hB hblock t) covered
  rw [h, edgeOut_apply]

end Cert.KernelIdeal.Arr0

end
-- ==== Proof.KPayNode.lean ====
/-
  The node perceptron's payloads, one row at a time, on the extended reals.

  Each payload of the node kernel is a whole block of 5000 rows. Read at one row p and one column j it is a
  row map of the shared vocabulary: a product with a matrix is the sum over the contracted position of the
  row's entries times the matrix's column; a maximum with the zero word is the pointwise maximum; a bias is
  the same row of numbers added to every row of the block; a change of format is the identity.
-/
import proofs.«404949_j85100482003175_1_alg».proof.Proof.Gen.KernelIdeal.Skeleton
import proofs.«404949_j85100482003175_1_alg».proof.Proof.RowSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.RowSpec Idealize.ShloMosaic Idealize.ShloMosaic.ValueIdx

/-! ## A block of rows times a matrix, read at one entry

The five products of the node and edge kernels, each into a zero accumulator. At row `p` and column `j` such a
product is the sum, over the contracted position `k`, of the left factor at `(p, k)` times the right factor at
`(k, j)`. For each pair of sizes: the left factor's index keeps the result's row and runs along `k`, the right
factor's runs along `k` and keeps the result's column; the contraction's one axis is re-indexed by `Fin`. -/

/-! ### Rows of 128 entries against a 128 × 128 matrix -/

theorem lhs_128_128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_128_128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_128_128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_128_128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A hidden layer's product at row `p`, column `j`: the sum over the 128 contracted positions. -/
theorem matmul_128_128 {φ₁ φ₂ : FTy} (l : FVec Ideal S5000x128 φ₁) (r : FVec Ideal S128x128 φ₂) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_128_128_0 _ _
    | ⟨1, _⟩ => exact (lhs_128_128_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_128_128_0 _ _).trans hk
    | ⟨1, _⟩ => exact rhs_128_128_1 _ _)
  rw [el, er]

/-! ### Rows of 128 entries against a 128 × 64 matrix -/

theorem lhs_128_64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_128_64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_128_64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_128_64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The output layer's product at row `p`, column `j`: the sum over the 128 contracted positions. -/
theorem matmul_128_64 {φ₁ φ₂ : FTy} (l : FVec Ideal S5000x128 φ₁) (r : FVec Ideal S128x64 φ₂) (p : Fin 5000) (j : Fin 64) :
    matmul dot_S5000x128_S128x64_S5000x64_1_0_0_1_n_n none l r (constant (F := Ideal) S5000x64 .f32 0x00000000#32) (ix2 p j)
      = ∑ k : Fin 128, l (ix2 p k) * r (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p j) ((contrEquiv1 dot_S5000x128_S128x64_S5000x64_1_0_0_1_n_n 128 rfl rfl).symm k) = ix2 p k := funext fun a => Fin.ext (by
    match a with
    | ⟨0, _⟩ => exact lhs_128_64_0 _ _
    | ⟨1, _⟩ => exact (lhs_128_64_1 _ _).trans hk)
  have er : dot_S5000x128_S128x64_S5000x64_1_0_0_1_n_n.rhsIdx (ix2 p j) ((contrEquiv1 dot_S5000x128_S128x64_S5000x64_1_0_0_1_n_n 128 rfl rfl).symm k) = ix2 k j := funext fun a => Fin.ext (by
    match a with
    | ⟨0, _⟩ => exact (rhs_128_64_0 _ _).trans hk
    | ⟨1, _⟩ => exact rhs_128_64_1 _ _)
  rw [el, er]

/-! ### Rows of 64 entries against a 64 × 128 matrix -/

theorem lhs_64_128_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_64_128_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_64_128_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_64_128_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A first layer's product of 64 features at row `p`, column `j`: the sum over the 64 contracted positions. -/
theorem matmul_64_128 {φ₁ φ₂ : FTy} (l : FVec Ideal S5000x64 φ₁) (r : FVec Ideal S64x128 φ₂) (p : Fin 5000) (j : Fin 128) :
    matmul dot_S5000x64_S64x128_S5000x128_1_0_0_1_n_n none l r (constant (F := Ideal) S5000x128 .f32 0x00000000#32) (ix2 p j)
      = ∑ k : Fin 64, l (ix2 p k) * r (ix2 k j) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p j) ((contrEquiv1 dot_S5000x64_S64x128_S5000x128_1_0_0_1_n_n 64 rfl rfl).symm k) = ix2 p k := funext fun a => Fin.ext (by
    match a with
    | ⟨0, _⟩ => exact lhs_64_128_0 _ _
    | ⟨1, _⟩ => exact (lhs_64_128_1 _ _).trans hk)
  have er : dot_S5000x64_S64x128_S5000x128_1_0_0_1_n_n.rhsIdx (ix2 p j) ((contrEquiv1 dot_S5000x64_S64x128_S5000x128_1_0_0_1_n_n 64 rfl rfl).symm k) = ix2 k j := funext fun a => Fin.ext (by
    match a with
    | ⟨0, _⟩ => exact (rhs_64_128_0 _ _).trans hk
    | ⟨1, _⟩ => exact rhs_64_128_1 _ _)
  rw [el, er]

/-! ### Rows of 16 entries against a 16 × 128 matrix -/

theorem lhs_16_128_0 (i : S5000x128.Idx) (q : dot_S5000x16_S16x128_S5000x128_1_0_0_1_n_n.contr.Idx) :
    (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide), dif_pos (show (0 : Fin S5000x16.rank) ∈ dot_S5000x16_S16x128_S5000x128_1_0_0_1_n_n.lhsNonContracting by decide)]
  rfl
theorem lhs_16_128_1 (i : S5000x128.Idx) (q : dot_S5000x16_S16x128_S5000x128_1_0_0_1_n_n.contr.Idx) :
    (dot_S5000x16_S16x128_S5000x128_1_0_0_1_n_n.lhsIdx i q 1).val = (q ⟨0, by decide⟩).val :=
  dot_S5000x16_S16x128_S5000x128_1_0_0_1_n_n.lhsIdx_val_of_single rfl i q
theorem rhs_16_128_0 (i : S5000x128.Idx) (q : dot_S5000x16_S16x128_S5000x128_1_0_0_1_n_n.contr.Idx) :
    (dot_S5000x16_S16x128_S5000x128_1_0_0_1_n_n.rhsIdx i q 0).val = (q ⟨0, by decide⟩).val :=
  dot_S5000x16_S16x128_S5000x128_1_0_0_1_n_n.rhsIdx_val_of_single rfl i q
theorem rhs_16_128_1 (i : S5000x128.Idx) (q : dot_S5000x16_S16x128_S5000x128_1_0_0_1_n_n.contr.Idx) :
    (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide), dif_pos (show (1 : Fin S16x128.rank) ∈ dot_S5000x16_S16x128_S5000x128_1_0_0_1_n_n.rhsNonContracting by decide)]
  rfl

/-- A first layer's product of the 16 graph features at row `p`, column `j`: the sum over the 16 contracted positions. -/
theorem matmul_16_128 {φ₁ φ₂ : FTy} (l : FVec Ideal S5000x16 φ₁) (r : FVec Ideal S16x128 φ₂) (p : Fin 5000) (j : Fin 128) :
    matmul dot_S5000x16_S16x128_S5000x128_1_0_0_1_n_n none l r (constant (F := Ideal) S5000x128 .f32 0x00000000#32) (ix2 p j)
      = ∑ k : Fin 16, l (ix2 p k) * r (ix2 k j) := by
  simp only [matmul]
  rw [Ideal.matmul_constant_zero_apply, ← Equiv.sum_comp (contrEquiv1 dot_S5000x16_S16x128_S5000x128_1_0_0_1_n_n 16 rfl rfl).symm]
  refine Finset.sum_congr rfl fun k _ => ?_
  have hk := contrEquiv1_symm_val dot_S5000x16_S16x128_S5000x128_1_0_0_1_n_n 16 rfl rfl k
  have el : dot_S5000x16_S16x128_S5000x128_1_0_0_1_n_n.lhsIdx (ix2 p j) ((contrEquiv1 dot_S5000x16_S16x128_S5000x128_1_0_0_1_n_n 16 rfl rfl).symm k) = ix2 p k := funext fun a => Fin.ext (by
    match a with
    | ⟨0, _⟩ => exact lhs_16_128_0 _ _
    | ⟨1, _⟩ => exact (lhs_16_128_1 _ _).trans hk)
  have er : dot_S5000x16_S16x128_S5000x128_1_0_0_1_n_n.rhsIdx (ix2 p j) ((contrEquiv1 dot_S5000x16_S16x128_S5000x128_1_0_0_1_n_n 16 rfl rfl).symm k) = ix2 k j := funext fun a => Fin.ext (by
    match a with
    | ⟨0, _⟩ => exact (rhs_16_128_0 _ _).trans hk
    | ⟨1, _⟩ => exact rhs_16_128_1 _ _)
  rw [el, er]

/-! ### Rows of 64 entries against a 64 × 16 table -/

theorem lhs_64_16_0 (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs_64_16_1 (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem rhs_64_16_0 (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem rhs_64_16_1 (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-- The table look-up's product at row `p`, column `j`: the sum over the table's 64 rows. -/
theorem matmul_64_16 {φ₁ φ₂ : FTy} (l : FVec Ideal S5000x64 φ₁) (r : FVec Ideal S64x16 φ₂) (p : Fin 5000) (j : Fin 16) :
    matmul dot_S5000x64_S64x16_S5000x16_1_0_0_1_n_n none l r (constant (F := Ideal) S5000x16 .f32 0x00000000#32) (ix2 p j)
      = ∑ k : Fin 64, l (ix2 p k) * r (ix2 k j) := by
  simp only [matmul]
  rw [Ideal.matmul_constant_zero_apply, ← Equiv.sum_comp (contrEquiv1 dot_S5000x64_S64x16_S5000x16_1_0_0_1_n_n 64 rfl rfl).symm]
  refine Finset.sum_congr rfl fun k _ => ?_
  have hk := contrEquiv1_symm_val dot_S5000x64_S64x16_S5000x16_1_0_0_1_n_n 64 rfl rfl k
  have el : dot_S5000x64_S64x16_S5000x16_1_0_0_1_n_n.lhsIdx (ix2 p j) ((contrEquiv1 dot_S5000x64_S64x16_S5000x16_1_0_0_1_n_n 64 rfl rfl).symm k) = ix2 p k := funext fun a => Fin.ext (by
    match a with
    | ⟨0, _⟩ => exact lhs_64_16_0 _ _
    | ⟨1, _⟩ => exact (lhs_64_16_1 _ _).trans hk)
  have er : dot_S5000x64_S64x16_S5000x16_1_0_0_1_n_n.rhsIdx (ix2 p j) ((contrEquiv1 dot_S5000x64_S64x16_S5000x16_1_0_0_1_n_n 64 rfl rfl).symm k) = ix2 k j := funext fun a => Fin.ext (by
    match a with
    | ⟨0, _⟩ => exact (rhs_64_16_0 _ _).trans hk
    | ⟨1, _⟩ => exact rhs_64_16_1 _ _)
  rw [el, er]

/-! ## The one-hot row

The kernels look a row of the 64-row table up by a product: the row's index, spread along 64 columns, is compared
with the column number, and the outcome, 1 or 0, is read as a number. At `(p, g)` it is 1 exactly when `g` is the
index stored for row `p`. Both numbers are below 64, so their 32-bit words are equal only when they are. -/

/-- The comparison's outcome at `(p, g)`, as an extended real. -/
theorem onehot_elt (c : IVec S5000x1 32) (hb : S5000x1.Broadcasts S5000x64) (hi : S5000x64.Iotas .tc 32 [1]) (hlt : 1 < 32)
    (p : Fin 5000) (g g0 : Fin 64) (hg : c (ix2 p 0) = BitVec.ofNat 32 g0.val) :
    (sitofp .f32 (extui 32 (cmpi .eq (broadcastTo S5000x64 c hb) (iota .tc S5000x64 32 [1] hi)) hlt) : FVec Ideal S5000x64 .f32) (ix2 p g)
      = if g = g0 then (1 : EReal) else 0 := by
  have hc : broadcastTo S5000x64 c hb (ix2 p g) = c (ix2 p 0) :=
    broadcastTo_apply c hb (ix2 p g) (ix2 p 0) fun a => by
      match a with
      | ⟨0, _⟩ => rfl
      | ⟨1, _⟩ => rfl
  have hio : iota .tc S5000x64 32 [1] hi (ix2 p g) = BitVec.ofNat 32 g.val := by
    show BitVec.ofNat 32 (0 * 64 + g.val) = BitVec.ofNat 32 g.val
    rw [Nat.zero_mul, Nat.zero_add]
  show ((((IntOp.cmpi .eq (broadcastTo S5000x64 c hb (ix2 p g)) (iota .tc S5000x64 32 [1] hi (ix2 p g))).setWidth 32).toInt : ℝ) : EReal) = _
  rw [hc, hio, hg]
  by_cases h : g = g0
  · subst h
    rw [if_pos rfl]
    have : IntOp.cmpi .eq (BitVec.ofNat 32 g.val) (BitVec.ofNat 32 g.val) = 1#1 := by
      simp [IntOp.cmpi]
    rw [this]
    simp
  · rw [if_neg h]
    have hne : BitVec.ofNat 32 g0.val ≠ BitVec.ofNat 32 g.val := by
      intro e
      have e' := congrArg BitVec.toNat e
      rw [BitVec.toNat_ofNat, BitVec.toNat_ofNat, Nat.mod_eq_of_lt (by have := g0.isLt; omega),
        Nat.mod_eq_of_lt (by have := g.isLt; omega)] at e'
      exact h (Fin.ext e'.symm)
    have : IntOp.cmpi .eq (BitVec.ofNat 32 g0.val) (BitVec.ofNat 32 g.val) = 0#1 := by
      show BitVec.ofBool (BitVec.ofNat 32 g0.val == BitVec.ofNat 32 g.val) = 0#1
      rw [beq_false_of_ne hne]
      rfl
    rw [this]
    simp

/-! ## Weights and biases out of their arrays

A hidden layer's matrix is one of a stack of two, cut out and with its unit axis dropped; its bias is one row of a
two-row array, cut out, flattened, and then spread over the 5000 rows of the block. A plain bias is a row of numbers
spread the same way. A column of 5000 numbers spread over 64 columns reads its own row everywhere. -/

/-- Matrix `o` of the stack, at `(k, j)`. -/
theorem weight_slice {α : Type} (W : S2x128x128.Idx → α) (o : Nat) (ho : o < 2) (hs : S2x128x128.Slices ![o, 0, 0] S1x128x128)
    (hc : S1x128x128.ShapeCasts S128x128) (k j : Fin 128) :
    shapeCast S128x128 (extractStridedSlice S1x128x128 ![o, 0, 0] W hs) hc (ix2 k j) = W (ix3 ⟨o, ho⟩ k j) := by
  rw [shapeCast_1ab_ab_apply]
  exact extractStridedSlice_apply _ W hs _ _ fun a => by
    match a with
    | ⟨0, _⟩ => exact (Nat.add_zero o).symm
    | ⟨1, _⟩ => exact (Nat.zero_add _).symm
    | ⟨2, _⟩ => exact (Nat.zero_add _).symm

/-- Row `o` of the two-row array, spread over the block, at `(p, k)`. -/
theorem bias_slice {α : Type} (B : S2x128.Idx → α) (o : Nat) (ho : o < 2) (hs : S2x128.Slices ![o, 0] S1x128)
    (hc1 : S1x128.ShapeCasts S128) (hc2 : S128.ShapeCasts S1x128) (hb : S1x128.Broadcasts S5000x128) (p : Fin 5000) (k : Fin 128) :
    broadcastTo S5000x128 (shapeCast S1x128 (shapeCast S128 (extractStridedSlice S1x128 ![o, 0] B hs) hc1) hc2) hb (ix2 p k)
      = B (ix2 ⟨o, ho⟩ k) := by
  rw [broadcastTo_1b_ab_apply, shapeCast_a_1a_apply, shapeCast_1a_a_apply]
  exact slice2_axis0_apply o B hs (0 : Fin 1) k ⟨o, ho⟩ (Nat.add_zero o).symm

/-- A row of `n` numbers spread over the block, at `(p, j)`. -/
theorem bias_row {α : Type} {n : Nat} (b : (⟨1, ![n]⟩ : Shape).Idx → α) (hc : (⟨1, ![n]⟩ : Shape).ShapeCasts ⟨2, ![1, n]⟩)
    (hb : (⟨2, ![1, n]⟩ : Shape).Broadcasts ⟨2, ![5000, n]⟩) (p : Fin 5000) (j : Fin n) :
    broadcastTo ⟨2, ![5000, n]⟩ (shapeCast ⟨2, ![1, n]⟩ b hc) hb (ix2 p j) = b (ix1 j) := by
  rw [broadcastTo_1b_ab_apply, shapeCast_a_1a_apply]

/-- A column spread over 64 columns, at `(p, j)`: the column at row `p`. -/
theorem bcast_col {α : Type} (x : S5000x1.Idx → α) (hb : S5000x1.Broadcasts S5000x64) (p : Fin 5000) (j : Fin 64) :
    broadcastTo S5000x64 x hb (ix2 p j) = x (ix2 p 0) :=
  broadcastTo_apply x hb (ix2 p j) (ix2 p 0) fun a => by
    match a with
    | ⟨0, _⟩ => rfl
    | ⟨1, _⟩ => rfl

/-! ## The perceptron's layers, one row at a time -/

/-- The maximum with the zero word, then the change of format, on row `p`. -/
theorem relu_row (x : FVec Ideal S5000x128 .f32) (h : FTy.bf16.bits < FTy.f32.bits) (p : Fin 5000) :
    row (truncf .bf16 (maximumf x (broadcast S5000x128 (FloatOps.ofBits (F := Ideal) .f32 0x00000000#32))) h) p = relu (row x p) := rfl

/-- A hidden layer on row `p`: the row against matrix `o` of the stack, plus row `o` of the biases. -/
theorem hidden_rows {φ : FTy} (l : FVec Ideal S5000x128 φ) (W : Vec Ideal S2x128x128 .f32) (B : Vec Ideal S2x128 .f32) (o : Nat) (ho : o < 2)
    (hs : S2x128x128.Slices ![o, 0, 0] S1x128x128) (hc : S1x128x128.ShapeCasts S128x128) (hbf : FTy.bf16.bits < FTy.f32.bits)
    (hs' : S2x128.Slices ![o, 0] S1x128) (hc1 : S1x128.ShapeCasts S128) (hc2 : S128.ShapeCasts S1x128)
    (hb : S1x128.Broadcasts S5000x128) (p : Fin 5000) :
    row (addf (matmul dot_S5000x128_S128x128_S5000x128_1_0_0_1_n_n none l
            (truncf .bf16 (shapeCast S128x128 (extractStridedSlice S1x128x128 ![o, 0, 0] W hs) hc) hbf)
            (constant (F := Ideal) S5000x128 .f32 0x00000000#32))
          (broadcastTo S5000x128 (shapeCast S1x128 (shapeCast S128 (extractStridedSlice S1x128 ![o, 0] B hs') hc1) hc2) hb)) p
      = fun k => dotRow (row l p) (mats W ⟨o, ho⟩) k + row B ⟨o, ho⟩ k := by
  funext k
  show addf _ _ (ix2 p k) = _
  rw [addf_apply, matmul_128_128, bias_slice B o ho]
  refine congrArg (· + B (ix2 ⟨o, ho⟩ k)) (Finset.sum_congr rfl fun k' _ => ?_)
  rw [truncf_apply, weight_slice W o ho]

/-- The output layer at `(p, j)`: the row against the matrix, plus the bias. -/
theorem out_row {φ : FTy} (l : FVec Ideal S5000x128 φ) (Wo : Vec Ideal S128x64 .f32) (bo : Vec Ideal S64 .f32)
    (hbf : FTy.bf16.bits < FTy.f32.bits) (hc : S64.ShapeCasts S1x64) (hb : S1x64.Broadcasts S5000x64) (p : Fin 5000) (j : Fin 64) :
    addf (matmul dot_S5000x128_S128x64_S5000x64_1_0_0_1_n_n none l (truncf .bf16 Wo hbf) (constant (F := Ideal) S5000x64 .f32 0x00000000#32))
        (broadcastTo S5000x64 (shapeCast S1x64 bo hc) hb) (ix2 p j)
      = dotRow (row l p) (mat Wo) j + vec bo j := by
  rw [addf_apply, matmul_128_64, bias_row]
  rfl

/-- The hidden and output layers' payload at row `p`, column `j`. -/
theorem pay3_row (v30 : FVec Ideal S5000x128 .f32) (v31 : Vec Ideal S2x128x128 .f32) (v32 : Vec Ideal S2x128 .f32)
    (v33 : Vec Ideal S128x64 .f32) (v34 : Vec Ideal S64 .f32) (p : Fin 5000) (j : Fin 64) :
    k1_pay3 (F := Ideal) v30 v31 v32 v33 v34 (ix2 p j)
      = rest (mats v31 0) (mats v31 1) (row v32 0) (row v32 1) (mat v33) (vec v34) (row v30 p) j := by
  unfold k1_pay3
  rw [out_row, relu_row, hidden_rows _ v31 v32 1 (by decide), relu_row, hidden_rows _ v31 v32 0 (by decide), relu_row]
  rfl

/-! ## The first layer

The node's own 64 features, the 64 aggregated ones and the 16 features of the node's graph each meet their own
rows of the 144-row matrix: rows 0–63, 64–127 and 128–143. The graph's features are row `g₀` of the table, which the
kernel reads by a product with the one-hot row. -/

/-- The 64 rows of the matrix from row `o` on, at `(k, j)`. -/
theorem weight_rows64 {α : Type} (W : S144x128.Idx → α) (o : Nat) (hs : S144x128.Slices ![o, 0] S64x128)
    (k : Fin 64) (j : Fin 128) (ho : o + k.val < 144) :
    extractStridedSlice S64x128 ![o, 0] W hs (ix2 k j) = W (ix2 ⟨o + k.val, ho⟩ j) :=
  slice2_axis0_apply o W hs k j ⟨o + k.val, ho⟩ rfl

/-- The 16 rows of the matrix from row `o` on, at `(k, j)`. -/
theorem weight_rows16 {α : Type} (W : S144x128.Idx → α) (o : Nat) (hs : S144x128.Slices ![o, 0] S16x128)
    (k : Fin 16) (j : Fin 128) (ho : o + k.val < 144) :
    extractStridedSlice S16x128 ![o, 0] W hs (ix2 k j) = W (ix2 ⟨o + k.val, ho⟩ j) :=
  slice2_axis0_apply o W hs k j ⟨o + k.val, ho⟩ rfl

/-- The table look-up at `(p, k)`: row `g₀` of the table, when `g₀` is the index stored for row `p`. -/
theorem lookup_row (c : IVec S5000x1 32) (T : FVec Ideal S64x16 .f32) (hb : S5000x1.Broadcasts S5000x64)
    (hi : S5000x64.Iotas .tc 32 [1]) (hlt : 1 < 32) (p : Fin 5000) (k : Fin 16) (g0 : Fin 64)
    (hg : c (ix2 p 0) = BitVec.ofNat 32 g0.val) :
    matmul dot_S5000x64_S64x16_S5000x16_1_0_0_1_n_n none
        (sitofp .f32 (extui 32 (cmpi .eq (broadcastTo S5000x64 c hb) (iota .tc S5000x64 32 [1] hi)) hlt) : FVec Ideal S5000x64 .f32)
        T (constant (F := Ideal) S5000x16 .f32 0x00000000#32) (ix2 p k)
      = T (ix2 g0 k) := by
  rw [matmul_64_16]
  refine Eq.trans (Finset.sum_congr rfl fun g _ => ?_) (onehot_dot (mat T) g0 k)
  rw [onehot_elt c hb hi hlt p g g0 hg]

/-- The first layer's payload at row `p`, column `j`. -/
theorem pay2_row (v0 v1 : Vec Ideal S5000x64 .f32) (v3 : Vec Ideal S5000x1 .i32) (v5 : Vec Ideal S64x16 .f32)
    (v12 : Vec Ideal S144x128 .f32) (v13 : Vec Ideal S128 .f32) (p : Fin 5000) (j : Fin 128) (g0 : Fin 64)
    (hg : v3 (ix2 p 0) = BitVec.ofNat 32 g0.val) :
    k1_pay2 (F := Ideal) v0 v1 v3 v5 v12 v13 (ix2 p j)
      = first3 (row v0 p) (row v1 p) (row v5 g0) (mat v12) (vec v13) j := by
  unfold k1_pay2 first3
  rw [addf_apply, addf_apply, addf_apply, bias_row, matmul_64_128, matmul_64_128, matmul_16_128]
  refine congrArg₂ (· + ·) (congrArg₂ (· + ·) (congrArg₂ (· + ·) rfl ?_) ?_) ?_
  · refine Finset.sum_congr rfl fun k _ => ?_
    rw [truncf_apply, truncf_apply, weight_rows64 v12 0 _ k j (by have := k.isLt; omega)]
    exact congrArg (fun i => v0 (ix2 p k) * v12 (ix2 i j)) (Fin.ext (Nat.zero_add _))
  · refine Finset.sum_congr rfl fun k _ => ?_
    rw [truncf_apply, truncf_apply, weight_rows64 v12 64 _ k j (by have := k.isLt; omega), shapeCast_self]
  · refine Finset.sum_congr rfl fun k _ => ?_
    rw [truncf_apply, truncf_apply, weight_rows16 v12 128 _ k j (by have := k.isLt; omega), shapeCast_self,
      lookup_row _ v5 _ _ _ p k g0 hg]

/-! ## Mean, variance and the normalised row

The mean of a row is its sum along the 64 columns, kept as a column of the block, divided by the word for 64; the
variance is the same of the squared deviations. Both are then spread back over the 64 columns. -/

/-- A list of 5000 numbers given a trailing unit axis, at `(p, u)`. -/
theorem cast_col {α : Type} (x : S5000.Idx → α) (h : S5000.ShapeCasts S5000x1) (p : Fin 5000) (u : Fin 1) :
    shapeCast S5000x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- The sum along the 64 columns, kept as a column, at row `p`. -/
theorem lane_sum (X : FVec Ideal S5000x64 .f32) (h : S5000x64.Reduces [1] S5000) (hφ : FKind.Formats .f32)
    (hacc : (0x00000000#32 : BitVec FTy.f32.bits) = FKind.add.neutral .f32 hφ) (hc : S5000.ShapeCasts S5000x1) (p : Fin 5000) :
    shapeCast S5000x1 (multiReduction (F := Ideal) .add [1] S5000 X 0x00000000#32 h hφ hacc) hc (ix2 p 0)
      = ∑ k : Fin 64, X (ix2 p k) := by
  rw [cast_col]
  refine (Ideal.multiReduction_add_single X _ h hφ hacc (ix1 p)).trans (Finset.sum_congr rfl fun k _ => congrArg X ?_)
  funext a
  refine Fin.ext ?_
  match a with
  | ⟨0, _⟩ => rfl
  | ⟨1, _⟩ => rfl

/-- The mean's payload at row `p`. -/
theorem pay4_row (v30 : FVec Ideal S5000x128 .f32) (v31 : Vec Ideal S2x128x128 .f32) (v32 : Vec Ideal S2x128 .f32)
    (v33 : Vec Ideal S128x64 .f32) (v34 : Vec Ideal S64 .f32) (p : Fin 5000) :
    k1_pay4 (F := Ideal) v30 v31 v32 v33 v34 (ix2 p 0)
      = mean (fun j => k1_pay3 (F := Ideal) v30 v31 v32 v33 v34 (ix2 p j)) := by
  unfold k1_pay4 mean
  rw [divf_apply, broadcast_apply]
  exact congrArg (fun s => Ideal.div s _) (lane_sum _ _ _ _ _ p)

/-- The variance's payload at row `p`. -/
theorem pay5_row (v30 : FVec Ideal S5000x128 .f32) (v31 : Vec Ideal S2x128x128 .f32) (v32 : Vec Ideal S2x128 .f32)
    (v33 : Vec Ideal S128x64 .f32) (v34 : Vec Ideal S64 .f32) (p : Fin 5000) :
    k1_pay5 (F := Ideal) v30 v31 v32 v33 v34 (ix2 p 0)
      = var (fun j => k1_pay3 (F := Ideal) v30 v31 v32 v33 v34 (ix2 p j)) := by
  unfold k1_pay5 var
  rw [divf_apply, broadcast_apply]
  refine congrArg (fun s => Ideal.div s _) ((lane_sum _ _ _ _ _ p).trans (Finset.sum_congr rfl fun k _ => ?_))
  rw [mulf_apply, subf_apply, bcast_col, pay4_row]

/-- The deviation from the mean at row `p`, column `j`. -/
theorem pay6_row (v30 : FVec Ideal S5000x128 .f32) (v31 : Vec Ideal S2x128x128 .f32) (v32 : Vec Ideal S2x128 .f32)
    (v33 : Vec Ideal S128x64 .f32) (v34 : Vec Ideal S64 .f32) (p : Fin 5000) (j : Fin 64) :
    k1_pay6 (F := Ideal) v30 v31 v32 v33 v34 (ix2 p j)
      = k1_pay3 (F := Ideal) v30 v31 v32 v33 v34 (ix2 p j)
        - mean (fun j => k1_pay3 (F := Ideal) v30 v31 v32 v33 v34 (ix2 p j)) := by
  unfold k1_pay6
  rw [subf_apply, bcast_col, pay4_row]

/-- The small word added to the variance, at every row. -/
theorem pay7_row (p : Fin 5000) : k1_pay7 (F := Ideal) (ix2 p 0) = Ideal.ofBits .f32 0x3727C5AC#32 := rfl

/-- The normalised row's payload at row `p`, column `j`, over the deviation, the variance and the small word. -/
theorem pay1_row (v35 v36 : Vec Ideal S64 .f32) (v79 : FVec Ideal S5000x1 .f32) (v81 : FVec Ideal S5000x64 .f32)
    (v82 : FVec Ideal S5000x1 .f32) (p : Fin 5000) (j : Fin 64) :
    k1_pay1 (F := Ideal) v35 v36 v79 v81 v82 (ix2 p j)
      = v81 (ix2 p j) * Ideal.rsqrt (v79 (ix2 p 0) + v82 (ix2 p 0)) * v35 (ix1 j) + v36 (ix1 j) := by
  unfold k1_pay1
  rw [addf_apply, mulf_apply, mulf_apply, bias_row, bias_row, bcast_col]
  rfl

/-! ## The node kernel's whole payload is the node row -/

/-- Row `p` of the node kernel's output block, column `j`: the node perceptron of the row's three pieces. -/
theorem node_block (x0 x1 : Vec Ideal S5000x64 .f32) (x2 : Vec Ideal S5000x1 .i32) (x3 : Vec Ideal S64x16 .f32)
    (x4 : Vec Ideal S144x128 .f32) (x5 : Vec Ideal S128 .f32) (x6 : Vec Ideal S2x128x128 .f32) (x7 : Vec Ideal S2x128 .f32)
    (x8 : Vec Ideal S128x64 .f32) (x9 x10 x11 : Vec Ideal S64 .f32) (p : Fin 5000) (j : Fin 64) (g0 : Fin 64)
    (hg : x2 (ix2 p 0) = BitVec.ofNat 32 g0.val) :
    k1_pay1 (F := Ideal) x10 x11 (k1_pay5 (k1_pay2 x0 x1 x2 x3 x4 x5) x6 x7 x8 x9)
        (k1_pay6 (k1_pay2 x0 x1 x2 x3 x4 x5) x6 x7 x8 x9) (k1_pay7 (F := Ideal)) (ix2 p j)
      = nodeRow (row x0 p) (row x1 p) (row x3 g0) (mat x4) (vec x5) (mats x6) (row x7) (mat x8) (vec x9) (vec x10) (vec x11) j := by
  have h2 : row (k1_pay2 (F := Ideal) x0 x1 x2 x3 x4 x5) p = first3 (row x0 p) (row x1 p) (row x3 g0) (mat x4) (vec x5) :=
    funext fun k => pay2_row x0 x1 x2 x3 x4 x5 p k g0 hg
  have h3 : (fun j' => k1_pay3 (F := Ideal) (k1_pay2 x0 x1 x2 x3 x4 x5) x6 x7 x8 x9 (ix2 p j'))
      = rest (mats x6 0) (mats x6 1) (row x7 0) (row x7 1) (mat x8) (vec x9)
          (first3 (row x0 p) (row x1 p) (row x3 g0) (mat x4) (vec x5)) :=
    funext fun j' => (pay3_row _ x6 x7 x8 x9 p j').trans (by rw [h2])
  rw [pay1_row, pay5_row, pay6_row, pay7_row, h3,
    show k1_pay3 (F := Ideal) (k1_pay2 x0 x1 x2 x3 x4 x5) x6 x7 x8 x9 (ix2 p j) = _ from congrFun h3 j]
  rfl

end Cert.KernelIdeal.Pay

end
-- ==== Proof.KPayEdge.lean ====
/-
  The edge kernel's stored row, one row at a time, on the extended reals.

  Row `p` of the store is a product of two factors: the edge perceptron's normalised row, and the logistic function of
  the gate perceptron's normalised row. Both perceptrons start from the same four pieces of the row — the source
  features, the target features, the edge's own features, and the row of graph features that the edge's graph index
  picks out of the table — and differ only in their matrices. Each payload is read here at row `p` and column `j`:

  * the row of graph features is a one-hot row contracted against the table, hence the table's row at the index;
  * a first layer is the bias plus four contractions, against the four consecutive row blocks of its matrix;
  * the hidden and output layers are, term for term, those of the node perceptron, read in the neighbouring module;
  * the mean and the variance of a row of 64 are a row sum divided by the word for 64, kept as a column and spread back
    over the row; the normalised row is the centred row times the inverse root of the variance plus ε, scaled and shifted.

  The last theorem joins these into `RowSpec.edgeRow`.
-/
import proofs.«404949_j85100482003175_1_alg».proof.Proof.Gen.KernelIdeal.Skeleton
import proofs.«404949_j85100482003175_1_alg».proof.Proof.RowSpec
import proofs.«404949_j85100482003175_1_alg».proof.Proof.KPayNode
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.RowSpec Idealize.ShloMosaic Idealize.ShloMosaic.ValueIdx

/-! ## Columns: a vector as a column, and a column spread over a row -/

/-- A column `[a, 1]` spread to `[a, b]` reads, at `(p, c)`, the column's entry of row `p`. -/
theorem Edge.spread_col {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` read as the column `[a, 1]` has, at `(p, u)`, the vector's entry `p`. -/
theorem Edge.as_col {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along a row of a `[5000, 64]` array, at row `p`. -/
theorem Edge.row_sum (v : FVec Ideal S5000x64 .f32) (h : S5000x64.Reduces [1] S5000)
    (hφ : FTy.f32 = FTy.f32 ∨ FTy.f32 = FTy.bf16) (hacc : (0x00000000#32 : BitVec 32) = 0x00000000#32) (p : Fin 5000) :
    multiReduction (F := Ideal) .add [1] S5000 v 0x00000000#32 h hφ hacc (ix1 p) = ∑ k : Fin 64, v (ix2 p k) := by
  refine (Ideal.multiReduction_add_single v 0x00000000#32 h hφ hacc (ix1 p)).trans ?_
  refine Finset.sum_congr rfl fun k _ => congrArg v ?_
  funext a
  match a with
  | ⟨0, _⟩ => rfl
  | ⟨1, _⟩ => rfl

/-- The inverse square root, entry by entry. -/
theorem Edge.rsqrt_at {s : Shape} (x : FVec Ideal s .f32) (i : s.Idx) : rsqrt x i = Ideal.rsqrt (x i) := rfl
/-- The logistic function, entry by entry. -/
theorem Edge.logistic_at {s : Shape} (x : FVec Ideal s .f32) (i : s.Idx) : logistic x i = Ideal.logistic (x i) := rfl
/-- A vector `[b]` spread over the rows of `[a, b]` reads, at `(p, c)`, its entry `c`. -/
theorem Edge.spread_row {α : Type} {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-! ## The two perceptrons' hidden and output layers are the node perceptron's terms -/

theorem k0_pay6_eq : @k0_pay6 Ideal _ = @k1_pay3 Ideal _ := rfl
theorem k0_pay7_eq : @k0_pay7 Ideal _ = @k1_pay4 Ideal _ := rfl
theorem k0_pay11_eq : @k0_pay11 Ideal _ = @k1_pay3 Ideal _ := rfl
theorem k0_pay12_eq : @k0_pay12 Ideal _ = @k1_pay4 Ideal _ := rfl
theorem k0_pay13_eq : @k0_pay13 Ideal _ = @k1_pay5 Ideal _ := rfl

/-- The squared deviation from the row's mean. -/
theorem edge_pay8 (v37 : FVec Ideal S5000x128 .f32) (v38 : Vec Ideal S2x128x128 .f32) (v39 : Vec Ideal S2x128 .f32)
    (v40 : Vec Ideal S128x64 .f32) (v41 : Vec Ideal S64 .f32) (p : Fin 5000) (j : Fin 64) :
    k0_pay8 (F := Ideal) v37 v38 v39 v40 v41 (ix2 p j)
      = (k0_pay6 (F := Ideal) v37 v38 v39 v40 v41 (ix2 p j) - k0_pay7 (F := Ideal) v37 v38 v39 v40 v41 (ix2 p 0))
        * (k0_pay6 (F := Ideal) v37 v38 v39 v40 v41 (ix2 p j) - k0_pay7 (F := Ideal) v37 v38 v39 v40 v41 (ix2 p 0)) := by
  unfold k0_pay8
  simp only [mulf_apply, subf_apply, Edge.spread_col]

/-- The normalised row from the row, its mean and its squared deviations: centre, divide by the root of the
    variance plus ε, scale and shift. -/
theorem edge_pay9 (v42 v43 : Vec Ideal S64 .f32) (v75 : FVec Ideal S5000x64 .f32) (v79 : FVec Ideal S5000x1 .f32)
    (v82 : FVec Ideal S5000x64 .f32) (p : Fin 5000) (j : Fin 64) :
    k0_pay9 (F := Ideal) v42 v43 v75 v79 v82 (ix2 p j)
      = (v75 (ix2 p j) - v79 (ix2 p 0))
          * Ideal.rsqrt (Ideal.div (∑ k : Fin 64, v82 (ix2 p k)) (Ideal.ofBits .f32 0x42800000#32)
              + Ideal.ofBits .f32 0x3727C5AC#32)
          * v42 (ix1 j) + v43 (ix1 j) := by
  unfold k0_pay9
  simp only [addf_apply, mulf_apply, subf_apply, divf_apply, Edge.spread_col, Edge.spread_row, Edge.rsqrt_at,
    Edge.as_col, broadcast_apply]
  rw [Edge.row_sum]
  rfl

/-- The output row from the edge perceptron's row and the gate perceptron's row, mean and variance: the gate row is
    normalised, passed through the logistic function, and multiplies the edge row. -/
theorem edge_pay1 (v99 : FVec Ideal S5000x64 .f32) (v128 v129 : Vec Ideal S64 .f32) (v161 : FVec Ideal S5000x64 .f32)
    (v165 v172 : FVec Ideal S5000x1 .f32) (p : Fin 5000) (j : Fin 64) :
    k0_pay1 (F := Ideal) v99 v128 v129 v161 v165 v172 (ix2 p j)
      = v99 (ix2 p j)
        * Ideal.logistic ((v161 (ix2 p j) - v165 (ix2 p 0))
            * Ideal.rsqrt (v172 (ix2 p 0) + Ideal.ofBits .f32 0x3727C5AC#32) * v128 (ix1 j) + v129 (ix1 j)) := by
  unfold k0_pay1
  simp only [addf_apply, mulf_apply, subf_apply, Edge.spread_col, Edge.spread_row, Edge.rsqrt_at, Edge.logistic_at,
    broadcast_apply]
  rfl

/-! ## The first layer -/

/-- The source rows pass through an identity cast. -/
theorem edge_pay2 (v0 : Vec Ideal S5000x64 .f32) : k0_pay2 (F := Ideal) v0 = v0 := by
  unfold k0_pay2; exact shapeCast_self _ _
/-- So do the target rows. -/
theorem edge_pay3 (v2 : Vec Ideal S5000x64 .f32) : k0_pay3 (F := Ideal) v2 = v2 := by
  unfold k0_pay3; exact shapeCast_self _ _

/-- The row of graph features of edge `p`: the one-hot row of its graph index, contracted against the table, is the
    table's row at that index. -/
theorem edge_pay4 (v5 : Vec Ideal S5000x1 .i32) (v7 : Vec Ideal S64x16 .f32) (p : Fin 5000) (c : Fin 16) (g0 : Fin 64)
    (hg : v5 (ix2 p 0) = BitVec.ofNat 32 g0.val) :
    k0_pay4 (F := Ideal) v5 v7 (ix2 p c) = v7 (ix2 g0 c) := by
  have hc : (shapeCast S5000x1 v5 shapeCasts_S5000x1_S5000x1 : IVec S5000x1 32) (ix2 p 0) = BitVec.ofNat 32 g0.val := by
    rw [shapeCast_self]; exact hg
  unfold k0_pay4
  refine (matmul_64_16 _ _ p c).trans ?_
  refine (Finset.sum_congr rfl fun g _ => by rw [onehot_elt _ _ _ _ p g g0 hc]).trans ?_
  exact onehot_dot (mat v7) g0 c

/-- The first layer of the edge perceptron at row `p`, from the raw blocks. -/
theorem edge_pay5 (v0 v2 v4 : Vec Ideal S5000x64 .f32) (v5 : Vec Ideal S5000x1 .i32) (v7 : Vec Ideal S64x16 .f32)
    (v14 : Vec Ideal S208x128 .f32) (v15 : Vec Ideal S128 .f32) (p : Fin 5000) (j : Fin 128) (g0 : Fin 64)
    (hg : v5 (ix2 p 0) = BitVec.ofNat 32 g0.val) :
    k0_pay5 (F := Ideal) v0 v2 v4 v5 v7 v14 v15 (ix2 p j)
      = first4 (row v0 p) (row v2 p) (row v4 p) (row v7 g0) (mat v14) (vec v15) j := by
  unfold k0_pay5 first4
  simp only [addf_apply, Edge.spread_row, matmul_64_128, matmul_16_128, truncf_apply, edge_pay2, edge_pay3,
    fun c => edge_pay4 v5 v7 p c g0 hg, slice2_axis0_eq, Nat.zero_add]

/-- The first layer of the gate perceptron at row `p`, from the three row blocks and the graph-feature rows. -/
theorem edge_pay10 (v1 v3 : FVec Ideal S5000x64 .f32) (v4 : Vec Ideal S5000x64 .f32) (v13 : FVec Ideal S5000x16 .f32)
    (v100 : Vec Ideal S208x128 .f32) (v101 : Vec Ideal S128 .f32) (p : Fin 5000) (j : Fin 128) :
    k0_pay10 (F := Ideal) v1 v3 v4 v13 v100 v101 (ix2 p j)
      = first4 (row v1 p) (row v3 p) (row v4 p) (row v13 p) (mat v100) (vec v101) j := by
  unfold k0_pay10 first4
  simp only [addf_apply, Edge.spread_row, matmul_64_128, matmul_16_128, truncf_apply, slice2_axis0_eq, Nat.zero_add]

/-! ## One perceptron after its first layer -/

/-- The hidden and output layers at row `p`, when row `p` of the first layer is `h`. -/
theorem Edge.rest_of (H : FVec Ideal S5000x128 .f32) (W : Vec Ideal S2x128x128 .f32) (B : Vec Ideal S2x128 .f32)
    (Wo : Vec Ideal S128x64 .f32) (bo : Vec Ideal S64 .f32) (p : Fin 5000) (h : Fin 128 → EReal)
    (hH : ∀ k, H (ix2 p k) = h k) (j : Fin 64) :
    k1_pay3 (F := Ideal) H W B Wo bo (ix2 p j)
      = rest (mats W 0) (mats W 1) (row B 0) (row B 1) (mat Wo) (vec bo) h j := by
  rw [pay3_row]
  exact congrArg (fun r => rest (mats W 0) (mats W 1) (row B 0) (row B 1) (mat Wo) (vec bo) r j) (funext hH)

/-- The edge perceptron's normalised row at row `p`: the row of hidden and output layers, its mean and its squared
    deviations are those of `rest … h`, so the whole is the perceptron of `h`. -/
theorem Edge.mlp_of (g b : Vec Ideal S64 .f32) (H : FVec Ideal S5000x128 .f32) (W : Vec Ideal S2x128x128 .f32)
    (B : Vec Ideal S2x128 .f32) (Wo : Vec Ideal S128x64 .f32) (bo : Vec Ideal S64 .f32) (p : Fin 5000)
    (h : Fin 128 → EReal) (hH : ∀ k, H (ix2 p k) = h k) (j : Fin 64) :
    k0_pay9 (F := Ideal) g b (k0_pay6 H W B Wo bo) (k0_pay7 H W B Wo bo) (k0_pay8 H W B Wo bo) (ix2 p j)
      = mlp (mats W) (row B) (mat Wo) (vec bo) (vec g) (vec b) h j := by
  have e6 : ∀ j', k0_pay6 (F := Ideal) H W B Wo bo (ix2 p j')
      = rest (mats W 0) (mats W 1) (row B 0) (row B 1) (mat Wo) (vec bo) h j' := fun j' => by
    rw [k0_pay6_eq]; exact Edge.rest_of H W B Wo bo p h hH j'
  have e7 : k0_pay7 (F := Ideal) H W B Wo bo (ix2 p 0)
      = mean (rest (mats W 0) (mats W 1) (row B 0) (row B 1) (mat Wo) (vec bo) h) := by
    rw [k0_pay7_eq, pay4_row]
    exact congrArg mean (funext fun j' => Edge.rest_of H W B Wo bo p h hH j')
  simp only [edge_pay9, edge_pay8, e6, e7]
  rfl

/-- The output row at row `p`: the gate perceptron's row, mean and variance are those of `rest … h`, so the factor
    under the logistic function is the perceptron of `h`. -/
theorem Edge.gate_of (g b : Vec Ideal S64 .f32) (G : FVec Ideal S5000x128 .f32) (W : Vec Ideal S2x128x128 .f32)
    (B : Vec Ideal S2x128 .f32) (Wo : Vec Ideal S128x64 .f32) (bo : Vec Ideal S64 .f32) (p : Fin 5000)
    (h : Fin 128 → EReal) (hG : ∀ k, G (ix2 p k) = h k) (v99 : FVec Ideal S5000x64 .f32) (j : Fin 64) :
    k0_pay1 (F := Ideal) v99 g b (k0_pay11 G W B Wo bo) (k0_pay12 G W B Wo bo) (k0_pay13 G W B Wo bo) (ix2 p j)
      = v99 (ix2 p j) * Ideal.logistic (mlp (mats W) (row B) (mat Wo) (vec bo) (vec g) (vec b) h j) := by
  have e11 : ∀ j', k0_pay11 (F := Ideal) G W B Wo bo (ix2 p j')
      = rest (mats W 0) (mats W 1) (row B 0) (row B 1) (mat Wo) (vec bo) h j' := fun j' => by
    rw [k0_pay11_eq]; exact Edge.rest_of G W B Wo bo p h hG j'
  have e12 : k0_pay12 (F := Ideal) G W B Wo bo (ix2 p 0)
      = mean (rest (mats W 0) (mats W 1) (row B 0) (row B 1) (mat Wo) (vec bo) h) := by
    rw [k0_pay12_eq, pay4_row]
    exact congrArg mean (funext fun j' => Edge.rest_of G W B Wo bo p h hG j')
  have e13 : k0_pay13 (F := Ideal) G W B Wo bo (ix2 p 0)
      = var (rest (mats W 0) (mats W 1) (row B 0) (row B 1) (mat Wo) (vec bo) h) := by
    rw [k0_pay13_eq, pay5_row]
    exact congrArg var (funext fun j' => Edge.rest_of G W B Wo bo p h hG j')
  simp only [edge_pay1, e11, e12, e13]
  rfl

/-! ## The edge kernel's stored row -/

/-- Row `p` of the edge kernel's store, column `j`: the edge perceptron of the row's four pieces times the logistic
    function of the gate perceptron of the same four pieces. -/
theorem edge_block (x0 x1 x2 : Vec Ideal S5000x64 .f32) (x3 : Vec Ideal S5000x1 .i32) (x4 : Vec Ideal S64x16 .f32) (x5 : Vec Ideal S208x128 .f32) (x6 : Vec Ideal S128 .f32) (x7 : Vec Ideal S2x128x128 .f32) (x8 : Vec Ideal S2x128 .f32) (x9 : Vec Ideal S128x64 .f32) (x10 x11 x12 : Vec Ideal S64 .f32) (x13 : Vec Ideal S208x128 .f32) (x14 : Vec Ideal S128 .f32) (x15 : Vec Ideal S2x128x128 .f32) (x16 : Vec Ideal S2x128 .f32) (x17 : Vec Ideal S128x64 .f32) (x18 x19 x20 : Vec Ideal S64 .f32) (p : Fin 5000) (j : Fin 64) (g0 : Fin 64) (hg : x3 (ix2 p 0) = BitVec.ofNat 32 g0.val) :
  k0_pay1 (F := Ideal)
      (k0_pay9 x11 x12 (k0_pay6 (k0_pay5 x0 x1 x2 x3 x4 x5 x6) x7 x8 x9 x10) (k0_pay7 (k0_pay5 x0 x1 x2 x3 x4 x5 x6) x7 x8 x9 x10) (k0_pay8 (k0_pay5 x0 x1 x2 x3 x4 x5 x6) x7 x8 x9 x10))
      x19 x20
      (k0_pay11 (k0_pay10 (k0_pay2 x0) (k0_pay3 x1) x2 (k0_pay4 x3 x4) x13 x14) x15 x16 x17 x18)
      (k0_pay12 (k0_pay10 (k0_pay2 x0) (k0_pay3 x1) x2 (k0_pay4 x3 x4) x13 x14) x15 x16 x17 x18)
      (k0_pay13 (k0_pay10 (k0_pay2 x0) (k0_pay3 x1) x2 (k0_pay4 x3 x4) x13 x14) x15 x16 x17 x18) (ix2 p j)
    = edgeRow (row x0 p) (row x1 p) (row x2 p) (row x4 g0) (mat x5) (vec x6) (mats x7) (row x8) (mat x9) (vec x10) (vec x11) (vec x12) (mat x13) (vec x14) (mats x15) (row x16) (mat x17) (vec x18) (vec x19) (vec x20) j := by
  have hH : ∀ k, k0_pay5 (F := Ideal) x0 x1 x2 x3 x4 x5 x6 (ix2 p k)
      = first4 (row x0 p) (row x1 p) (row x2 p) (row x4 g0) (mat x5) (vec x6) k :=
    fun k => edge_pay5 x0 x1 x2 x3 x4 x5 x6 p k g0 hg
  have hG : ∀ k, k0_pay10 (F := Ideal) (k0_pay2 x0) (k0_pay3 x1) x2 (k0_pay4 x3 x4) x13 x14 (ix2 p k)
      = first4 (row x0 p) (row x1 p) (row x2 p) (row x4 g0) (mat x13) (vec x14) k := fun k => by
    rw [edge_pay10, edge_pay2, edge_pay3]
    exact congrArg (fun u => first4 (row x0 p) (row x1 p) (row x2 p) u (mat x13) (vec x14) k)
      (funext fun c => edge_pay4 x3 x4 p c g0 hg)
  rw [Edge.gate_of x19 x20 _ x15 x16 x17 x18 p _ hG, Edge.mlp_of x11 x12 _ x7 x8 x9 x10 p _ hH]
  rfl

end Cert.KernelIdeal.Pay

end
-- ==== Proof.KHost.lean ====
/-
  What each region of the idealized kernel program finds in its arrays, as terms of the launch memory.

  The program runs a stretch of host operations, the edge region, a second stretch of host operations and the node
  region. The first stretch reads the two rows of the edge list, wraps negative entries round by the number of nodes,
  and gathers with them: each edge's graph number out of the nodes' graph numbers, and each edge's source and target
  feature rows out of the node features. The second stretch adds every edge's output row into the row of its target
  node, starting from zero. No stretch and no region writes an argument array, so every argument is found as launched.
-/
import proofs.«404949_j85100482003175_1_alg».proof.Proof.Gen.KernelIdeal.Frame
import Idealize.ShloMosaic.Lib.StableHlo.Run
import Idealize.ShloMosaic.Lib.ValueIdx
import Idealize.ShloMosaic.Lib.Pipeline.Value

set_option maxRecDepth 16384

noncomputable section

namespace Cert.KernelIdeal.HostVal

open Idealize.ShloMosaic
open Facts₀

/-- Row 0 of the edge list, as a vector: each edge's source node. -/
def srcOf (a3 : IVec S2x400000 32) : IVec S400000 32 :=
  shapeCast S400000 (extractStridedSlice S1x400000 ![0, 0] a3 slices_S2x400000_S1x400000_0_0) shapeCasts_S1x400000_S400000

/-- Row 1 of the edge list, as a vector: each edge's target node. -/
def tgtOf (a3 : IVec S2x400000 32) : IVec S400000 32 :=
  shapeCast S400000 (extractStridedSlice S1x400000 ![1, 0] a3 slices_S2x400000_S1x400000_1_0) shapeCasts_S1x400000_S400000

/-- A vector of node numbers with every negative entry raised by the number of nodes, as a column. -/
def wrapCol (v : IVec S400000 32) : IVec S400000x1 32 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 50000#32))) v)

/-- Each edge's graph number: the graph number of its source node. -/
def ebOf (a3 : IVec S2x400000 32) (a4 : IVec S50000 32) : IVec S400000 32 :=
  Host.gather gather_S50000_S400000x1_S400000_n_0_n_n_0_1_1 a4 (wrapCol (srcOf a3))

/-- Each edge's source feature row. -/
def xsrcOf (a0 : FVec Ideal S50000x64 .f32) (a3 : IVec S2x400000 32) : FVec Ideal S400000x64 .f32 :=
  Host.gather gather_S50000x64_S400000x1_S400000x64_1_0_n_n_0_1_164 a0 (wrapCol (srcOf a3))

/-- Each edge's target feature row. -/
def xtgtOf (a0 : FVec Ideal S50000x64 .f32) (a3 : IVec S2x400000 32) : FVec Ideal S400000x64 .f32 :=
  Host.gather gather_S50000x64_S400000x1_S400000x64_1_0_n_n_0_1_164 a0 (wrapCol (tgtOf a3))

/-- The edges' graph numbers as a column. -/
def eb2dOf (a3 : IVec S2x400000 32) (a4 : IVec S50000 32) : IVec S400000x1 32 :=
  shapeCast S400000x1 (ebOf a3 a4) shapeCasts_S400000_S400000x1

/-- The nodes' graph numbers as a column. -/
def b2dOf (a4 : IVec S50000 32) : IVec S50000x1 32 :=
  shapeCast S50000x1 a4 shapeCasts_S50000_S50000x1

/-- The aggregate: from the zero array, every edge's row `E` added into the row of the edge's target node. -/
def aggOf (a3 : IVec S2x400000 32) (E : FVec Ideal S400000x64 .f32) : FVec Ideal S50000x64 .f32 :=
  Host.scatterAdd scatter_S50000x64_S400000x1_S400000x64_1_0_0_1
    (broadcastInDim S50000x64 ![] bcast_S_S50000x64 (constant (F := Ideal) S_ .f32 0x00000000#32))
    (broadcastInDim S400000x1 ![0] bcast_S400000_S400000x1_0 (tgtOf a3)) E

end Cert.KernelIdeal.HostVal

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## What the two stretches of host operations leave alone -/

/-- The references the first stretch writes: the results of its operations, in order. -/
abbrev res0 : List (Ref sig .tc) :=
  [main_v0, main_v1, main_v2, main_v3, main_c, main_v4, main_v5, main_c_0, main_v6, main_v7, main_v8, main_v9, main_v10,
   main_c_1, main_v11, main_v12, main_c_2, main_v13, main_v14, main_v15, main_v16, main_v17,
   main_c_3, main_v18, main_v19, main_c_4, main_v20, main_v21, main_v22, main_v23, main_v24, main_v25, main_v26]

/-- The references the second stretch writes. -/
abbrev res1 : List (Ref sig .tc) := [main_cst, main_v28, main_v29, main_v30]

theorem hostOps0_writes :
    (hostOps0 (F := Ideal)).Forall fun op => op.writes ⊆ (res0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

theorem hostOps1_writes :
    (hostOps1 (F := Ideal)).Forall fun op => op.writes ⊆ (res1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A reference the first stretch does not write holds at the edge region's entry what the launch memory holds. -/
theorem host0_keeps (c : Dev nD) {r : Ref sig .tc} (h : r ∉ res0) :
    W1 m ρ c (Proc.devRef .tc r) = m ((c : Thread nD τ).loc r) :=
  StableHlo.after_of_writes_sub (hostOps0 (F := Ideal)) (W0 m ρ c) hostOps0_writes h

/-- A reference the second stretch does not write holds at the node region's entry what it held at the edge region's
    exit. -/
theorem host1_keeps (c : Dev nD) {r : Ref sig .tc} (h : r ∉ res1) :
    W3 m ρ c (Proc.devRef .tc r) = W2 m ρ c (Proc.devRef .tc r) :=
  StableHlo.after_of_writes_sub (hostOps1 (F := Ideal)) (W2 m ρ c) hostOps1_writes h

/-- An input array of the edge region holds at the region's exit what it held at its entry. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-! ## The edge region's entry -/

/-- The arguments the edge region reads are as launched. -/
theorem V1_arg1 (c : Dev nD) : W1 m ρ c (Proc.devRef .tc main_arg1) = m ((c : Thread nD τ).loc main_arg1) :=
  host0_keeps m ρ c (by decide)
theorem V1_arg2 (c : Dev nD) : W1 m ρ c (Proc.devRef .tc main_arg2) = m ((c : Thread nD τ).loc main_arg2) :=
  host0_keeps m ρ c (by decide)
theorem V1_arg5 (c : Dev nD) : W1 m ρ c (Proc.devRef .tc main_arg5) = m ((c : Thread nD τ).loc main_arg5) :=
  host0_keeps m ρ c (by decide)
theorem V1_arg6 (c : Dev nD) : W1 m ρ c (Proc.devRef .tc main_arg6) = m ((c : Thread nD τ).loc main_arg6) :=
  host0_keeps m ρ c (by decide)
theorem V1_arg7 (c : Dev nD) : W1 m ρ c (Proc.devRef .tc main_arg7) = m ((c : Thread nD τ).loc main_arg7) :=
  host0_keeps m ρ c (by decide)
theorem V1_arg8 (c : Dev nD) : W1 m ρ c (Proc.devRef .tc main_arg8) = m ((c : Thread nD τ).loc main_arg8) :=
  host0_keeps m ρ c (by decide)
theorem V1_arg9 (c : Dev nD) : W1 m ρ c (Proc.devRef .tc main_arg9) = m ((c : Thread nD τ).loc main_arg9) :=
  host0_keeps m ρ c (by decide)
theorem V1_arg10 (c : Dev nD) : W1 m ρ c (Proc.devRef .tc main_arg10) = m ((c : Thread nD τ).loc main_arg10) :=
  host0_keeps m ρ c (by decide)
theorem V1_arg11 (c : Dev nD) : W1 m ρ c (Proc.devRef .tc main_arg11) = m ((c : Thread nD τ).loc main_arg11) :=
  host0_keeps m ρ c (by decide)
theorem V1_arg12 (c : Dev nD) : W1 m ρ c (Proc.devRef .tc main_arg12) = m ((c : Thread nD τ).loc main_arg12) :=
  host0_keeps m ρ c (by decide)
theorem V1_arg13 (c : Dev nD) : W1 m ρ c (Proc.devRef .tc main_arg13) = m ((c : Thread nD τ).loc main_arg13) :=
  host0_keeps m ρ c (by decide)
theorem V1_arg14 (c : Dev nD) : W1 m ρ c (Proc.devRef .tc main_arg14) = m ((c : Thread nD τ).loc main_arg14) :=
  host0_keeps m ρ c (by decide)
theorem V1_arg15 (c : Dev nD) : W1 m ρ c (Proc.devRef .tc main_arg15) = m ((c : Thread nD τ).loc main_arg15) :=
  host0_keeps m ρ c (by decide)
theorem V1_arg16 (c : Dev nD) : W1 m ρ c (Proc.devRef .tc main_arg16) = m ((c : Thread nD τ).loc main_arg16) :=
  host0_keeps m ρ c (by decide)
theorem V1_arg17 (c : Dev nD) : W1 m ρ c (Proc.devRef .tc main_arg17) = m ((c : Thread nD τ).loc main_arg17) :=
  host0_keeps m ρ c (by decide)
theorem V1_arg18 (c : Dev nD) : W1 m ρ c (Proc.devRef .tc main_arg18) = m ((c : Thread nD τ).loc main_arg18) :=
  host0_keeps m ρ c (by decide)
theorem V1_arg19 (c : Dev nD) : W1 m ρ c (Proc.devRef .tc main_arg19) = m ((c : Thread nD τ).loc main_arg19) :=
  host0_keeps m ρ c (by decide)
theorem V1_arg20 (c : Dev nD) : W1 m ρ c (Proc.devRef .tc main_arg20) = m ((c : Thread nD τ).loc main_arg20) :=
  host0_keeps m ρ c (by decide)

/-! What the first stretch computes, read at the edge region's entry: the operations' functions composed, over the
    launch contents of the edge list, the node features and the nodes' graph numbers. -/

set_option maxHeartbeats 2000000 in
theorem V1_v17 (c : Dev nD) :
    (W1 m ρ c (Proc.devRef .tc main_v17) : FVec Ideal S400000x64 .f32)
      = HostVal.xsrcOf (m ((c : Thread nD τ).loc main_arg0)) (m ((c : Thread nD τ).loc main_arg3)) := by
  show StableHlo.after (hostOps0 (F := Ideal)) (W0 m ρ c) (Proc.devRef .tc main_v17) = _
  after_results_simp
  rfl

set_option maxHeartbeats 2000000 in
theorem V1_v24 (c : Dev nD) :
    (W1 m ρ c (Proc.devRef .tc main_v24) : FVec Ideal S400000x64 .f32)
      = HostVal.xtgtOf (m ((c : Thread nD τ).loc main_arg0)) (m ((c : Thread nD τ).loc main_arg3)) := by
  show StableHlo.after (hostOps0 (F := Ideal)) (W0 m ρ c) (Proc.devRef .tc main_v24) = _
  after_results_simp
  rfl

set_option maxHeartbeats 2000000 in
theorem V1_v25 (c : Dev nD) :
    (W1 m ρ c (Proc.devRef .tc main_v25) : IVec S400000x1 32)
      = HostVal.eb2dOf (m ((c : Thread nD τ).loc main_arg3)) (m ((c : Thread nD τ).loc main_arg4)) := by
  show StableHlo.after (hostOps0 (F := Ideal)) (W0 m ρ c) (Proc.devRef .tc main_v25) = _
  after_results_simp
  rfl

set_option maxHeartbeats 2000000 in
theorem W1_v26 (c : Dev nD) :
    (W1 m ρ c (Proc.devRef .tc main_v26) : IVec S50000x1 32) = HostVal.b2dOf (m ((c : Thread nD τ).loc main_arg4)) := by
  show StableHlo.after (hostOps0 (F := Ideal)) (W0 m ρ c) (Proc.devRef .tc main_v26) = _
  after_results_simp
  rfl

set_option maxHeartbeats 2000000 in
theorem W1_v3 (c : Dev nD) :
    (W1 m ρ c (Proc.devRef .tc main_v3) : IVec S400000 32) = HostVal.tgtOf (m ((c : Thread nD τ).loc main_arg3)) := by
  show StableHlo.after (hostOps0 (F := Ideal)) (W0 m ρ c) (Proc.devRef .tc main_v3) = _
  after_results_simp
  rfl

/-! ## The node region's entry -/

/-- The arguments the node region reads are as launched: the second stretch writes none, the edge region has one of
    them among its input arrays and leaves it as found, and the first stretch writes none. -/
theorem V3_arg0 (c : Dev nD) : W3 m ρ c (Proc.devRef .tc main_arg0) = m ((c : Thread nD τ).loc main_arg0) :=
  (host1_keeps m ρ c (by decide)).trans ((W2_of_ne m ρ c main_arg0 (by decide)).trans (host0_keeps m ρ c (by decide)))
theorem V3_arg2 (c : Dev nD) : W3 m ρ c (Proc.devRef .tc main_arg2) = m ((c : Thread nD τ).loc main_arg2) :=
  (host1_keeps m ρ c (by decide)).trans ((W2_in m ρ c 4 rfl).trans (host0_keeps m ρ c (by decide)))
theorem V3_arg21 (c : Dev nD) : W3 m ρ c (Proc.devRef .tc main_arg21) = m ((c : Thread nD τ).loc main_arg21) :=
  (host1_keeps m ρ c (by decide)).trans ((W2_of_ne m ρ c main_arg21 (by decide)).trans (host0_keeps m ρ c (by decide)))
theorem V3_arg22 (c : Dev nD) : W3 m ρ c (Proc.devRef .tc main_arg22) = m ((c : Thread nD τ).loc main_arg22) :=
  (host1_keeps m ρ c (by decide)).trans ((W2_of_ne m ρ c main_arg22 (by decide)).trans (host0_keeps m ρ c (by decide)))
theorem V3_arg23 (c : Dev nD) : W3 m ρ c (Proc.devRef .tc main_arg23) = m ((c : Thread nD τ).loc main_arg23) :=
  (host1_keeps m ρ c (by decide)).trans ((W2_of_ne m ρ c main_arg23 (by decide)).trans (host0_keeps m ρ c (by decide)))
theorem V3_arg24 (c : Dev nD) : W3 m ρ c (Proc.devRef .tc main_arg24) = m ((c : Thread nD τ).loc main_arg24) :=
  (host1_keeps m ρ c (by decide)).trans ((W2_of_ne m ρ c main_arg24 (by decide)).trans (host0_keeps m ρ c (by decide)))
theorem V3_arg25 (c : Dev nD) : W3 m ρ c (Proc.devRef .tc main_arg25) = m ((c : Thread nD τ).loc main_arg25) :=
  (host1_keeps m ρ c (by decide)).trans ((W2_of_ne m ρ c main_arg25 (by decide)).trans (host0_keeps m ρ c (by decide)))
theorem V3_arg26 (c : Dev nD) : W3 m ρ c (Proc.devRef .tc main_arg26) = m ((c : Thread nD τ).loc main_arg26) :=
  (host1_keeps m ρ c (by decide)).trans ((W2_of_ne m ρ c main_arg26 (by decide)).trans (host0_keeps m ρ c (by decide)))
theorem V3_arg27 (c : Dev nD) : W3 m ρ c (Proc.devRef .tc main_arg27) = m ((c : Thread nD τ).loc main_arg27) :=
  (host1_keeps m ρ c (by decide)).trans ((W2_of_ne m ρ c main_arg27 (by decide)).trans (host0_keeps m ρ c (by decide)))
theorem V3_arg28 (c : Dev nD) : W3 m ρ c (Proc.devRef .tc main_arg28) = m ((c : Thread nD τ).loc main_arg28) :=
  (host1_keeps m ρ c (by decide)).trans ((W2_of_ne m ρ c main_arg28 (by decide)).trans (host0_keeps m ρ c (by decide)))

/-- The nodes' graph numbers as a column: computed by the first stretch, owned by no window of the edge region,
    written by no operation of the second stretch. -/
theorem V3_v26 (c : Dev nD) :
    (W3 m ρ c (Proc.devRef .tc main_v26) : IVec S50000x1 32) = HostVal.b2dOf (m ((c : Thread nD τ).loc main_arg4)) :=
  (host1_keeps m ρ c (by decide)).trans ((W2_of_ne m ρ c main_v26 (by decide)).trans (W1_v26 m ρ c))

/-- The aggregate the node region reads: the second stretch adds the edge region's output array, row by row, into
    the rows the edge list's second row names. -/
theorem V3_v30 (c : Dev nD) :
    (W3 m ρ c (Proc.devRef .tc main_v30) : FVec Ideal S50000x64 .f32)
      = HostVal.aggOf (m ((c : Thread nD τ).loc main_arg3)) ((dat0 (V1 m ρ) c).arrAt 21 cfg0.N) := by
  show StableHlo.after (hostOps1 (F := Ideal)) (W2 m ρ c) (Proc.devRef .tc main_v30) = _
  after_results
  have e3 : (W2 m ρ c (Proc.devRef .tc main_v3) : IVec S400000 32)
      = HostVal.tgtOf (m ((c : Thread nD τ).loc main_arg3)) :=
    (W2_of_ne m ρ c main_v3 (by decide)).trans (W1_v3 m ρ c)
  have e27 : (W2 m ρ c (Proc.devRef .tc main_v27) : FVec Ideal S400000x64 .f32)
      = (dat0 (V1 m ρ) c).arrAt 21 cfg0.N := W2_arr m ρ c 21
  rw [e3, e27]
  rfl

/-! ## Two reshapes and a gather, read at an element -/

/-- A vector reshaped to a column reads, at row `r`, the vector's entry `r`. -/
theorem b2d_elt (a4 : IVec S50000 32) (r : Fin 50000) :
    HostVal.b2dOf a4 (ValueIdx.ix2 r (0 : Fin 1)) = a4 (ValueIdx.ix1 r) := by
  unfold HostVal.b2dOf
  refine shapeCast_apply a4 _ (ValueIdx.ix2 r (0 : Fin 1)) (ValueIdx.ix1 r) ?_
  rw [Shape.rowMajor_val_one, Shape.rowMajor_val_two]
  show r.val = r.val * 1 + 0
  omega

theorem eb2d_elt (a3 : IVec S2x400000 32) (a4 : IVec S50000 32) (e : Fin 400000) :
    HostVal.eb2dOf a3 a4 (ValueIdx.ix2 e (0 : Fin 1)) = HostVal.ebOf a3 a4 (ValueIdx.ix1 e) := by
  unfold HostVal.eb2dOf
  refine shapeCast_apply (HostVal.ebOf a3 a4) _ (ValueIdx.ix2 e (0 : Fin 1)) (ValueIdx.ix1 e) ?_
  rw [Shape.rowMajor_val_one, Shape.rowMajor_val_two]
  show e.val = e.val * 1 + 0
  omega

/-- A gather of single entries reads, at each position, some entry of its operand: each edge's graph number is
    the graph number of some node. -/
theorem eb_mem (a3 : IVec S2x400000 32) (a4 : IVec S50000 32) (e : Fin 400000) :
    ∃ r : Fin 50000, HostVal.ebOf a3 a4 (ValueIdx.ix1 e) = a4 (ValueIdx.ix1 r) :=
  ⟨(gather_S50000_S400000x1_S400000_n_0_n_n_0_1_1.operandIdx (ValueIdx.ix1 e) (HostVal.wrapCol (HostVal.srcOf a3))) 0, by
    unfold HostVal.ebOf Host.gather
    exact congrArg a4 (ValueIdx.eq_ix1 _)⟩

end Cert.KernelIdeal.Gen

end
-- ==== Proof.RefGen.lean ====
/-
  The reference program's stages read at an index; the modules that compare the two programs import them through
  this one.
-/
import proofs.«404949_j85100482003175_1_alg».proof.Proof.RefRead
-- ==== Proof.BridgeHost.lean ====
/-
  The host-side arrays of the two programs are the same terms.

  Both programs begin with the same operations on the edge list: its two rows are taken as vectors of node numbers,
  every negative entry is raised by the number of nodes, and the node features (and the nodes' graph numbers) are
  gathered at the resulting positions. Both programs end the edge stage by adding every edge's row into the row of
  its target node, starting from the zero array. The two printed programs state the dimension numbers of these
  gathers and of the scatter, and the shapes, once each, with equal definitions; so each array of the one program is
  the corresponding array of the other by unfolding.
-/
import proofs.«404949_j85100482003175_1_alg».proof.Proof.KHost
import proofs.«404949_j85100482003175_1_alg».proof.Proof.RefGen

noncomputable section

namespace Cert.Bridge

open Idealize.ShloMosaic

/-- Each edge's source feature row: the same gather of the node features, at row 0 of the edge list with its negative
    entries wrapped round, in both programs. -/
theorem xsrc_eq (a0 : FVec Ideal Cert.KernelIdeal.S50000x64 .f32) (a3 : IVec Cert.KernelIdeal.S2x400000 32) :
    Cert.KernelIdeal.HostVal.xsrcOf a0 a3 = Cert.ReferenceIdeal.Read.val_main_v17 (F := Ideal) a0 a3 := rfl

/-- Each edge's target feature row: the same gather at row 1 of the edge list. -/
theorem xtgt_eq (a0 : FVec Ideal Cert.KernelIdeal.S50000x64 .f32) (a3 : IVec Cert.KernelIdeal.S2x400000 32) :
    Cert.KernelIdeal.HostVal.xtgtOf a0 a3 = Cert.ReferenceIdeal.Read.val_main_v24 (F := Ideal) a0 a3 := rfl

/-- Each edge's graph number: the same gather of the nodes' graph numbers at the edge's source node. -/
theorem eb_eq (a3 : IVec Cert.KernelIdeal.S2x400000 32) (a4 : IVec Cert.KernelIdeal.S50000 32) :
    Cert.KernelIdeal.HostVal.ebOf a3 a4 = Cert.ReferenceIdeal.Read.val_main_v10 (F := Ideal) a3 a4 := rfl

/-- The aggregate of the reference is the kernel program's aggregate of the reference's edge rows: both start from
    the zero array and add every edge's row into the row of the edge's target node, row 1 of the edge list. -/
theorem agg_eq (x0 : (⟨Cert.ReferenceIdeal.S50000x64, .f32⟩ : BufTy).Contents (Elt Ideal))
    (x1 : (⟨Cert.ReferenceIdeal.S400000x64, .f32⟩ : BufTy).Contents (Elt Ideal))
    (x2 : (⟨Cert.ReferenceIdeal.S64x16, .f32⟩ : BufTy).Contents (Elt Ideal))
    (x3 : (⟨Cert.ReferenceIdeal.S2x400000, .i32⟩ : BufTy).Contents (Elt Ideal))
    (x4 : (⟨Cert.ReferenceIdeal.S50000, .i32⟩ : BufTy).Contents (Elt Ideal))
    (x5 : (⟨Cert.ReferenceIdeal.S208x128, .f32⟩ : BufTy).Contents (Elt Ideal))
    (x6 : (⟨Cert.ReferenceIdeal.S128, .f32⟩ : BufTy).Contents (Elt Ideal))
    (x7 : (⟨Cert.ReferenceIdeal.S2x128x128, .f32⟩ : BufTy).Contents (Elt Ideal))
    (x8 : (⟨Cert.ReferenceIdeal.S2x128, .f32⟩ : BufTy).Contents (Elt Ideal))
    (x9 : (⟨Cert.ReferenceIdeal.S128x64, .f32⟩ : BufTy).Contents (Elt Ideal))
    (x10 x11 x12 : (⟨Cert.ReferenceIdeal.S64, .f32⟩ : BufTy).Contents (Elt Ideal))
    (x13 : (⟨Cert.ReferenceIdeal.S208x128, .f32⟩ : BufTy).Contents (Elt Ideal))
    (x14 : (⟨Cert.ReferenceIdeal.S128, .f32⟩ : BufTy).Contents (Elt Ideal))
    (x15 : (⟨Cert.ReferenceIdeal.S2x128x128, .f32⟩ : BufTy).Contents (Elt Ideal))
    (x16 : (⟨Cert.ReferenceIdeal.S2x128, .f32⟩ : BufTy).Contents (Elt Ideal))
    (x17 : (⟨Cert.ReferenceIdeal.S128x64, .f32⟩ : BufTy).Contents (Elt Ideal))
    (x18 x19 x20 : (⟨Cert.ReferenceIdeal.S64, .f32⟩ : BufTy).Contents (Elt Ideal)) :
    Cert.ReferenceIdeal.Read.val_main_v144 (F := Ideal) x0 x1 x2 x3 x4 x5 x6 x7 x8 x9 x10 x11 x12 x13 x14 x15 x16 x17 x18 x19 x20
      = Cert.KernelIdeal.HostVal.aggOf x3
          (Cert.ReferenceIdeal.Read.val_main_v141 (F := Ideal) x0 x1 x2 x3 x4 x5 x6 x7 x8 x9 x10 x11 x12 x13 x14 x15 x16 x17 x18 x19
            x20) := by
  unfold Cert.ReferenceIdeal.Read.val_main_v144
  generalize Cert.ReferenceIdeal.Read.val_main_v141 (F := Ideal) x0 x1 x2 x3 x4 x5 x6 x7 x8 x9 x10 x11 x12 x13 x14 x15 x16 x17 x18 x19
    x20 = E
  rfl

end Cert.Bridge

end
-- ==== Proof.RefRowsE.lean ====
/-
  The edge perceptron of the reference after its first layer, one row at a time.

  For one edge `e` the stretch acts on the row `h = (first layer's output at (e, ·))` alone: three affine maps of
  the row, each entered through the pointwise maximum with zero, and then the normalisation of the resulting row of
  64 by its own mean and variance. The matrices and bias rows reach the contractions through slices, reshapes and
  broadcasts, which only rename positions; the lemmas below say which position each of them reads, and then
  assemble the row maps.
-/
import proofs.«404949_j85100482003175_1_alg».proof.Proof.RefGen
import proofs.«404949_j85100482003175_1_alg».proof.Proof.RowSpec
import Idealize.ShloMosaic.Lib.ValueIdx
import Idealize.ShloMosaic.Lib.Pipeline.Value
import Idealize.ShloMosaic.PureOps.Ideal.Laws

noncomputable section

open scoped BigOperators

open Cert.ReferenceIdeal Cert.ReferenceIdeal.Gen Cert.ReferenceIdeal.Read Cert.RowSpec Idealize.ShloMosaic
  Idealize.ShloMosaic.ValueIdx

namespace Cert.ReferenceIdeal.Rows

variable (x0 : (⟨S50000x64, .f32⟩ : BufTy).Contents (Elt Ideal))
  (x1 : (⟨S400000x64, .f32⟩ : BufTy).Contents (Elt Ideal))
  (x2 : (⟨S64x16, .f32⟩ : BufTy).Contents (Elt Ideal))
  (x3 : (⟨S2x400000, .i32⟩ : BufTy).Contents (Elt Ideal))
  (x4 : (⟨S50000, .i32⟩ : BufTy).Contents (Elt Ideal))
  (x5 : (⟨S208x128, .f32⟩ : BufTy).Contents (Elt Ideal))
  (x6 : (⟨S128, .f32⟩ : BufTy).Contents (Elt Ideal))
  (x7 : (⟨S2x128x128, .f32⟩ : BufTy).Contents (Elt Ideal))
  (x8 : (⟨S2x128, .f32⟩ : BufTy).Contents (Elt Ideal))
  (x9 : (⟨S128x64, .f32⟩ : BufTy).Contents (Elt Ideal))
  (x10 x11 x12 : (⟨S64, .f32⟩ : BufTy).Contents (Elt Ideal))

/-! ## Which position each contraction, sum and broadcast reads -/

/-- The first hidden contraction at (e, j), term k, reads the row at (e, k) … -/
theorem lidx40 (e : Fin 400000) (j k : Fin 128) : lidx_main_v40 (ix2 e j) k = ix2 e k :=
  funext fun a => Fin.ext (by match a with | ⟨0, _⟩ => rfl | ⟨1, _⟩ => rfl)
/-- … and the matrix at (k, j). -/
theorem ridx40 (e : Fin 400000) (j k : Fin 128) : ridx_main_v40 (ix2 e j) k = ix2 k j :=
  funext fun a => Fin.ext (by match a with | ⟨0, _⟩ => rfl | ⟨1, _⟩ => rfl)
/-- The second hidden contraction at (e, j), term k, reads the row at (e, k) … -/
theorem lidx49 (e : Fin 400000) (j k : Fin 128) : lidx_main_v49 (ix2 e j) k = ix2 e k :=
  funext fun a => Fin.ext (by match a with | ⟨0, _⟩ => rfl | ⟨1, _⟩ => rfl)
/-- … and the matrix at (k, j). -/
theorem ridx49 (e : Fin 400000) (j k : Fin 128) : ridx_main_v49 (ix2 e j) k = ix2 k j :=
  funext fun a => Fin.ext (by match a with | ⟨0, _⟩ => rfl | ⟨1, _⟩ => rfl)
/-- The output contraction at (e, j), term k, reads the row at (e, k) … -/
theorem lidx56 (e : Fin 400000) (j : Fin 64) (k : Fin 128) : lidx_main_v56 (ix2 e j) k = ix2 e k :=
  funext fun a => Fin.ext (by match a with | ⟨0, _⟩ => rfl | ⟨1, _⟩ => rfl)
/-- … and the matrix at (k, j). -/
theorem ridx56 (e : Fin 400000) (j : Fin 64) (k : Fin 128) : ridx_main_v56 (ix2 e j) k = ix2 k j :=
  funext fun a => Fin.ext (by match a with | ⟨0, _⟩ => rfl | ⟨1, _⟩ => rfl)

/-- The sum over the columns of row e, term k, reads (e, k). -/
theorem idx60 (e : Fin 400000) (k : Fin 64) : idx_main_v60 (ix1 e) k = ix2 e k :=
  funext fun a => Fin.ext (by match a with | ⟨0, _⟩ => rfl | ⟨1, _⟩ => rfl)
/-- The same for the sum of the squared deviations. -/
theorem idx67 (e : Fin 400000) (k : Fin 64) : idx_main_v67 (ix1 e) k = ix2 e k :=
  funext fun a => Fin.ext (by match a with | ⟨0, _⟩ => rfl | ⟨1, _⟩ => rfl)
/-- A row's sum, kept as a column of width one, sits at (e, 0). -/
theorem idx61 (e : Fin 400000) : idx_main_v61 (ix2 e (0 : Fin 1)) = ix1 e :=
  funext fun a => Fin.ext (by match a with | ⟨0, _⟩ => rfl)
/-- The same for the sum of the squared deviations. -/
theorem idx68 (e : Fin 400000) : idx_main_v68 (ix2 e (0 : Fin 1)) = ix1 e :=
  funext fun a => Fin.ext (by match a with | ⟨0, _⟩ => rfl)
/-- The mean of row e, spread over the 64 columns, is read at (e, 0) whatever the column … -/
theorem idx64 (e : Fin 400000) (j : Fin 64) : idx_main_v64 (ix2 e j) = ix2 e (0 : Fin 1) :=
  funext fun a => Fin.ext (by match a with | ⟨0, _⟩ => rfl | ⟨1, _⟩ => rfl)
/-- … and so is its second copy … -/
theorem idx71 (e : Fin 400000) (j : Fin 64) : idx_main_v71 (ix2 e j) = ix2 e (0 : Fin 1) :=
  funext fun a => Fin.ext (by match a with | ⟨0, _⟩ => rfl | ⟨1, _⟩ => rfl)
/-- … and the reciprocal square root of the variance. -/
theorem idx76 (e : Fin 400000) (j : Fin 64) : idx_main_v76 (ix2 e j) = ix2 e (0 : Fin 1) :=
  funext fun a => Fin.ext (by match a with | ⟨0, _⟩ => rfl | ⟨1, _⟩ => rfl)

/-! ## The matrices and bias rows behind their slices, reshapes and broadcasts -/

/-- Entry (k, j) of the first hidden matrix: slice 0 of the stack, its 128 × 128 positions renumbered row by row. -/
theorem v39_at (k j : Fin 128) : val_main_v39 (F := Ideal) x7 (ix2 k j) = x7 (ix3 0 k j) := by
  rw [val_main_v39_apply, val_main_v38_apply]
  refine congrArg x7 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- Entry (k, j) of the second hidden matrix: slice 1 of the stack. -/
theorem v48_at (k j : Fin 128) : val_main_v48 (F := Ideal) x7 (ix2 k j) = x7 (ix3 1 k j) := by
  rw [val_main_v48_apply, val_main_v47_apply]
  refine congrArg x7 (funext fun a => Fin.ext ?_)
  have hk := k.isLt
  have hj := j.isLt
  match a with
  | ⟨0, _⟩ => rfl
  | ⟨1, _⟩ => show (k.val * 128 + j.val) / 128 % 128 = k.val; omega
  | ⟨2, _⟩ => show (k.val * 128 + j.val) % 128 = j.val; omega

/-- The first hidden bias, spread over the edges: row 0 of the bias table at column j, whatever the edge. -/
theorem v44_at (e : Fin 400000) (j : Fin 128) : val_main_v44 (F := Ideal) x8 (ix2 e j) = x8 (ix2 0 j) := by
  rw [val_main_v44_apply, val_main_v43_apply, val_main_v42_apply, val_main_v41_apply]
  refine congrArg x8 (funext fun a => Fin.ext ?_)
  have hj := j.isLt
  match a with
  | ⟨0, _⟩ => rfl
  | ⟨1, _⟩ => show j.val % 128 = j.val; omega

/-- The second hidden bias: row 1 of the bias table. -/
theorem v53_at (e : Fin 400000) (j : Fin 128) : val_main_v53 (F := Ideal) x8 (ix2 e j) = x8 (ix2 1 j) := by
  rw [val_main_v53_apply, val_main_v52_apply, val_main_v51_apply, val_main_v50_apply]
  refine congrArg x8 (funext fun a => Fin.ext ?_)
  have hj := j.isLt
  match a with
  | ⟨0, _⟩ => rfl
  | ⟨1, _⟩ => show j.val % 128 = j.val; omega

/-- The output bias, spread over the edges, is the bias at column j. -/
theorem v58_at (e : Fin 400000) (j : Fin 64) : val_main_v58 (F := Ideal) x10 (ix2 e j) = x10 (ix1 j) := by
  rw [val_main_v58_apply, val_main_v57_apply]
  exact congrArg x10 (funext fun a => Fin.ext (by match a with | ⟨0, _⟩ => rfl))

/-- The scale of the normalisation, spread over the edges, is the scale at column j. -/
theorem v79_at (e : Fin 400000) (j : Fin 64) : val_main_v79 (F := Ideal) x11 (ix2 e j) = x11 (ix1 j) := by
  rw [val_main_v79_apply, val_main_v78_apply]
  exact congrArg x11 (funext fun a => Fin.ext (by match a with | ⟨0, _⟩ => rfl))

/-- The shift of the normalisation, spread over the edges, is the shift at column j. -/
theorem v82_at (e : Fin 400000) (j : Fin 64) : val_main_v82 (F := Ideal) x12 (ix2 e j) = x12 (ix1 j) := by
  rw [val_main_v82_apply, val_main_v81_apply]
  exact congrArg x12 (funext fun a => Fin.ext (by match a with | ⟨0, _⟩ => rfl))

/-! ## The three affine layers, each entered through the maximum with zero -/

/-- The first maximum with zero, on row e. -/
theorem v37_at (e : Fin 400000) (k : Fin 128) :
    val_main_v37 (F := Ideal) x0 x1 x2 x3 x4 x5 x6 (ix2 e k)
      = relu (fun k => val_main_v36 (F := Ideal) x0 x1 x2 x3 x4 x5 x6 (ix2 e k)) k := by
  rw [val_main_v37_apply, val_main_call0_v0_apply, val_main_call0_cst_apply]
  rfl

set_option maxHeartbeats 400000 in
/-- The first hidden layer on row e: the row's maximum with zero against the first hidden matrix, plus its bias. -/
theorem v45_at (e : Fin 400000) (j : Fin 128) :
    val_main_v45 (F := Ideal) x0 x1 x2 x3 x4 x5 x6 x7 x8 (ix2 e j)
      = dotRow (relu fun k => val_main_v36 (F := Ideal) x0 x1 x2 x3 x4 x5 x6 (ix2 e k)) (mats x7 0) j
        + row x8 0 j := by
  have hk : ∀ k : Fin 128,
      val_main_v37 (F := Ideal) x0 x1 x2 x3 x4 x5 x6 (lidx_main_v40 (ix2 e j) k)
          * val_main_v39 (F := Ideal) x7 (ridx_main_v40 (ix2 e j) k)
        = relu (fun k => val_main_v36 (F := Ideal) x0 x1 x2 x3 x4 x5 x6 (ix2 e k)) k * mats x7 0 k j := fun k => by
    rw [lidx40, ridx40, v37_at, v39_at]
  rw [val_main_v45_apply, val_main_v40_apply, v44_at, Ideal.addf_def, Finset.sum_congr rfl fun k _ => hk k]
  rfl

/-- The second maximum with zero, on row e. -/
theorem v46_at (e : Fin 400000) (k : Fin 128) :
    val_main_v46 (F := Ideal) x0 x1 x2 x3 x4 x5 x6 x7 x8 (ix2 e k)
      = relu (fun k => val_main_v45 (F := Ideal) x0 x1 x2 x3 x4 x5 x6 x7 x8 (ix2 e k)) k := by
  rw [val_main_v46_apply, val_main_call1_v0_apply, val_main_call1_cst_apply]
  rfl

set_option maxHeartbeats 400000 in
/-- The second hidden layer on row e. -/
theorem v54_at (e : Fin 400000) (j : Fin 128) :
    val_main_v54 (F := Ideal) x0 x1 x2 x3 x4 x5 x6 x7 x8 (ix2 e j)
      = dotRow (relu fun k => val_main_v45 (F := Ideal) x0 x1 x2 x3 x4 x5 x6 x7 x8 (ix2 e k)) (mats x7 1) j
        + row x8 1 j := by
  have hk : ∀ k : Fin 128,
      val_main_v46 (F := Ideal) x0 x1 x2 x3 x4 x5 x6 x7 x8 (lidx_main_v49 (ix2 e j) k)
          * val_main_v48 (F := Ideal) x7 (ridx_main_v49 (ix2 e j) k)
        = relu (fun k => val_main_v45 (F := Ideal) x0 x1 x2 x3 x4 x5 x6 x7 x8 (ix2 e k)) k * mats x7 1 k j :=
    fun k => by
      rw [lidx49, ridx49, v46_at, v48_at]
  rw [val_main_v54_apply, val_main_v49_apply, v53_at, Ideal.addf_def, Finset.sum_congr rfl fun k _ => hk k]
  rfl

/-- The third maximum with zero, on row e. -/
theorem v55_at (e : Fin 400000) (k : Fin 128) :
    val_main_v55 (F := Ideal) x0 x1 x2 x3 x4 x5 x6 x7 x8 (ix2 e k)
      = relu (fun k => val_main_v54 (F := Ideal) x0 x1 x2 x3 x4 x5 x6 x7 x8 (ix2 e k)) k := by
  rw [val_main_v55_apply, val_main_call2_v0_apply, val_main_call2_cst_apply]
  rfl

set_option maxHeartbeats 400000 in
/-- The output layer on row e: a row of 64. -/
theorem v59_at (e : Fin 400000) (j : Fin 64) :
    val_main_v59 (F := Ideal) x0 x1 x2 x3 x4 x5 x6 x7 x8 x9 x10 (ix2 e j)
      = dotRow (relu fun k => val_main_v54 (F := Ideal) x0 x1 x2 x3 x4 x5 x6 x7 x8 (ix2 e k)) (mat x9) j
        + vec x10 j := by
  have hk : ∀ k : Fin 128,
      val_main_v55 (F := Ideal) x0 x1 x2 x3 x4 x5 x6 x7 x8 (lidx_main_v56 (ix2 e j) k)
          * x9 (ridx_main_v56 (ix2 e j) k)
        = relu (fun k => val_main_v54 (F := Ideal) x0 x1 x2 x3 x4 x5 x6 x7 x8 (ix2 e k)) k * mat x9 k j :=
    fun k => by
      rw [lidx56, ridx56, v55_at]
  rw [val_main_v59_apply, val_main_v56_apply, v58_at, Ideal.addf_def, Finset.sum_congr rfl fun k _ => hk k]
  rfl

set_option maxHeartbeats 400000 in
/-- The three layers together are the row map `rest` of the first layer's output row. -/
theorem v59_rest (e : Fin 400000) (j : Fin 64) :
    val_main_v59 (F := Ideal) x0 x1 x2 x3 x4 x5 x6 x7 x8 x9 x10 (ix2 e j)
      = rest (mats x7 0) (mats x7 1) (row x8 0) (row x8 1) (mat x9) (vec x10)
          (fun k => val_main_v36 (F := Ideal) x0 x1 x2 x3 x4 x5 x6 (ix2 e k)) j := by
  have h2 : (fun k => val_main_v54 (F := Ideal) x0 x1 x2 x3 x4 x5 x6 x7 x8 (ix2 e k))
      = fun k => dotRow (relu fun k => val_main_v45 (F := Ideal) x0 x1 x2 x3 x4 x5 x6 x7 x8 (ix2 e k)) (mats x7 1) k
          + row x8 1 k := funext fun k => v54_at x0 x1 x2 x3 x4 x5 x6 x7 x8 e k
  have h1 : (fun k => val_main_v45 (F := Ideal) x0 x1 x2 x3 x4 x5 x6 x7 x8 (ix2 e k))
      = fun k => dotRow (relu fun k => val_main_v36 (F := Ideal) x0 x1 x2 x3 x4 x5 x6 (ix2 e k)) (mats x7 0) k
          + row x8 0 k := funext fun k => v45_at x0 x1 x2 x3 x4 x5 x6 x7 x8 e k
  rw [v59_at, h2, h1]
  rfl

/-! ## The normalisation of the row of 64 -/

set_option maxHeartbeats 400000 in
/-- The mean of row e: the sum over its 64 columns (the sum's initial value is the zero word, which is 0) divided by
    the word for 64. -/
theorem v63_at (e : Fin 400000) :
    val_main_v63 (F := Ideal) x0 x1 x2 x3 x4 x5 x6 x7 x8 x9 x10 (ix2 e (0 : Fin 1))
      = mean fun k => val_main_v59 (F := Ideal) x0 x1 x2 x3 x4 x5 x6 x7 x8 x9 x10 (ix2 e k) := by
  have hk : ∀ k : Fin 64,
      val_main_v59 (F := Ideal) x0 x1 x2 x3 x4 x5 x6 x7 x8 x9 x10 (idx_main_v60 (ix1 e) k)
        = val_main_v59 (F := Ideal) x0 x1 x2 x3 x4 x5 x6 x7 x8 x9 x10 (ix2 e k) := fun k => by rw [idx60]
  rw [val_main_v63_apply, val_main_v61_apply, idx61, val_main_v60_apply, val_main_cst_apply, val_main_v62_apply,
    val_main_cst_7_apply, Ideal.hostDivf_def, Finset.sum_congr rfl fun k _ => hk k]
  simp only [Ideal.ofBits_def]
  rw [Ideal.ofBits_zero_f32, zero_add]
  rfl

set_option maxHeartbeats 400000 in
/-- The variance of row e: the sum of the squared deviations from the mean, divided by the word for 64. -/
theorem v70_at (e : Fin 400000) :
    val_main_v70 (F := Ideal) x0 x1 x2 x3 x4 x5 x6 x7 x8 x9 x10 (ix2 e (0 : Fin 1))
      = var fun k => val_main_v59 (F := Ideal) x0 x1 x2 x3 x4 x5 x6 x7 x8 x9 x10 (ix2 e k) := by
  have hk : ∀ k : Fin 64,
      val_main_v66 (F := Ideal) x0 x1 x2 x3 x4 x5 x6 x7 x8 x9 x10 (idx_main_v67 (ix1 e) k)
        = (val_main_v59 (F := Ideal) x0 x1 x2 x3 x4 x5 x6 x7 x8 x9 x10 (ix2 e k)
            - mean fun k => val_main_v59 (F := Ideal) x0 x1 x2 x3 x4 x5 x6 x7 x8 x9 x10 (ix2 e k))
          * (val_main_v59 (F := Ideal) x0 x1 x2 x3 x4 x5 x6 x7 x8 x9 x10 (ix2 e k)
            - mean fun k => val_main_v59 (F := Ideal) x0 x1 x2 x3 x4 x5 x6 x7 x8 x9 x10 (ix2 e k)) := fun k => by
    rw [idx67, val_main_v66_apply, val_main_v65_apply, val_main_v64_apply, idx64, v63_at, Ideal.mulf_def,
      Ideal.subf_def]
  rw [val_main_v70_apply, val_main_v68_apply, idx68, val_main_v67_apply, val_main_cst_8_apply, val_main_v69_apply,
    val_main_cst_9_apply, Ideal.hostDivf_def, Finset.sum_congr rfl fun k _ => hk k]
  simp only [Ideal.ofBits_def]
  rw [Ideal.ofBits_zero_f32, zero_add]
  rfl

set_option maxHeartbeats 400000 in
/-- The normalised row: the deviation from the mean, times the reciprocal square root of the variance plus the shared
    word ε, times the scale, plus the shift. -/
theorem v83_norm (e : Fin 400000) (j : Fin 64) :
    val_main_v83 (F := Ideal) x0 x1 x2 x3 x4 x5 x6 x7 x8 x9 x10 x11 x12 (ix2 e j)
      = norm (vec x11) (vec x12)
          (fun k => val_main_v59 (F := Ideal) x0 x1 x2 x3 x4 x5 x6 x7 x8 x9 x10 (ix2 e k)) j := by
  rw [val_main_v83_apply, val_main_v80_apply, val_main_v77_apply, val_main_v72_apply, val_main_v71_apply, idx71,
    v63_at, val_main_v76_apply, idx76, val_main_v75_apply, val_main_v74_apply, v70_at, val_main_v73_apply,
    val_main_cst_10_apply, v79_at, v82_at]
  simp only [Ideal.ofBits_def, Ideal.addf_def, Ideal.mulf_def, Ideal.subf_def, Ideal.hostUnary_rsqrt_def]
  rfl

/-! ## The whole stretch -/

set_option maxHeartbeats 400000 in
/-- The edge perceptron after its first layer, at edge e and column j: the row map `mlp` of the first layer's
    output row at e, with the stack of hidden matrices, the table of hidden biases, the output matrix and bias, and
    the scale and shift of the normalisation. -/
theorem v83_row (e : Fin 400000) (j : Fin 64) :
    val_main_v83 (F := Ideal) x0 x1 x2 x3 x4 x5 x6 x7 x8 x9 x10 x11 x12 (ix2 e j)
      = mlp (mats x7) (row x8) (mat x9) (vec x10) (vec x11) (vec x12)
          (fun k => val_main_v36 (F := Ideal) x0 x1 x2 x3 x4 x5 x6 (ix2 e k)) j := by
  have h : (fun k => val_main_v59 (F := Ideal) x0 x1 x2 x3 x4 x5 x6 x7 x8 x9 x10 (ix2 e k))
      = rest (mats x7 0) (mats x7 1) (row x8 0) (row x8 1) (mat x9) (vec x10)
          (fun k => val_main_v36 (F := Ideal) x0 x1 x2 x3 x4 x5 x6 (ix2 e k)) :=
    funext fun k => v59_rest x0 x1 x2 x3 x4 x5 x6 x7 x8 x9 x10 e k
  rw [v83_norm, h]
  rfl

end Cert.ReferenceIdeal.Rows

end
-- ==== Proof.RefRowsA.lean ====
/-
  The gate perceptron of the reference program after its first layer, one edge row at a time, and the gated product.

  Every host operation of this stretch acts on each of the 400000 edge rows separately. Read at row e and column j,
  the three affine layers are contractions of the row against a matrix plus a bias, each entered through the
  maximum with zero; the two reductions over the 64 columns are the row's sum and the sum of its squared deviations;
  and the remaining operations are pointwise. Together they are the row map "mlp" of the row vocabulary. The gate
  is then 1 / (1 + exp (−·)) of that row, which on the extended reals is the logistic function by definition, and the
  last operation multiplies it into the edge perceptron's row.
-/
import proofs.«404949_j85100482003175_1_alg».proof.Proof.RefGen
import proofs.«404949_j85100482003175_1_alg».proof.Proof.RowSpec
import Idealize.ShloMosaic.Lib.ValueIdx
import Idealize.ShloMosaic.Lib.IdealHost
import Idealize.ShloMosaic.Lib.Pipeline.Value
import Idealize.ShloMosaic.PureOps.Ideal.Laws

noncomputable section

open scoped BigOperators
open Cert.ReferenceIdeal Cert.ReferenceIdeal.Gen Cert.ReferenceIdeal.Read Cert.RowSpec Idealize.ShloMosaic Idealize.ShloMosaic.ValueIdx

namespace Cert.ReferenceIdeal.Rows

/-- Two indices of a one-axis array with the same coordinate are equal. -/
local macro "gate_row_coords1" : tactic =>
  `(tactic| exact funext fun a => Fin.ext (by match a with | ⟨0, _⟩ => rfl))
/-- Two indices of a two-axis array with the same coordinates are equal. -/
local macro "gate_row_coords2" : tactic =>
  `(tactic| exact funext fun a => Fin.ext (by match a with | ⟨0, _⟩ => rfl | ⟨1, _⟩ => rfl))

/-! ## Where each operation reads its operand, at row e -/

section Indices
variable (e : Fin 400000)

theorem lidx91_eq (j k : Fin 128) : lidx_main_v91 (ix2 e j) k = ix2 e k := by gate_row_coords2
theorem ridx91_eq (j k : Fin 128) : ridx_main_v91 (ix2 e j) k = ix2 k j := by gate_row_coords2
theorem lidx100_eq (j k : Fin 128) : lidx_main_v100 (ix2 e j) k = ix2 e k := by gate_row_coords2
theorem ridx100_eq (j k : Fin 128) : ridx_main_v100 (ix2 e j) k = ix2 k j := by gate_row_coords2
theorem lidx107_eq (j : Fin 64) (k : Fin 128) : lidx_main_v107 (ix2 e j) k = ix2 e k := by gate_row_coords2
theorem ridx107_eq (j : Fin 64) (k : Fin 128) : ridx_main_v107 (ix2 e j) k = ix2 k j := by gate_row_coords2
theorem idx111_eq (k : Fin 64) : idx_main_v111 (ix1 e) k = ix2 e k := by gate_row_coords2
theorem idx118_eq (k : Fin 64) : idx_main_v118 (ix1 e) k = ix2 e k := by gate_row_coords2
theorem idx112_eq : idx_main_v112 (ix2 e (0 : Fin 1)) = ix1 e := by gate_row_coords1
theorem idx119_eq : idx_main_v119 (ix2 e (0 : Fin 1)) = ix1 e := by gate_row_coords1
theorem idx115_eq (j : Fin 64) : idx_main_v115 (ix2 e j) = ix2 e (0 : Fin 1) := by gate_row_coords2
theorem idx122_eq (j : Fin 64) : idx_main_v122 (ix2 e j) = ix2 e (0 : Fin 1) := by gate_row_coords2
theorem idx127_eq (j : Fin 64) : idx_main_v127 (ix2 e j) = ix2 e (0 : Fin 1) := by gate_row_coords2

end Indices

/-! ## The parameters read at an index

A slice of the stack of hidden matrices followed by the reshape that drops the axis of size one is one matrix of the
stack; a bias broadcast along the rows is the bias at the column. -/

section Params
variable (x15 : (⟨S2x128x128, .f32⟩ : BufTy).Contents (Elt Ideal)) (x16 : (⟨S2x128, .f32⟩ : BufTy).Contents (Elt Ideal))
  (x18 x19 x20 : (⟨S64, .f32⟩ : BufTy).Contents (Elt Ideal)) (e : Fin 400000)

/-- The first hidden matrix: 128 · k + j has quotient k and remainder j. -/
theorem v90_elt (k j : Fin 128) : val_main_v90 (F := Ideal) x15 (ix2 k j) = x15 (ix3 (0 : Fin 2) k j) := by
  rw [val_main_v90_apply, val_main_v89_apply]
  have hk := k.isLt
  have hj := j.isLt
  exact congrArg x15 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The second hidden matrix. -/
theorem v99_elt (k j : Fin 128) : val_main_v99 (F := Ideal) x15 (ix2 k j) = x15 (ix3 (1 : Fin 2) k j) := by
  rw [val_main_v99_apply, val_main_v98_apply]
  have hk := k.isLt
  have hj := j.isLt
  exact congrArg x15 (funext fun a => Fin.ext (by
    match a with
    | ⟨0, _⟩ => rfl
    | ⟨1, _⟩ => show (k.val * 128 + j.val) / 128 % 128 = k.val; omega
    | ⟨2, _⟩ => show (k.val * 128 + j.val) % 128 = j.val; omega))

/-- The first hidden bias, the same in every row. -/
theorem v95_elt (j : Fin 128) : val_main_v95 (F := Ideal) x16 (ix2 e j) = x16 (ix2 (0 : Fin 2) j) := by
  rw [val_main_v95_apply, val_main_v94_apply, val_main_v93_apply, val_main_v92_apply]
  have hj := j.isLt
  exact congrArg x16 (funext fun a => Fin.ext (by
    match a with
    | ⟨0, _⟩ => rfl
    | ⟨1, _⟩ => show j.val % 128 = j.val; omega))

/-- The second hidden bias. -/
theorem v104_elt (j : Fin 128) : val_main_v104 (F := Ideal) x16 (ix2 e j) = x16 (ix2 (1 : Fin 2) j) := by
  rw [val_main_v104_apply, val_main_v103_apply, val_main_v102_apply, val_main_v101_apply]
  have hj := j.isLt
  exact congrArg x16 (funext fun a => Fin.ext (by
    match a with
    | ⟨0, _⟩ => rfl
    | ⟨1, _⟩ => show j.val % 128 = j.val; omega))

/-- The output bias. -/
theorem v109_elt (j : Fin 64) : val_main_v109 (F := Ideal) x18 (ix2 e j) = x18 (ix1 j) := by
  rw [val_main_v109_apply, val_main_v108_apply]
  exact congrArg x18 (by gate_row_coords1)

/-- The normalisation's scale. -/
theorem v130_elt (j : Fin 64) : val_main_v130 (F := Ideal) x19 (ix2 e j) = x19 (ix1 j) := by
  rw [val_main_v130_apply, val_main_v129_apply]
  exact congrArg x19 (by gate_row_coords1)

/-- The normalisation's shift. -/
theorem v133_elt (j : Fin 64) : val_main_v133 (F := Ideal) x20 (ix2 e j) = x20 (ix1 j) := by
  rw [val_main_v133_apply, val_main_v132_apply]
  exact congrArg x20 (by gate_row_coords1)

end Params

section Gate
variable (x0 : (⟨S50000x64, .f32⟩ : BufTy).Contents (Elt Ideal)) (x1 : (⟨S400000x64, .f32⟩ : BufTy).Contents (Elt Ideal))
  (x2 : (⟨S64x16, .f32⟩ : BufTy).Contents (Elt Ideal)) (x3 : (⟨S2x400000, .i32⟩ : BufTy).Contents (Elt Ideal))
  (x4 : (⟨S50000, .i32⟩ : BufTy).Contents (Elt Ideal))
  (x5 : (⟨S208x128, .f32⟩ : BufTy).Contents (Elt Ideal)) (x6 : (⟨S128, .f32⟩ : BufTy).Contents (Elt Ideal))
  (x7 : (⟨S2x128x128, .f32⟩ : BufTy).Contents (Elt Ideal)) (x8 : (⟨S2x128, .f32⟩ : BufTy).Contents (Elt Ideal))
  (x9 : (⟨S128x64, .f32⟩ : BufTy).Contents (Elt Ideal)) (x10 x11 x12 : (⟨S64, .f32⟩ : BufTy).Contents (Elt Ideal))
  (x13 : (⟨S208x128, .f32⟩ : BufTy).Contents (Elt Ideal)) (x14 : (⟨S128, .f32⟩ : BufTy).Contents (Elt Ideal))
  (x15 : (⟨S2x128x128, .f32⟩ : BufTy).Contents (Elt Ideal)) (x16 : (⟨S2x128, .f32⟩ : BufTy).Contents (Elt Ideal))
  (x17 : (⟨S128x64, .f32⟩ : BufTy).Contents (Elt Ideal)) (x18 x19 x20 : (⟨S64, .f32⟩ : BufTy).Contents (Elt Ideal))
  (e : Fin 400000)

local notation "g87" => val_main_v87 (F := Ideal) x0 x1 x2 x3 x4 x13 x14
local notation "g88" => val_main_v88 (F := Ideal) x0 x1 x2 x3 x4 x13 x14
local notation "g91" => val_main_v91 (F := Ideal) x0 x1 x2 x3 x4 x13 x14 x15
local notation "g96" => val_main_v96 (F := Ideal) x0 x1 x2 x3 x4 x13 x14 x15 x16
local notation "g97" => val_main_v97 (F := Ideal) x0 x1 x2 x3 x4 x13 x14 x15 x16
local notation "g100" => val_main_v100 (F := Ideal) x0 x1 x2 x3 x4 x13 x14 x15 x16
local notation "g105" => val_main_v105 (F := Ideal) x0 x1 x2 x3 x4 x13 x14 x15 x16
local notation "g106" => val_main_v106 (F := Ideal) x0 x1 x2 x3 x4 x13 x14 x15 x16
local notation "g107" => val_main_v107 (F := Ideal) x0 x1 x2 x3 x4 x13 x14 x15 x16 x17
local notation "g110" => val_main_v110 (F := Ideal) x0 x1 x2 x3 x4 x13 x14 x15 x16 x17 x18
local notation "g111" => val_main_v111 (F := Ideal) x0 x1 x2 x3 x4 x13 x14 x15 x16 x17 x18
local notation "g114" => val_main_v114 (F := Ideal) x0 x1 x2 x3 x4 x13 x14 x15 x16 x17 x18
local notation "g116" => val_main_v116 (F := Ideal) x0 x1 x2 x3 x4 x13 x14 x15 x16 x17 x18
local notation "g118" => val_main_v118 (F := Ideal) x0 x1 x2 x3 x4 x13 x14 x15 x16 x17 x18
local notation "g121" => val_main_v121 (F := Ideal) x0 x1 x2 x3 x4 x13 x14 x15 x16 x17 x18
local notation "g123" => val_main_v123 (F := Ideal) x0 x1 x2 x3 x4 x13 x14 x15 x16 x17 x18
local notation "g126" => val_main_v126 (F := Ideal) x0 x1 x2 x3 x4 x13 x14 x15 x16 x17 x18
local notation "g134" => val_main_v134 (F := Ideal) x0 x1 x2 x3 x4 x13 x14 x15 x16 x17 x18 x19 x20
local notation "g140" => val_main_v140 (F := Ideal) x0 x1 x2 x3 x4 x13 x14 x15 x16 x17 x18 x19 x20

/-! ## The three affine layers -/

/-- Entering the first hidden layer: the maximum of the first layer's row with zero. -/
theorem v88_elt (k : Fin 128) :
    g88 (ix2 e k) = max (g87 (ix2 e k)) (Ideal.ofBits .f32 0x00000000#32) := by
  rw [val_main_v88_apply, val_main_call3_v0_apply, val_main_call3_cst_apply, Ideal.maximumf_def, Ideal.ofBits_def]

/-- The first hidden contraction, against matrix 0 of the stack. -/
theorem v91_row (j : Fin 128) :
    g91 (ix2 e j) = dotRow (relu fun k => g87 (ix2 e k)) (mats x15 0) j := by
  rw [val_main_v91_apply]
  refine Finset.sum_congr rfl fun k _ => ?_
  rw [lidx91_eq, ridx91_eq, v90_elt, v88_elt]
  rfl

/-- The first hidden layer: the contraction plus row 0 of the hidden biases. -/
theorem v96_row (j : Fin 128) :
    g96 (ix2 e j) = dotRow (relu fun k => g87 (ix2 e k)) (mats x15 0) j + row x16 0 j := by
  rw [val_main_v96_apply, Ideal.addf_def, v91_row, v95_elt]

/-- Entering the second hidden layer. -/
theorem v97_elt (k : Fin 128) :
    g97 (ix2 e k) = max (g96 (ix2 e k)) (Ideal.ofBits .f32 0x00000000#32) := by
  rw [val_main_v97_apply, val_main_call4_v0_apply, val_main_call4_cst_apply, Ideal.maximumf_def, Ideal.ofBits_def]

/-- The second hidden contraction, against matrix 1 of the stack. -/
theorem v100_row (j : Fin 128) :
    g100 (ix2 e j) = dotRow (relu fun k => g96 (ix2 e k)) (mats x15 1) j := by
  rw [val_main_v100_apply]
  refine Finset.sum_congr rfl fun k _ => ?_
  rw [lidx100_eq, ridx100_eq, v99_elt, v97_elt]
  rfl

/-- The second hidden layer. -/
theorem v105_row (j : Fin 128) :
    g105 (ix2 e j) = dotRow (relu fun k => g96 (ix2 e k)) (mats x15 1) j + row x16 1 j := by
  rw [val_main_v105_apply, Ideal.addf_def, v100_row, v104_elt]

/-- Entering the output layer. -/
theorem v106_elt (k : Fin 128) :
    g106 (ix2 e k) = max (g105 (ix2 e k)) (Ideal.ofBits .f32 0x00000000#32) := by
  rw [val_main_v106_apply, val_main_call5_v0_apply, val_main_call5_cst_apply, Ideal.maximumf_def, Ideal.ofBits_def]

/-- The output contraction. -/
theorem v107_row (j : Fin 64) :
    g107 (ix2 e j) = dotRow (relu fun k => g105 (ix2 e k)) (mat x17) j := by
  rw [val_main_v107_apply]
  refine Finset.sum_congr rfl fun k _ => ?_
  rw [lidx107_eq, ridx107_eq, v106_elt]
  rfl

/-- The output layer. -/
theorem v110_layer (j : Fin 64) :
    g110 (ix2 e j) = dotRow (relu fun k => g105 (ix2 e k)) (mat x17) j + vec x18 j := by
  rw [val_main_v110_apply, Ideal.addf_def, v107_row, v109_elt]

/-- The three layers together: the row before normalisation is "rest" of the first layer's row. -/
theorem v110_row (j : Fin 64) :
    g110 (ix2 e j)
      = rest (mats x15 0) (mats x15 1) (row x16 0) (row x16 1) (mat x17) (vec x18) (fun k => g87 (ix2 e k)) j := by
  rw [v110_layer]
  have h2 : (fun k : Fin 128 => g105 (ix2 e k))
      = fun k => dotRow (relu fun k => g96 (ix2 e k)) (mats x15 1) k + row x16 1 k :=
    funext fun k => v105_row x0 x1 x2 x3 x4 x13 x14 x15 x16 e k
  have h1 : (fun k : Fin 128 => g96 (ix2 e k))
      = fun k => dotRow (relu fun k => g87 (ix2 e k)) (mats x15 0) k + row x16 0 k :=
    funext fun k => v96_row x0 x1 x2 x3 x4 x13 x14 x15 x16 e k
  rw [h2, h1]
  rfl

/-! ## The normalisation of the row -/

/-- The row's sum: the reduction starts from the zero word, which is 0. -/
theorem v111_elt : g111 (ix1 e) = ∑ k : Fin 64, g110 (ix2 e k) := by
  rw [val_main_v111_apply, val_main_cst_11_apply, Ideal.ofBits_def, Ideal.ofBits_zero_f32, zero_add]
  refine Finset.sum_congr rfl fun k _ => ?_
  rw [idx111_eq]

/-- The row's mean. -/
theorem v114_elt : g114 (ix2 e (0 : Fin 1)) = mean (fun k => g110 (ix2 e k)) := by
  rw [val_main_v114_apply, Ideal.hostDivf_def, val_main_v112_apply, idx112_eq, v111_elt, val_main_v113_apply,
    val_main_cst_12_apply, Ideal.ofBits_def]
  rfl

/-- The deviation from the mean (the copy that is squared). -/
theorem v116_elt (j : Fin 64) : g116 (ix2 e j) = g110 (ix2 e j) - mean (fun k => g110 (ix2 e k)) := by
  rw [val_main_v116_apply, Ideal.subf_def, val_main_v115_apply, idx115_eq, v114_elt]

/-- The sum of the squared deviations. -/
theorem v118_elt :
    g118 (ix1 e) = ∑ k : Fin 64, (g110 (ix2 e k) - mean (fun k => g110 (ix2 e k)))
      * (g110 (ix2 e k) - mean (fun k => g110 (ix2 e k))) := by
  rw [val_main_v118_apply, val_main_cst_13_apply, Ideal.ofBits_def, Ideal.ofBits_zero_f32, zero_add]
  refine Finset.sum_congr rfl fun k _ => ?_
  rw [idx118_eq, val_main_v117_apply, Ideal.mulf_def, v116_elt]

/-- The row's variance. -/
theorem v121_elt : g121 (ix2 e (0 : Fin 1)) = var (fun k => g110 (ix2 e k)) := by
  rw [val_main_v121_apply, Ideal.hostDivf_def, val_main_v119_apply, idx119_eq, v118_elt, val_main_v120_apply,
    val_main_cst_14_apply, Ideal.ofBits_def]
  rfl

/-- The deviation from the mean (the copy that is scaled). -/
theorem v123_elt (j : Fin 64) : g123 (ix2 e j) = g110 (ix2 e j) - mean (fun k => g110 (ix2 e k)) := by
  rw [val_main_v123_apply, Ideal.subf_def, val_main_v122_apply, idx122_eq, v114_elt]

/-- The reciprocal square root of the variance plus ε. -/
theorem v126_elt :
    g126 (ix2 e (0 : Fin 1))
      = Ideal.rsqrt (var (fun k => g110 (ix2 e k)) + Ideal.ofBits .f32 0x3727C5AC#32) := by
  rw [val_main_v126_apply, Ideal.hostUnary_rsqrt_def, val_main_v125_apply, Ideal.addf_def, v121_elt,
    val_main_v124_apply, val_main_cst_15_apply, Ideal.ofBits_def]

/-- The normalised row. -/
theorem v134_norm (j : Fin 64) :
    g134 (ix2 e j) = norm (vec x19) (vec x20) (fun k => g110 (ix2 e k)) j := by
  rw [val_main_v134_apply, Ideal.addf_def, val_main_v131_apply, Ideal.mulf_def, val_main_v128_apply, Ideal.mulf_def,
    v123_elt, val_main_v127_apply, idx127_eq, v126_elt, v130_elt, v133_elt]
  rfl

/-- The gate perceptron after its first layer, at row e and column j. -/
theorem v134_row (j : Fin 64) :
    val_main_v134 (F := Ideal) x0 x1 x2 x3 x4 x13 x14 x15 x16 x17 x18 x19 x20 (ix2 e j)
      = mlp (mats x15) (row x16) (mat x17) (vec x18) (vec x19) (vec x20)
          (fun k => val_main_v87 (F := Ideal) x0 x1 x2 x3 x4 x13 x14 (ix2 e k)) j := by
  rw [v134_norm]
  exact congrArg (fun h => norm (vec x19) (vec x20) h j)
    (funext fun k => v110_row x0 x1 x2 x3 x4 x13 x14 x15 x16 x17 x18 e k)

/-! ## The gate and the product -/

/-- 1 / (1 + exp (−x)) is the logistic function of x; both words for one are 1. -/
theorem v140_elt (j : Fin 64) : g140 (ix2 e j) = Ideal.logistic (g134 (ix2 e j)) := by
  rw [val_main_v140_apply, val_main_v139_apply, val_main_cst_17_apply, val_main_v138_apply, val_main_v137_apply,
    val_main_cst_16_apply, val_main_v136_apply, val_main_v135_apply, Ideal.ofBits_def, Ideal.ofBits_one_f32]
  generalize g134 (ix2 e j) = y
  rfl

/-- The gated edge row: the edge perceptron's row times the logistic function of the gate perceptron's row. -/
theorem v141_elt (j : Fin 64) :
    val_main_v141 (F := Ideal) x0 x1 x2 x3 x4 x5 x6 x7 x8 x9 x10 x11 x12 x13 x14 x15 x16 x17 x18 x19 x20 (ix2 e j)
      = val_main_v83 (F := Ideal) x0 x1 x2 x3 x4 x5 x6 x7 x8 x9 x10 x11 x12 (ix2 e j)
        * Ideal.logistic (val_main_v134 (F := Ideal) x0 x1 x2 x3 x4 x13 x14 x15 x16 x17 x18 x19 x20 (ix2 e j)) := by
  rw [val_main_v141_apply, Ideal.mulf_def, v140_elt]

end Gate

end Cert.ReferenceIdeal.Rows

end
-- ==== Proof.RefRowsN.lean ====
/-
  The node perceptron after its first layer, read one row at a time.

  For all 50000 node rows at once the reference computes two hidden layers of width 128 and an output layer of
  width 64, each entered through the maximum with zero and followed by its bias; then the mean and the variance of
  every output row; then the row normalised by them, scaled and shifted. Each of those arrays is read here at row
  `r` and one column, and what is read is the row map of the same name applied to row `r` of the first layer's output:

    hidden layer, hidden layer, output layer        `rest`
    a row's sum divided by the word for 64          `mean`, `var`
    (h − mean) · rsqrt (var + ε) · g + b            `norm`

  and the three together are `mlp`. Nothing is evaluated. A slice, a reshape or a broadcast only moves the index it
  is read at; a contraction is the sum over the contracted position; a float operation is the extended reals' own;
  and a sum's initial value is the zero word, which is 0.
-/
import proofs.«404949_j85100482003175_1_alg».proof.Proof.RefGen
import proofs.«404949_j85100482003175_1_alg».proof.Proof.RowSpec
import Idealize.ShloMosaic.Lib.ValueIdx
import Idealize.ShloMosaic.Lib.Pipeline.Value
import Idealize.ShloMosaic.PureOps.Ideal.Laws

noncomputable section

open scoped BigOperators

namespace Cert.ReferenceIdeal.Rows

open Cert.ReferenceIdeal Cert.ReferenceIdeal.Gen Cert.ReferenceIdeal.Read Cert.RowSpec Idealize.ShloMosaic Idealize.ShloMosaic.ValueIdx

variable (x0 : (⟨S50000x64, .f32⟩ : BufTy).Contents (Elt Ideal)) (x1 : (⟨S400000x64, .f32⟩ : BufTy).Contents (Elt Ideal)) (x2 : (⟨S64x16, .f32⟩ : BufTy).Contents (Elt Ideal)) (x3 : (⟨S2x400000, .i32⟩ : BufTy).Contents (Elt Ideal)) (x4 : (⟨S50000, .i32⟩ : BufTy).Contents (Elt Ideal))
  (x5 : (⟨S208x128, .f32⟩ : BufTy).Contents (Elt Ideal)) (x6 : (⟨S128, .f32⟩ : BufTy).Contents (Elt Ideal)) (x7 : (⟨S2x128x128, .f32⟩ : BufTy).Contents (Elt Ideal)) (x8 : (⟨S2x128, .f32⟩ : BufTy).Contents (Elt Ideal)) (x9 : (⟨S128x64, .f32⟩ : BufTy).Contents (Elt Ideal)) (x10 x11 x12 : (⟨S64, .f32⟩ : BufTy).Contents (Elt Ideal))
  (x13 : (⟨S208x128, .f32⟩ : BufTy).Contents (Elt Ideal)) (x14 : (⟨S128, .f32⟩ : BufTy).Contents (Elt Ideal)) (x15 : (⟨S2x128x128, .f32⟩ : BufTy).Contents (Elt Ideal)) (x16 : (⟨S2x128, .f32⟩ : BufTy).Contents (Elt Ideal)) (x17 : (⟨S128x64, .f32⟩ : BufTy).Contents (Elt Ideal)) (x18 x19 x20 : (⟨S64, .f32⟩ : BufTy).Contents (Elt Ideal))
  (x21 : (⟨S144x128, .f32⟩ : BufTy).Contents (Elt Ideal)) (x22 : (⟨S128, .f32⟩ : BufTy).Contents (Elt Ideal)) (x23 : (⟨S2x128x128, .f32⟩ : BufTy).Contents (Elt Ideal)) (x24 : (⟨S2x128, .f32⟩ : BufTy).Contents (Elt Ideal)) (x25 : (⟨S128x64, .f32⟩ : BufTy).Contents (Elt Ideal)) (x26 x27 x28 : (⟨S64, .f32⟩ : BufTy).Contents (Elt Ideal))

-- The first layer's output (left as it is), each layer's entry (its maximum with zero) and each layer's output.
local notation "H0" => val_main_v156 (F := Ideal) x0 x1 x2 x3 x4 x5 x6 x7 x8 x9 x10 x11 x12 x13 x14 x15 x16 x17 x18 x19 x20 x21 x22
local notation "R1" => val_main_v157 (F := Ideal) x0 x1 x2 x3 x4 x5 x6 x7 x8 x9 x10 x11 x12 x13 x14 x15 x16 x17 x18 x19 x20 x21 x22
local notation "H1" => val_main_v165 (F := Ideal) x0 x1 x2 x3 x4 x5 x6 x7 x8 x9 x10 x11 x12 x13 x14 x15 x16 x17 x18 x19 x20 x21 x22 x23 x24
local notation "R2" => val_main_v166 (F := Ideal) x0 x1 x2 x3 x4 x5 x6 x7 x8 x9 x10 x11 x12 x13 x14 x15 x16 x17 x18 x19 x20 x21 x22 x23 x24
local notation "H2" => val_main_v174 (F := Ideal) x0 x1 x2 x3 x4 x5 x6 x7 x8 x9 x10 x11 x12 x13 x14 x15 x16 x17 x18 x19 x20 x21 x22 x23 x24
local notation "R3" => val_main_v175 (F := Ideal) x0 x1 x2 x3 x4 x5 x6 x7 x8 x9 x10 x11 x12 x13 x14 x15 x16 x17 x18 x19 x20 x21 x22 x23 x24
local notation "H3" => val_main_v179 (F := Ideal) x0 x1 x2 x3 x4 x5 x6 x7 x8 x9 x10 x11 x12 x13 x14 x15 x16 x17 x18 x19 x20 x21 x22 x23 x24 x25 x26

/-! ## The zero word of each maximum -/

theorem zero_call6 (i : S50000x128.Idx) : val_main_call6_v0 (F := Ideal) i = Ideal.ofBits .f32 0x00000000#32 :=
  (val_main_call6_v0_apply (F := Ideal) i).trans (val_main_call6_cst_apply (F := Ideal) _)
theorem zero_call7 (i : S50000x128.Idx) : val_main_call7_v0 (F := Ideal) i = Ideal.ofBits .f32 0x00000000#32 :=
  (val_main_call7_v0_apply (F := Ideal) i).trans (val_main_call7_cst_apply (F := Ideal) _)
theorem zero_call8 (i : S50000x128.Idx) : val_main_call8_v0 (F := Ideal) i = Ideal.ofBits .f32 0x00000000#32 :=
  (val_main_call8_v0_apply (F := Ideal) i).trans (val_main_call8_cst_apply (F := Ideal) _)

/-! ## Where each contraction reads its two operands -/

theorem lidx160 (r : Fin 50000) (j k : Fin 128) : lidx_main_v160 (ix2 r j) k = ix2 r k :=
  funext fun a => Fin.ext (by match a with | ⟨0, _⟩ => rfl | ⟨1, _⟩ => rfl)
theorem ridx160 (r : Fin 50000) (j k : Fin 128) : ridx_main_v160 (ix2 r j) k = ix2 k j :=
  funext fun a => Fin.ext (by match a with | ⟨0, _⟩ => rfl | ⟨1, _⟩ => rfl)
theorem lidx169 (r : Fin 50000) (j k : Fin 128) : lidx_main_v169 (ix2 r j) k = ix2 r k :=
  funext fun a => Fin.ext (by match a with | ⟨0, _⟩ => rfl | ⟨1, _⟩ => rfl)
theorem ridx169 (r : Fin 50000) (j k : Fin 128) : ridx_main_v169 (ix2 r j) k = ix2 k j :=
  funext fun a => Fin.ext (by match a with | ⟨0, _⟩ => rfl | ⟨1, _⟩ => rfl)
theorem lidx176 (r : Fin 50000) (j : Fin 64) (k : Fin 128) : lidx_main_v176 (ix2 r j) k = ix2 r k :=
  funext fun a => Fin.ext (by match a with | ⟨0, _⟩ => rfl | ⟨1, _⟩ => rfl)
theorem ridx176 (r : Fin 50000) (j : Fin 64) (k : Fin 128) : ridx_main_v176 (ix2 r j) k = ix2 k j :=
  funext fun a => Fin.ext (by match a with | ⟨0, _⟩ => rfl | ⟨1, _⟩ => rfl)

/-! ## The hidden matrices and the biases, out of their stacks

  Matrix `l` of the stack is its slice at `l` with the leading axis of size one dropped: position `(k, j)` of the
  result is position `k · 128 + j` of the slice in row-major order, which is `(0, k, j)` again since `j < 128`. -/

theorem v159_read (k j : Fin 128) : val_main_v159 (F := Ideal) x23 (ix2 k j) = x23 (ix3 (0 : Fin 2) k j) := by
  rewrite [val_main_v159_apply, val_main_v158_apply]
  exact congrArg x23 (funext fun a => Fin.ext (by
    match a with
    | ⟨0, _⟩ => rfl
    | ⟨1, _⟩ => have hk := k.isLt; have hj := j.isLt; show (k.val * 128 + j.val) / 128 % 128 = k.val; omega
    | ⟨2, _⟩ => have hk := k.isLt; have hj := j.isLt; show (k.val * 128 + j.val) % 128 = j.val; omega))

theorem v168_read (k j : Fin 128) : val_main_v168 (F := Ideal) x23 (ix2 k j) = x23 (ix3 (1 : Fin 2) k j) := by
  rewrite [val_main_v168_apply, val_main_v167_apply]
  exact congrArg x23 (funext fun a => Fin.ext (by
    match a with
    | ⟨0, _⟩ => rfl
    | ⟨1, _⟩ => have hk := k.isLt; have hj := j.isLt; show (k.val * 128 + j.val) / 128 % 128 = k.val; omega
    | ⟨2, _⟩ => have hk := k.isLt; have hj := j.isLt; show (k.val * 128 + j.val) % 128 = j.val; omega))

/-- Row `l` of the bias stack, repeated down all 50000 rows. -/
theorem v164_read (r : Fin 50000) (j : Fin 128) : val_main_v164 (F := Ideal) x24 (ix2 r j) = x24 (ix2 (0 : Fin 2) j) := by
  rewrite [val_main_v164_apply, val_main_v163_apply, val_main_v162_apply, val_main_v161_apply]
  exact congrArg x24 (funext fun a => Fin.ext (by
    match a with
    | ⟨0, _⟩ => rfl
    | ⟨1, _⟩ => have hj := j.isLt; show j.val % 128 = j.val; omega))

theorem v173_read (r : Fin 50000) (j : Fin 128) : val_main_v173 (F := Ideal) x24 (ix2 r j) = x24 (ix2 (1 : Fin 2) j) := by
  rewrite [val_main_v173_apply, val_main_v172_apply, val_main_v171_apply, val_main_v170_apply]
  exact congrArg x24 (funext fun a => Fin.ext (by
    match a with
    | ⟨0, _⟩ => rfl
    | ⟨1, _⟩ => have hj := j.isLt; show j.val % 128 = j.val; omega))

/-- A vector of 64 repeated down all 50000 rows: the output bias, the scale and the shift. -/
theorem v178_read (r : Fin 50000) (j : Fin 64) : val_main_v178 (F := Ideal) x26 (ix2 r j) = x26 (ix1 j) := by
  rewrite [val_main_v178_apply, val_main_v177_apply]
  exact congrArg x26 (funext fun a => Fin.ext (by match a with | ⟨0, _⟩ => rfl))
theorem v199_read (r : Fin 50000) (j : Fin 64) : val_main_v199 (F := Ideal) x27 (ix2 r j) = x27 (ix1 j) := by
  rewrite [val_main_v199_apply, val_main_v198_apply]
  exact congrArg x27 (funext fun a => Fin.ext (by match a with | ⟨0, _⟩ => rfl))
theorem v202_read (r : Fin 50000) (j : Fin 64) : val_main_v202 (F := Ideal) x28 (ix2 r j) = x28 (ix1 j) := by
  rewrite [val_main_v202_apply, val_main_v201_apply]
  exact congrArg x28 (funext fun a => Fin.ext (by match a with | ⟨0, _⟩ => rfl))

/-! ## The three layers -/

/-- Entering the first hidden layer: the maximum of the first layer's output with zero. -/
theorem v157_row (r : Fin 50000) (k : Fin 128) : R1 (ix2 r k) = relu (fun k => H0 (ix2 r k)) k := by
  rewrite [val_main_v157_apply, zero_call6]
  rfl

/-- The first hidden layer: row `r` contracted against matrix 0 of the stack, plus row 0 of the bias stack. -/
theorem v165_row (r : Fin 50000) (j : Fin 128) :
    H1 (ix2 r j) = dotRow (relu fun k => H0 (ix2 r k)) (mats x23 0) j + row x24 0 j := by
  rewrite [val_main_v165_apply, val_main_v160_apply, v164_read]
  simp only [lidx160, ridx160, v159_read, v157_row]
  rfl

theorem v166_row (r : Fin 50000) (k : Fin 128) : R2 (ix2 r k) = relu (fun k => H1 (ix2 r k)) k := by
  rewrite [val_main_v166_apply, zero_call7]
  rfl

/-- The second hidden layer: the same against matrix 1 and bias row 1. -/
theorem v174_row (r : Fin 50000) (j : Fin 128) :
    H2 (ix2 r j) = dotRow (relu fun k => H1 (ix2 r k)) (mats x23 1) j + row x24 1 j := by
  rewrite [val_main_v174_apply, val_main_v169_apply, v173_read]
  simp only [lidx169, ridx169, v168_read, v166_row]
  rfl

theorem v175_row (r : Fin 50000) (k : Fin 128) : R3 (ix2 r k) = relu (fun k => H2 (ix2 r k)) k := by
  rewrite [val_main_v175_apply, zero_call8]
  rfl

/-- The output layer: against the 128 × 64 matrix, plus the output bias. -/
theorem v179_row (r : Fin 50000) (j : Fin 64) :
    H3 (ix2 r j) = dotRow (relu fun k => H2 (ix2 r k)) (mat x25) j + vec x26 j := by
  rewrite [val_main_v179_apply, val_main_v176_apply, v178_read]
  simp only [lidx176, ridx176, v175_row]
  rfl

/-- The three layers are `rest` of the first layer's row. -/
theorem v179_rest (r : Fin 50000) (j : Fin 64) :
    H3 (ix2 r j)
      = rest (mats x23 0) (mats x23 1) (row x24 0) (row x24 1) (mat x25) (vec x26) (fun k => H0 (ix2 r k)) j := by
  rewrite [v179_row]
  simp only [v174_row, v165_row]
  rfl

/-! ## Mean, variance and the normalised row -/

theorem idx180 (r : Fin 50000) (c : Fin 1) (k : Fin 64) : idx_main_v180 (idx_main_v181 (ix2 r c)) k = ix2 r k :=
  funext fun a => Fin.ext (by match a with | ⟨0, _⟩ => rfl | ⟨1, _⟩ => rfl)
theorem idx187 (r : Fin 50000) (c : Fin 1) (k : Fin 64) : idx_main_v187 (idx_main_v188 (ix2 r c)) k = ix2 r k :=
  funext fun a => Fin.ext (by match a with | ⟨0, _⟩ => rfl | ⟨1, _⟩ => rfl)
theorem idx184 (r : Fin 50000) (j : Fin 64) : idx_main_v184 (ix2 r j) = ix2 r (⟨0, Nat.one_pos⟩ : Fin 1) :=
  funext fun a => Fin.ext (by match a with | ⟨0, _⟩ => rfl | ⟨1, _⟩ => rfl)
theorem idx191 (r : Fin 50000) (j : Fin 64) : idx_main_v191 (ix2 r j) = ix2 r (⟨0, Nat.one_pos⟩ : Fin 1) :=
  funext fun a => Fin.ext (by match a with | ⟨0, _⟩ => rfl | ⟨1, _⟩ => rfl)
theorem idx196 (r : Fin 50000) (j : Fin 64) : idx_main_v196 (ix2 r j) = ix2 r (⟨0, Nat.one_pos⟩ : Fin 1) :=
  funext fun a => Fin.ext (by match a with | ⟨0, _⟩ => rfl | ⟨1, _⟩ => rfl)

/-- The column of row means: the output row's sum, from the zero word, divided by the word for 64. -/
theorem v183_row (r : Fin 50000) (c : Fin 1) :
    val_main_v183 (F := Ideal) x0 x1 x2 x3 x4 x5 x6 x7 x8 x9 x10 x11 x12 x13 x14 x15 x16 x17 x18 x19 x20 x21 x22 x23 x24 x25 x26 (ix2 r c) = mean (fun k => H3 (ix2 r k)) := by
  rewrite [val_main_v183_apply, val_main_v181_apply, val_main_v180_apply, val_main_v182_apply, val_main_cst_21_apply,
    val_main_cst_22_apply]
  simp only [Ideal.ofBits_def, Ideal.ofBits_zero_f32, zero_add, idx180]
  rfl

/-- The mean spread back along the row, as the variance subtracts it. -/
theorem v184_row (r : Fin 50000) (j : Fin 64) :
    val_main_v184 (F := Ideal) x0 x1 x2 x3 x4 x5 x6 x7 x8 x9 x10 x11 x12 x13 x14 x15 x16 x17 x18 x19 x20 x21 x22 x23 x24 x25 x26 (ix2 r j) = mean (fun k => H3 (ix2 r k)) := by
  rewrite [val_main_v184_apply, idx184, v183_row]
  rfl

/-- The same, as the normalised row subtracts it. -/
theorem v191_row (r : Fin 50000) (j : Fin 64) :
    val_main_v191 (F := Ideal) x0 x1 x2 x3 x4 x5 x6 x7 x8 x9 x10 x11 x12 x13 x14 x15 x16 x17 x18 x19 x20 x21 x22 x23 x24 x25 x26 (ix2 r j) = mean (fun k => H3 (ix2 r k)) := by
  rewrite [val_main_v191_apply, idx191, v183_row]
  rfl

/-- The column of row variances: the sum of the squared deviations from the mean, divided by the word for 64. -/
theorem v190_row (r : Fin 50000) (c : Fin 1) :
    val_main_v190 (F := Ideal) x0 x1 x2 x3 x4 x5 x6 x7 x8 x9 x10 x11 x12 x13 x14 x15 x16 x17 x18 x19 x20 x21 x22 x23 x24 x25 x26 (ix2 r c) = var (fun k => H3 (ix2 r k)) := by
  rewrite [val_main_v190_apply, val_main_v188_apply, val_main_v187_apply, val_main_v189_apply, val_main_cst_23_apply,
    val_main_cst_24_apply]
  simp only [Ideal.ofBits_def, Ideal.ofBits_zero_f32, zero_add, idx187, val_main_v186_apply, val_main_v185_apply, v184_row]
  rfl

/-- The reciprocal root of variance plus ε, spread back along the row. -/
theorem v196_row (r : Fin 50000) (j : Fin 64) :
    val_main_v196 (F := Ideal) x0 x1 x2 x3 x4 x5 x6 x7 x8 x9 x10 x11 x12 x13 x14 x15 x16 x17 x18 x19 x20 x21 x22 x23 x24 x25 x26 (ix2 r j)
      = Ideal.rsqrt (var (fun k => H3 (ix2 r k)) + Ideal.ofBits .f32 0x3727C5AC#32) := by
  rewrite [val_main_v196_apply, idx196, val_main_v195_apply, val_main_v194_apply, v190_row, val_main_v193_apply,
    val_main_cst_25_apply]
  rfl

/-- The normalised row: deviation from the mean, times the reciprocal root, times the scale, plus the shift. -/
theorem v203_norm (r : Fin 50000) (j : Fin 64) :
    val_main_v203 (F := Ideal) x0 x1 x2 x3 x4 x5 x6 x7 x8 x9 x10 x11 x12 x13 x14 x15 x16 x17 x18 x19 x20 x21 x22 x23 x24 x25 x26 x27 x28 (ix2 r j) = norm (vec x27) (vec x28) (fun k => H3 (ix2 r k)) j := by
  rewrite [val_main_v203_apply, val_main_v200_apply, val_main_v197_apply, val_main_v192_apply, v191_row, v196_row, v199_read,
    v202_read]
  rfl

/-- The node perceptron after its first layer, at row `r` and column `j`: `mlp` of row `r` of the first layer's output. -/
theorem v203_row (r : Fin 50000) (j : Fin 64) :
    val_main_v203 (F := Ideal) x0 x1 x2 x3 x4 x5 x6 x7 x8 x9 x10 x11 x12 x13 x14 x15 x16 x17 x18 x19 x20 x21 x22 x23 x24 x25 x26 x27 x28 (ix2 r j)
      = mlp (mats x23) (row x24) (mat x25) (vec x26) (vec x27) (vec x28) (fun k => H0 (ix2 r k)) j := by
  have hrow : (fun k => H3 (ix2 r k))
      = rest (mats x23 0) (mats x23 1) (row x24 0) (row x24 1) (mat x25) (vec x26) (fun k => H0 (ix2 r k)) :=
    funext fun k => by rewrite [v179_rest]; rfl
  rewrite [v203_norm, hrow]
  rfl

end Cert.ReferenceIdeal.Rows

end
-- ==== Proof.LibScatterGather.lean ====
/-
  StableHLO's gather and scatter-add READ AT AN INDEX, for the two layouts an embedding-style program prints:
  a table of rows [N × C] (or a vector [N]) addressed by an [n × 1] column of positions.

  * the row gather: result row e is the table's row at the position read signed and clamped into the table;
  * the scatter's landing index decoded: update row e lands in table row p exactly when its position, read signed,
    is p (an update whose position is outside the table lands nowhere), the column kept;
  * the scatter-add at the exact instance: the operand's element plus the sum of the update rows whose position
    is that element's row.
-/
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Idealize.ShloMosaic.ScatterGather

open Idealize.ShloMosaic Idealize.ShloMosaic.ValueIdx

/-- Axes 0 and 1 of a shape differ (stated through the underlying naturals, so it holds at any rank written
    with variables in it). -/
theorem fin_zero_ne_one {r : Nat} (h0 : 0 < r) (h1 : 1 < r) : (⟨0, h0⟩ : Fin r) ≠ ⟨1, h1⟩ :=
  fun h => Nat.zero_ne_one (congrArg Fin.val h)

/-! ## The row gather -/

/-- THE ROW GATHER. `table[pos]` over a table of rows [N × C] at an [n × 1] column of positions: operand axis 0
    collapsed and start-indexed, axis 1 the one offset axis (a whole row is the slice), no batching axes, the index
    vector on axis 1 of the positions. Result element (e, f) is the table at row `pos e` — read SIGNED and CLAMPED
    into [0, N − 1] — and column f. -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (f : Fin C) (hN : 0 < N) :
    Host.gather d x idx (ix2 e f) = x (ix2 ⟨min (idx (ix2 e 0)).toInt.toNat (N - 1), by omega⟩ f) := by
  unfold Host.gather
  congr 1
  funext a
  apply Fin.ext
  have hb : ∀ a, a ∉ d.operandBatchingDims := by intro a; rw [hob]; exact List.not_mem_nil
  -- the result's one batch axis is axis 0, its one offset axis is axis 1
  have hbd : ∀ y ∈ d.batchDims, y = 0 := by
    show ∀ y ∈ Shape.kept _ d.offsetDims, y = 0
    rw [hoff]; intro y hy; exact List.mem_singleton.1 hy
  have hod : ∀ y ∈ d.offsetDims, y = 1 := by rw [hoff]; intro y hy; exact List.mem_singleton.1 hy
  -- the operand's one kept axis is axis 1
  have hsk : d.sKept = [1] := by
    show Shape.kept _ (d.collapsedSliceDims ++ d.operandBatchingDims) = _; rw [hcoll, hob]; rfl
  match a with
  | ⟨0, _⟩ =>
    -- axis 0: the clamped start, nothing added
    have hk : (0 : Fin 2) ∉ d.sKept := by
      rw [hsk, List.mem_singleton]; exact fin_zero_ne_one _ _
    have hm : (0 : Fin 2) ∈ d.startIndexMap := by rw [hsim]; exact List.mem_singleton.mpr rfl
    have hsl : d.sliceSizes 0 = 1 := d.slice_collapsed 0 (by rw [hcoll]; exact List.mem_singleton.mpr rfl)
    have hlen : d.startIndexMap.length = 1 := by rw [hsim]; rfl
    -- the start index of result row e is read at (e, 0)
    have hsi : ∀ c : Fin d.startIndexMap.length, d.siIdx (ix2 e f) c = ix2 e 0 := by
      intro c
      funext b
      match b with
      | ⟨0, _⟩ =>
        unfold GatherDims.siIdx
        rw [dif_neg (by rw [hivd]; exact Nat.zero_ne_one)]
        unfold GatherDims.siCoord
        apply Fin.ext
        simp only [Fin.val_cast]
        rw [hbd _ (List.getElem_mem _)]
        rfl
      | ⟨1, _⟩ =>
        unfold GatherDims.siIdx
        rw [dif_pos (by rw [hivd])]
        apply Fin.ext
        show c.val = 0
        have := c.isLt; omega
    show d.start (ix2 e f) idx 0 + d.batchCoord (ix2 e f) 0 + d.offCoord (ix2 e f) 0
      = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, hsi, hsl]
    rfl
  | ⟨1, _⟩ =>
    -- axis 1: no start, the offset coordinate is the result's column
    have hk : (1 : Fin 2) ∈ d.sKept := by rw [hsk]; exact List.mem_singleton.mpr rfl
    have hm : (1 : Fin 2) ∉ d.startIndexMap := by
      rw [hsim, List.mem_singleton]; exact (fin_zero_ne_one _ _).symm
    show d.start (ix2 e f) idx 1 + d.batchCoord (ix2 e f) 1 + d.offCoord (ix2 e f) 1 = f.val
    rw [GatherDims.batchCoord_eq_zero _ _ _ (hb 1), Nat.add_zero]
    unfold GatherDims.start
    rw [dif_neg hm, Nat.zero_add]
    unfold GatherDims.offCoord
    rw [dif_pos hk, hod _ (List.getElem_mem _)]
    rfl

/-! ## Where an update lands -/

/-- THE ROW SCATTER'S LANDING INDEX. Updates [n × C] scattered into a table of rows [N × C] at an [n × 1] column of
    positions: the updates' axis 1 is the window axis and goes to operand axis 1, operand axis 0 is inserted and is the
    one the positions address, the index vector on axis 1 of the positions. Update element (e, f) lands at table
    element (p, q) exactly when row e's position, read SIGNED (not clamped), is p, and the column is kept; a position
    outside the table lands nowhere. -/
theorem scatter_rows_resultIdx {N C n w : Nat} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (f : Fin C) (p : Fin N) (q : Fin C) :
    d.resultIdx? (ix2 e f) idx = some (ix2 p q) ↔ (idx (ix2 e 0)).toInt = (p.val : ℤ) ∧ f = q := by
  have hus : ∀ y ∈ d.uScatter, y = 0 := by
    show ∀ y ∈ Shape.kept _ d.updateWindowDims, y = 0
    rw [huw]; intro y hy; exact List.mem_singleton.1 hy
  have huwm : ∀ y ∈ d.updateWindowDims, y = 1 := by rw [huw]; intro y hy; exact List.mem_singleton.1 hy
  have hsk : d.sKept = [1] := by
    show Shape.kept _ d.insertedWindowDims = _; rw [hiw]; rfl
  have hlen : d.scatterDimsToOperandDims.length = 1 := by rw [hsd]; rfl
  have hsi : ∀ c : Fin d.scatterDimsToOperandDims.length, d.siIdx (ix2 e f) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      rw [hus _ (List.getElem_mem _)]
      rfl
    | ⟨1, _⟩ =>
      unfold ScatterDims.siIdx
      rw [dif_pos (by rw [hivd])]
      apply Fin.ext
      show c.val = 0
      have := c.isLt; omega
  have hs0 : d.start (ix2 e f) idx 0 = (idx (ix2 e 0)).toInt := by
    unfold ScatterDims.start
    rw [dif_pos (by rw [hsd]; exact List.mem_singleton.mpr rfl), hsi]
  have hs1 : d.start (ix2 e f) idx 1 = 0 := by
    unfold ScatterDims.start
    rw [dif_neg (by rw [hsd, List.mem_singleton]; exact (fin_zero_ne_one _ _).symm)]
  have hw0 : d.window (ix2 e f) 0 = 0 := by
    unfold ScatterDims.window
    rw [dif_neg (by rw [hsk, List.mem_singleton]; exact fin_zero_ne_one _ _)]
  have hw1 : d.window (ix2 e f) 1 = f.val := by
    unfold ScatterDims.window
    rw [dif_pos (by rw [hsk]; exact List.mem_singleton.mpr rfl), huwm _ (List.getElem_mem _)]
    rfl
  unfold ScatterDims.resultIdx?
  split
  · rename_i h
    rw [Option.some.injEq]
    constructor
    · intro hg
      have h0 := congrArg Fin.val (congrFun hg 0)
      have h1 := congrArg Fin.val (congrFun hg 1)
      have g0 := (h 0).1
      simp only [hs0, hs1, hw0, hw1] at h0 h1 g0
      change (_ : ℤ).toNat = p.val at h0
      change (_ : ℤ).toNat = q.val at h1
      refine ⟨by omega, Fin.ext (by omega)⟩
    · rintro ⟨hi, hf⟩
      funext a
      apply Fin.ext
      match a with
      | ⟨0, _⟩ =>
        show (d.start (ix2 e f) idx 0 + (d.window (ix2 e f) 0 : ℤ)).toNat = p.val
        rw [hs0, hw0, hi]; simp
      | ⟨1, _⟩ =>
        show (d.start (ix2 e f) idx 1 + (d.window (ix2 e f) 1 : ℤ)).toNat = q.val
        rw [hs1, hw1, hf]; simp
  · rename_i h
    constructor
    · intro hg; exact absurd hg (by simp)
    · rintro ⟨hi, hf⟩
      exfalso; apply h
      intro a
      match a with
      | ⟨0, _⟩ =>
        show 0 ≤ d.start (ix2 e f) idx 0 + (d.window (ix2 e f) 0 : ℤ) ∧ d.start (ix2 e f) idx 0 + (d.window (ix2 e f) 0 : ℤ) < (N : ℤ)
        rw [hs0, hw0, hi]
        have := p.isLt
        constructor <;> omega
      | ⟨1, _⟩ =>
        show 0 ≤ d.start (ix2 e f) idx 1 + (d.window (ix2 e f) 1 : ℤ) ∧ d.start (ix2 e f) idx 1 + (d.window (ix2 e f) 1 : ℤ) < (C : ℤ)
        rw [hs1, hw1]
        have := f.isLt
        constructor <;> omega

/-- THE VECTOR SCATTER'S LANDING INDEX. Updates [n] scattered into a vector [N] at an [n × 1] column of positions (no window
    axes, the operand's one axis inserted and addressed by the positions): update e lands at element p exactly when
    its position, read SIGNED, is p. -/
theorem scatter_vec_resultIdx {N n w : Nat} (d : ScatterDims ⟨1, ![N]⟩ ⟨2, ![n, 1]⟩ ⟨1, ![n]⟩)
    (hiw : d.insertedWindowDims = [0])
    (hsd : d.scatterDimsToOperandDims = [0]) (hivd : d.indexVectorDim = 1)
    (idx : IVec ⟨2, ![n, 1]⟩ w) (e : Fin n) (p : Fin N) :
    d.resultIdx? (ix1 e) idx = some (ix1 p) ↔ (idx (ix2 e 0)).toInt = (p.val : ℤ) := by
  have hsk : d.sKept = [] := by
    show Shape.kept _ d.insertedWindowDims = _; rw [hiw]; rfl
  have hlen : d.scatterDimsToOperandDims.length = 1 := by rw [hsd]; rfl
  have hsi : ∀ c : Fin d.scatterDimsToOperandDims.length, d.siIdx (ix1 e) c = ix2 e 0 := by
    intro c
    funext b
    match b with
    | ⟨0, _⟩ =>
      unfold ScatterDims.siIdx
      rw [dif_neg (by rw [hivd]; exact Nat.zero_ne_one)]
      unfold ScatterDims.siCoord
      apply Fin.ext
      simp only [Fin.val_cast]
      have hX : ∀ X : Fin 1, ((ix1 e : (⟨1, ![n]⟩ : Shape).Idx) X).val = e.val := fun X => by
        have hX : X = 0 := Subsingleton.elim _ _
        subst hX; rfl
      exact hX _
    | ⟨1, _⟩ =>
      unfold ScatterDims.siIdx
      rw [dif_pos (by rw [hivd])]
      apply Fin.ext
      show c.val = 0
      have := c.isLt; omega
  have hs0 : d.start (ix1 e) idx 0 = (idx (ix2 e 0)).toInt := by
    unfold ScatterDims.start
    rw [dif_pos (by rw [hsd]; exact List.mem_singleton.mpr rfl), hsi]
  have hw0 : d.window (ix1 e) 0 = 0 := by
    unfold ScatterDims.window
    rw [dif_neg (by rw [hsk]; exact List.not_mem_nil)]
  unfold ScatterDims.resultIdx?
  split
  · rename_i h
    rw [Option.some.injEq]
    constructor
    · intro hg
      have h0 := congrArg Fin.val (congrFun hg 0)
      have g0 := (h 0).1
      simp only [hs0, hw0] at h0 g0
      change (_ : ℤ).toNat = p.val at h0
      omega
    · intro hi
      funext a
      obtain rfl : a = 0 := Subsingleton.elim _ _
      apply Fin.ext
      show (d.start (ix1 e) idx 0 + (d.window (ix1 e) 0 : ℤ)).toNat = p.val
      rw [hs0, hw0, hi]; simp
  · rename_i h
    constructor
    · intro hg; exact absurd hg (by simp)
    · intro hi
      exfalso; apply h
      intro a
      obtain rfl : a = 0 := Subsingleton.elim _ _
      show 0 ≤ d.start (ix1 e) idx 0 + (d.window (ix1 e) 0 : ℤ) ∧ d.start (ix1 e) idx 0 + (d.window (ix1 e) 0 : ℤ) < (N : ℤ)
      rw [hs0, hw0, hi]
      have := p.isLt
      constructor <;> omega

/-! ## The scatter-add at the exact instance -/

/-- THE SCATTER-ADD READ AT AN INDEX, at the exact instance: the operand's element plus the sum of the update
    elements that land on it. -/
theorem scatterAdd_apply {s si u : Shape} {w : Nat} {φ : FTy} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- THE ROW SCATTER-ADD: table element (p, q) is the operand's plus the sum, over the update ROWS whose position read
    signed is p, of the update's element in column q. (The update elements landing at (p, q) are those with column q in
    such a row: the sum over them is re-indexed by the row.) -/
theorem scatterAdd_rows {N C n w : Nat} {φ : FTy} (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (p : Fin N) (q : Fin C) :
    Host.scatterAdd (F := Ideal) d x idx upd (ix2 p q)
      = x (ix2 p q) + ∑ e ∈ Finset.univ.filter (fun e : Fin n => (idx (ix2 e 0)).toInt = (p.val : ℤ)), upd (ix2 e q) := by
  rw [scatterAdd_apply]
  congr 1
  have key : ∀ (a : Fin n) (b : Fin C),
      d.resultIdx? (ix2 a b) idx = some (ix2 p q) ↔ (idx (ix2 a 0)).toInt = (p.val : ℤ) ∧ b = q :=
    fun a b => scatter_rows_resultIdx d huw hiw hsd hivd idx a b p q
  refine Finset.sum_bij' (fun j _ => (j 0 : Fin n)) (fun e _ => ix2 e q) ?_ ?_ ?_ ?_ ?_
  · intro j hj
    obtain ⟨a, b, rfl⟩ : ∃ (a : Fin n) (b : Fin C), j = ix2 a b := ⟨j 0, j 1, eq_ix2 j⟩
    exact Finset.mem_filter.2 ⟨Finset.mem_univ _, ((key a b).1 (Finset.mem_filter.1 hj).2).1⟩
  · intro e he
    exact Finset.mem_filter.2 ⟨Finset.mem_univ _, (key e q).2 ⟨(Finset.mem_filter.1 he).2, rfl⟩⟩
  · intro j hj
    obtain ⟨a, b, rfl⟩ : ∃ (a : Fin n) (b : Fin C), j = ix2 a b := ⟨j 0, j 1, eq_ix2 j⟩
    have hq : b = q := ((key a b).1 (Finset.mem_filter.1 hj).2).2
    show ix2 a q = ix2 a b
    rw [hq]
  · intro e he; rfl
  · intro j hj
    obtain ⟨a, b, rfl⟩ : ∃ (a : Fin n) (b : Fin C), j = ix2 a b := ⟨j 0, j 1, eq_ix2 j⟩
    have hq : b = q := ((key a b).1 (Finset.mem_filter.1 hj).2).2
    show upd (ix2 a b) = upd (ix2 a q)
    rw [hq]

/-- THE VECTOR SCATTER-ADD: element p is the operand's plus the sum of the updates whose position read signed is p. -/
theorem scatterAdd_vec {N n w : Nat} {φ : FTy} (d : ScatterDims ⟨1, ![N]⟩ ⟨2, ![n, 1]⟩ ⟨1, ![n]⟩)
    (hiw : d.insertedWindowDims = [0])
    (hsd : d.scatterDimsToOperandDims = [0]) (hivd : d.indexVectorDim = 1)
    (x : FVec Ideal ⟨1, ![N]⟩ φ) (idx : IVec ⟨2, ![n, 1]⟩ w) (upd : FVec Ideal ⟨1, ![n]⟩ φ) (p : Fin N) :
    Host.scatterAdd (F := Ideal) d x idx upd (ix1 p)
      = x (ix1 p) + ∑ e ∈ Finset.univ.filter (fun e : Fin n => (idx (ix2 e 0)).toInt = (p.val : ℤ)), upd (ix1 e) := by
  rw [scatterAdd_apply]
  congr 1
  have key : ∀ a : Fin n, d.resultIdx? (ix1 a) idx = some (ix1 p) ↔ (idx (ix2 a 0)).toInt = (p.val : ℤ) :=
    fun a => scatter_vec_resultIdx d hiw hsd hivd idx a p
  refine Finset.sum_bij' (fun j _ => (j 0 : Fin n)) (fun e _ => ix1 e) ?_ ?_ ?_ ?_ ?_
  · intro j hj
    obtain ⟨a, rfl⟩ : ∃ a : Fin n, j = ix1 a := ⟨j 0, eq_ix1 j⟩
    exact Finset.mem_filter.2 ⟨Finset.mem_univ _, (key a).1 (Finset.mem_filter.1 hj).2⟩
  · intro e he
    exact Finset.mem_filter.2 ⟨Finset.mem_univ _, (key e).2 (Finset.mem_filter.1 he).2⟩
  · intro j hj
    obtain ⟨a, rfl⟩ : ∃ a : Fin n, j = ix1 a := ⟨j 0, eq_ix1 j⟩
    rfl
  · intro e he; rfl
  · intro j hj
    obtain ⟨a, rfl⟩ : ∃ a : Fin n, j = ix1 a := ⟨j 0, eq_ix1 j⟩
    rfl

end Idealize.ShloMosaic.ScatterGather
-- ==== Proof.RefFirst.lean ====
/-
  The first layers of the reference's three perceptrons, read at one row and one column.

  Each first layer joins the pieces of a row side by side, contracts the joined row against a matrix and adds a
  bias row. Read at row `e` and column `k` this is a sum over the joined row's columns plus the bias; the joined
  row's column `c` is a column of the piece whose span holds `c`, so the sum over all columns is the sum of the
  sums over the pieces, each piece meeting its own block of the matrix's rows.

  * An edge row has four pieces: the source node's 64 features, the target node's 64, the edge's own 64, and the 16
    features of the graph the source node belongs to. Two perceptrons (the edge's and the gate's) contract this
    same joined row, each against its own matrix and bias.
  * A node row has three pieces: the node's own 64 features, the 64 features aggregated from its incoming edges,
    and the 16 features of its graph.

  The graph features are a table row picked by a position. The position is wrapped first (a negative one has the
  table's height 64 added) and then clamped into the table; a position that already is a graph's number
  `g₀ < 64` passes through both unchanged, so the piece is row `g₀` of the table.

  The reference adds the bias after the contraction, the row maps of `RowSpec` before it: addition of extended
  reals is commutative and associative.
-/
import proofs.«404949_j85100482003175_1_alg».proof.Proof.RefGen
import proofs.«404949_j85100482003175_1_alg».proof.Proof.RowSpec
import proofs.«404949_j85100482003175_1_alg».proof.Proof.LibScatterGather
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

open Cert.ReferenceIdeal Cert.ReferenceIdeal.Gen Cert.ReferenceIdeal.Read Cert.RowSpec Idealize.ShloMosaic Idealize.ShloMosaic.ValueIdx

namespace Cert.ReferenceIdeal.Rows

/-! ## A position already inside the table -/

/-- A word that encodes a number below 64 is not negative read signed, so the wrap
    `select (pos < 0) (pos + 64) pos` keeps it. -/
theorem wrap_small (g : Nat) (hg : g < 64) :
    Scalar.select (IntOp.cmpi .slt (BitVec.ofNat 32 g) 0#32) (IntOp.addi (BitVec.ofNat 32 g) 64#32)
      (BitVec.ofNat 32 g) = BitVec.ofNat 32 g := by
  have h : ¬ IntOp.cmpi .slt (BitVec.ofNat 32 g) 0#32 = 1#1 := by
    intro h
    have := (StableHlo.Predicate.slt_ofNat_iff g 0 (by omega) (by omega)).1 h
    omega
  exact if_neg h

/-- Read signed and clamped into [0, 63], such a word is the number it encodes. -/
theorem clamp_small (g : Nat) (hg : g < 64) : min (BitVec.ofNat 32 g).toInt.toNat (64 - 1) = g := by
  rw [StableHlo.Predicate.toInt_ofNat_small g (by omega), Int.toNat_natCast]
  omega

/-! ## The edge rows' graph features: `u[batch[src]]` -/

theorem idx30_at (e : Fin 400000) : idx_main_v30 (ix2 e (0 : Fin 1)) = ix1 e :=
  funext fun a => Fin.ext (by match a with | ⟨0, _⟩ => rfl)

/-- The wrapped position of edge `e` is the graph's number. -/
theorem v30_at (x3 : (⟨S2x400000, .i32⟩ : BufTy).Contents (Elt Ideal)) (x4 : (⟨S50000, .i32⟩ : BufTy).Contents (Elt Ideal))
    (e : Fin 400000) (g0 : Fin 64) (hg : val_main_v10 (F := Ideal) x3 x4 (ix1 e) = BitVec.ofNat 32 g0.val) :
    val_main_v30 (F := Ideal) x3 x4 (ix2 e 0) = BitVec.ofNat 32 g0.val := by
  rw [val_main_v30_apply, idx30_at, val_main_v29_apply, val_main_v26_apply, val_main_v28_apply, val_main_v25_apply,
    val_main_v27_apply, val_main_c_5_apply, val_main_c_6_apply, hg]
  exact wrap_small g0.val g0.isLt

/-- Row `e` of the gathered graph features is row `g₀` of the table. -/
theorem v31_row (x2 : (⟨S64x16, .f32⟩ : BufTy).Contents (Elt Ideal)) (x3 : (⟨S2x400000, .i32⟩ : BufTy).Contents (Elt Ideal))
    (x4 : (⟨S50000, .i32⟩ : BufTy).Contents (Elt Ideal))
    (e : Fin 400000) (f : Fin 16) (g0 : Fin 64) (hg : val_main_v10 (F := Ideal) x3 x4 (ix1 e) = BitVec.ofNat 32 g0.val) :
    val_main_v31 (F := Ideal) x2 x3 x4 (ix2 e f) = x2 (ix2 g0 f) := by
  have hp := v30_at x3 x4 e g0 hg
  have hfin : (⟨min (val_main_v30 (F := Ideal) x3 x4 (ix2 e 0)).toInt.toNat (64 - 1), by omega⟩ : Fin 64) = g0 :=
    Fin.ext (by show min _ _ = _; rw [hp]; exact clamp_small g0.val g0.isLt)
  unfold val_main_v31
  rw [ScatterGather.gather_rows gather_S64x16_S400000x1_S400000x16_1_0_n_n_0_1_116 rfl rfl rfl rfl rfl x2
    (val_main_v30 (F := Ideal) x3 x4) e f (by decide), hfin]

/-! ## The joined edge row, piece by piece -/

/-- Columns 0–63 of the joined row are the source node's features. -/
theorem v32_src (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (e : Fin 400000) (k : Fin 64) :
    val_main_v32 (F := Ideal) x0 x1 x2 x3 x4 (ix2 e (⟨k.val, by omega⟩ : Fin 208))
      = val_main_v17 (F := Ideal) x0 x3 (ix2 e k) := by
  unfold val_main_v32
  exact concatenate_apply_piece (1 : Fin S400000x208.rank) _ _ _ 0 (by show (0 : Nat) < 4; omega) S400000x64 _ rfl rfl 0 rfl (ix2 e k)
    (fun b => match b with
      | ⟨0, _⟩ => fun _ => rfl
      | ⟨1, _⟩ => fun h => absurd rfl h)
    (by show 0 + k.val = k.val; omega)

/-- Columns 64–127 are the target node's features. -/
theorem v32_tgt (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (e : Fin 400000) (k : Fin 64) :
    val_main_v32 (F := Ideal) x0 x1 x2 x3 x4 (ix2 e (⟨64 + k.val, by omega⟩ : Fin 208))
      = val_main_v24 (F := Ideal) x0 x3 (ix2 e k) := by
  unfold val_main_v32
  exact concatenate_apply_piece (1 : Fin S400000x208.rank) _ _ _ 1 (by show (1 : Nat) < 4; omega) S400000x64 _ rfl rfl 64 rfl (ix2 e k)
    (fun b => match b with
      | ⟨0, _⟩ => fun _ => rfl
      | ⟨1, _⟩ => fun h => absurd rfl h)
    (by show 64 + k.val = 64 + k.val; rfl)

/-- Columns 128–191 are the edge's own features. -/
theorem v32_attr (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (e : Fin 400000) (k : Fin 64) :
    val_main_v32 (F := Ideal) x0 x1 x2 x3 x4 (ix2 e (⟨128 + k.val, by omega⟩ : Fin 208)) = x1 (ix2 e k) := by
  unfold val_main_v32
  exact concatenate_apply_piece (1 : Fin S400000x208.rank) _ _ _ 2 (by show (2 : Nat) < 4; omega) S400000x64 _ rfl rfl 128 rfl (ix2 e k)
    (fun b => match b with
      | ⟨0, _⟩ => fun _ => rfl
      | ⟨1, _⟩ => fun h => absurd rfl h)
    (by show 128 + k.val = 128 + k.val; rfl)

/-- Columns 192–207 are the gathered graph features. -/
theorem v32_graph (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (e : Fin 400000) (k : Fin 16) :
    val_main_v32 (F := Ideal) x0 x1 x2 x3 x4 (ix2 e (⟨192 + k.val, by omega⟩ : Fin 208))
      = val_main_v31 (F := Ideal) x2 x3 x4 (ix2 e k) := by
  unfold val_main_v32
  exact concatenate_apply_piece (1 : Fin S400000x208.rank) _ _ _ 3 (by show (3 : Nat) < 4; omega) S400000x16 _ rfl rfl 192 rfl (ix2 e k)
    (fun b => match b with
      | ⟨0, _⟩ => fun _ => rfl
      | ⟨1, _⟩ => fun h => absurd rfl h)
    (by show 192 + k.val = 192 + k.val; rfl)

/-! ## The contraction against the first matrix and the bias -/

/-- The reference adds the bias last, the row map first: the same sum. -/
theorem bias_last4 {M : Type} [AddCommMonoid M] (b s0 s1 s2 s3 : M) :
    s0 + s1 + s2 + s3 + b = b + s0 + s1 + s2 + s3 := by
  rw [add_comm, ← add_assoc, ← add_assoc, ← add_assoc]

theorem lidx33_at (e : Fin 400000) (j : Fin 128) (k : Fin 208) : lidx_main_v33 (ix2 e j) k = ix2 e k :=
  funext fun a => Fin.ext (by match a with | ⟨0, _⟩ => rfl | ⟨1, _⟩ => rfl)

theorem ridx33_at (e : Fin 400000) (j : Fin 128) (k : Fin 208) : ridx_main_v33 (ix2 e j) k = ix2 k j :=
  funext fun a => Fin.ext (by match a with | ⟨0, _⟩ => rfl | ⟨1, _⟩ => rfl)

theorem idx35_at (e : Fin 400000) (j : Fin 128) : idx_main_v34 (idx_main_v35 (ix2 e j)) = ix1 j :=
  funext fun a => Fin.ext (by match a with | ⟨0, _⟩ => rfl)

/-- The bias, broadcast down the rows, read at row `e` and column `j`. -/
theorem v35_at (x6 : (⟨S128, .f32⟩ : BufTy).Contents (Elt Ideal)) (e : Fin 400000) (j : Fin 128) :
    val_main_v35 (F := Ideal) x6 (ix2 e j) = x6 (ix1 j) := by
  rw [val_main_v35_apply, val_main_v34_apply, idx35_at]

/-- The contraction at row `e` and column `j`: the sum over the joined row's 208 columns. -/
theorem v33_at (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (x5 : (⟨S208x128, .f32⟩ : BufTy).Contents (Elt Ideal))
    (e : Fin 400000) (j : Fin 128) :
    val_main_v33 (F := Ideal) x0 x1 x2 x3 x4 x5 (ix2 e j)
      = ∑ k : Fin 208, val_main_v32 (F := Ideal) x0 x1 x2 x3 x4 (ix2 e k) * x5 (ix2 k j) := by
  rw [val_main_v33_apply]
  exact Finset.sum_congr rfl fun k _ => by rw [lidx33_at, ridx33_at]

/-- The joined row contracted against a 208-row matrix, as the four contractions of its pieces; the graph features'
    piece is row `g₀` of the table. -/
theorem v32_dot (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (W : (⟨S208x128, .f32⟩ : BufTy).Contents (Elt Ideal))
    (e : Fin 400000) (j : Fin 128) (g0 : Fin 64)
    (hg : val_main_v10 (F := Ideal) x3 x4 (ix1 e) = BitVec.ofNat 32 g0.val) :
    ∑ k : Fin 208, val_main_v32 (F := Ideal) x0 x1 x2 x3 x4 (ix2 e k) * W (ix2 k j)
      = (∑ k : Fin 64, val_main_v17 (F := Ideal) x0 x3 (ix2 e k) * W (ix2 (⟨k.val, by omega⟩ : Fin 208) j))
        + (∑ k : Fin 64, val_main_v24 (F := Ideal) x0 x3 (ix2 e k) * W (ix2 (⟨64 + k.val, by omega⟩ : Fin 208) j))
        + (∑ k : Fin 64, x1 (ix2 e k) * W (ix2 (⟨128 + k.val, by omega⟩ : Fin 208) j))
        + ∑ k : Fin 16, x2 (ix2 g0 k) * W (ix2 (⟨192 + k.val, by omega⟩ : Fin 208) j) := by
  rw [sum_split4 (fun k : Fin 208 => val_main_v32 (F := Ideal) x0 x1 x2 x3 x4 (ix2 e k) * W (ix2 k j))]
  refine congrArg₂ (· + ·) (congrArg₂ (· + ·) (congrArg₂ (· + ·) ?_ ?_) ?_) ?_
  · exact Finset.sum_congr rfl fun k _ => by rw [v32_src]
  · exact Finset.sum_congr rfl fun k _ => by rw [v32_tgt]
  · exact Finset.sum_congr rfl fun k _ => by rw [v32_attr]
  · exact Finset.sum_congr rfl fun k _ => by rw [v32_graph, v31_row x2 x3 x4 e k g0 hg]

/-- THE EDGE PERCEPTRON'S FIRST LAYER at row `e`, column `k`. -/
theorem v36_row (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (x5 : (⟨S208x128, .f32⟩ : BufTy).Contents (Elt Ideal))
    (x6 : (⟨S128, .f32⟩ : BufTy).Contents (Elt Ideal))
    (e : Fin 400000) (k : Fin 128) (g0 : Fin 64)
    (hg : val_main_v10 (F := Ideal) x3 x4 (ix1 e) = BitVec.ofNat 32 g0.val) :
    val_main_v36 (F := Ideal) x0 x1 x2 x3 x4 x5 x6 (ix2 e k)
      = first4 (row (val_main_v17 (F := Ideal) x0 x3) e) (row (val_main_v24 (F := Ideal) x0 x3) e) (row x1 e) (row x2 g0)
          (mat x5) (vec x6) k := by
  rw [val_main_v36_apply, v33_at, v35_at, v32_dot x0 x1 x2 x3 x4 x5 e k g0 hg]
  exact bias_last4 _ _ _ _ _

/-! ## The gate perceptron's first layer: the same joined row against its own matrix and bias -/

theorem lidx84_at (e : Fin 400000) (j : Fin 128) (k : Fin 208) : lidx_main_v84 (ix2 e j) k = ix2 e k :=
  funext fun a => Fin.ext (by match a with | ⟨0, _⟩ => rfl | ⟨1, _⟩ => rfl)

theorem ridx84_at (e : Fin 400000) (j : Fin 128) (k : Fin 208) : ridx_main_v84 (ix2 e j) k = ix2 k j :=
  funext fun a => Fin.ext (by match a with | ⟨0, _⟩ => rfl | ⟨1, _⟩ => rfl)

theorem idx86_at (e : Fin 400000) (j : Fin 128) : idx_main_v85 (idx_main_v86 (ix2 e j)) = ix1 j :=
  funext fun a => Fin.ext (by match a with | ⟨0, _⟩ => rfl)

theorem v86_at (x14 : (⟨S128, .f32⟩ : BufTy).Contents (Elt Ideal)) (e : Fin 400000) (j : Fin 128) :
    val_main_v86 (F := Ideal) x14 (ix2 e j) = x14 (ix1 j) := by
  rw [val_main_v86_apply, val_main_v85_apply, idx86_at]

theorem v84_at (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (x13 : (⟨S208x128, .f32⟩ : BufTy).Contents (Elt Ideal))
    (e : Fin 400000) (j : Fin 128) :
    val_main_v84 (F := Ideal) x0 x1 x2 x3 x4 x13 (ix2 e j)
      = ∑ k : Fin 208, val_main_v32 (F := Ideal) x0 x1 x2 x3 x4 (ix2 e k) * x13 (ix2 k j) := by
  rw [val_main_v84_apply]
  exact Finset.sum_congr rfl fun k _ => by rw [lidx84_at, ridx84_at]

/-- THE GATE PERCEPTRON'S FIRST LAYER at row `e`, column `k`. -/
theorem v87_row (x0 : (⟨S50000x64, .f32⟩ : BufTy).Contents (Elt Ideal)) (x1 : (⟨S400000x64, .f32⟩ : BufTy).Contents (Elt Ideal))
    (x2 : (⟨S64x16, .f32⟩ : BufTy).Contents (Elt Ideal)) (x3 : (⟨S2x400000, .i32⟩ : BufTy).Contents (Elt Ideal))
    (x4 : (⟨S50000, .i32⟩ : BufTy).Contents (Elt Ideal)) (x13 : (⟨S208x128, .f32⟩ : BufTy).Contents (Elt Ideal))
    (x14 : (⟨S128, .f32⟩ : BufTy).Contents (Elt Ideal))
    (e : Fin 400000) (k : Fin 128) (g0 : Fin 64)
    (hg : val_main_v10 (F := Ideal) x3 x4 (ix1 e) = BitVec.ofNat 32 g0.val) :
    val_main_v87 (F := Ideal) x0 x1 x2 x3 x4 x13 x14 (ix2 e k)
      = first4 (row (val_main_v17 (F := Ideal) x0 x3) e) (row (val_main_v24 (F := Ideal) x0 x3) e) (row x1 e) (row x2 g0)
          (mat x13) (vec x14) k := by
  rw [val_main_v87_apply, v84_at, v86_at, v32_dot x0 x1 x2 x3 x4 x13 e k g0 hg]
  exact bias_last4 _ _ _ _ _

/-! ## The node rows' graph features: `u[batch]` -/

theorem idx150_at (r : Fin 50000) : idx_main_v150 (ix2 r (0 : Fin 1)) = ix1 r :=
  funext fun a => Fin.ext (by match a with | ⟨0, _⟩ => rfl)

/-- The wrapped position of node `r` is its graph's number. -/
theorem v150_at (x4 : (⟨S50000, .i32⟩ : BufTy).Contents (Elt Ideal)) (r : Fin 50000) (g0 : Fin 64)
    (hg : x4 (ix1 r) = BitVec.ofNat 32 g0.val) :
    val_main_v150 (F := Ideal) x4 (ix2 r 0) = BitVec.ofNat 32 g0.val := by
  rw [val_main_v150_apply, idx150_at, val_main_v149_apply, val_main_v146_apply, val_main_v148_apply, val_main_v145_apply,
    val_main_v147_apply, val_main_c_19_apply, val_main_c_20_apply, hg]
  exact wrap_small g0.val g0.isLt

/-- Row `r` of the gathered graph features is row `g₀` of the table. -/
theorem v151_row (x2 : (⟨S64x16, .f32⟩ : BufTy).Contents (Elt Ideal)) (x4 : (⟨S50000, .i32⟩ : BufTy).Contents (Elt Ideal))
    (r : Fin 50000) (f : Fin 16) (g0 : Fin 64) (hg : x4 (ix1 r) = BitVec.ofNat 32 g0.val) :
    val_main_v151 (F := Ideal) x2 x4 (ix2 r f) = x2 (ix2 g0 f) := by
  have hp := v150_at x4 r g0 hg
  have hfin : (⟨min (val_main_v150 (F := Ideal) x4 (ix2 r 0)).toInt.toNat (64 - 1), by omega⟩ : Fin 64) = g0 :=
    Fin.ext (by show min _ _ = _; rw [hp]; exact clamp_small g0.val g0.isLt)
  unfold val_main_v151
  rw [ScatterGather.gather_rows gather_S64x16_S50000x1_S50000x16_1_0_n_n_0_1_116 rfl rfl rfl rfl rfl x2
    (val_main_v150 (F := Ideal) x4) r f (by decide), hfin]

/-! ## The joined node row, piece by piece -/

section Node
variable (x0 : (⟨S50000x64, .f32⟩ : BufTy).Contents (Elt Ideal)) (x1 : (⟨S400000x64, .f32⟩ : BufTy).Contents (Elt Ideal)) (x2 : (⟨S64x16, .f32⟩ : BufTy).Contents (Elt Ideal)) (x3 : (⟨S2x400000, .i32⟩ : BufTy).Contents (Elt Ideal)) (x4 : (⟨S50000, .i32⟩ : BufTy).Contents (Elt Ideal)) (x5 : (⟨S208x128, .f32⟩ : BufTy).Contents (Elt Ideal)) (x6 : (⟨S128, .f32⟩ : BufTy).Contents (Elt Ideal)) (x7 : (⟨S2x128x128, .f32⟩ : BufTy).Contents (Elt Ideal)) (x8 : (⟨S2x128, .f32⟩ : BufTy).Contents (Elt Ideal)) (x9 : (⟨S128x64, .f32⟩ : BufTy).Contents (Elt Ideal)) (x10 x11 x12 : (⟨S64, .f32⟩ : BufTy).Contents (Elt Ideal)) (x13 : (⟨S208x128, .f32⟩ : BufTy).Contents (Elt Ideal)) (x14 : (⟨S128, .f32⟩ : BufTy).Contents (Elt Ideal)) (x15 : (⟨S2x128x128, .f32⟩ : BufTy).Contents (Elt Ideal)) (x16 : (⟨S2x128, .f32⟩ : BufTy).Contents (Elt Ideal)) (x17 : (⟨S128x64, .f32⟩ : BufTy).Contents (Elt Ideal)) (x18 x19 x20 : (⟨S64, .f32⟩ : BufTy).Contents (Elt Ideal)) (x21 : (⟨S144x128, .f32⟩ : BufTy).Contents (Elt Ideal)) (x22 : (⟨S128, .f32⟩ : BufTy).Contents (Elt Ideal))

/-- Columns 0–63 of the joined row are the node's own features. -/
theorem v152_self (r : Fin 50000) (k : Fin 64) :
    val_main_v152 (F := Ideal) x0 x1 x2 x3 x4 x5 x6 x7 x8 x9 x10 x11 x12 x13 x14 x15 x16 x17 x18 x19 x20 (ix2 r (⟨k.val, by omega⟩ : Fin 144)) = x0 (ix2 r k) := by
  unfold val_main_v152
  exact concatenate_apply_piece (1 : Fin S50000x144.rank) _ _ _ 0 (by show (0 : Nat) < 3; omega) S50000x64 _ rfl rfl 0 rfl
    (ix2 r k)
    (fun b => match b with
      | ⟨0, _⟩ => fun _ => rfl
      | ⟨1, _⟩ => fun h => absurd rfl h)
    (by show 0 + k.val = k.val; omega)

/-- Columns 64–127 are the features aggregated from the node's incoming edges. -/
theorem v152_agg (r : Fin 50000) (k : Fin 64) :
    val_main_v152 (F := Ideal) x0 x1 x2 x3 x4 x5 x6 x7 x8 x9 x10 x11 x12 x13 x14 x15 x16 x17 x18 x19 x20 (ix2 r (⟨64 + k.val, by omega⟩ : Fin 144))
      = val_main_v144 (F := Ideal) x0 x1 x2 x3 x4 x5 x6 x7 x8 x9 x10 x11 x12 x13 x14 x15 x16 x17 x18 x19 x20 (ix2 r k) := by
  unfold val_main_v152
  exact concatenate_apply_piece (1 : Fin S50000x144.rank) _ _ _ 1 (by show (1 : Nat) < 3; omega) S50000x64 _ rfl rfl 64 rfl
    (ix2 r k)
    (fun b => match b with
      | ⟨0, _⟩ => fun _ => rfl
      | ⟨1, _⟩ => fun h => absurd rfl h)
    (by show 64 + k.val = 64 + k.val; rfl)

/-- Columns 128–143 are the gathered graph features. -/
theorem v152_graph (r : Fin 50000) (k : Fin 16) :
    val_main_v152 (F := Ideal) x0 x1 x2 x3 x4 x5 x6 x7 x8 x9 x10 x11 x12 x13 x14 x15 x16 x17 x18 x19 x20 (ix2 r (⟨128 + k.val, by omega⟩ : Fin 144))
      = val_main_v151 (F := Ideal) x2 x4 (ix2 r k) := by
  unfold val_main_v152
  exact concatenate_apply_piece (1 : Fin S50000x144.rank) _ _ _ 2 (by show (2 : Nat) < 3; omega) S50000x16 _ rfl rfl 128 rfl
    (ix2 r k)
    (fun b => match b with
      | ⟨0, _⟩ => fun _ => rfl
      | ⟨1, _⟩ => fun h => absurd rfl h)
    (by show 128 + k.val = 128 + k.val; rfl)

/-! ## The contraction against the node perceptron's first matrix and the bias -/

theorem lidx153_at (r : Fin 50000) (j : Fin 128) (k : Fin 144) : lidx_main_v153 (ix2 r j) k = ix2 r k :=
  funext fun a => Fin.ext (by match a with | ⟨0, _⟩ => rfl | ⟨1, _⟩ => rfl)

theorem ridx153_at (r : Fin 50000) (j : Fin 128) (k : Fin 144) : ridx_main_v153 (ix2 r j) k = ix2 k j :=
  funext fun a => Fin.ext (by match a with | ⟨0, _⟩ => rfl | ⟨1, _⟩ => rfl)

theorem idx155_at (r : Fin 50000) (j : Fin 128) : idx_main_v154 (idx_main_v155 (ix2 r j)) = ix1 j :=
  funext fun a => Fin.ext (by match a with | ⟨0, _⟩ => rfl)

theorem v155_at (r : Fin 50000) (j : Fin 128) : val_main_v155 (F := Ideal) x22 (ix2 r j) = x22 (ix1 j) := by
  rw [val_main_v155_apply, val_main_v154_apply, idx155_at]

/-- The contraction at row `r` and column `j`: the sum over the joined row's 144 columns. -/
theorem v153_at (r : Fin 50000) (j : Fin 128) :
    val_main_v153 (F := Ideal) x0 x1 x2 x3 x4 x5 x6 x7 x8 x9 x10 x11 x12 x13 x14 x15 x16 x17 x18 x19 x20 x21 (ix2 r j)
      = ∑ k : Fin 144, val_main_v152 (F := Ideal) x0 x1 x2 x3 x4 x5 x6 x7 x8 x9 x10 x11 x12 x13 x14 x15 x16 x17 x18 x19 x20 (ix2 r k) * x21 (ix2 k j) := by
  rw [val_main_v153_apply]
  exact Finset.sum_congr rfl fun k _ => by rw [lidx153_at, ridx153_at]

/-- The joined node row contracted against the 144-row matrix, as the three contractions of its pieces; the graph
    features' piece is row `g₀` of the table. -/
theorem v152_dot (r : Fin 50000) (j : Fin 128) (g0 : Fin 64) (hg : x4 (ix1 r) = BitVec.ofNat 32 g0.val) :
    ∑ k : Fin 144, val_main_v152 (F := Ideal) x0 x1 x2 x3 x4 x5 x6 x7 x8 x9 x10 x11 x12 x13 x14 x15 x16 x17 x18 x19 x20 (ix2 r k) * x21 (ix2 k j)
      = (∑ k : Fin 64, x0 (ix2 r k) * x21 (ix2 (⟨k.val, by omega⟩ : Fin 144) j))
        + (∑ k : Fin 64, val_main_v144 (F := Ideal) x0 x1 x2 x3 x4 x5 x6 x7 x8 x9 x10 x11 x12 x13 x14 x15 x16 x17 x18 x19 x20 (ix2 r k) * x21 (ix2 (⟨64 + k.val, by omega⟩ : Fin 144) j))
        + ∑ k : Fin 16, x2 (ix2 g0 k) * x21 (ix2 (⟨128 + k.val, by omega⟩ : Fin 144) j) := by
  rw [sum_split3 (fun k : Fin 144 => val_main_v152 (F := Ideal) x0 x1 x2 x3 x4 x5 x6 x7 x8 x9 x10 x11 x12 x13 x14 x15 x16 x17 x18 x19 x20 (ix2 r k) * x21 (ix2 k j))]
  refine congrArg₂ (· + ·) (congrArg₂ (· + ·) ?_ ?_) ?_
  · exact Finset.sum_congr rfl fun k _ => by rw [v152_self]
  · exact Finset.sum_congr rfl fun k _ => by rw [v152_agg]
  · exact Finset.sum_congr rfl fun k _ => by rw [v152_graph, v151_row x2 x4 r k g0 hg]

/-- The reference adds the bias last, the row map first: the same sum. -/
theorem bias_last3 {M : Type} [AddCommMonoid M] (b s0 s1 s2 : M) : s0 + s1 + s2 + b = b + s0 + s1 + s2 := by
  rw [add_comm, ← add_assoc, ← add_assoc]

/-- THE NODE PERCEPTRON'S FIRST LAYER at row `r`, column `k`. -/
theorem v156_row (r : Fin 50000) (k : Fin 128) (g0 : Fin 64) (hg : x4 (ix1 r) = BitVec.ofNat 32 g0.val) :
    val_main_v156 (F := Ideal) x0 x1 x2 x3 x4 x5 x6 x7 x8 x9 x10 x11 x12 x13 x14 x15 x16 x17 x18 x19 x20 x21 x22 (ix2 r k)
      = first3 (row x0 r) (row (val_main_v144 (F := Ideal) x0 x1 x2 x3 x4 x5 x6 x7 x8 x9 x10 x11 x12 x13 x14 x15 x16 x17 x18 x19 x20) r) (row x2 g0) (mat x21) (vec x22) k := by
  rw [val_main_v156_apply, v153_at, v155_at,
    v152_dot x0 x1 x2 x3 x4 x5 x6 x7 x8 x9 x10 x11 x12 x13 x14 x15 x16 x17 x18 x19 x20 x21 r k g0 hg]
  exact bias_last3 _ _ _ _

end Node

end Cert.ReferenceIdeal.Rows

end
-- ==== Proof.RefWhole.lean ====
/-
  The reference program's two whole rows, on the extended reals.

  An edge's output row is the edge perceptron of the edge's joined row (the features of its source node, of its target
  node, of the edge itself and of its graph), times the logistic function of the gate perceptron of the same joined
  row. A node's output row is the node perceptron of the node's joined row (its own features, the features aggregated
  over its incoming edges, and its graph's). Each perceptron is a first layer, which is an affine map of the joined row
  taken piece by piece, followed by the hidden layers, the output layer and the normalisation of the row. The first
  layer's row enters the later layers as a function of its column, so the two are joined by extensionality in that
  column; nothing else is needed.
-/
import proofs.«404949_j85100482003175_1_alg».proof.Proof.RefRowsE
import proofs.«404949_j85100482003175_1_alg».proof.Proof.RefRowsA
import proofs.«404949_j85100482003175_1_alg».proof.Proof.RefRowsN
import proofs.«404949_j85100482003175_1_alg».proof.Proof.RefFirst
import proofs.«404949_j85100482003175_1_alg».proof.Proof.RowSpec
import Idealize.ShloMosaic.Lib.ValueIdx

noncomputable section

open scoped BigOperators
open Cert.ReferenceIdeal Cert.ReferenceIdeal.Gen Cert.ReferenceIdeal.Read Cert.RowSpec Idealize.ShloMosaic Idealize.ShloMosaic.ValueIdx

namespace Cert.ReferenceIdeal.Rows

variable (x0 : (⟨S50000x64, .f32⟩ : BufTy).Contents (Elt Ideal)) (x1 : (⟨S400000x64, .f32⟩ : BufTy).Contents (Elt Ideal))
  (x2 : (⟨S64x16, .f32⟩ : BufTy).Contents (Elt Ideal)) (x3 : (⟨S2x400000, .i32⟩ : BufTy).Contents (Elt Ideal))
  (x4 : (⟨S50000, .i32⟩ : BufTy).Contents (Elt Ideal))
  (x5 : (⟨S208x128, .f32⟩ : BufTy).Contents (Elt Ideal)) (x6 : (⟨S128, .f32⟩ : BufTy).Contents (Elt Ideal))
  (x7 : (⟨S2x128x128, .f32⟩ : BufTy).Contents (Elt Ideal)) (x8 : (⟨S2x128, .f32⟩ : BufTy).Contents (Elt Ideal))
  (x9 : (⟨S128x64, .f32⟩ : BufTy).Contents (Elt Ideal)) (x10 x11 x12 : (⟨S64, .f32⟩ : BufTy).Contents (Elt Ideal))
  (x13 : (⟨S208x128, .f32⟩ : BufTy).Contents (Elt Ideal)) (x14 : (⟨S128, .f32⟩ : BufTy).Contents (Elt Ideal))
  (x15 : (⟨S2x128x128, .f32⟩ : BufTy).Contents (Elt Ideal)) (x16 : (⟨S2x128, .f32⟩ : BufTy).Contents (Elt Ideal))
  (x17 : (⟨S128x64, .f32⟩ : BufTy).Contents (Elt Ideal)) (x18 x19 x20 : (⟨S64, .f32⟩ : BufTy).Contents (Elt Ideal))
  (x21 : (⟨S144x128, .f32⟩ : BufTy).Contents (Elt Ideal)) (x22 : (⟨S128, .f32⟩ : BufTy).Contents (Elt Ideal))
  (x23 : (⟨S2x128x128, .f32⟩ : BufTy).Contents (Elt Ideal)) (x24 : (⟨S2x128, .f32⟩ : BufTy).Contents (Elt Ideal))
  (x25 : (⟨S128x64, .f32⟩ : BufTy).Contents (Elt Ideal)) (x26 x27 x28 : (⟨S64, .f32⟩ : BufTy).Contents (Elt Ideal))

/-- The edge perceptron's first layer at row e, as a row: the affine map of the four pieces of the joined row. -/
theorem whole_first_edge (e : Fin 400000) (g0 : Fin 64)
    (hg : val_main_v10 (F := Ideal) x3 x4 (ix1 e) = BitVec.ofNat 32 g0.val) :
    (fun k => val_main_v36 (F := Ideal) x0 x1 x2 x3 x4 x5 x6 (ix2 e k))
      = first4 (row (val_main_v17 (F := Ideal) x0 x3) e) (row (val_main_v24 (F := Ideal) x0 x3) e) (row x1 e) (row x2 g0)
          (mat x5) (vec x6) :=
  funext fun k => v36_row x0 x1 x2 x3 x4 x5 x6 e k g0 hg

/-- The gate perceptron's first layer at row e, as a row: the same four pieces against its own matrix and bias. -/
theorem whole_first_gate (e : Fin 400000) (g0 : Fin 64)
    (hg : val_main_v10 (F := Ideal) x3 x4 (ix1 e) = BitVec.ofNat 32 g0.val) :
    (fun k => val_main_v87 (F := Ideal) x0 x1 x2 x3 x4 x13 x14 (ix2 e k))
      = first4 (row (val_main_v17 (F := Ideal) x0 x3) e) (row (val_main_v24 (F := Ideal) x0 x3) e) (row x1 e) (row x2 g0)
          (mat x13) (vec x14) :=
  funext fun k => v87_row x0 x1 x2 x3 x4 x13 x14 e k g0 hg

/-- The node perceptron's first layer at row r, as a row: the affine map of the three pieces of the joined row. -/
theorem whole_first_node (r : Fin 50000) (g0 : Fin 64) (hg : x4 (ix1 r) = BitVec.ofNat 32 g0.val) :
    (fun k => val_main_v156 (F := Ideal) x0 x1 x2 x3 x4 x5 x6 x7 x8 x9 x10 x11 x12 x13 x14 x15 x16 x17 x18 x19 x20 x21 x22
        (ix2 r k))
      = first3 (row x0 r)
          (row (val_main_v144 (F := Ideal) x0 x1 x2 x3 x4 x5 x6 x7 x8 x9 x10 x11 x12 x13 x14 x15 x16 x17 x18 x19 x20) r)
          (row x2 g0) (mat x21) (vec x22) :=
  funext fun k =>
    v156_row x0 x1 x2 x3 x4 x5 x6 x7 x8 x9 x10 x11 x12 x13 x14 x15 x16 x17 x18 x19 x20 x21 x22 r k g0 hg

/-- An edge's output row: the edge perceptron of the joined row times the logistic function of the gate perceptron of
    the joined row, where g0 is the graph of the edge's source node. -/
theorem ref_edge (e : Fin 400000) (j : Fin 64) (g0 : Fin 64)
    (hg : val_main_v10 (F := Ideal) x3 x4 (ix1 e) = BitVec.ofNat 32 g0.val) :
    val_main_v141 (F := Ideal) x0 x1 x2 x3 x4 x5 x6 x7 x8 x9 x10 x11 x12 x13 x14 x15 x16 x17 x18 x19 x20 (ix2 e j)
      = edgeRow (row (val_main_v17 (F := Ideal) x0 x3) e) (row (val_main_v24 (F := Ideal) x0 x3) e) (row x1 e) (row x2 g0)
          (mat x5) (vec x6) (mats x7) (row x8) (mat x9) (vec x10) (vec x11) (vec x12)
          (mat x13) (vec x14) (mats x15) (row x16) (mat x17) (vec x18) (vec x19) (vec x20) j := by
  rw [v141_elt, v83_row, v134_row, whole_first_edge x0 x1 x2 x3 x4 x5 x6 e g0 hg,
    whole_first_gate x0 x1 x2 x3 x4 x13 x14 e g0 hg]
  rfl

/-- A node's output row: the node perceptron of the joined row, where g0 is the node's graph. -/
theorem ref_node (r : Fin 50000) (j : Fin 64) (g0 : Fin 64) (hg : x4 (ix1 r) = BitVec.ofNat 32 g0.val) :
    val_main_v203 (F := Ideal) x0 x1 x2 x3 x4 x5 x6 x7 x8 x9 x10 x11 x12 x13 x14 x15 x16 x17 x18 x19 x20 x21 x22 x23 x24
        x25 x26 x27 x28 (ix2 r j)
      = nodeRow (row x0 r)
          (row (val_main_v144 (F := Ideal) x0 x1 x2 x3 x4 x5 x6 x7 x8 x9 x10 x11 x12 x13 x14 x15 x16 x17 x18 x19 x20) r)
          (row x2 g0) (mat x21) (vec x22) (mats x23) (row x24) (mat x25) (vec x26) (vec x27) (vec x28) j := by
  rw [v203_row,
    whole_first_node x0 x1 x2 x3 x4 x5 x6 x7 x8 x9 x10 x11 x12 x13 x14 x15 x16 x17 x18 x19 x20 x21 x22 r g0 hg]
  rfl

end Cert.ReferenceIdeal.Rows

end
-- ==== Proof.BridgeEdge.lean ====
/-
  The edge array of the kernel program is the reference's.

  After its edge stage the kernel program holds, in the stage's output array, at row e and column j, the edge row of
  four pieces — the feature rows of the edge's source and target nodes, the edge's own feature row, and the feature
  row of the graph of the edge's source node — and of the two perceptrons' parameters. The reference's edge array is
  the same edge row of the same pieces. The pieces agree because both programs gather them with the same operations
  from the same launch arrays, and the parameters are the launch arrays themselves. The graph's row is named by a
  number below 64: every edge's graph number is some node's, and every node's is below 64 by hypothesis.
-/
import proofs.«404949_j85100482003175_1_alg».proof.Proof.KArr0
import proofs.«404949_j85100482003175_1_alg».proof.Proof.KPayEdge
import proofs.«404949_j85100482003175_1_alg».proof.Proof.KHost
import proofs.«404949_j85100482003175_1_alg».proof.Proof.BridgeHost
import proofs.«404949_j85100482003175_1_alg».proof.Proof.RefWhole
import proofs.«404949_j85100482003175_1_alg».proof.Proof.RowSpec
import Idealize.ShloMosaic.Lib.ValueIdx

set_option maxRecDepth 16384

noncomputable section

namespace Cert.Bridge

open Idealize.ShloMosaic Idealize.ShloMosaic.TcCoe Idealize.ShloMosaic.ValueIdx Idealize.SL.Sem Cert.RowSpec

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-! ## The launch contents of the arguments the edge stage reads, at their shapes -/

/-- The node features. -/
abbrev A0 : FVec Ideal Cert.KernelIdeal.S50000x64 .f32 :=
  m ((c : Thread Cert.KernelIdeal.nD Cert.KernelIdeal.τ).loc Cert.KernelIdeal.main_arg0)
/-- The edge features. -/
abbrev A1 : Vec Ideal Cert.KernelIdeal.S400000x64 .f32 :=
  m ((c : Thread Cert.KernelIdeal.nD Cert.KernelIdeal.τ).loc Cert.KernelIdeal.main_arg1)
/-- The graph features, one row per graph. -/
abbrev A2 : Vec Ideal Cert.KernelIdeal.S64x16 .f32 :=
  m ((c : Thread Cert.KernelIdeal.nD Cert.KernelIdeal.τ).loc Cert.KernelIdeal.main_arg2)
/-- The edge list: row 0 the source nodes, row 1 the target nodes. -/
abbrev A3 : IVec Cert.KernelIdeal.S2x400000 32 :=
  m ((c : Thread Cert.KernelIdeal.nD Cert.KernelIdeal.τ).loc Cert.KernelIdeal.main_arg3)
/-- The nodes' graph numbers. -/
abbrev A4 : IVec Cert.KernelIdeal.S50000 32 :=
  m ((c : Thread Cert.KernelIdeal.nD Cert.KernelIdeal.τ).loc Cert.KernelIdeal.main_arg4)
/-- The edge perceptron: first-layer matrix and bias, the hidden matrices and biases, the output matrix and bias, the
    normalisation's gain and offset. -/
abbrev A5 : Vec Ideal Cert.KernelIdeal.S208x128 .f32 :=
  m ((c : Thread Cert.KernelIdeal.nD Cert.KernelIdeal.τ).loc Cert.KernelIdeal.main_arg5)
abbrev A6 : Vec Ideal Cert.KernelIdeal.S128 .f32 :=
  m ((c : Thread Cert.KernelIdeal.nD Cert.KernelIdeal.τ).loc Cert.KernelIdeal.main_arg6)
abbrev A7 : Vec Ideal Cert.KernelIdeal.S2x128x128 .f32 :=
  m ((c : Thread Cert.KernelIdeal.nD Cert.KernelIdeal.τ).loc Cert.KernelIdeal.main_arg7)
abbrev A8 : Vec Ideal Cert.KernelIdeal.S2x128 .f32 :=
  m ((c : Thread Cert.KernelIdeal.nD Cert.KernelIdeal.τ).loc Cert.KernelIdeal.main_arg8)
abbrev A9 : Vec Ideal Cert.KernelIdeal.S128x64 .f32 :=
  m ((c : Thread Cert.KernelIdeal.nD Cert.KernelIdeal.τ).loc Cert.KernelIdeal.main_arg9)
abbrev A10 : Vec Ideal Cert.KernelIdeal.S64 .f32 :=
  m ((c : Thread Cert.KernelIdeal.nD Cert.KernelIdeal.τ).loc Cert.KernelIdeal.main_arg10)
abbrev A11 : Vec Ideal Cert.KernelIdeal.S64 .f32 :=
  m ((c : Thread Cert.KernelIdeal.nD Cert.KernelIdeal.τ).loc Cert.KernelIdeal.main_arg11)
abbrev A12 : Vec Ideal Cert.KernelIdeal.S64 .f32 :=
  m ((c : Thread Cert.KernelIdeal.nD Cert.KernelIdeal.τ).loc Cert.KernelIdeal.main_arg12)
/-- The gate perceptron, in the same order. -/
abbrev A13 : Vec Ideal Cert.KernelIdeal.S208x128 .f32 :=
  m ((c : Thread Cert.KernelIdeal.nD Cert.KernelIdeal.τ).loc Cert.KernelIdeal.main_arg13)
abbrev A14 : Vec Ideal Cert.KernelIdeal.S128 .f32 :=
  m ((c : Thread Cert.KernelIdeal.nD Cert.KernelIdeal.τ).loc Cert.KernelIdeal.main_arg14)
abbrev A15 : Vec Ideal Cert.KernelIdeal.S2x128x128 .f32 :=
  m ((c : Thread Cert.KernelIdeal.nD Cert.KernelIdeal.τ).loc Cert.KernelIdeal.main_arg15)
abbrev A16 : Vec Ideal Cert.KernelIdeal.S2x128 .f32 :=
  m ((c : Thread Cert.KernelIdeal.nD Cert.KernelIdeal.τ).loc Cert.KernelIdeal.main_arg16)
abbrev A17 : Vec Ideal Cert.KernelIdeal.S128x64 .f32 :=
  m ((c : Thread Cert.KernelIdeal.nD Cert.KernelIdeal.τ).loc Cert.KernelIdeal.main_arg17)
abbrev A18 : Vec Ideal Cert.KernelIdeal.S64 .f32 :=
  m ((c : Thread Cert.KernelIdeal.nD Cert.KernelIdeal.τ).loc Cert.KernelIdeal.main_arg18)
abbrev A19 : Vec Ideal Cert.KernelIdeal.S64 .f32 :=
  m ((c : Thread Cert.KernelIdeal.nD Cert.KernelIdeal.τ).loc Cert.KernelIdeal.main_arg19)
abbrev A20 : Vec Ideal Cert.KernelIdeal.S64 .f32 :=
  m ((c : Thread Cert.KernelIdeal.nD Cert.KernelIdeal.τ).loc Cert.KernelIdeal.main_arg20)

/-! ## The graph of an edge

Each edge's graph number is the graph number of some node, so where every node's graph number is below 64 so is every
edge's; and a 32-bit word below 64 is the word of its own value. -/

/-- The graph of edge `e`'s source node, as a number below 64. -/
def gsel (hR : ∀ r : Fin 50000, (A4 m c (ix1 r)).toNat < 64) (e : Fin 400000) : Fin 64 :=
  ⟨(Cert.KernelIdeal.HostVal.ebOf (A3 m c) (A4 m c) (ix1 e)).toNat, by
    obtain ⟨r, hr⟩ := Cert.KernelIdeal.Gen.eb_mem (A3 m c) (A4 m c) e
    rw [hr]
    exact hR r⟩

/-- The edge's graph number is the word of `gsel`. -/
theorem gsel_word (hR : ∀ r : Fin 50000, (A4 m c (ix1 r)).toNat < 64) (e : Fin 400000) :
    Cert.KernelIdeal.HostVal.ebOf (A3 m c) (A4 m c) (ix1 e) = BitVec.ofNat 32 (gsel m c hR e).val :=
  BitVec.eq_of_toNat_eq (by
    show _ = (BitVec.ofNat 32 (Cert.KernelIdeal.HostVal.ebOf (A3 m c) (A4 m c) (ix1 e)).toNat).toNat
    rw [BitVec.toNat_ofNat, Nat.mod_eq_of_lt (BitVec.isLt _)])

/-! ## The edge array -/

/-- After the edge stage of the kernel program its output array is the reference's edge array, where every node's
    graph number is below 64: both are, at row `e`, the edge row of the same four pieces and the same parameters. -/
theorem edge_array_eq (hR : ∀ r : Fin 50000, (A4 m c (ix1 r)).toNat < 64) :
    ((Cert.KernelIdeal.Gen.dat0 (F := Ideal) (Cert.KernelIdeal.Gen.V1 m ρ) c).arrAt 21 Cert.KernelIdeal.cfg0.N
        : Cert.KernelIdeal.S400000x64.Idx → EReal)
      = Cert.ReferenceIdeal.Read.val_main_v141 (F := Ideal) (A0 m c) (A1 m c) (A2 m c) (A3 m c) (A4 m c) (A5 m c) (A6 m c)
          (A7 m c) (A8 m c) (A9 m c) (A10 m c) (A11 m c) (A12 m c) (A13 m c) (A14 m c) (A15 m c) (A16 m c) (A17 m c)
          (A18 m c) (A19 m c) (A20 m c) := by
  funext i
  obtain ⟨e, j, rfl⟩ : ∃ (e : Fin 400000) (j : Fin 64), i = ix2 e j := ⟨i 0, i 1, eq_ix2 i⟩
  have hB : ∀ r : Fin 400000, Cert.KernelIdeal.Arr0.aGid (Cert.KernelIdeal.Gen.V1 m ρ) c (ix2 r 0)
      = BitVec.ofNat 32 (gsel m c hR r).val := fun r =>
    (congrFun (Cert.KernelIdeal.Gen.V1_v25 m ρ c) (ix2 r 0)).trans
      ((Cert.KernelIdeal.Gen.eb2d_elt (A3 m c) (A4 m c) r).trans (gsel_word m c hR r))
  have e17 : Cert.KernelIdeal.Arr0.aXs (Cert.KernelIdeal.Gen.V1 m ρ) c
      = Cert.ReferenceIdeal.Read.val_main_v17 (F := Ideal) (A0 m c) (A3 m c) :=
    (Cert.KernelIdeal.Gen.V1_v17 m ρ c).trans (xsrc_eq (A0 m c) (A3 m c))
  have e24 : Cert.KernelIdeal.Arr0.aXt (Cert.KernelIdeal.Gen.V1 m ρ) c
      = Cert.ReferenceIdeal.Read.val_main_v24 (F := Ideal) (A0 m c) (A3 m c) :=
    (Cert.KernelIdeal.Gen.V1_v24 m ρ c).trans (xtgt_eq (A0 m c) (A3 m c))
  have e1 : Cert.KernelIdeal.Arr0.aEa (Cert.KernelIdeal.Gen.V1 m ρ) c = A1 m c := Cert.KernelIdeal.Gen.V1_arg1 m ρ c
  have e2 : Cert.KernelIdeal.Arr0.aU (Cert.KernelIdeal.Gen.V1 m ρ) c = A2 m c := Cert.KernelIdeal.Gen.V1_arg2 m ρ c
  have e5 : Cert.KernelIdeal.Arr0.aWe (Cert.KernelIdeal.Gen.V1 m ρ) c = A5 m c := Cert.KernelIdeal.Gen.V1_arg5 m ρ c
  have e6 : Cert.KernelIdeal.Arr0.aBe (Cert.KernelIdeal.Gen.V1 m ρ) c = A6 m c := Cert.KernelIdeal.Gen.V1_arg6 m ρ c
  have e7 : Cert.KernelIdeal.Arr0.aWhE (Cert.KernelIdeal.Gen.V1 m ρ) c = A7 m c := Cert.KernelIdeal.Gen.V1_arg7 m ρ c
  have e8 : Cert.KernelIdeal.Arr0.aBhE (Cert.KernelIdeal.Gen.V1 m ρ) c = A8 m c := Cert.KernelIdeal.Gen.V1_arg8 m ρ c
  have e9 : Cert.KernelIdeal.Arr0.aWoE (Cert.KernelIdeal.Gen.V1 m ρ) c = A9 m c := Cert.KernelIdeal.Gen.V1_arg9 m ρ c
  have e10 : Cert.KernelIdeal.Arr0.aBoE (Cert.KernelIdeal.Gen.V1 m ρ) c = A10 m c := Cert.KernelIdeal.Gen.V1_arg10 m ρ c
  have e11 : Cert.KernelIdeal.Arr0.aGE (Cert.KernelIdeal.Gen.V1 m ρ) c = A11 m c := Cert.KernelIdeal.Gen.V1_arg11 m ρ c
  have e12 : Cert.KernelIdeal.Arr0.aBE (Cert.KernelIdeal.Gen.V1 m ρ) c = A12 m c := Cert.KernelIdeal.Gen.V1_arg12 m ρ c
  have e13 : Cert.KernelIdeal.Arr0.aWa (Cert.KernelIdeal.Gen.V1 m ρ) c = A13 m c := Cert.KernelIdeal.Gen.V1_arg13 m ρ c
  have e14 : Cert.KernelIdeal.Arr0.aBa (Cert.KernelIdeal.Gen.V1 m ρ) c = A14 m c := Cert.KernelIdeal.Gen.V1_arg14 m ρ c
  have e15 : Cert.KernelIdeal.Arr0.aWhA (Cert.KernelIdeal.Gen.V1 m ρ) c = A15 m c := Cert.KernelIdeal.Gen.V1_arg15 m ρ c
  have e16 : Cert.KernelIdeal.Arr0.aBhA (Cert.KernelIdeal.Gen.V1 m ρ) c = A16 m c := Cert.KernelIdeal.Gen.V1_arg16 m ρ c
  have e17' : Cert.KernelIdeal.Arr0.aWoA (Cert.KernelIdeal.Gen.V1 m ρ) c = A17 m c := Cert.KernelIdeal.Gen.V1_arg17 m ρ c
  have e18 : Cert.KernelIdeal.Arr0.aBoA (Cert.KernelIdeal.Gen.V1 m ρ) c = A18 m c := Cert.KernelIdeal.Gen.V1_arg18 m ρ c
  have e19 : Cert.KernelIdeal.Arr0.aGA (Cert.KernelIdeal.Gen.V1 m ρ) c = A19 m c := Cert.KernelIdeal.Gen.V1_arg19 m ρ c
  have e20 : Cert.KernelIdeal.Arr0.aBA (Cert.KernelIdeal.Gen.V1 m ρ) c = A20 m c := Cert.KernelIdeal.Gen.V1_arg20 m ρ c
  have hg : Cert.ReferenceIdeal.Read.val_main_v10 (F := Ideal) (A3 m c) (A4 m c) (ix1 e)
      = BitVec.ofNat 32 (gsel m c hR e).val :=
    (congrFun (eb_eq (A3 m c) (A4 m c)).symm (ix1 e)).trans (gsel_word m c hR e)
  refine (Cert.KernelIdeal.Arr0.final0 (Cert.KernelIdeal.Gen.V1 m ρ) c (gsel m c hR) hB Cert.KernelIdeal.Pay.edge_block e j).trans ?_
  rw [e17, e24, e1, e2, e5, e6, e7, e8, e9, e10, e11, e12, e13, e14, e15, e16, e17', e18, e19, e20]
  exact (Cert.ReferenceIdeal.Rows.ref_edge (A0 m c) (A1 m c) (A2 m c) (A3 m c) (A4 m c) (A5 m c) (A6 m c) (A7 m c) (A8 m c)
    (A9 m c) (A10 m c) (A11 m c) (A12 m c) (A13 m c) (A14 m c) (A15 m c) (A16 m c) (A17 m c) (A18 m c) (A19 m c) (A20 m c)
    e j (gsel m c hR e) hg).symm

end Cert.Bridge

end
-- ==== Proof.KArr1.lean ====
/-
  The node stage, from blocks to the whole array.

  The stage runs over ten grid points. At point t it takes rows 5000 t … 5000 t + 4999 of the node features, of the
  aggregated edge outputs and of the graph-number column, and the nine parameter arrays whole, and writes rows
  5000 t … 5000 t + 4999 of the output. This file reads that off index by index: row r of the output array is the node
  row of row r of the node features, row r of the aggregates and the feature row of the graph that node r belongs to.

  Three facts carry it. A block's element sits in its array, on each axis, at the block index times the block's size
  plus its own coordinate, so row p of a block at point t is array row 5000 t + p and a whole block is its array.
  The block's payload at row p is the node row of the blocks' rows p (taken as a hypothesis, with the graph number of
  the row read from the column). And row r lies in the block of point r / 5000, so the ten blocks cover the array.
-/
import proofs.«404949_j85100482003175_1_alg».proof.Proof.Gen.KernelIdeal.Frame
import proofs.«404949_j85100482003175_1_alg».proof.Proof.RowSpec
import Idealize.ShloMosaic.Lib.Pipeline.Value
import Idealize.ShloMosaic.Lib.ValueIdx

set_option maxRecDepth 16384

noncomputable section

open scoped BigOperators

namespace Cert.KernelIdeal.Arr1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.RowSpec Idealize.ShloMosaic.ValueIdx
open Cert.KernelIdeal Cert.KernelIdeal.Gen

variable (V : (c : Dev nD) → (b : Ref sig .tc) → Buf (Elt Ideal) ((c : Thread nD τ).loc b))

/-! ## The arrays the node stage reads, each at its literal type -/

/-- The node features, 50000 rows of 64. -/
abbrev aX (c : Dev nD) : Vec Ideal S50000x64 .f32 := V c main_arg0
/-- The aggregated edge outputs, 50000 rows of 64. -/
abbrev aAgg (c : Dev nD) : Vec Ideal S50000x64 .f32 := V c main_v30
/-- The graph number of each node, one column of 50000 integers. -/
abbrev aGid (c : Dev nD) : Vec Ideal S50000x1 .i32 := V c main_v26
/-- The graph features, 64 rows of 16. -/
abbrev aU (c : Dev nD) : Vec Ideal S64x16 .f32 := V c main_arg2
/-- The first layer's matrix, 144 by 128. -/
abbrev aW1 (c : Dev nD) : Vec Ideal S144x128 .f32 := V c main_arg21
/-- The first layer's bias. -/
abbrev aB1 (c : Dev nD) : Vec Ideal S128 .f32 := V c main_arg22
/-- The two hidden matrices. -/
abbrev aWh (c : Dev nD) : Vec Ideal S2x128x128 .f32 := V c main_arg23
/-- The two hidden biases. -/
abbrev aBh (c : Dev nD) : Vec Ideal S2x128 .f32 := V c main_arg24
/-- The output layer's matrix, 128 by 64. -/
abbrev aWo (c : Dev nD) : Vec Ideal S128x64 .f32 := V c main_arg25
/-- The output layer's bias. -/
abbrev aBo (c : Dev nD) : Vec Ideal S64 .f32 := V c main_arg26
/-- The normalisation's scale. -/
abbrev aGam (c : Dev nD) : Vec Ideal S64 .f32 := V c main_arg27
/-- The normalisation's shift. -/
abbrev aBet (c : Dev nD) : Vec Ideal S64 .f32 := V c main_arg28

/-! ## Zero offsets, however they are spelt -/

theorem zero1 : (![0] : Fin 1 → Nat) = fun _ => 0 := funext fun a => by fin_cases a <;> rfl
theorem zero2 : (![0, 0] : Fin 2 → Nat) = fun _ => 0 := funext fun a => by fin_cases a <;> rfl
theorem zero3 : (![0, 0, 0] : Fin 3 → Nat) = fun _ => 0 := funext fun a => by fin_cases a <;> rfl

/-! ## The index maps over the ten grid points -/

/-- The three row-blocked inputs and the output move together: at point `t` each is at row block `t`, column block 0. -/
theorem rows_index : ∀ t : Fin cfg1.N,
    win1_12.index t (0 : Fin 2) = t.val ∧ win1_12.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The nine parameter arrays are staged whole: their block index is 0 on every axis at every point. -/
theorem whole_index : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 3) = 0 ∧ win1_6.index t (1 : Fin 3) = 0 ∧ win1_6.index t (2 : Fin 3) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 1) = 0
    ∧ win1_10.index t (0 : Fin 1) = 0
    ∧ win1_11.index t (0 : Fin 1) = 0 :=
  (by decide +kernel : ∀ t : Fin grid1.N, _)

/-- A grid point is below ten. -/
theorem point_lt (t : Fin cfg1.N) : t.val < 10 := Nat.lt_of_lt_of_eq t.isLt N_1

/-- The array row that row `p` of point `t`'s block is: `5000 t + p`. -/
abbrev arow (t : Fin cfg1.N) (p : Fin 5000) : Fin 50000 := ⟨t.val * 5000 + p.val, by have := point_lt t; omega⟩

/-! ## Each window's block, read off its array

A block's element sits in the array, on each axis, at the block index times the block's size plus its own coordinate. -/

/-- Row `p` of the node-feature block at point `t` is row `5000 t + p` of the array. -/
theorem blkX (c : Dev nD) (t : Fin cfg1.N) (p : Fin 5000) (k : Fin 64) :
    (iblk1 V c 0 t : Vec Ideal S5000x64 .f32) (ix2 p k) = aX V c (ix2 (arow t p) k) := by
  obtain ⟨-, -, x0, x1, a0, a1, g0, g1⟩ := rows_index t
  have hk := k.isLt
  unfold iblk1
  rw [View.read_apply]
  show V c main_arg0 _ = V c main_arg0 _
  congr 1
  funext a
  apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- Row `p` of the aggregate block at point `t` is row `5000 t + p` of the array. -/
theorem blkAgg (c : Dev nD) (t : Fin cfg1.N) (p : Fin 5000) (k : Fin 64) :
    (iblk1 V c 1 t : Vec Ideal S5000x64 .f32) (ix2 p k) = aAgg V c (ix2 (arow t p) k) := by
  obtain ⟨-, -, x0, x1, a0, a1, g0, g1⟩ := rows_index t
  have hk := k.isLt
  unfold iblk1
  rw [View.read_apply]
  show V c main_v30 _ = V c main_v30 _
  congr 1
  funext a
  apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- Row `p` of the graph-number block at point `t` is row `5000 t + p` of the column. -/
theorem blkGid (c : Dev nD) (t : Fin cfg1.N) (p : Fin 5000) (k : Fin 1) :
    (iblk1 V c 2 t : Vec Ideal S5000x1 .i32) (ix2 p k) = aGid V c (ix2 (arow t p) k) := by
  obtain ⟨-, -, x0, x1, a0, a1, g0, g1⟩ := rows_index t
  have hk := k.isLt
  unfold iblk1
  rw [View.read_apply]
  show V c main_v26 _ = V c main_v26 _
  congr 1
  funext a
  apply Fin.ext
  match a with
  | ⟨0, _⟩ => show win1_2.index t (0 : Fin 2) * 5000 + 1 * p.val = t.val * 5000 + p.val; omega
  | ⟨1, _⟩ => show win1_2.index t (1 : Fin 2) * 1 + 1 * k.val = k.val; omega

/-- The graph-feature window's block is the whole table, at every point. -/
theorem blkU (c : Dev nD) (t : Fin cfg1.N) : (iblk1 V c 3 t : Vec Ideal S64x16 .f32) = aU V c := by
  obtain ⟨u0, u1, w0, w1, b0, h0, h1, h2, d0, d1, o0, o1, q0, s0, z0⟩ := whole_index t
  funext y
  unfold iblk1
  rw [View.read_apply]
  show V c main_arg2 _ = V c main_arg2 y
  congr 1
  funext a
  apply Fin.ext
  match a with
  | ⟨0, _⟩ => show win1_3.index t (0 : Fin 2) * 64 + 1 * (y 0).val = (y 0).val; omega
  | ⟨1, _⟩ => show win1_3.index t (1 : Fin 2) * 16 + 1 * (y 1).val = (y 1).val; omega

/-- The first layer's matrix is staged whole. -/
theorem blkW1 (c : Dev nD) (t : Fin cfg1.N) : (iblk1 V c 4 t : Vec Ideal S144x128 .f32) = aW1 V c := by
  obtain ⟨u0, u1, w0, w1, b0, h0, h1, h2, d0, d1, o0, o1, q0, s0, z0⟩ := whole_index t
  funext y
  unfold iblk1
  rw [View.read_apply]
  show V c main_arg21 _ = V c main_arg21 y
  congr 1
  funext a
  apply Fin.ext
  match a with
  | ⟨0, _⟩ => show win1_4.index t (0 : Fin 2) * 144 + 1 * (y 0).val = (y 0).val; omega
  | ⟨1, _⟩ => show win1_4.index t (1 : Fin 2) * 128 + 1 * (y 1).val = (y 1).val; omega

/-- The first layer's bias is staged whole. -/
theorem blkB1 (c : Dev nD) (t : Fin cfg1.N) : (iblk1 V c 5 t : Vec Ideal S128 .f32) = aB1 V c := by
  obtain ⟨u0, u1, w0, w1, b0, h0, h1, h2, d0, d1, o0, o1, q0, s0, z0⟩ := whole_index t
  funext y
  unfold iblk1
  rw [View.read_apply]
  show V c main_arg22 _ = V c main_arg22 y
  congr 1
  funext a
  apply Fin.ext
  match a with
  | ⟨0, _⟩ => show win1_5.index t (0 : Fin 1) * 128 + 1 * (y 0).val = (y 0).val; omega

/-- The hidden matrices are staged whole. -/
theorem blkWh (c : Dev nD) (t : Fin cfg1.N) : (iblk1 V c 6 t : Vec Ideal S2x128x128 .f32) = aWh V c := by
  obtain ⟨u0, u1, w0, w1, b0, h0, h1, h2, d0, d1, o0, o1, q0, s0, z0⟩ := whole_index t
  funext y
  unfold iblk1
  rw [View.read_apply]
  show V c main_arg23 _ = V c main_arg23 y
  congr 1
  funext a
  apply Fin.ext
  match a with
  | ⟨0, _⟩ => show win1_6.index t (0 : Fin 3) * 2 + 1 * (y 0).val = (y 0).val; omega
  | ⟨1, _⟩ => show win1_6.index t (1 : Fin 3) * 128 + 1 * (y 1).val = (y 1).val; omega
  | ⟨2, _⟩ => show win1_6.index t (2 : Fin 3) * 128 + 1 * (y 2).val = (y 2).val; omega

/-- The hidden biases are staged whole. -/
theorem blkBh (c : Dev nD) (t : Fin cfg1.N) : (iblk1 V c 7 t : Vec Ideal S2x128 .f32) = aBh V c := by
  obtain ⟨u0, u1, w0, w1, b0, h0, h1, h2, d0, d1, o0, o1, q0, s0, z0⟩ := whole_index t
  funext y
  unfold iblk1
  rw [View.read_apply]
  show V c main_arg24 _ = V c main_arg24 y
  congr 1
  funext a
  apply Fin.ext
  match a with
  | ⟨0, _⟩ => show win1_7.index t (0 : Fin 2) * 2 + 1 * (y 0).val = (y 0).val; omega
  | ⟨1, _⟩ => show win1_7.index t (1 : Fin 2) * 128 + 1 * (y 1).val = (y 1).val; omega

/-- The output layer's matrix is staged whole. -/
theorem blkWo (c : Dev nD) (t : Fin cfg1.N) : (iblk1 V c 8 t : Vec Ideal S128x64 .f32) = aWo V c := by
  obtain ⟨u0, u1, w0, w1, b0, h0, h1, h2, d0, d1, o0, o1, q0, s0, z0⟩ := whole_index t
  funext y
  unfold iblk1
  rw [View.read_apply]
  show V c main_arg25 _ = V c main_arg25 y
  congr 1
  funext a
  apply Fin.ext
  match a with
  | ⟨0, _⟩ => show win1_8.index t (0 : Fin 2) * 128 + 1 * (y 0).val = (y 0).val; omega
  | ⟨1, _⟩ => show win1_8.index t (1 : Fin 2) * 64 + 1 * (y 1).val = (y 1).val; omega

/-- The output layer's bias is staged whole. -/
theorem blkBo (c : Dev nD) (t : Fin cfg1.N) : (iblk1 V c 9 t : Vec Ideal S64 .f32) = aBo V c := by
  obtain ⟨u0, u1, w0, w1, b0, h0, h1, h2, d0, d1, o0, o1, q0, s0, z0⟩ := whole_index t
  funext y
  unfold iblk1
  rw [View.read_apply]
  show V c main_arg26 _ = V c main_arg26 y
  congr 1
  funext a
  apply Fin.ext
  match a with
  | ⟨0, _⟩ => show win1_9.index t (0 : Fin 1) * 64 + 1 * (y 0).val = (y 0).val; omega

/-- The normalisation's scale is staged whole. -/
theorem blkGam (c : Dev nD) (t : Fin cfg1.N) : (iblk1 V c 10 t : Vec Ideal S64 .f32) = aGam V c := by
  obtain ⟨u0, u1, w0, w1, b0, h0, h1, h2, d0, d1, o0, o1, q0, s0, z0⟩ := whole_index t
  funext y
  unfold iblk1
  rw [View.read_apply]
  show V c main_arg27 _ = V c main_arg27 y
  congr 1
  funext a
  apply Fin.ext
  match a with
  | ⟨0, _⟩ => show win1_10.index t (0 : Fin 1) * 64 + 1 * (y 0).val = (y 0).val; omega

/-- The normalisation's shift is staged whole. -/
theorem blkBet (c : Dev nD) (t : Fin cfg1.N) : (iblk1 V c 11 t : Vec Ideal S64 .f32) = aBet V c := by
  obtain ⟨u0, u1, w0, w1, b0, h0, h1, h2, d0, d1, o0, o1, q0, s0, z0⟩ := whole_index t
  funext y
  unfold iblk1
  rw [View.read_apply]
  show V c main_arg28 _ = V c main_arg28 y
  congr 1
  funext a
  apply Fin.ext
  match a with
  | ⟨0, _⟩ => show win1_11.index t (0 : Fin 1) * 64 + 1 * (y 0).val = (y 0).val; omega

/-! ## The array the node stage leaves -/

/-- Row `r` of the output: the node perceptron of the node's own row, its aggregate row and the feature row of the
    graph `gsel r` the node belongs to. -/
def nodeOut (c : Dev nD) (gsel : Fin 50000 → Fin 64) : Vec Ideal S50000x64 .f32 := fun i =>
  nodeRow (row (aX V c) (i 0)) (row (aAgg V c) (i 0)) (row (aU V c) (gsel (i 0))) (mat (aW1 V c)) (vec (aB1 V c))
    (mats (aWh V c)) (row (aBh V c)) (mat (aWo V c)) (vec (aBo V c)) (vec (aGam V c)) (vec (aBet V c)) (i 1)

/-- Rows of the two row-blocked feature blocks, as rows of their arrays. -/
theorem rowX (c : Dev nD) (t : Fin cfg1.N) (p : Fin 5000) :
    row (iblk1 V c 0 t : Vec Ideal S5000x64 .f32) p = row (aX V c) (arow t p) := funext fun k => blkX V c t p k
theorem rowAgg (c : Dev nD) (t : Fin cfg1.N) (p : Fin 5000) :
    row (iblk1 V c 1 t : Vec Ideal S5000x64 .f32) p = row (aAgg V c) (arow t p) := funext fun k => blkAgg V c t p k

/-- An element of the output block at point `t` sits in the array at row `5000 t + p`, same column. -/
theorem out_emb (t : Fin cfg1.N) (p : Fin 5000) (j : Fin 64) :
    ((cfg1.win 12).blk t).view.emb (ix2 p j) = (ix2 (arow t p) j : S50000x64.Idx) := by
  obtain ⟨o0, o1, -⟩ := rows_index t
  funext a
  apply Fin.ext
  match a with
  | ⟨0, _⟩ => show win1_12.index t (0 : Fin 2) * 5000 + 1 * p.val = t.val * 5000 + p.val; omega
  | ⟨1, _⟩ => show win1_12.index t (1 : Fin 2) * 64 + 1 * j.val = j.val; omega

/-! ## What a point writes back -/

set_option maxHeartbeats 400000 in
/-- What point `t` writes back is block `t` of `nodeOut`: the block's payload at row `p` is the node row of the
    blocks' rows `p` (`hblock`, with the graph number of array row `5000 t + p` read by `hB`), and each block's row
    `p` is its array's row `5000 t + p`, each parameter block its whole array. -/
theorem flushed_eq (c : Dev nD) (gsel : Fin 50000 → Fin 64)
    (hB : ∀ r : Fin 50000, aGid V c (ix2 r 0) = BitVec.ofNat 32 (gsel r).val)
    (hblock : ∀ (x0 x1 : Vec Ideal S5000x64 .f32) (x2 : Vec Ideal S5000x1 .i32) (x3 : Vec Ideal S64x16 .f32)
      (x4 : Vec Ideal S144x128 .f32) (x5 : Vec Ideal S128 .f32) (x6 : Vec Ideal S2x128x128 .f32) (x7 : Vec Ideal S2x128 .f32)
      (x8 : Vec Ideal S128x64 .f32) (x9 x10 x11 : Vec Ideal S64 .f32) (p : Fin 5000) (j : Fin 64) (g0 : Fin 64)
      (_ : x2 (ix2 p 0) = BitVec.ofNat 32 g0.val),
      k1_pay1 (F := Ideal) x10 x11 (k1_pay5 (k1_pay2 x0 x1 x2 x3 x4 x5) x6 x7 x8 x9)
          (k1_pay6 (k1_pay2 x0 x1 x2 x3 x4 x5) x6 x7 x8 x9) (k1_pay7 (F := Ideal)) (ix2 p j)
        = nodeRow (row x0 p) (row x1 p) (row x3 g0) (mat x4) (vec x5) (mats x6) (row x7) (mat x8) (vec x9) (vec x10)
            (vec x11) j)
    (t : Fin cfg1.N) :
    (dat1 (F := Ideal) V c).flushed 12 t = ((cfg1.win 12).blk t).view.read (Elt Ideal) (nodeOut V c gsel) := by
  show (cfg1.win 12).cut (grid1.coords t) ((dat1 (F := Ideal) V c).after 12 t) = _
  rw [after1_12]
  unfold out1_12
  rw [View.canon_unit_zero zero2]
  simp only [View.ld_unit_zero (S := S5000x64) zero2, View.ld_unit_zero (S := S5000x1) zero2,
    View.ld_unit_zero (S := S64x16) zero2, View.ld_unit_zero (S := S144x128) zero2, View.ld_unit_zero (S := S128) zero1,
    View.ld_unit_zero (S := S2x128x128) zero3, View.ld_unit_zero (S := S2x128) zero2, View.ld_unit_zero (S := S128x64) zero2,
    View.ld_unit_zero (S := S64) zero1]
  funext y
  obtain ⟨p, j, rfl⟩ : ∃ (p : Fin 5000) (j : Fin 64), y = ix2 p j := ⟨y 0, y 1, eq_ix2 y⟩
  have hg : (iblk1 V c 2 t : Vec Ideal S5000x1 .i32) (ix2 p 0) = BitVec.ofNat 32 (gsel (arow t p)).val :=
    (blkGid V c t p 0).trans (hB (arow t p))
  refine (hblock (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) p j
    (gsel (arow t p)) hg).trans ?_
  rw [View.read_apply, out_emb]
  show _ = nodeRow (row (aX V c) (arow t p)) (row (aAgg V c) (arow t p)) (row (aU V c) (gsel (arow t p))) (mat (aW1 V c))
    (vec (aB1 V c)) (mats (aWh V c)) (row (aBh V c)) (mat (aWo V c)) (vec (aBo V c)) (vec (aGam V c)) (vec (aBet V c)) j
  rw [rowX, rowAgg, blkU, blkW1, blkB1, blkWh, blkBh, blkWo, blkBo, blkGam, blkBet]

/-! ## The ten blocks cover the array -/

/-- An index of the array is in point `t`'s block iff each coordinate is in the block's range on its axis. -/
theorem mem_blk (t : Fin cfg1.N) (i : S50000x64.Idx) :
    i ∈ ((cfg1.win 12).blk t).view.set ↔ ∀ a : Fin 2, win1_12.index t a * S5000x64.size a ≤ (i a).val
      ∧ (i a).val < win1_12.index t a * S5000x64.size a + S5000x64.size a := by
  show i ∈ ((View.whole main_v31).slice (win1_12.rect t)).set ↔ _
  rw [View.set_slice_whole, Rect.mem_set_unit]
  exact Iff.rfl

/-- Row `r` of the array is in the block of point `r / 5000`, which writes back. -/
theorem covered (i : S50000x64.Idx) :
    ∃ t : Fin cfg1.N, (cfg1.win 12).flush t = true ∧ i ∈ ((cfg1.win 12).blk t).view.set := by
  have hi0 : (i 0).val < 50000 := idx2_lt0 i
  have hi1 : (i 1).val < 64 := idx2_lt1 i
  have hq : (i 0).val / 5000 < cfg1.N := Nat.lt_of_lt_of_eq (by omega : (i 0).val / 5000 < 10) N_1.symm
  obtain ⟨o0, o1, -⟩ := rows_index ⟨(i 0).val / 5000, hq⟩
  have ht : (⟨(i 0).val / 5000, hq⟩ : Fin cfg1.N).val = (i 0).val / 5000 := rfl
  refine ⟨⟨(i 0).val / 5000, hq⟩, flush1_12 _, ?_⟩
  rw [mem_blk]
  intro a
  match a with
  | ⟨0, _⟩ =>
    show win1_12.index ⟨(i 0).val / 5000, hq⟩ (0 : Fin 2) * 5000 ≤ (i 0).val
      ∧ (i 0).val < win1_12.index ⟨(i 0).val / 5000, hq⟩ (0 : Fin 2) * 5000 + 5000
    omega
  | ⟨1, _⟩ =>
    show win1_12.index ⟨(i 0).val / 5000, hq⟩ (1 : Fin 2) * 64 ≤ (i 1).val
      ∧ (i 1).val < win1_12.index ⟨(i 0).val / 5000, hq⟩ (1 : Fin 2) * 64 + 64
    omega

/-! ## The output array after the region -/

/-- After the region the output array is `nodeOut`: every point writes back its block of it, and the blocks cover. -/
theorem arr_eq (c : Dev nD) (gsel : Fin 50000 → Fin 64)
    (hB : ∀ r : Fin 50000, aGid V c (ix2 r 0) = BitVec.ofNat 32 (gsel r).val)
    (hblock : ∀ (x0 x1 : Vec Ideal S5000x64 .f32) (x2 : Vec Ideal S5000x1 .i32) (x3 : Vec Ideal S64x16 .f32)
      (x4 : Vec Ideal S144x128 .f32) (x5 : Vec Ideal S128 .f32) (x6 : Vec Ideal S2x128x128 .f32) (x7 : Vec Ideal S2x128 .f32)
      (x8 : Vec Ideal S128x64 .f32) (x9 x10 x11 : Vec Ideal S64 .f32) (p : Fin 5000) (j : Fin 64) (g0 : Fin 64)
      (_ : x2 (ix2 p 0) = BitVec.ofNat 32 g0.val),
      k1_pay1 (F := Ideal) x10 x11 (k1_pay5 (k1_pay2 x0 x1 x2 x3 x4 x5) x6 x7 x8 x9)
          (k1_pay6 (k1_pay2 x0 x1 x2 x3 x4 x5) x6 x7 x8 x9) (k1_pay7 (F := Ideal)) (ix2 p j)
        = nodeRow (row x0 p) (row x1 p) (row x3 g0) (mat x4) (vec x5) (mats x6) (row x7) (mat x8) (vec x9) (vec x10)
            (vec x11) j) :
    (dat1 (F := Ideal) V c).arrAt 12 cfg1.N = nodeOut V c gsel :=
  (dat1 (F := Ideal) V c).arrAt_eq_of_cover 12 (nodeOut V c gsel) (fun t _ => flushed_eq V c gsel hB hblock t) covered

/-- Index by index: row `r` of the output array is the node row of row `r` of the node features, row `r` of the
    aggregates and the feature row of the node's graph, through the node perceptron's parameter arrays. -/
theorem final1 (c : Dev nD) (gsel : Fin 50000 → Fin 64)
    (hB : ∀ r : Fin 50000, aGid V c (ix2 r 0) = BitVec.ofNat 32 (gsel r).val)
    (hblock : ∀ (x0 x1 : Vec Ideal S5000x64 .f32) (x2 : Vec Ideal S5000x1 .i32) (x3 : Vec Ideal S64x16 .f32)
      (x4 : Vec Ideal S144x128 .f32) (x5 : Vec Ideal S128 .f32) (x6 : Vec Ideal S2x128x128 .f32) (x7 : Vec Ideal S2x128 .f32)
      (x8 : Vec Ideal S128x64 .f32) (x9 x10 x11 : Vec Ideal S64 .f32) (p : Fin 5000) (j : Fin 64) (g0 : Fin 64)
      (_ : x2 (ix2 p 0) = BitVec.ofNat 32 g0.val),
      k1_pay1 (F := Ideal) x10 x11 (k1_pay5 (k1_pay2 x0 x1 x2 x3 x4 x5) x6 x7 x8 x9)
          (k1_pay6 (k1_pay2 x0 x1 x2 x3 x4 x5) x6 x7 x8 x9) (k1_pay7 (F := Ideal)) (ix2 p j)
        = nodeRow (row x0 p) (row x1 p) (row x3 g0) (mat x4) (vec x5) (mats x6) (row x7) (mat x8) (vec x9) (vec x10)
            (vec x11) j)
    (r : Fin 50000) (j : Fin 64) :
    (dat1 (F := Ideal) V c).arrAt 12 cfg1.N (ix2 r j)
      = nodeRow (row (aX V c) r) (row (aAgg V c) r) (row (aU V c) (gsel r)) (mat (aW1 V c)) (vec (aB1 V c))
          (mats (aWh V c)) (row (aBh V c)) (mat (aWo V c)) (vec (aBo V c)) (vec (aGam V c)) (vec (aBet V c)) j := by
  rw [arr_eq V c gsel hB hblock]
  rfl

end Cert.KernelIdeal.Arr1

end
-- ==== Proof.BridgeNode.lean ====
/-
  The kernel program's result array is the reference's.

  The node stage writes, in row r of its output, the node perceptron of three rows: row r of the node features,
  row r of the aggregated edge outputs, and the feature row of the graph node r belongs to (its graph-number word,
  which is below 64). The reference's row r is the same map of the same three rows of its own arrays. The node
  features, the graph features and the perceptron's parameters are the launch arrays on both sides. The aggregate
  is the same on both sides because the edge stage's output array is the array of the reference's edge rows, and
  both programs add those rows into the rows of the edges' target nodes, starting from zero.
-/
import proofs.«404949_j85100482003175_1_alg».proof.Proof.BridgeEdge
import proofs.«404949_j85100482003175_1_alg».proof.Proof.BridgeHost
import proofs.«404949_j85100482003175_1_alg».proof.Proof.KArr1
import proofs.«404949_j85100482003175_1_alg».proof.Proof.KPayNode
import proofs.«404949_j85100482003175_1_alg».proof.Proof.KHost
import proofs.«404949_j85100482003175_1_alg».proof.Proof.RefWhole

set_option maxRecDepth 16384

noncomputable section

namespace Cert.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (m : (ℓ : Loc nD τ sig) → Buf (Elt Ideal) ℓ) (ρ : Dev nD → PrngReg) (c : Dev nD)

/-- The graph a node belongs to, read off the node's graph-number word when every such word is below 64. -/
def graphOf (a4 : IVec S50000 32) (h : ∀ r : Fin 50000, (a4 (ix1 r)).toNat < 64) (r : Fin 50000) : Fin 64 :=
  ⟨(a4 (ix1 r)).toNat, h r⟩

/-- A word is the 32-bit word of its own value. -/
theorem graphOf_word (a4 : IVec S50000 32) (h : ∀ r : Fin 50000, (a4 (ix1 r)).toNat < 64) (r : Fin 50000) :
    a4 (ix1 r) = BitVec.ofNat 32 (graphOf a4 h r).val := by
  show a4 (ix1 r) = BitVec.ofNat 32 (a4 (ix1 r)).toNat
  rw [BitVec.ofNat_toNat, BitVec.setWidth_eq]

set_option maxHeartbeats 1000000 in
/-- The array the kernel program leaves is the reference's result. Row r of what the node stage writes is the node
    perceptron of row r of the node features, row r of the aggregate and the feature row of node r's graph; the
    reference's row r is the same map of the same three rows; and the aggregate the node stage reads is the
    reference's, because the edge stage's array is the reference's edge rows and both programs add them into the
    target nodes' rows in the same way. -/
theorem result_eq (hR : ∀ r : Fin 50000, ((m ((c : Thread nD τ).loc main_arg4) : IVec S50000 32) (ix1 r)).toNat < 64) :
    (W4 (F := Ideal) m ρ c (Proc.devRef .tc main_v31) : S50000x64.Idx → EReal)
      = Cert.ReferenceIdeal.Read.val_main_v203 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (m ((c : Thread nD τ).loc main_arg20))
          (m ((c : Thread nD τ).loc main_arg21)) (m ((c : Thread nD τ).loc main_arg22)) (m ((c : Thread nD τ).loc main_arg23))
          (m ((c : Thread nD τ).loc main_arg24)) (m ((c : Thread nD τ).loc main_arg25)) (m ((c : Thread nD τ).loc main_arg26))
          (m ((c : Thread nD τ).loc main_arg27)) (m ((c : Thread nD τ).loc main_arg28)) := by
  refine (W4_arr m ρ c 12).trans ?_
  funext i
  obtain ⟨r, j, rfl⟩ : ∃ (r : Fin 50000) (j : Fin 64), i = ix2 r j := ⟨i 0, i 1, eq_ix2 i⟩
  have hw := graphOf_word (m ((c : Thread nD τ).loc main_arg4)) hR
  have hB : ∀ r : Fin 50000, Arr1.aGid (V3 m ρ) c (ix2 r 0)
      = BitVec.ofNat 32 (graphOf (m ((c : Thread nD τ).loc main_arg4)) hR r).val := fun r => by
    show (W3 m ρ c (Proc.devRef .tc main_v26) : IVec S50000x1 32) (ix2 r 0) = _
    rw [V3_v26, b2d_elt]
    exact hw r
  have e0 : Arr1.aX (V3 m ρ) c = m ((c : Thread nD τ).loc main_arg0) := V3_arg0 m ρ c
  have e2 : Arr1.aU (V3 m ρ) c = m ((c : Thread nD τ).loc main_arg2) := V3_arg2 m ρ c
  have e21 : Arr1.aW1 (V3 m ρ) c = m ((c : Thread nD τ).loc main_arg21) := V3_arg21 m ρ c
  have e22 : Arr1.aB1 (V3 m ρ) c = m ((c : Thread nD τ).loc main_arg22) := V3_arg22 m ρ c
  have e23 : Arr1.aWh (V3 m ρ) c = m ((c : Thread nD τ).loc main_arg23) := V3_arg23 m ρ c
  have e24 : Arr1.aBh (V3 m ρ) c = m ((c : Thread nD τ).loc main_arg24) := V3_arg24 m ρ c
  have e25 : Arr1.aWo (V3 m ρ) c = m ((c : Thread nD τ).loc main_arg25) := V3_arg25 m ρ c
  have e26 : Arr1.aBo (V3 m ρ) c = m ((c : Thread nD τ).loc main_arg26) := V3_arg26 m ρ c
  have e27 : Arr1.aGam (V3 m ρ) c = m ((c : Thread nD τ).loc main_arg27) := V3_arg27 m ρ c
  have e28 : Arr1.aBet (V3 m ρ) c = m ((c : Thread nD τ).loc main_arg28) := V3_arg28 m ρ c
  have eAgg : Arr1.aAgg (V3 m ρ) c
      = Cert.ReferenceIdeal.Read.val_main_v144 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) (m ((c : Thread nD τ).loc main_arg19)) (m ((c : Thread nD τ).loc main_arg20)) := by
    refine (V3_v30 m ρ c).trans ?_
    rw [edge_array_eq m ρ c hR]
    exact (agg_eq
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))).symm
  rw [Arr1.final1 (V3 m ρ) c (graphOf (m ((c : Thread nD τ).loc main_arg4)) hR) hB Pay.node_block r j,
    Cert.ReferenceIdeal.Rows.ref_node
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)) (m ((c : Thread nD τ).loc main_arg17))
      (m ((c : Thread nD τ).loc main_arg18)) (m ((c : Thread nD τ).loc main_arg19)) (m ((c : Thread nD τ).loc main_arg20))
      (m ((c : Thread nD τ).loc main_arg21)) (m ((c : Thread nD τ).loc main_arg22)) (m ((c : Thread nD τ).loc main_arg23))
      (m ((c : Thread nD τ).loc main_arg24)) (m ((c : Thread nD τ).loc main_arg25)) (m ((c : Thread nD τ).loc main_arg26))
      (m ((c : Thread nD τ).loc main_arg27)) (m ((c : Thread nD τ).loc main_arg28))
      r j (graphOf (m ((c : Thread nD τ).loc main_arg4)) hR r) (hw r),
    e0, e2, e21, e22, e23, e24, e25, e26, e27, e28, eAgg]

end Cert.Bridge

end
-- ==== Proof.lean ====
/-
  The graph layer computed by two fused kernels is the plain reference, over the extended reals.

  The layer: for every edge e, a row made of the source node's features x[src e], the target node's features
  x[tgt e], the edge's own features and the features u[batch[src e]] of the source node's graph goes through two
  perceptrons (an affine first layer, two hidden layers and an output layer each entered through a maximum with zero,
  then a normalisation of the row by its own mean and variance); the edge's output is the first perceptron's row times
  the logistic function of the second's. The outputs of the edges pointing at a node are summed into that node; the
  node's features, that sum and the features u[batch[node]] of its graph go through a third perceptron.

  The kernel program does the edge part and the node part in one region each, 5000 rows at a time, and the gathers
  x[src], x[tgt], batch[src] and the sum over incoming edges on the host, with the very operations the reference uses.
  Two things differ in form. The kernel never concatenates a row: its first layer adds the bias and one product per
  piece, against the matching rows of the first matrix — the same sum, regrouped. And the kernel reads a graph's row of
  u by contracting a row that is 1 at the graph's number and 0 elsewhere against u, where the reference gathers it: the
  same row when the number is one of u's 64 rows (on the extended reals 0 · x = 0 for every x), and a zero row where
  the reference would read a wrapped or clamped row — which is why the statement asks 0 ≤ batch < 64 of the graph
  numbers. Everything else — the hidden layers, the normalisation with the shared words for 64 and for ε, the logistic
  function, the sum over incoming edges — is one and the same row map on both sides, and a change of float format is the
  identity here.

  The modules: RowSpec (the row maps and the two laws), KPayNode / KPayEdge (the kernels' bodies at a row), KArr0 / KArr1
  (from the blocks a region writes to its whole output array), KHost (what each region finds in its arrays), KRun (the
  kernel program's run with its result named), RefRead (the reference's stages), RefRun… (the reference's run, piece by
  piece, ending at the last stage), RefRowsE / RefRowsA / RefRowsN / RefFirst / RefWhole (the reference's stages at a row), BridgeHost / BridgeEdge / BridgeNode (the two programs' arrays are equal), PreRange (the range of
  the graph numbers). No law used needs the inputs finite: only the range of batch is taken from the precondition.
-/
import proofs.«404949_j85100482003175_1_alg».proof.Defs
import proofs.«404949_j85100482003175_1_alg».proof.Proof.Gen.Kernel
import proofs.«404949_j85100482003175_1_alg».proof.Proof.Gen.Kernel.Skeleton
import proofs.«404949_j85100482003175_1_alg».proof.Proof.Gen.Kernel.Launch
import proofs.«404949_j85100482003175_1_alg».proof.Proof.Gen.Kernel.Points
import proofs.«404949_j85100482003175_1_alg».proof.Proof.Gen.Kernel.Frame
import proofs.«404949_j85100482003175_1_alg».proof.Proof.Gen.KernelIdeal
import proofs.«404949_j85100482003175_1_alg».proof.Proof.Gen.KernelIdeal.Skeleton
import proofs.«404949_j85100482003175_1_alg».proof.Proof.Gen.KernelIdeal.Launch
import proofs.«404949_j85100482003175_1_alg».proof.Proof.Gen.KernelIdeal.Points
import proofs.«404949_j85100482003175_1_alg».proof.Proof.Gen.KernelIdeal.Frame
import proofs.«404949_j85100482003175_1_alg».proof.Proof.Gen.ReferenceIdeal
import proofs.«404949_j85100482003175_1_alg».proof.Proof.Gen.Pre_finite_inputs
import proofs.«404949_j85100482003175_1_alg».proof.Proof.RefRunHand
import proofs.«404949_j85100482003175_1_alg».proof.Proof.KRun
import proofs.«404949_j85100482003175_1_alg».proof.Proof.PreRange
import proofs.«404949_j85100482003175_1_alg».proof.Proof.BridgeNode
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.HandRun.run_hand (F := Ideal) m ρ)

/-- The idealization rewrote nothing. -/
theorem preserves : Cert.preserves_Kernel_KernelIdeal := trivial

/-- Run from memories that agree on the arguments, with every graph number in [0, 64), the two idealized programs end
    with one result array: the kernel program's last boundary contents of its result, which the reference's composed
    term equals index by index. -/
theorem algebraic : Cert.algebraic_KernelIdeal_ReferenceIdeal := by
  intro m ρ m' ρ' hpre hagree
  have hR : ∀ (c : Dev Cert.KernelIdeal.nD) (r : Fin 50000),
      ((m ((c.tc : Thread Cert.KernelIdeal.nD Cert.KernelIdeal.τ).loc Cert.KernelIdeal.main_arg4) : IVec Cert.KernelIdeal.S50000 32)
        (ValueIdx.ix1 r)).toNat < 64 :=
    fun c r => Cert.PreRange.batch_lt _ _ _ _ _ _ _ _ _ _ _ _ _ _ _ _ _ _ _ _ _ _ _ _ _ _ _ _ _ (hpre c) r
  refine ⟨fun c => Cert.KernelIdeal.Gen.W4 (F := Ideal) m ρ c (Proc.devRef .tc Cert.KernelIdeal.main_v31),
    Cert.KernelIdeal.Gen.run (F := Ideal) m ρ, ?_⟩
  refine (θ_run Cert.ReferenceIdeal.defs _ _).mono (fun _ h c => ⟨(h c).1.trans ?_, (h c).2⟩)
    (Cert.ReferenceIdeal.HandRun.run_hand (F := Ideal) m' ρ')
  obtain ⟨h0, h1, h2, h3, h4, h5, h6, h7, h8, h9, h10, h11, h12, h13, h14, h15, h16, h17, h18, h19, h20, h21, h22, h23, h24, h25, h26, h27, h28⟩ := hagree c
  rw [h0, h1, h2, h3, h4, h5, h6, h7, h8, h9, h10, h11, h12, h13, h14, h15, h16, h17, h18, h19, h20, h21, h22, h23, h24, h25, h26, h27, h28]
  exact (Cert.Bridge.result_eq m ρ c (hR c)).symm

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
